-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1280 : Shape := ⟨2, ![20000, 1280]⟩
abbrev S2x320000 : Shape := ⟨2, ![2, 320000]⟩
abbrev S320000x1 : Shape := ⟨2, ![320000, 1]⟩
abbrev S20000 : Shape := ⟨1, ![20000]⟩
abbrev S16x1280 : Shape := ⟨2, ![16, 1280]⟩
abbrev S1280x256 : Shape := ⟨2, ![1280, 256]⟩
abbrev S256 : Shape := ⟨1, ![256]⟩
abbrev S256x256 : Shape := ⟨2, ![256, 256]⟩
abbrev S256x500 : Shape := ⟨2, ![256, 500]⟩
abbrev S500 : Shape := ⟨1, ![500]⟩
abbrev S_ : Shape := ⟨0, ![]⟩

class Facts : Prop where
  bcast_S_S20000x1280 : S_.BroadcastsInDim S20000x1280 (![] : Fin 0 → Fin S20000x1280.rank)
  reducesTo_S20000x1280_S_d0_1 : S20000x1280.ReducesTo [0, 1] S_
  h_S_ : 0 < S_.numel
  bcast_S_S320000x1 : S_.BroadcastsInDim S320000x1 (![] : Fin 0 → Fin S320000x1.rank)
  reducesTo_S320000x1_S_d0_1 : S320000x1.ReducesTo [0, 1] S_
  bcast_S_S16x1280 : S_.BroadcastsInDim S16x1280 (![] : Fin 0 → Fin S16x1280.rank)
  reducesTo_S16x1280_S_d0_1 : S16x1280.ReducesTo [0, 1] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x500 : S_.BroadcastsInDim S256x500 (![] : Fin 0 → Fin S256x500.rank)
  reducesTo_S256x500_S_d0_1 : S256x500.ReducesTo [0, 1] S_
  bcast_S_S500 : S_.BroadcastsInDim S500 (![] : Fin 0 → Fin S500.rank)
  reducesTo_S500_S_d0 : S500.ReducesTo [0] S_

variable [Facts]

def fn_part5 {F : FTy → Type} [FloatOps F] (main_arg20 : FVec F S500 .f32) (main_v83 : IVec S_ 1) (main_v84 : FVec F S256x500 .f32) (main_cst_32 : FVec F S_ .f32) : IVec S_ 1 :=
  let main_v85 : FVec F S256x500 .f32 := broadcastInDim S256x500 ![] bcast_S_S256x500 main_cst_32
  let main_v86 : IVec S256x500 1 := cmpf .olt main_v84 main_v85
  let main_c_33 : IVec S_ 1 := constantI S_ 1 1#1
  let main_v87 : IVec S_ 1 := (fun x v => Host.reduce IntOp.andi x v reducesTo_S256x500_S_d0_1 h_S_) main_v86 main_c_33
  let main_v88 : IVec S_ 1 := andi main_v83 main_v87
  let main_v89 : FVec F S500 .f32 := Host.absf main_arg20
  let main_cst_34 : FVec F S_ .f32 := constant S_ .f32 0x7F800000#32
  let main_v90 : FVec F S500 .f32 := broadcastInDim S500 ![] bcast_S_S500 main_cst_34
  let main_v91 : IVec S500 1 := cmpf .olt main_v89 main_v90
  let main_c_35 : IVec S_ 1 := constantI S_ 1 1#1
  let main_v92 : IVec S_ 1 := (fun x v => Host.reduce IntOp.andi x v reducesTo_S500_S_d0 h_S_) main_v91 main_c_35
  let main_v93 : IVec S_ 1 := andi main_v88 main_v92
  main_v93

def fn_part4 {F : FTy → Type} [FloatOps F] (main_arg16 : FVec F S256 .f32) (main_arg17 : FVec F S1280x256 .f32) (main_arg18 : FVec F S256 .f32) (main_arg19 : FVec F S256x500 .f32) (main_arg20 : FVec F S500 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S1280x256 .f32 := Host.absf main_arg17
  let main_cst_28 : FVec F S_ .f32 := constant S_ .f32 0x7F800000#32
  let main_v75 : FVec F S1280x256 .f32 := broadcastInDim S1280x256 ![] bcast_S_S1280x256 main_cst_28
  let main_v76 : IVec S1280x256 1 := cmpf .olt main_v74 main_v75
  let main_c_29 : IVec S_ 1 := constantI S_ 1 1#1
  let main_v77 : IVec S_ 1 := (fun x v => Host.reduce IntOp.andi x v reducesTo_S1280x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x500 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S256x256 .f32) (main_arg14 : FVec F S256 .f32) (main_arg15 : FVec F S256 .f32) (main_arg16 : FVec F S256 .f32) (main_arg17 : FVec F S1280x256 .f32) (main_arg18 : FVec F S256 .f32) (main_arg19 : FVec F S256x500 .f32) (main_arg20 : FVec F S500 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_v63 main_v67

def fn_part2 {F : FTy → Type} [FloatOps F] (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S1280x256 .f32) (main_arg18 : FVec F S256 .f32) (main_arg19 : FVec F S256x500 .f32) (main_arg20 : FVec F S500 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_v48 main_v49 main_v50

def fn_part1 {F : FTy → Type} [FloatOps F] (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S1280x256 .f32) (main_arg18 : FVec F S256 .f32) (main_arg19 : FVec F S256x500 .f32) (main_arg20 : FVec F S500 .f32) (main_v13 : IVec S_ 1) (main_v16 : IVec S1280x256 1) : IVec S_ 1 :=
  let main_c_5 : IVec S_ 1 := constantI S_ 1 1#1
  let main_v17 : IVec S_ 1 := (fun x v => Host.reduce IntOp.andi x v reducesTo_S1280x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S20000x1280 .f32) (main_arg1 : IVec S2x320000 32) (main_arg2 : FVec F S320000x1 .f32) (main_arg3 : IVec S20000 32) (main_arg4 : FVec F S16x1280 .f32) (main_arg5 : FVec F S1280x256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S1280x256 .f32) (main_arg18 : FVec F S256 .f32) (main_arg19 : FVec F S256x500 .f32) (main_arg20 : FVec F S500 .f32) : IVec S_ 1 :=
  let main_v0 : FVec F S20000x1280 .f32 := Host.absf main_arg0
  let main_cst : FVec F S_ .f32 := constant S_ .f32 0x7F800000#32
  let main_v1 : FVec F S20000x1280 .f32 := broadcastInDim S20000x1280 ![] bcast_S_S20000x1280 main_cst
  let main_v2 : IVec S20000x1280 1 := cmpf .olt main_v0 main_v1
  let main_c : IVec S_ 1 := constantI S_ 1 1#1
  let main_v3 : IVec S_ 1 := (fun x v => Host.reduce IntOp.andi x v reducesTo_S20000x1280_S_d0_1 h_S_) main_v2 main_c
  let main_v4 : FVec F S320000x1 .f32 := Host.absf main_arg2
  let main_cst_0 : FVec F S_ .f32 := constant S_ .f32 0x7F800000#32
  let main_v5 : FVec F S320000x1 .f32 := broadcastInDim S320000x1 ![] bcast_S_S320000x1 main_cst_0
  let main_v6 : IVec S320000x1 1 := cmpf .olt main_v4 main_v5
  let main_c_1 : IVec S_ 1 := constantI S_ 1 1#1
  let main_v7 : IVec S_ 1 := (fun x v => Host.reduce IntOp.andi x v reducesTo_S320000x1_S_d0_1 h_S_) main_v6 main_c_1
  let main_v8 : IVec S_ 1 := andi main_v3 main_v7
  let main_v9 : FVec F S16x1280 .f32 := Host.absf main_arg4
  let main_cst_2 : FVec F S_ .f32 := constant S_ .f32 0x7F800000#32
  let main_v10 : FVec F S16x1280 .f32 := broadcastInDim S16x1280 ![] bcast_S_S16x1280 main_cst_2
  let main_v11 : IVec S16x1280 1 := cmpf .olt main_v9 main_v10
  let main_c_3 : IVec S_ 1 := constantI S_ 1 1#1
  let main_v12 : IVec S_ 1 := (fun x v => Host.reduce IntOp.andi x v reducesTo_S16x1280_S_d0_1 h_S_) main_v11 main_c_3
  let main_v13 : IVec S_ 1 := andi main_v8 main_v12
  let main_v14 : FVec F S1280x256 .f32 := Host.absf main_arg5
  let main_cst_4 : FVec F S_ .f32 := constant S_ .f32 0x7F800000#32
  let main_v15 : FVec F S1280x256 .f32 := broadcastInDim S1280x256 ![] bcast_S_S1280x256 main_cst_4
  let main_v16 : IVec S1280x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S20000x1280 : Shape := ⟨2, ![20000, 1280]⟩
abbrev S2x320000 : Shape := ⟨2, ![2, 320000]⟩
abbrev S320000x1 : Shape := ⟨2, ![320000, 1]⟩
abbrev S20000 : Shape := ⟨1, ![20000]⟩
abbrev S16x1280 : Shape := ⟨2, ![16, 1280]⟩
abbrev S1280x256 : Shape := ⟨2, ![1280, 256]⟩
abbrev S256 : Shape := ⟨1, ![256]⟩
abbrev S256x256 : Shape := ⟨2, ![256, 256]⟩
abbrev S256x500 : Shape := ⟨2, ![256, 500]⟩
abbrev S500 : Shape := ⟨1, ![500]⟩
abbrev S1x320000 : Shape := ⟨2, ![1, 320000]⟩
abbrev S320000 : Shape := ⟨1, ![320000]⟩
abbrev S_ : Shape := ⟨0, ![]⟩
abbrev S20000x256 : Shape := ⟨2, ![20000, 256]⟩
abbrev S2000x1280 : Shape := ⟨2, ![2000, 1280]⟩
abbrev S2000x256 : Shape := ⟨2, ![2000, 256]⟩
abbrev S320000x256 : Shape := ⟨2, ![320000, 256]⟩
abbrev S20000x1 : Shape := ⟨2, ![20000, 1]⟩
abbrev S1x256 : Shape := ⟨2, ![1, 256]⟩
abbrev S16x256 : Shape := ⟨2, ![16, 256]⟩
abbrev S16 : Shape := ⟨1, ![16]⟩
abbrev S16x1 : Shape := ⟨2, ![16, 1]⟩
abbrev S16x500 : Shape := ⟨2, ![16, 500]⟩
abbrev S1x500 : Shape := ⟨2, ![1, 500]⟩

abbrev nBuf : Space → Nat
  | .hbm => 271
  | .vmem => 39
  | .smem => 0
  | _ => 0

abbrev hbmTy0_0 (i : Nat) : BufTy := match i % 128 with
  | 0 => ⟨S20000x1280, .f32⟩
  | 1 => ⟨S2x320000, .i32⟩
  | 2 => ⟨S320000x1, .f32⟩
  | 3 => ⟨S20000, .i32⟩
  | 4 => ⟨S16x1280, .f32⟩
  | 5 => ⟨S1280x256, .f32⟩
  | 6 => ⟨S256, .f32⟩
  | 7 => ⟨S256, .f32⟩
  | 8 => ⟨S256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256, .f32⟩
  | 16 => ⟨S256, .f32⟩
  | 17 => ⟨S1280x256, .f32⟩
  | 18 => ⟨S256, .f32⟩
  | 19 => ⟨S256x500, .f32⟩
  | 20 => ⟨S500, .f32⟩
  | 21 => ⟨S1x320000, .i32⟩
  | 22 => ⟨S320000, .i32⟩
  | 23 => ⟨S1x320000, .i32⟩
  | 24 => ⟨S320000, .i32⟩
  | 25 => ⟨S320000, .f32⟩
  | 26 => ⟨S_, .f32⟩
  | 27 => ⟨S20000, .f32⟩
  | 28 => ⟨S320000x1, .i32⟩
  | 29 => ⟨S20000, .f32⟩
  | 30 => ⟨S_, .f32⟩
  | 31 => ⟨S20000, .f32⟩
  | 32 => ⟨S20000, .f32⟩
  | 33 => ⟨S20000, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000, .f32⟩
  | 43 => ⟨S320000, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .f32⟩
  | 53 => ⟨S320000, .f32⟩
  | 54 => ⟨S20000, .f32⟩
  | 55 => ⟨S20000x1280, .bf16⟩
  | 56 => ⟨S1280x256, .bf16⟩
  | 57 => ⟨S20000x256, .f32⟩
  | 58 => ⟨S320000x1, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x256, .f32⟩
  | 68 => ⟨S320000x256, .f32⟩
  | 69 => ⟨S320000x256, .f32⟩
  | 70 => ⟨S_, .f32⟩
  | 71 => ⟨S20000x256, .f32⟩
  | 72 => ⟨S320000x1, .i32⟩
  | 73 => ⟨S20000x256, .f32⟩
  | 74 => ⟨S20000x1, .f32⟩
  | 75 => ⟨S20000x256, .f32⟩
  | 76 => ⟨S20000x256, .f32⟩
  | 77 => ⟨S20000x256, .f32⟩
  | 78 => ⟨S1x256, .f32⟩
  | 79 => ⟨S20000x256, .f32⟩
  | 80 => ⟨S20000x256, .f32⟩
  | 81 => ⟨S_, .f32⟩
  | 82 => ⟨S20000x256, .f32⟩
  | 83 => ⟨S20000x256, .f32⟩
  | 84 => ⟨S_, .f32⟩
  | 85 => ⟨S256, .f32⟩
  | 86 => ⟨S_, .f32⟩
  | 87 => ⟨S256, .f32⟩
  | 88 => ⟨S256, .f32⟩
  | 89 => ⟨S_, .i32⟩
  | 90 => ⟨S_, .f32⟩
  | 91 => ⟨S256, .f32⟩
  | 92 => ⟨S1x256, .f32⟩
  | 93 => ⟨S_, .f32⟩
  | 94 => ⟨S1x256, .f32⟩
  | 95 => ⟨S1x256, .f32⟩
  | 96 => ⟨S20000x256, .f32⟩
  | 97 => ⟨S20000x256, .f32⟩
  | 98 => ⟨S20000x256, .f32⟩
  | 99 => ⟨S_, .f32⟩
  | 100 => ⟨S_, .f32⟩
  | 101 => ⟨S_, .f32⟩
  | 102 => ⟨S_, .f32⟩
  | 103 => ⟨S256, .f32⟩
  | 104 => ⟨S256, .f32⟩
  | 105 => ⟨S256, .f32⟩
  | 106 => ⟨S_, .f32⟩
  | 107 => ⟨S_, .i1⟩
  | 108 => ⟨S_, .f32⟩
  | 109 => ⟨S_, .f32⟩
  | 110 => ⟨S256, .f32⟩
  | 111 => ⟨S256, .f32⟩
  | 112 => ⟨S1x256, .f32⟩
  | 113 => ⟨S1x256, .f32⟩
  | 114 => ⟨S1x256, .f32⟩
  | 115 => ⟨S1x256, .f32⟩
  | 116 => ⟨S20000x256, .f32⟩
  | 117 => ⟨S20000x256, .bf16⟩
  | 118 => ⟨S256x256, .bf16⟩
  | 119 => ⟨S20000x256, .f32⟩
  | 120 => ⟨S320000x1, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S20000x1280, .f32⟩

abbrev hbmTy0_1 (i : Nat) : BufTy := match i % 128 with
  | 0 => ⟨S320000x1, .i32⟩
  | 1 => ⟨S320000x256, .f32⟩
  | 2 => ⟨S320000x256, .f32⟩
  | 3 => ⟨S320000x256, .f32⟩
  | 4 => ⟨S_, .f32⟩
  | 5 => ⟨S20000x256, .f32⟩
  | 6 => ⟨S320000x1, .i32⟩
  | 7 => ⟨S20000x256, .f32⟩
  | 8 => ⟨S20000x1, .f32⟩
  | 9 => ⟨S20000x256, .f32⟩
  | 10 => ⟨S20000x256, .f32⟩
  | 11 => ⟨S20000x256, .f32⟩
  | 12 => ⟨S1x256, .f32⟩
  | 13 => ⟨S20000x256, .f32⟩
  | 14 => ⟨S20000x256, .f32⟩
  | 15 => ⟨S_, .f32⟩
  | 16 => ⟨S20000x256, .f32⟩
  | 17 => ⟨S20000x256, .f32⟩
  | 18 => ⟨S_, .f32⟩
  | 19 => ⟨S256, .f32⟩
  | 20 => ⟨S_, .f32⟩
  | 21 => ⟨S256, .f32⟩
  | 22 => ⟨S256, .f32⟩
  | 23 => ⟨S_, .i32⟩
  | 24 => ⟨S_, .f32⟩
  | 25 => ⟨S256, .f32⟩
  | 26 => ⟨S1x256, .f32⟩
  | 27 => ⟨S_, .f32⟩
  | 28 => ⟨S1x256, .f32⟩
  | 29 => ⟨S1x256, .f32⟩
  | 30 => ⟨S20000x256, .f32⟩
  | 31 => ⟨S20000x256, .f32⟩
  | 32 => ⟨S20000x256, .f32⟩
  | 33 => ⟨S_, .f32⟩
  | 34 => ⟨S_, .f32⟩
  | 35 => ⟨S_, .f32⟩
  | 36 => ⟨S_, .f32⟩
  | 37 => ⟨S256, .f32⟩
  | 38 => ⟨S256, .f32⟩
  | 39 => ⟨S256, .f32⟩
  | 40 => ⟨S_, .f32⟩
  | 41 => ⟨S_, .i1⟩
  | 42 => ⟨S_, .f32⟩
  | 43 => ⟨S_, .f32⟩
  | 44 => ⟨S256, .f32⟩
  | 45 => ⟨S256, .f32⟩
  | 46 => ⟨S1x256, .f32⟩
  | 47 => ⟨S1x256, .f32⟩
  | 48 => ⟨S1x256, .f32⟩
  | 49 => ⟨S1x256, .f32⟩
  | 50 => ⟨S20000x256, .f32⟩
  | 51 => ⟨S20000x256, .bf16⟩
  | 52 => ⟨S256x256, .bf16⟩
  | 53 => ⟨S20000x256, .f32⟩
  | 54 => ⟨S320000x1, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S320000x256, .f32⟩
  | 65 => ⟨S320000x256, .f32⟩
  | 66 => ⟨S_, .f32⟩
  | 67 => ⟨S20000x256, .f32⟩
  | 68 => ⟨S320000x1, .i32⟩
  | 69 => ⟨S20000x256, .f32⟩
  | 70 => ⟨S20000x1, .f32⟩
  | 71 => ⟨S20000x256, .f32⟩
  | 72 => ⟨S20000x256, .f32⟩
  | 73 => ⟨S20000x256, .f32⟩
  | 74 => ⟨S1x256, .f32⟩
  | 75 => ⟨S20000x256, .f32⟩
  | 76 => ⟨S20000x256, .f32⟩
  | 77 => ⟨S_, .f32⟩
  | 78 => ⟨S256, .f32⟩
  | 79 => ⟨S_, .f32⟩
  | 80 => ⟨S256, .f32⟩
  | 81 => ⟨S256, .f32⟩
  | 82 => ⟨S_, .i32⟩
  | 83 => ⟨S_, .f32⟩
  | 84 => ⟨S256, .f32⟩
  | 85 => ⟨S1x256, .f32⟩
  | 86 => ⟨S_, .f32⟩
  | 87 => ⟨S1x256, .f32⟩
  | 88 => ⟨S1x256, .f32⟩
  | 89 => ⟨S20000x256, .f32⟩
  | 90 => ⟨S20000x256, .f32⟩
  | 91 => ⟨S20000x256, .f32⟩
  | 92 => ⟨S_, .f32⟩
  | 93 => ⟨S_, .f32⟩
  | 94 => ⟨S_, .f32⟩
  | 95 => ⟨S_, .f32⟩
  | 96 => ⟨S256, .f32⟩
  | 97 => ⟨S256, .f32⟩
  | 98 => ⟨S256, .f32⟩
  | 99 => ⟨S_, .f32⟩
  | 100 => ⟨S_, .i1⟩
  | 101 => ⟨S_, .f32⟩
  | 102 => ⟨S_, .f32⟩
  | 103 => ⟨S256, .f32⟩
  | 104 => ⟨S256, .f32⟩
  | 105 => ⟨S1x256, .f32⟩
  | 106 => ⟨S1x256, .f32⟩
  | 107 => ⟨S1x256, .f32⟩
  | 108 => ⟨S1x256, .f32⟩
  | 109 => ⟨S20000x256, .f32⟩
  | 110 => ⟨S_, .f32⟩
  | 111 => ⟨S16x256, .f32⟩
  | 112 => ⟨S20000x1, .i32⟩
  | 113 => ⟨S16x256, .f32⟩
  | 114 => ⟨S_, .f32⟩
  | 115 => ⟨S20000, .f32⟩
  | 116 => ⟨S_, .f32⟩
  | 117 => ⟨S16, .f32⟩
  | 118 => ⟨S20000x1, .i32⟩
  | 119 => ⟨S16, .f32⟩
  | 120 => ⟨S_, .f32⟩
  | 121 => ⟨S16, .f32⟩
  | 122 => ⟨S16, .f32⟩
  | 123 => ⟨S16x1, .f32⟩
  | 124 => ⟨S16x256, .f32⟩
  | 125 => ⟨S16x256, .f32⟩
  | 126 => ⟨S16x256, .f32⟩
  | 127 => ⟨S1x256, .f32⟩
  | _ => ⟨S20000x1280, .f32⟩

abbrev hbmTy0_2 (i : Nat) : BufTy := match i % 128 with
  | 0 => ⟨S16x256, .f32⟩
  | 1 => ⟨S16x256, .f32⟩
  | 2 => ⟨S16x256, .f32⟩
  | 3 => ⟨S16x500, .f32⟩
  | 4 => ⟨S1x500, .f32⟩
  | 5 => ⟨S16x500, .f32⟩
  | 6 => ⟨S16x500, .f32⟩
  | 7 => ⟨S16x500, .f32⟩
  | 8 => ⟨S16x500, .f32⟩
  | 9 => ⟨S_, .f32⟩
  | 10 => ⟨S16x500, .f32⟩
  | 11 => ⟨S16x500, .f32⟩
  | 12 => ⟨S_, .f32⟩
  | 13 => ⟨S16x500, .f32⟩
  | 14 => ⟨S16x500, .f32⟩
  | _ => ⟨S20000x1280, .f32⟩

abbrev hbmTy (i : Nat) : BufTy := match i / 128 with
  | 0 => hbmTy0_0 i
  | 1 => hbmTy0_1 i
  | 2 => hbmTy0_2 i
  | _ => ⟨S20000x1280, .f32⟩

abbrev bufTy : (tb : Table) → Fin (tcTables nBuf tb) → BufTy
  | .hbm, ⟨i, _⟩ => hbmTy i
  | .local _ .vmem, ⟨0, _⟩ => ⟨S2000x1280, .bf16⟩
  | .local _ .vmem, ⟨1, _⟩ => ⟨S2000x1280, .bf16⟩
  | .local _ .vmem, ⟨2, _⟩ => ⟨S1280x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .bf16⟩
  | .local _ .vmem, ⟨14, _⟩ => ⟨S2000x256, .bf16⟩
  | .local _ .vmem, ⟨15, _⟩ => ⟨S256x256, .bf16⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .bf16⟩
  | .local _ .vmem, ⟨27, _⟩ => ⟨S2000x256, .bf16⟩
  | .local _ .vmem, ⟨28, _⟩ => ⟨S256x256, .bf16⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | _, _ => ⟨S20000x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_4 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_c_10 : Ref sig .tc := ⟨.hbm, 89, rfl⟩
abbrev main_call0_cst : Ref sig .tc := ⟨.hbm, 90, rfl⟩
abbrev main_call0_v0 : Ref sig .tc := ⟨.hbm, 91, rfl⟩
abbrev main_call0_v1 : Ref sig .tc := ⟨.hbm, 92, rfl⟩
abbrev main_call0_cst_0 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_cst_1 : Ref sig .tc := ⟨.hbm, 100, rfl⟩
abbrev main_call0_v8 : Ref sig .tc := ⟨.hbm, 101, rfl⟩
abbrev main_call0_cst_2 : Ref sig .tc := ⟨.hbm, 102, rfl⟩
abbrev main_call0_v9 : Ref sig .tc := ⟨.hbm, 103, rfl⟩
abbrev main_call0_v10 : Ref sig .tc := ⟨.hbm, 104, rfl⟩
abbrev main_call0_v11 : Ref sig .tc := ⟨.hbm, 105, rfl⟩
abbrev main_call0_cst_3 : Ref sig .tc := ⟨.hbm, 106, rfl⟩
abbrev main_call0_v12 : Ref sig .tc := ⟨.hbm, 107, rfl⟩
abbrev main_call0_cst_4 : Ref sig .tc := ⟨.hbm, 108, rfl⟩
abbrev main_call0_call0_v0 : Ref sig .tc := ⟨.hbm, 109, rfl⟩
abbrev main_call0_call0_v1 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_11 : Ref sig .tc := ⟨.hbm, 121, rfl⟩
abbrev main_v66 : Ref sig .tc := ⟨.hbm, 122, rfl⟩
abbrev main_v67 : Ref sig .tc := ⟨.hbm, 123, rfl⟩
abbrev main_c_12 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_cst_13 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_14 : Ref sig .tc := ⟨.hbm, 143, rfl⟩
abbrev main_v85 : Ref sig .tc := ⟨.hbm, 144, rfl⟩
abbrev main_v86 : Ref sig .tc := ⟨.hbm, 145, rfl⟩
abbrev main_cst_15 : Ref sig .tc := ⟨.hbm, 146, rfl⟩
abbrev main_v87 : Ref sig .tc := ⟨.hbm, 147, rfl⟩
abbrev main_cst_16 : Ref sig .tc := ⟨.hbm, 148, rfl⟩
abbrev main_v88 : Ref sig .tc := ⟨.hbm, 149, rfl⟩
abbrev main_v89 : Ref sig .tc := ⟨.hbm, 150, rfl⟩
abbrev main_c_17 : Ref sig .tc := ⟨.hbm, 151, rfl⟩
abbrev main_call1_cst : Ref sig .tc := ⟨.hbm, 152, rfl⟩
abbrev main_call1_v0 : Ref sig .tc := ⟨.hbm, 153, rfl⟩
abbrev main_call1_v1 : Ref sig .tc := ⟨.hbm, 154, rfl⟩
abbrev main_call1_cst_0 : Ref sig .tc := ⟨.hbm, 155, rfl⟩
abbrev main_call1_v2 : Ref sig .tc := ⟨.hbm, 156, rfl⟩
abbrev main_call1_v3 : Ref sig .tc := ⟨.hbm, 157, rfl⟩
abbrev main_call1_v4 : Ref sig .tc := ⟨.hbm, 158, rfl⟩
abbrev main_call1_v5 : Ref sig .tc := ⟨.hbm, 159, rfl⟩
abbrev main_call1_v6 : Ref sig .tc := ⟨.hbm, 160, rfl⟩
abbrev main_call1_v7 : Ref sig .tc := ⟨.hbm, 161, rfl⟩
abbrev main_call1_cst_1 : Ref sig .tc := ⟨.hbm, 162, rfl⟩
abbrev main_call1_v8 : Ref sig .tc := ⟨.hbm, 163, rfl⟩
abbrev main_call1_cst_2 : Ref sig .tc := ⟨.hbm, 164, rfl⟩
abbrev main_call1_v9 : Ref sig .tc := ⟨.hbm, 165, rfl⟩
abbrev main_call1_v10 : Ref sig .tc := ⟨.hbm, 166, rfl⟩
abbrev main_call1_v11 : Ref sig .tc := ⟨.hbm, 167, rfl⟩
abbrev main_call1_cst_3 : Ref sig .tc := ⟨.hbm, 168, rfl⟩
abbrev main_call1_v12 : Ref sig .tc := ⟨.hbm, 169, rfl⟩
abbrev main_call1_cst_4 : Ref sig .tc := ⟨.hbm, 170, rfl⟩
abbrev main_call1_call0_v0 : Ref sig .tc := ⟨.hbm, 171, rfl⟩
abbrev main_call1_call0_v1 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_c_18 : Ref sig .tc := ⟨.hbm, 183, rfl⟩
abbrev main_v100 : Ref sig .tc := ⟨.hbm, 184, rfl⟩
abbrev main_v101 : Ref sig .tc := ⟨.hbm, 185, rfl⟩
abbrev main_c_19 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_cst_20 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_cst_21 : Ref sig .tc := ⟨.hbm, 205, rfl⟩
abbrev main_v119 : Ref sig .tc := ⟨.hbm, 206, rfl⟩
abbrev main_cst_22 : Ref sig .tc := ⟨.hbm, 207, rfl⟩
abbrev main_v120 : Ref sig .tc := ⟨.hbm, 208, rfl⟩
abbrev main_v121 : Ref sig .tc := ⟨.hbm, 209, rfl⟩
abbrev main_c_23 : Ref sig .tc := ⟨.hbm, 210, rfl⟩
abbrev main_call2_cst : Ref sig .tc := ⟨.hbm, 211, rfl⟩
abbrev main_call2_v0 : Ref sig .tc := ⟨.hbm, 212, rfl⟩
abbrev main_call2_v1 : Ref sig .tc := ⟨.hbm, 213, rfl⟩
abbrev main_call2_cst_0 : Ref sig .tc := ⟨.hbm, 214, rfl⟩
abbrev main_call2_v2 : Ref sig .tc := ⟨.hbm, 215, rfl⟩
abbrev main_call2_v3 : Ref sig .tc := ⟨.hbm, 216, rfl⟩
abbrev main_call2_v4 : Ref sig .tc := ⟨.hbm, 217, rfl⟩
abbrev main_call2_v5 : Ref sig .tc := ⟨.hbm, 218, rfl⟩
abbrev main_call2_v6 : Ref sig .tc := ⟨.hbm, 219, rfl⟩
abbrev main_call2_v7 : Ref sig .tc := ⟨.hbm, 220, rfl⟩
abbrev main_call2_cst_1 : Ref sig .tc := ⟨.hbm, 221, rfl⟩
abbrev main_call2_v8 : Ref sig .tc := ⟨.hbm, 222, rfl⟩
abbrev main_call2_cst_2 : Ref sig .tc := ⟨.hbm, 223, rfl⟩
abbrev main_call2_v9 : Ref sig .tc := ⟨.hbm, 224, rfl⟩
abbrev main_call2_v10 : Ref sig .tc := ⟨.hbm, 225, rfl⟩
abbrev main_call2_v11 : Ref sig .tc := ⟨.hbm, 226, rfl⟩
abbrev main_call2_cst_3 : Ref sig .tc := ⟨.hbm, 227, rfl⟩
abbrev main_call2_v12 : Ref sig .tc := ⟨.hbm, 228, rfl⟩
abbrev main_call2_cst_4 : Ref sig .tc := ⟨.hbm, 229, rfl⟩
abbrev main_call2_call0_v0 : Ref sig .tc := ⟨.hbm, 230, rfl⟩
abbrev main_call2_call0_v1 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_cst_24 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_cst_25 : Ref sig .tc := ⟨.hbm, 242, rfl⟩
abbrev main_v131 : Ref sig .tc := ⟨.hbm, 243, rfl⟩
abbrev main_cst_26 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_cst_27 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_cst_28 : Ref sig .tc := ⟨.hbm, 265, rfl⟩
abbrev main_v151 : Ref sig .tc := ⟨.hbm, 266, rfl⟩
abbrev main_v152 : Ref sig .tc := ⟨.hbm, 267, rfl⟩
abbrev main_cst_29 : Ref sig .tc := ⟨.hbm, 268, rfl⟩
abbrev main_v153 : Ref sig .tc := ⟨.hbm, 269, rfl⟩
abbrev main_v154 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg5_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S320000x1_S320000 : S320000x1.ShapeCasts S320000
  bcast_S_S20000 : S_.BroadcastsInDim S20000 (![] : Fin 0 → Fin S20000.rank)
  bcast_S320000_S320000x1_0 : S320000.BroadcastsInDim S320000x1 (![0] : Fin 1 → Fin S320000x1.rank)
  bcast_S_S320000 : S_.BroadcastsInDim S320000 (![] : Fin 0 → Fin S320000.rank)
  bitsLt_bf16_f32 : FTy.bits .bf16 < FTy.bits .f32
  inb_S2000x1280_S2000x1280_0_0 : ∀ a, (![0, 0] : Fin 2 → Nat) a + S2000x1280.size a ≤ S2000x1280.size a
  h_S2000x1280 : 0 < S2000x1280.numel
  shapeCasts_S2000x1280_S2000x1280 : S2000x1280.ShapeCasts S2000x1280
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S2000x256_S2000x256_0_0 : ∀ a, (![0, 0] : Fin 2 → Nat) a + S2000x256.size a ≤ S2000x256.size a
  h_S2000x256 : 0 < S2000x256.numel
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S256_d0 : S20000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S16x256 : S_.BroadcastsInDim S16x256 (![] : Fin 0 → Fin S16x256.rank)
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S1x256_S16x256_0_1 : S1x256.BroadcastsInDim S16x256 (![0, 1] : Fin 2 → Fin S16x256.rank)
  bcast_S500_S1x500_1 : S500.BroadcastsInDim S1x500 (![1] : Fin 1 → Fin S1x500.rank)
  bcast_S1x500_S16x500_0_1 : S1x500.BroadcastsInDim S16x500 (![0, 1] : Fin 2 → Fin S16x500.rank)
  bcast_S_S16x500 : S_.BroadcastsInDim S16x500 (![] : Fin 0 → Fin S16x500.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  dot_S2000x1280_S1280x256_S2000x256_1_0_0_1_n_n_wf : DotDims.WF S2000x1280 S1280x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  scatter_S16x256_S20000x1_S20000x256_1_0_0_1_wf : ScatterDims.WF S16x256 S20000x1 S20000x256 [1] [0] [0] 1
  scatter_S16_S20000x1_S20000_n_0_0_1_wf : ScatterDims.WF S16 S20000x1 S20000 [] [0] [0] 1
  dot_S16x1280_S1280x256_S16x256_1_0_0_1_n_n_wf : DotDims.WF S16x1280 S1280x256 S16x256 [1] [0] [0] [1] [] []
  dot_S16x256_S256x500_S16x500_1_0_0_1_n_n_wf : DotDims.WF S16x256 S256x500 S16x500 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1280.size a ≤ S20000x1280.size a
  hwx0_0 : ∀ i : grid0.Coords, EltTy.bits .bf16 = 32 ∨ (Rect.block (s := S20000x1280) S2000x1280.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S1280x256.size a
  hwx0_1 : ∀ i : grid0.Coords, EltTy.bits .bf16 = 32 ∨ (Rect.block (s := S1280x256) S1280x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .bf16 = 32 ∨ (Rect.block (s := S20000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S20000x256.size a
  hwx3_5 : ∀ i : grid3.Coords, EltTy.bits .f32 = 32 ∨ (Rect.block (s := S20000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .bf16 = 32 ∨ (Rect.block (s := S20000x256) S2000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S20000x256.size a
  hwx4_2 : ∀ i : grid4.Coords, EltTy.bits .f32 = 32 ∨ (Rect.block (s := S20000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S20000x256.size a
  hwx5_5 : ∀ i : grid5.Coords, EltTy.bits .f32 = 32 ∨ (Rect.block (s := S20000x256) S2000x256.size (cc5_transform_5 i) (hinb5_5 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S2000x1280_S1280x256_S2000x256_1_0_0_1_n_n : DotDims S2000x1280 S1280x256 S2000x256 where
  lhsContracting := [1]
  rhsContracting := [0]
  lhsNonContracting := [0]
  rhsNonContracting := [1]
  lhsBatch := []
  rhsBatch := []
  wf := dot_S2000x1280_S1280x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S16x256_S20000x1_S20000x256_1_0_0_1 : ScatterDims S16x256 S20000x1 S20000x256 where
  updateWindowDims := [1]
  insertedWindowDims := [0]
  scatterDimsToOperandDims := [0]
  indexVectorDim := 1
  wf := scatter_S16x256_S20000x1_S20000x256_1_0_0_1_wf
def scatter_S16_S20000x1_S20000_n_0_0_1 : ScatterDims S16 S20000x1 S20000 where
  updateWindowDims := []
  insertedWindowDims := [0]
  scatterDimsToOperandDims := [0]
  indexVectorDim := 1
  wf := scatter_S16_S20000x1_S20000_n_0_0_1_wf
def dot_S16x1280_S1280x256_S16x256_1_0_0_1_n_n : DotDims S16x1280 S1280x256 S16x256 where
  lhsContracting := [1]
  rhsContracting := [0]
  lhsNonContracting := [0]
  rhsNonContracting := [1]
  lhsBatch := []
  rhsBatch := []
  wf := dot_S16x1280_S1280x256_S16x256_1_0_0_1_n_n_wf
def dot_S16x256_S256x500_S16x500_1_0_0_1_n_n : DotDims S16x256 S256x500 S16x500 where
  lhsContracting := [1]
  rhsContracting := [0]
  lhsNonContracting := [0]
  rhsNonContracting := [1]
  lhsBatch := []
  rhsBatch := []
  wf := dot_S16x256_S256x500_S16x500_1_0_0_1_n_n_wf

abbrev win0_0 : Pipeline.Window sig grid0 :=
  Pipeline.Window.ofSpec (Memref.whole main_v28) S2000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1280x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v96) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v118) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v123) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v124) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v125) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S20000x1280 : Shape := ⟨2, ![20000, 1280]⟩
abbrev S2x320000 : Shape := ⟨2, ![2, 320000]⟩
abbrev S320000x1 : Shape := ⟨2, ![320000, 1]⟩
abbrev S20000 : Shape := ⟨1, ![20000]⟩
abbrev S16x1280 : Shape := ⟨2, ![16, 1280]⟩
abbrev S1280x256 : Shape := ⟨2, ![1280, 256]⟩
abbrev S256 : Shape := ⟨1, ![256]⟩
abbrev S256x256 : Shape := ⟨2, ![256, 256]⟩
abbrev S256x500 : Shape := ⟨2, ![256, 500]⟩
abbrev S500 : Shape := ⟨1, ![500]⟩
abbrev S1x320000 : Shape := ⟨2, ![1, 320000]⟩
abbrev S320000 : Shape := ⟨1, ![320000]⟩
abbrev S20000x256 : Shape := ⟨2, ![20000, 256]⟩
abbrev S_ : Shape := ⟨0, ![]⟩
abbrev S320000x256 : Shape := ⟨2, ![320000, 256]⟩
abbrev S20000x1 : Shape := ⟨2, ![20000, 1]⟩
abbrev S1x256 : Shape := ⟨2, ![1, 256]⟩
abbrev S16x256 : Shape := ⟨2, ![16, 256]⟩
abbrev S16 : Shape := ⟨1, ![16]⟩
abbrev S16x1 : Shape := ⟨2, ![16, 1]⟩
abbrev S16x500 : Shape := ⟨2, ![16, 500]⟩
abbrev S1x500 : Shape := ⟨2, ![1, 500]⟩

abbrev nBuf : Space → Nat
  | .hbm => 356
  | .vmem => 0
  | .smem => 0
  | _ => 0

abbrev hbmTy0_0 (i : Nat) : BufTy := match i % 128 with
  | 0 => ⟨S20000x1280, .f32⟩
  | 1 => ⟨S2x320000, .i32⟩
  | 2 => ⟨S320000x1, .f32⟩
  | 3 => ⟨S20000, .i32⟩
  | 4 => ⟨S16x1280, .f32⟩
  | 5 => ⟨S1280x256, .f32⟩
  | 6 => ⟨S256, .f32⟩
  | 7 => ⟨S256, .f32⟩
  | 8 => ⟨S256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256, .f32⟩
  | 16 => ⟨S256, .f32⟩
  | 17 => ⟨S1280x256, .f32⟩
  | 18 => ⟨S256, .f32⟩
  | 19 => ⟨S256x500, .f32⟩
  | 20 => ⟨S500, .f32⟩
  | 21 => ⟨S1x320000, .i32⟩
  | 22 => ⟨S320000, .i32⟩
  | 23 => ⟨S1x320000, .i32⟩
  | 24 => ⟨S320000, .i32⟩
  | 25 => ⟨S320000, .f32⟩
  | 26 => ⟨S20000x256, .f32⟩
  | 27 => ⟨S_, .f32⟩
  | 28 => ⟨S20000, .f32⟩
  | 29 => ⟨S320000x1, .i32⟩
  | 30 => ⟨S20000, .f32⟩
  | 31 => ⟨S_, .f32⟩
  | 32 => ⟨S20000, .f32⟩
  | 33 => ⟨S20000, .f32⟩
  | 34 => ⟨S20000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S320000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S320000, .f32⟩
  | 55 => ⟨S320000x1, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x256, .f32⟩
  | 65 => ⟨S320000x256, .f32⟩
  | 66 => ⟨S320000x256, .f32⟩
  | 67 => ⟨S_, .f32⟩
  | 68 => ⟨S20000x256, .f32⟩
  | 69 => ⟨S320000x1, .i32⟩
  | 70 => ⟨S20000x256, .f32⟩
  | 71 => ⟨S20000, .f32⟩
  | 72 => ⟨S20000x1, .f32⟩
  | 73 => ⟨S20000x256, .f32⟩
  | 74 => ⟨S20000x256, .f32⟩
  | 75 => ⟨S20000x256, .f32⟩
  | 76 => ⟨S1x256, .f32⟩
  | 77 => ⟨S20000x256, .f32⟩
  | 78 => ⟨S20000x256, .f32⟩
  | 79 => ⟨S_, .f32⟩
  | 80 => ⟨S20000x256, .f32⟩
  | 81 => ⟨S20000x256, .f32⟩
  | 82 => ⟨S_, .f32⟩
  | 83 => ⟨S256, .f32⟩
  | 84 => ⟨S_, .f32⟩
  | 85 => ⟨S256, .f32⟩
  | 86 => ⟨S256, .f32⟩
  | 87 => ⟨S_, .i32⟩
  | 88 => ⟨S_, .f32⟩
  | 89 => ⟨S256, .f32⟩
  | 90 => ⟨S1x256, .f32⟩
  | 91 => ⟨S_, .f32⟩
  | 92 => ⟨S1x256, .f32⟩
  | 93 => ⟨S1x256, .f32⟩
  | 94 => ⟨S20000x256, .f32⟩
  | 95 => ⟨S20000x256, .f32⟩
  | 96 => ⟨S20000x256, .f32⟩
  | 97 => ⟨S_, .f32⟩
  | 98 => ⟨S_, .f32⟩
  | 99 => ⟨S_, .f32⟩
  | 100 => ⟨S_, .f32⟩
  | 101 => ⟨S256, .f32⟩
  | 102 => ⟨S256, .f32⟩
  | 103 => ⟨S256, .f32⟩
  | 104 => ⟨S_, .f32⟩
  | 105 => ⟨S_, .i1⟩
  | 106 => ⟨S_, .f32⟩
  | 107 => ⟨S_, .f32⟩
  | 108 => ⟨S256, .f32⟩
  | 109 => ⟨S256, .f32⟩
  | 110 => ⟨S1x256, .f32⟩
  | 111 => ⟨S20000x256, .f32⟩
  | 112 => ⟨S20000x256, .f32⟩
  | 113 => ⟨S_, .f32⟩
  | 114 => ⟨S256, .f32⟩
  | 115 => ⟨S256, .f32⟩
  | 116 => ⟨S256, .f32⟩
  | 117 => ⟨S1x256, .f32⟩
  | 118 => ⟨S20000x256, .f32⟩
  | 119 => ⟨S20000x256, .f32⟩
  | 120 => ⟨S1x256, .f32⟩
  | 121 => ⟨S20000x256, .f32⟩
  | 122 => ⟨S20000x256, .f32⟩
  | 123 => ⟨S1x256, .f32⟩
  | 124 => ⟨S20000x256, .f32⟩
  | 125 => ⟨S20000x256, .f32⟩
  | 126 => ⟨S20000x256, .f32⟩
  | 127 => ⟨S_, .f32⟩
  | _ => ⟨S20000x1280, .f32⟩

abbrev hbmTy0_1 (i : Nat) : BufTy := match i % 128 with
  | 0 => ⟨S20000, .f32⟩
  | 1 => ⟨S320000x1, .i32⟩
  | 2 => ⟨S20000, .f32⟩
  | 3 => ⟨S_, .f32⟩
  | 4 => ⟨S20000, .f32⟩
  | 5 => ⟨S20000, .f32⟩
  | 6 => ⟨S20000, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000, .f32⟩
  | 16 => ⟨S320000, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S320000, .f32⟩
  | 26 => ⟨S320000, .f32⟩
  | 27 => ⟨S320000x1, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x256, .f32⟩
  | 37 => ⟨S320000x256, .f32⟩
  | 38 => ⟨S320000x256, .f32⟩
  | 39 => ⟨S_, .f32⟩
  | 40 => ⟨S20000x256, .f32⟩
  | 41 => ⟨S320000x1, .i32⟩
  | 42 => ⟨S20000x256, .f32⟩
  | 43 => ⟨S20000, .f32⟩
  | 44 => ⟨S20000x1, .f32⟩
  | 45 => ⟨S20000x256, .f32⟩
  | 46 => ⟨S20000x256, .f32⟩
  | 47 => ⟨S20000x256, .f32⟩
  | 48 => ⟨S1x256, .f32⟩
  | 49 => ⟨S20000x256, .f32⟩
  | 50 => ⟨S20000x256, .f32⟩
  | 51 => ⟨S_, .f32⟩
  | 52 => ⟨S20000x256, .f32⟩
  | 53 => ⟨S20000x256, .f32⟩
  | 54 => ⟨S_, .f32⟩
  | 55 => ⟨S256, .f32⟩
  | 56 => ⟨S_, .f32⟩
  | 57 => ⟨S256, .f32⟩
  | 58 => ⟨S256, .f32⟩
  | 59 => ⟨S_, .i32⟩
  | 60 => ⟨S_, .f32⟩
  | 61 => ⟨S256, .f32⟩
  | 62 => ⟨S1x256, .f32⟩
  | 63 => ⟨S_, .f32⟩
  | 64 => ⟨S1x256, .f32⟩
  | 65 => ⟨S1x256, .f32⟩
  | 66 => ⟨S20000x256, .f32⟩
  | 67 => ⟨S20000x256, .f32⟩
  | 68 => ⟨S20000x256, .f32⟩
  | 69 => ⟨S_, .f32⟩
  | 70 => ⟨S_, .f32⟩
  | 71 => ⟨S_, .f32⟩
  | 72 => ⟨S_, .f32⟩
  | 73 => ⟨S256, .f32⟩
  | 74 => ⟨S256, .f32⟩
  | 75 => ⟨S256, .f32⟩
  | 76 => ⟨S_, .f32⟩
  | 77 => ⟨S_, .i1⟩
  | 78 => ⟨S_, .f32⟩
  | 79 => ⟨S_, .f32⟩
  | 80 => ⟨S256, .f32⟩
  | 81 => ⟨S256, .f32⟩
  | 82 => ⟨S1x256, .f32⟩
  | 83 => ⟨S20000x256, .f32⟩
  | 84 => ⟨S20000x256, .f32⟩
  | 85 => ⟨S_, .f32⟩
  | 86 => ⟨S256, .f32⟩
  | 87 => ⟨S256, .f32⟩
  | 88 => ⟨S256, .f32⟩
  | 89 => ⟨S1x256, .f32⟩
  | 90 => ⟨S20000x256, .f32⟩
  | 91 => ⟨S20000x256, .f32⟩
  | 92 => ⟨S1x256, .f32⟩
  | 93 => ⟨S20000x256, .f32⟩
  | 94 => ⟨S20000x256, .f32⟩
  | 95 => ⟨S1x256, .f32⟩
  | 96 => ⟨S20000x256, .f32⟩
  | 97 => ⟨S20000x256, .f32⟩
  | 98 => ⟨S20000x256, .f32⟩
  | 99 => ⟨S_, .f32⟩
  | 100 => ⟨S20000, .f32⟩
  | 101 => ⟨S320000x1, .i32⟩
  | 102 => ⟨S20000, .f32⟩
  | 103 => ⟨S_, .f32⟩
  | 104 => ⟨S20000, .f32⟩
  | 105 => ⟨S20000, .f32⟩
  | 106 => ⟨S20000, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000, .f32⟩
  | 116 => ⟨S320000, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S320000, .f32⟩
  | 126 => ⟨S320000, .f32⟩
  | 127 => ⟨S320000x1, .f32⟩
  | _ => ⟨S20000x1280, .f32⟩

abbrev hbmTy0_2 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S320000x256, .f32⟩
  | 9 => ⟨S320000x256, .f32⟩
  | 10 => ⟨S320000x256, .f32⟩
  | 11 => ⟨S_, .f32⟩
  | 12 => ⟨S20000x256, .f32⟩
  | 13 => ⟨S320000x1, .i32⟩
  | 14 => ⟨S20000x256, .f32⟩
  | 15 => ⟨S20000, .f32⟩
  | 16 => ⟨S20000x1, .f32⟩
  | 17 => ⟨S20000x256, .f32⟩
  | 18 => ⟨S20000x256, .f32⟩
  | 19 => ⟨S20000x256, .f32⟩
  | 20 => ⟨S1x256, .f32⟩
  | 21 => ⟨S20000x256, .f32⟩
  | 22 => ⟨S20000x256, .f32⟩
  | 23 => ⟨S_, .f32⟩
  | 24 => ⟨S256, .f32⟩
  | 25 => ⟨S_, .f32⟩
  | 26 => ⟨S256, .f32⟩
  | 27 => ⟨S256, .f32⟩
  | 28 => ⟨S_, .i32⟩
  | 29 => ⟨S_, .f32⟩
  | 30 => ⟨S256, .f32⟩
  | 31 => ⟨S1x256, .f32⟩
  | 32 => ⟨S_, .f32⟩
  | 33 => ⟨S1x256, .f32⟩
  | 34 => ⟨S1x256, .f32⟩
  | 35 => ⟨S20000x256, .f32⟩
  | 36 => ⟨S20000x256, .f32⟩
  | 37 => ⟨S20000x256, .f32⟩
  | 38 => ⟨S_, .f32⟩
  | 39 => ⟨S_, .f32⟩
  | 40 => ⟨S_, .f32⟩
  | 41 => ⟨S_, .f32⟩
  | 42 => ⟨S256, .f32⟩
  | 43 => ⟨S256, .f32⟩
  | 44 => ⟨S256, .f32⟩
  | 45 => ⟨S_, .f32⟩
  | 46 => ⟨S_, .i1⟩
  | 47 => ⟨S_, .f32⟩
  | 48 => ⟨S_, .f32⟩
  | 49 => ⟨S256, .f32⟩
  | 50 => ⟨S256, .f32⟩
  | 51 => ⟨S1x256, .f32⟩
  | 52 => ⟨S20000x256, .f32⟩
  | 53 => ⟨S20000x256, .f32⟩
  | 54 => ⟨S_, .f32⟩
  | 55 => ⟨S256, .f32⟩
  | 56 => ⟨S256, .f32⟩
  | 57 => ⟨S256, .f32⟩
  | 58 => ⟨S1x256, .f32⟩
  | 59 => ⟨S20000x256, .f32⟩
  | 60 => ⟨S20000x256, .f32⟩
  | 61 => ⟨S1x256, .f32⟩
  | 62 => ⟨S20000x256, .f32⟩
  | 63 => ⟨S20000x256, .f32⟩
  | 64 => ⟨S1x256, .f32⟩
  | 65 => ⟨S20000x256, .f32⟩
  | 66 => ⟨S20000x256, .f32⟩
  | 67 => ⟨S_, .f32⟩
  | 68 => ⟨S16x256, .f32⟩
  | 69 => ⟨S20000x1, .i32⟩
  | 70 => ⟨S16x256, .f32⟩
  | 71 => ⟨S_, .f32⟩
  | 72 => ⟨S20000, .f32⟩
  | 73 => ⟨S_, .f32⟩
  | 74 => ⟨S16, .f32⟩
  | 75 => ⟨S20000x1, .i32⟩
  | 76 => ⟨S16, .f32⟩
  | 77 => ⟨S_, .f32⟩
  | 78 => ⟨S16, .f32⟩
  | 79 => ⟨S16, .f32⟩
  | 80 => ⟨S16x1, .f32⟩
  | 81 => ⟨S16x256, .f32⟩
  | 82 => ⟨S16x256, .f32⟩
  | 83 => ⟨S16x256, .f32⟩
  | 84 => ⟨S1x256, .f32⟩
  | 85 => ⟨S16x256, .f32⟩
  | 86 => ⟨S16x256, .f32⟩
  | 87 => ⟨S16x256, .f32⟩
  | 88 => ⟨S16x500, .f32⟩
  | 89 => ⟨S1x500, .f32⟩
  | 90 => ⟨S16x500, .f32⟩
  | 91 => ⟨S16x500, .f32⟩
  | 92 => ⟨S16x500, .f32⟩
  | 93 => ⟨S16x500, .f32⟩
  | 94 => ⟨S_, .f32⟩
  | 95 => ⟨S16x500, .f32⟩
  | 96 => ⟨S16x500, .f32⟩
  | 97 => ⟨S_, .f32⟩
  | 98 => ⟨S16x500, .f32⟩
  | 99 => ⟨S16x500, .f32⟩
  | _ => ⟨S20000x1280, .f32⟩

abbrev hbmTy (i : Nat) : BufTy := match i / 128 with
  | 0 => hbmTy0_0 i
  | 1 => hbmTy0_1 i
  | 2 => hbmTy0_2 i
  | _ => ⟨S20000x1280, .f32⟩

abbrev bufTy : (tb : Table) → Fin (tcTables nBuf tb) → BufTy
  | .hbm, ⟨i, _⟩ => hbmTy i
  | _, _ => ⟨S20000x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call0_cst : Ref sig .tc := ⟨.hbm, 79, rfl⟩
abbrev main_call0_v0 : Ref sig .tc := ⟨.hbm, 80, rfl⟩
abbrev main_v49 : Ref sig .tc := ⟨.hbm, 81, rfl⟩
abbrev main_cst_7 : Ref sig .tc := ⟨.hbm, 82, rfl⟩
abbrev main_v50 : Ref sig .tc := ⟨.hbm, 83, rfl⟩
abbrev main_cst_8 : Ref sig .tc := ⟨.hbm, 84, rfl⟩
abbrev main_v51 : Ref sig .tc := ⟨.hbm, 85, rfl⟩
abbrev main_v52 : Ref sig .tc := ⟨.hbm, 86, rfl⟩
abbrev main_c_9 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_cst_3 : Ref sig .tc := ⟨.hbm, 104, rfl⟩
abbrev main_call1_v12 : Ref sig .tc := ⟨.hbm, 105, rfl⟩
abbrev main_call1_cst_4 : Ref sig .tc := ⟨.hbm, 106, rfl⟩
abbrev main_call1_call0_v0 : Ref sig .tc := ⟨.hbm, 107, rfl⟩
abbrev main_call1_call0_v1 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_10 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_11 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_12 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_c_13 : Ref sig .tc := ⟨.hbm, 135, rfl⟩
abbrev main_v76 : Ref sig .tc := ⟨.hbm, 136, rfl⟩
abbrev main_v77 : Ref sig .tc := ⟨.hbm, 137, rfl⟩
abbrev main_c_14 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_c_15 : Ref sig .tc := ⟨.hbm, 145, rfl⟩
abbrev main_v84 : Ref sig .tc := ⟨.hbm, 146, rfl⟩
abbrev main_v85 : Ref sig .tc := ⟨.hbm, 147, rfl⟩
abbrev main_c_16 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_c_17 : Ref sig .tc := ⟨.hbm, 156, rfl⟩
abbrev main_v93 : Ref sig .tc := ⟨.hbm, 157, rfl⟩
abbrev main_v94 : Ref sig .tc := ⟨.hbm, 158, rfl⟩
abbrev main_c_18 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_cst_19 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_call2_cst : Ref sig .tc := ⟨.hbm, 179, rfl⟩
abbrev main_call2_v0 : Ref sig .tc := ⟨.hbm, 180, rfl⟩
abbrev main_v113 : Ref sig .tc := ⟨.hbm, 181, rfl⟩
abbrev main_cst_20 : Ref sig .tc := ⟨.hbm, 182, rfl⟩
abbrev main_v114 : Ref sig .tc := ⟨.hbm, 183, rfl⟩
abbrev main_cst_21 : Ref sig .tc := ⟨.hbm, 184, rfl⟩
abbrev main_v115 : Ref sig .tc := ⟨.hbm, 185, rfl⟩
abbrev main_v116 : Ref sig .tc := ⟨.hbm, 186, rfl⟩
abbrev main_c_22 : Ref sig .tc := ⟨.hbm, 187, rfl⟩
abbrev main_call3_cst : Ref sig .tc := ⟨.hbm, 188, rfl⟩
abbrev main_call3_v0 : Ref sig .tc := ⟨.hbm, 189, rfl⟩
abbrev main_call3_v1 : Ref sig .tc := ⟨.hbm, 190, rfl⟩
abbrev main_call3_cst_0 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_v5 : Ref sig .tc := ⟨.hbm, 195, rfl⟩
abbrev main_call3_v6 : Ref sig .tc := ⟨.hbm, 196, rfl⟩
abbrev main_call3_v7 : Ref sig .tc := ⟨.hbm, 197, rfl⟩
abbrev main_call3_cst_1 : Ref sig .tc := ⟨.hbm, 198, rfl⟩
abbrev main_call3_v8 : Ref sig .tc := ⟨.hbm, 199, rfl⟩
abbrev main_call3_cst_2 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_cst_3 : Ref sig .tc := ⟨.hbm, 204, rfl⟩
abbrev main_call3_v12 : Ref sig .tc := ⟨.hbm, 205, rfl⟩
abbrev main_call3_cst_4 : Ref sig .tc := ⟨.hbm, 206, rfl⟩
abbrev main_call3_call0_v0 : Ref sig .tc := ⟨.hbm, 207, rfl⟩
abbrev main_call3_call0_v1 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_cst_23 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_cst_24 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_cst_25 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_c_26 : Ref sig .tc := ⟨.hbm, 235, rfl⟩
abbrev main_v140 : Ref sig .tc := ⟨.hbm, 236, rfl⟩
abbrev main_v141 : Ref sig .tc := ⟨.hbm, 237, rfl⟩
abbrev main_c_27 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_c_28 : Ref sig .tc := ⟨.hbm, 245, rfl⟩
abbrev main_v148 : Ref sig .tc := ⟨.hbm, 246, rfl⟩
abbrev main_v149 : Ref sig .tc := ⟨.hbm, 247, rfl⟩
abbrev main_c_29 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_c_30 : Ref sig .tc := ⟨.hbm, 256, rfl⟩
abbrev main_v157 : Ref sig .tc := ⟨.hbm, 257, rfl⟩
abbrev main_v158 : Ref sig .tc := ⟨.hbm, 258, rfl⟩
abbrev main_c_31 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_cst_32 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_cst_33 : Ref sig .tc := ⟨.hbm, 279, rfl⟩
abbrev main_v177 : Ref sig .tc := ⟨.hbm, 280, rfl⟩
abbrev main_cst_34 : Ref sig .tc := ⟨.hbm, 281, rfl⟩
abbrev main_v178 : Ref sig .tc := ⟨.hbm, 282, rfl⟩
abbrev main_v179 : Ref sig .tc := ⟨.hbm, 283, rfl⟩
abbrev main_c_35 : Ref sig .tc := ⟨.hbm, 284, rfl⟩
abbrev main_call4_cst : Ref sig .tc := ⟨.hbm, 285, rfl⟩
abbrev main_call4_v0 : Ref sig .tc := ⟨.hbm, 286, rfl⟩
abbrev main_call4_v1 : Ref sig .tc := ⟨.hbm, 287, rfl⟩
abbrev main_call4_cst_0 : Ref sig .tc := ⟨.hbm, 288, rfl⟩
abbrev main_call4_v2 : Ref sig .tc := ⟨.hbm, 289, rfl⟩
abbrev main_call4_v3 : Ref sig .tc := ⟨.hbm, 290, rfl⟩
abbrev main_call4_v4 : Ref sig .tc := ⟨.hbm, 291, rfl⟩
abbrev main_call4_v5 : Ref sig .tc := ⟨.hbm, 292, rfl⟩
abbrev main_call4_v6 : Ref sig .tc := ⟨.hbm, 293, rfl⟩
abbrev main_call4_v7 : Ref sig .tc := ⟨.hbm, 294, rfl⟩
abbrev main_call4_cst_1 : Ref sig .tc := ⟨.hbm, 295, rfl⟩
abbrev main_call4_v8 : Ref sig .tc := ⟨.hbm, 296, rfl⟩
abbrev main_call4_cst_2 : Ref sig .tc := ⟨.hbm, 297, rfl⟩
abbrev main_call4_v9 : Ref sig .tc := ⟨.hbm, 298, rfl⟩
abbrev main_call4_v10 : Ref sig .tc := ⟨.hbm, 299, rfl⟩
abbrev main_call4_v11 : Ref sig .tc := ⟨.hbm, 300, rfl⟩
abbrev main_call4_cst_3 : Ref sig .tc := ⟨.hbm, 301, rfl⟩
abbrev main_call4_v12 : Ref sig .tc := ⟨.hbm, 302, rfl⟩
abbrev main_call4_cst_4 : Ref sig .tc := ⟨.hbm, 303, rfl⟩
abbrev main_call4_call0_v0 : Ref sig .tc := ⟨.hbm, 304, rfl⟩
abbrev main_call4_call0_v1 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_cst_36 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_cst_37 : Ref sig .tc := ⟨.hbm, 323, rfl⟩
abbrev main_v196 : Ref sig .tc := ⟨.hbm, 324, rfl⟩
abbrev main_v197 : Ref sig .tc := ⟨.hbm, 325, rfl⟩
abbrev main_v198 : Ref sig .tc := ⟨.hbm, 326, rfl⟩
abbrev main_cst_38 : Ref sig .tc := ⟨.hbm, 327, rfl⟩
abbrev main_v199 : Ref sig .tc := ⟨.hbm, 328, rfl⟩
abbrev main_cst_39 : Ref sig .tc := ⟨.hbm, 329, rfl⟩
abbrev main_v200 : Ref sig .tc := ⟨.hbm, 330, rfl⟩
abbrev main_v201 : Ref sig .tc := ⟨.hbm, 331, rfl⟩
abbrev main_v202 : Ref sig .tc := ⟨.hbm, 332, rfl⟩
abbrev main_cst_40 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_v211 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_cst_41 : Ref sig .tc := ⟨.hbm, 350, rfl⟩
abbrev main_v219 : Ref sig .tc := ⟨.hbm, 351, rfl⟩
abbrev main_v220 : Ref sig .tc := ⟨.hbm, 352, rfl⟩
abbrev main_cst_42 : Ref sig .tc := ⟨.hbm, 353, rfl⟩
abbrev main_v221 : Ref sig .tc := ⟨.hbm, 354, rfl⟩
abbrev main_v222 : Ref sig .tc := ⟨.hbm, 355, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S320000x1_S320000 : S320000x1.ShapeCasts S320000
  bcast_S_S20000 : S_.BroadcastsInDim S20000 (![] : Fin 0 → Fin S20000.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S256_d0 : S20000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S16x256 : S_.BroadcastsInDim S16x256 (![] : Fin 0 → Fin S16x256.rank)
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S1x256_S16x256_0_1 : S1x256.BroadcastsInDim S16x256 (![0, 1] : Fin 2 → Fin S16x256.rank)
  bcast_S500_S1x500_1 : S500.BroadcastsInDim S1x500 (![1] : Fin 1 → Fin S1x500.rank)
  bcast_S1x500_S16x500_0_1 : S1x500.BroadcastsInDim S16x500 (![0, 1] : Fin 2 → Fin S16x500.rank)
  bcast_S_S16x500 : S_.BroadcastsInDim S16x500 (![] : Fin 0 → Fin S16x500.rank)
  dot_S20000x1280_S1280x256_S20000x256_1_0_0_1_n_n_wf : DotDims.WF S20000x1280 S1280x256 S20000x256 [1] [0] [0] [1] [] []
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []
  scatter_S16x256_S20000x1_S20000x256_1_0_0_1_wf : ScatterDims.WF S16x256 S20000x1 S20000x256 [1] [0] [0] 1
  scatter_S16_S20000x1_S20000_n_0_0_1_wf : ScatterDims.WF S16 S20000x1 S20000 [] [0] [0] 1
  dot_S16x1280_S1280x256_S16x256_1_0_0_1_n_n_wf : DotDims.WF S16x1280 S1280x256 S16x256 [1] [0] [0] [1] [] []
  dot_S16x256_S256x500_S16x500_1_0_0_1_n_n_wf : DotDims.WF S16x256 S256x500 S16x500 [1] [0] [0] [1] [] []

variable [Facts₀]

def dot_S20000x1280_S1280x256_S20000x256_1_0_0_1_n_n : DotDims S20000x1280 S1280x256 S20000x256 where
  lhsContracting := [1]
  rhsContracting := [0]
  lhsNonContracting := [0]
  rhsNonContracting := [1]
  lhsBatch := []
  rhsBatch := []
  wf := dot_S20000x1280_S1280x256_S20000x256_1_0_0_1_n_n_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S16x256_S20000x1_S20000x256_1_0_0_1 : ScatterDims S16x256 S20000x1 S20000x256 where
  updateWindowDims := [1]
  insertedWindowDims := [0]
  scatterDimsToOperandDims := [0]
  indexVectorDim := 1
  wf := scatter_S16x256_S20000x1_S20000x256_1_0_0_1_wf
def scatter_S16_S20000x1_S20000_n_0_0_1 : ScatterDims S16 S20000x1 S20000 where
  updateWindowDims := []
  insertedWindowDims := [0]
  scatterDimsToOperandDims := [0]
  indexVectorDim := 1
  wf := scatter_S16_S20000x1_S20000_n_0_0_1_wf
def dot_S16x1280_S1280x256_S16x256_1_0_0_1_n_n : DotDims S16x1280 S1280x256 S16x256 where
  lhsContracting := [1]
  rhsContracting := [0]
  lhsNonContracting := [0]
  rhsNonContracting := [1]
  lhsBatch := []
  rhsBatch := []
  wf := dot_S16x1280_S1280x256_S16x256_1_0_0_1_n_n_wf
def dot_S16x256_S256x500_S16x500_1_0_0_1_n_n : DotDims S16x256 S256x500 S16x500 where
  lhsContracting := [1]
  rhsContracting := [0]
  lhsNonContracting := [0]
  rhsNonContracting := [1]
  lhsBatch := []
  rhsBatch := []
  wf := dot_S16x256_S256x500_S16x500_1_0_0_1_n_n_wf

class Facts : Prop extends Facts₀ where

variable [Facts]
-- ==== Proof.RefOps.lean ====
import proofs.«116345_j32049045962841_1_alg».proof.ReferenceIdeal

/-!
# The host program's operations, in order, in named stretches

The host program is a straight line of array operations; where it calls one of its own functions the callee's
operations stand in the call's place, over that call's buffers. The line is cut into the stretches below, each a
list of operations in program order; `ops` is their concatenation, nested to the right.
-/

noncomputable section

namespace Cert.ReferenceIdeal.Run

open Cert.ReferenceIdeal Idealize.ShloMosaic Idealize.SL.Sem
open Facts₀ Facts

variable {F : FTy → Type} [FloatOps F] [Facts]

/-- The edge list read apart: the two rows of the index table, each flattened, and the edge weights flattened. (%0 … %4: 5 operations.) -/
abbrev rA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.reshape main_arg2 main_v4 rfl shapeCasts_S320000x1_S320000 ]

/-- Layer 1's product of the node features with its weight matrix. (%5: 1 operation.) -/
abbrev r5 : List (HloOp τ sig (Elt F)) :=
  [ StableHlo.binary main_arg0 main_arg5 main_v5 ((fun l r => Host.dotGeneral dot_S20000x1280_S1280x256_S20000x256_1_0_0_1_n_n none l r) : (⟨S20000x1280, .f32⟩ : BufTy).Contents (Elt F) → (⟨S1280x256, .f32⟩ : BufTy).Contents (Elt F) → (⟨S20000x256, .f32⟩ : BufTy).Contents (Elt F)) ]

/-- Layer 1's edge coefficients: the weighted in-degree plus one, its inverse square root `d`, and per edge `d[row] * w * d[col]`. (%cst … %27: 28 operations.) -/
abbrev rN1 : List (HloOp τ sig (Elt F)) :=
  [ StableHlo.nullary main_cst (constant S_ .f32 0x00000000#32),
    StableHlo.unary main_cst main_v6 (broadcastInDim S20000 ![] bcast_S_S20000 : (⟨S_, .f32⟩ : BufTy).Contents (Elt F) → (⟨S20000, .f32⟩ : BufTy).Contents (Elt F)),
    StableHlo.unary main_v3 main_v7 (broadcastInDim S320000x1 ![0] bcast_S320000_S320000x1_0 : (⟨S320000, .i32⟩ : BufTy).Contents (Elt F) → (⟨S320000x1, .i32⟩ : BufTy).Contents (Elt F)),
    StableHlo.ternary main_v6 main_v7 main_v4 main_v8 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_0 (constant S_ .f32 0x3F800000#32),
    StableHlo.unary main_cst_0 main_v9 (broadcastInDim S20000 ![] bcast_S_S20000 : (⟨S_, .f32⟩ : BufTy).Contents (Elt F) → (⟨S20000, .f32⟩ : BufTy).Contents (Elt F)),
    StableHlo.binary main_v8 main_v9 main_v10 (addf : (⟨S20000, .f32⟩ : BufTy).Contents (Elt F) → (⟨S20000, .f32⟩ : BufTy).Contents (Elt F) → (⟨S20000, .f32⟩ : BufTy).Contents (Elt F)),
    StableHlo.unary main_v10 main_v11 (Host.rsqrt : (⟨S20000, .f32⟩ : BufTy).Contents (Elt F) → (⟨S20000, .f32⟩ : BufTy).Contents (Elt F)),
    StableHlo.nullary main_c (constantI S_ 32 0#32),
    StableHlo.unary main_c main_v12 (broadcastInDim S320000 ![] bcast_S_S320000 : (⟨S_, .i32⟩ : BufTy).Contents (Elt F) → (⟨S320000, .i32⟩ : BufTy).Contents (Elt F)),
    StableHlo.binary main_v1 main_v12 main_v13 (cmpi .slt : (⟨S320000, .i32⟩ : BufTy).Contents (Elt F) → (⟨S320000, .i32⟩ : BufTy).Contents (Elt F) → (⟨S320000, .i1⟩ : BufTy).Contents (Elt F)),
    StableHlo.nullary main_c_1 (constantI S_ 32 20000#32),
    StableHlo.unary main_c_1 main_v14 (broadcastInDim S320000 ![] bcast_S_S320000 : (⟨S_, .i32⟩ : BufTy).Contents (Elt F) → (⟨S320000, .i32⟩ : BufTy).Contents (Elt F)),
    StableHlo.binary main_v1 main_v14 main_v15 (addi : (⟨S320000, .i32⟩ : BufTy).Contents (Elt F) → (⟨S320000, .i32⟩ : BufTy).Contents (Elt F) → (⟨S320000, .i32⟩ : BufTy).Contents (Elt F)),
    StableHlo.ternary main_v13 main_v15 main_v1 main_v16 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v16 main_v17 (broadcastInDim S320000x1 ![0] bcast_S320000_S320000x1_0 : (⟨S320000, .i32⟩ : BufTy).Contents (Elt F) → (⟨S320000x1, .i32⟩ : BufTy).Contents (Elt F)),
    StableHlo.binary main_v11 main_v17 main_v18 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.binary main_v18 main_v4 main_v19 (mulf : (⟨S320000, .f32⟩ : BufTy).Contents (Elt F) → (⟨S320000, .f32⟩ : BufTy).Contents (Elt F) → (⟨S320000, .f32⟩ : BufTy).Contents (Elt F)),
    StableHlo.nullary main_c_2 (constantI S_ 32 0#32),
    StableHlo.unary main_c_2 main_v20 (broadcastInDim S320000 ![] bcast_S_S320000 : (⟨S_, .i32⟩ : BufTy).Contents (Elt F) → (⟨S320000, .i32⟩ : BufTy).Contents (Elt F)),
    StableHlo.binary main_v3 main_v20 main_v21 (cmpi .slt : (⟨S320000, .i32⟩ : BufTy).Contents (Elt F) → (⟨S320000, .i32⟩ : BufTy).Contents (Elt F) → (⟨S320000, .i1⟩ : BufTy).Contents (Elt F)),
    StableHlo.nullary main_c_3 (constantI S_ 32 20000#32),
    StableHlo.unary main_c_3 main_v22 (broadcastInDim S320000 ![] bcast_S_S320000 : (⟨S_, .i32⟩ : BufTy).Contents (Elt F) → (⟨S320000, .i32⟩ : BufTy).Contents (Elt F)),
    StableHlo.binary main_v3 main_v22 main_v23 (addi : (⟨S320000, .i32⟩ : BufTy).Contents (Elt F) → (⟨S320000, .i32⟩ : BufTy).Contents (Elt F) → (⟨S320000, .i32⟩ : BufTy).Contents (Elt F)),
    StableHlo.ternary main_v21 main_v23 main_v3 main_v24 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v24 main_v25 (broadcastInDim S320000x1 ![0] bcast_S320000_S320000x1_0 : (⟨S320000, .i32⟩ : BufTy).Contents (Elt F) → (⟨S320000x1, .i32⟩ : BufTy).Contents (Elt F)),
    StableHlo.binary main_v11 main_v25 main_v26 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.binary main_v19 main_v26 main_v27 (mulf : (⟨S320000, .f32⟩ : BufTy).Contents (Elt F) → (⟨S320000, .f32⟩ : BufTy).Contents (Elt F) → (⟨S320000, .f32⟩ : BufTy).Contents (Elt F)) ]

/-- Layer 1's neighbour sum: the product's rows gathered along the edges, scaled by the edge coefficients, added up at the target nodes. (%28 … %40: 16 operations.) -/
abbrev rL1a : List (HloOp τ sig (Elt F)) :=
  [ StableHlo.unary main_v27 main_v28 (broadcastInDim S320000x1 ![0] bcast_S320000_S320000x1_0 : (⟨S320000, .f32⟩ : BufTy).Contents (Elt F) → (⟨S320000x1, .f32⟩ : BufTy).Contents (Elt F)),
    StableHlo.nullary main_c_4 (constantI S_ 32 0#32),
    StableHlo.unary main_c_4 main_v29 (broadcastInDim S320000 ![] bcast_S_S320000 : (⟨S_, .i32⟩ : BufTy).Contents (Elt F) → (⟨S320000, .i32⟩ : BufTy).Contents (Elt F)),
    StableHlo.binary main_v1 main_v29 main_v30 (cmpi .slt : (⟨S320000, .i32⟩ : BufTy).Contents (Elt F) → (⟨S320000, .i32⟩ : BufTy).Contents (Elt F) → (⟨S320000, .i1⟩ : BufTy).Contents (Elt F)),
    StableHlo.nullary main_c_5 (constantI S_ 32 20000#32),
    StableHlo.unary main_c_5 main_v31 (broadcastInDim S320000 ![] bcast_S_S320000 : (⟨S_, .i32⟩ : BufTy).Contents (Elt F) → (⟨S320000, .i32⟩ : BufTy).Contents (Elt F)),
    StableHlo.binary main_v1 main_v31 main_v32 (addi : (⟨S320000, .i32⟩ : BufTy).Contents (Elt F) → (⟨S320000, .i32⟩ : BufTy).Contents (Elt F) → (⟨S320000, .i32⟩ : BufTy).Contents (Elt F)),
    StableHlo.ternary main_v30 main_v32 main_v1 main_v33 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v33 main_v34 (broadcastInDim S320000x1 ![0] bcast_S320000_S320000x1_0 : (⟨S320000, .i32⟩ : BufTy).Contents (Elt F) → (⟨S320000x1, .i32⟩ : BufTy).Contents (Elt F)),
    StableHlo.binary main_v5 main_v34 main_v35 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v28 main_v36 (broadcastInDim S320000x256 ![0, 1] bcast_S320000x1_S320000x256_0_1 : (⟨S320000x1, .f32⟩ : BufTy).Contents (Elt F) → (⟨S320000x256, .f32⟩ : BufTy).Contents (Elt F)),
    StableHlo.binary main_v36 main_v35 main_v37 (mulf : (⟨S320000x256, .f32⟩ : BufTy).Contents (Elt F) → (⟨S320000x256, .f32⟩ : BufTy).Contents (Elt F) → (⟨S320000x256, .f32⟩ : BufTy).Contents (Elt F)),
    StableHlo.nullary main_cst_6 (constant S_ .f32 0x00000000#32),
    StableHlo.unary main_cst_6 main_v38 (broadcastInDim S20000x256 ![] bcast_S_S20000x256 : (⟨S_, .f32⟩ : BufTy).Contents (Elt F) → (⟨S20000x256, .f32⟩ : BufTy).Contents (Elt F)),
    StableHlo.unary main_v3 main_v39 (broadcastInDim S320000x1 ![0] bcast_S320000_S320000x1_0 : (⟨S320000, .i32⟩ : BufTy).Contents (Elt F) → (⟨S320000x1, .i32⟩ : BufTy).Contents (Elt F)),
    StableHlo.ternary main_v38 main_v39 main_v37 main_v40 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

/-- Layer 1's self coefficient `d * d`. (%41: 1 operation.) -/
abbrev r41 : List (HloOp τ sig (Elt F)) :=
  [ StableHlo.binary main_v11 main_v11 main_v41 (mulf : (⟨S20000, .f32⟩ : BufTy).Contents (Elt F) → (⟨S20000, .f32⟩ : BufTy).Contents (Elt F) → (⟨S20000, .f32⟩ : BufTy).Contents (Elt F)) ]

/-- Layer 1's output and its statistics: the self term and the bias added, the rectifier, then the column means and the column variances. (%42 … %53: 38 operations.) -/
abbrev rL1b : List (HloOp τ sig (Elt F)) :=
  [ StableHlo.unary main_v41 main_v42 (broadcastInDim S20000x1 ![0] bcast_S20000_S20000x1_0 : (⟨S20000, .f32⟩ : BufTy).Contents (Elt F) → (⟨S20000x1, .f32⟩ : BufTy).Contents (Elt F)),
    StableHlo.unary main_v42 main_v43 (broadcastInDim S20000x256 ![0, 1] bcast_S20000x1_S20000x256_0_1 : (⟨S20000x1, .f32⟩ : BufTy).Contents (Elt F) → (⟨S20000x256, .f32⟩ : BufTy).Contents (Elt F)),
    StableHlo.binary main_v43 main_v5 main_v44 (mulf : (⟨S20000x256, .f32⟩ : BufTy).Contents (Elt F) → (⟨S20000x256, .f32⟩ : BufTy).Contents (Elt F) → (⟨S20000x256, .f32⟩ : BufTy).Contents (Elt F)),
    StableHlo.binary main_v40 main_v44 main_v45 (addf : (⟨S20000x256, .f32⟩ : BufTy).Contents (Elt F) → (⟨S20000x256, .f32⟩ : BufTy).Contents (Elt F) → (⟨S20000x256, .f32⟩ : BufTy).Contents (Elt F)),
    StableHlo.unary main_arg6 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S20000x256 ![0, 1] bcast_S1x256_S20000x256_0_1 : (⟨S1x256, .f32⟩ : BufTy).Contents (Elt F) → (⟨S20000x256, .f32⟩ : BufTy).Contents (Elt F)),
    StableHlo.binary main_v45 main_v47 main_v48 (addf : (⟨S20000x256, .f32⟩ : BufTy).Contents (Elt F) → (⟨S20000x256, .f32⟩ : BufTy).Contents (Elt F) → (⟨S20000x256, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S20000x256, .f32⟩) (broadcastInDim S20000x256 ![] bcast_S_S20000x256),
    StableHlo.TRef.binary (.of main_v48 : StableHlo.TRef sig ⟨S20000x256, .f32⟩) (.of main_call0_v0 : StableHlo.TRef sig ⟨S20000x256, .f32⟩) (.of main_v49 : StableHlo.TRef sig ⟨S20000x256, .f32⟩) maximumf,
    StableHlo.nullary main_cst_7 (constant S_ .f32 0x00000000#32),
    StableHlo.binary main_v49 main_cst_7 main_v50 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_8 (constant S_ .f32 0x469C4000#32),
    StableHlo.unary main_cst_8 main_v51 (broadcastInDim S256 ![] bcast_S_S256 : (⟨S_, .f32⟩ : BufTy).Contents (Elt F) → (⟨S256, .f32⟩ : BufTy).Contents (Elt F)),
    StableHlo.binary main_v50 main_v51 main_v52 (Host.divf : (⟨S256, .f32⟩ : BufTy).Contents (Elt F) → (⟨S256, .f32⟩ : BufTy).Contents (Elt F) → (⟨S256, .f32⟩ : BufTy).Contents (Elt F)),
    StableHlo.nullary main_c_9 (constantI S_ 32 0#32),
    StableHlo.TRef.nullary (.of main_call1_cst : StableHlo.TRef sig ⟨S_, .f32⟩) (constant S_ .f32 0x00000000#32),
    StableHlo.TRef.binary (.of main_v49 : StableHlo.TRef sig ⟨S20000x256, .f32⟩) (.of main_call1_cst : StableHlo.TRef sig ⟨S_, .f32⟩) (.of main_call1_v0 : StableHlo.TRef sig ⟨S256, .f32⟩) (fun x v => Host.reduceAdd x v reducesTo_S20000x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x469C4000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S20000x256, .f32⟩) (broadcastInDim S20000x256 ![0, 1] bcast_S1x256_S20000x256_0_1),
    StableHlo.TRef.binary (.of main_v49 : StableHlo.TRef sig ⟨S20000x256, .f32⟩) (.of main_call1_v4 : StableHlo.TRef sig ⟨S20000x256, .f32⟩) (.of main_call1_v5 : StableHlo.TRef sig ⟨S20000x256, .f32⟩) subf,
    StableHlo.TRef.binary (.of main_call1_v5 : StableHlo.TRef sig ⟨S20000x256, .f32⟩) (.of main_call1_v5 : StableHlo.TRef sig ⟨S20000x256, .f32⟩) (.of main_call1_v6 : StableHlo.TRef sig ⟨S20000x256, .f32⟩) mulf,
    StableHlo.TRef.unary (.of main_c_9 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x469C4000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S20000x256, .f32⟩) (.of main_call1_cst_2 : StableHlo.TRef sig ⟨S_, .f32⟩) (.of main_call1_v9 : StableHlo.TRef sig ⟨S256, .f32⟩) (fun x v => Host.reduceAdd x v reducesTo_S20000x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v53 : StableHlo.TRef sig ⟨S256, .f32⟩) (fun p a b => select (broadcastInDim S256 ![] bcast_S_S256 p) a b) ]

/-- Layer 1's normalisation: `(x - mean) * rsqrt (var + ε) * g + be`, column-wise. (%54 … %68: 16 operations.) -/
abbrev rBN1 : List (HloOp τ sig (Elt F)) :=
  [ StableHlo.unary main_v52 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S20000x256 ![0, 1] bcast_S1x256_S20000x256_0_1 : (⟨S1x256, .f32⟩ : BufTy).Contents (Elt F) → (⟨S20000x256, .f32⟩ : BufTy).Contents (Elt F)),
    StableHlo.binary main_v49 main_v55 main_v56 (subf : (⟨S20000x256, .f32⟩ : BufTy).Contents (Elt F) → (⟨S20000x256, .f32⟩ : BufTy).Contents (Elt F) → (⟨S20000x256, .f32⟩ : BufTy).Contents (Elt F)),
    StableHlo.nullary main_cst_10 (constant S_ .f32 0x3727C5AC#32),
    StableHlo.unary main_cst_10 main_v57 (broadcastInDim S256 ![] bcast_S_S256 : (⟨S_, .f32⟩ : BufTy).Contents (Elt F) → (⟨S256, .f32⟩ : BufTy).Contents (Elt F)),
    StableHlo.binary main_v53 main_v57 main_v58 (addf : (⟨S256, .f32⟩ : BufTy).Contents (Elt F) → (⟨S256, .f32⟩ : BufTy).Contents (Elt F) → (⟨S256, .f32⟩ : BufTy).Contents (Elt F)),
    StableHlo.unary main_v58 main_v59 (Host.rsqrt : (⟨S256, .f32⟩ : BufTy).Contents (Elt F) → (⟨S256, .f32⟩ : BufTy).Contents (Elt F)),
    StableHlo.unary main_v59 main_v60 (broadcastInDim S1x256 ![1] bcast_S256_S1x256_1 : (⟨S256, .f32⟩ : BufTy).Contents (Elt F) → (⟨S1x256, .f32⟩ : BufTy).Contents (Elt F)),
    StableHlo.unary main_v60 main_v61 (broadcastInDim S20000x256 ![0, 1] bcast_S1x256_S20000x256_0_1 : (⟨S1x256, .f32⟩ : BufTy).Contents (Elt F) → (⟨S20000x256, .f32⟩ : BufTy).Contents (Elt F)),
    StableHlo.binary main_v56 main_v61 main_v62 (mulf : (⟨S20000x256, .f32⟩ : BufTy).Contents (Elt F) → (⟨S20000x256, .f32⟩ : BufTy).Contents (Elt F) → (⟨S20000x256, .f32⟩ : BufTy).Contents (Elt F)),
    StableHlo.unary main_arg7 main_v63 (broadcastInDim S1x256 ![1] bcast_S256_S1x256_1 : (⟨S256, .f32⟩ : BufTy).Contents (Elt F) → (⟨S1x256, .f32⟩ : BufTy).Contents (Elt F)),
    StableHlo.unary main_v63 main_v64 (broadcastInDim S20000x256 ![0, 1] bcast_S1x256_S20000x256_0_1 : (⟨S1x256, .f32⟩ : BufTy).Contents (Elt F) → (⟨S20000x256, .f32⟩ : BufTy).Contents (Elt F)),
    StableHlo.binary main_v62 main_v64 main_v65 (mulf : (⟨S20000x256, .f32⟩ : BufTy).Contents (Elt F) → (⟨S20000x256, .f32⟩ : BufTy).Contents (Elt F) → (⟨S20000x256, .f32⟩ : BufTy).Contents (Elt F)),
    StableHlo.unary main_arg8 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S20000x256 ![0, 1] bcast_S1x256_S20000x256_0_1 : (⟨S1x256, .f32⟩ : BufTy).Contents (Elt F) → (⟨S20000x256, .f32⟩ : BufTy).Contents (Elt F)),
    StableHlo.binary main_v65 main_v67 main_v68 (addf : (⟨S20000x256, .f32⟩ : BufTy).Contents (Elt F) → (⟨S20000x256, .f32⟩ : BufTy).Contents (Elt F) → (⟨S20000x256, .f32⟩ : BufTy).Contents (Elt F)) ]

/-- Layer 2's product with its weight matrix. (%69: 1 operation.) -/
abbrev r69 : List (HloOp τ sig (Elt F)) :=
  [ StableHlo.binary main_v68 main_arg9 main_v69 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

/-- Layer 2's edge coefficients, computed as layer 1's. (%cst_11 … %91: 28 operations.) -/
abbrev rN2 : List (HloOp τ sig (Elt F)) :=
  [ StableHlo.nullary main_cst_11 (constant S_ .f32 0x00000000#32),
    StableHlo.unary main_cst_11 main_v70 (broadcastInDim S20000 ![] bcast_S_S20000 : (⟨S_, .f32⟩ : BufTy).Contents (Elt F) → (⟨S20000, .f32⟩ : BufTy).Contents (Elt F)),
    StableHlo.unary main_v3 main_v71 (broadcastInDim S320000x1 ![0] bcast_S320000_S320000x1_0 : (⟨S320000, .i32⟩ : BufTy).Contents (Elt F) → (⟨S320000x1, .i32⟩ : BufTy).Contents (Elt F)),
    StableHlo.ternary main_v70 main_v71 main_v4 main_v72 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_12 (constant S_ .f32 0x3F800000#32),
    StableHlo.unary main_cst_12 main_v73 (broadcastInDim S20000 ![] bcast_S_S20000 : (⟨S_, .f32⟩ : BufTy).Contents (Elt F) → (⟨S20000, .f32⟩ : BufTy).Contents (Elt F)),
    StableHlo.binary main_v72 main_v73 main_v74 (addf : (⟨S20000, .f32⟩ : BufTy).Contents (Elt F) → (⟨S20000, .f32⟩ : BufTy).Contents (Elt F) → (⟨S20000, .f32⟩ : BufTy).Contents (Elt F)),
    StableHlo.unary main_v74 main_v75 (Host.rsqrt : (⟨S20000, .f32⟩ : BufTy).Contents (Elt F) → (⟨S20000, .f32⟩ : BufTy).Contents (Elt F)),
    StableHlo.nullary main_c_13 (constantI S_ 32 0#32),
    StableHlo.unary main_c_13 main_v76 (broadcastInDim S320000 ![] bcast_S_S320000 : (⟨S_, .i32⟩ : BufTy).Contents (Elt F) → (⟨S320000, .i32⟩ : BufTy).Contents (Elt F)),
    StableHlo.binary main_v1 main_v76 main_v77 (cmpi .slt : (⟨S320000, .i32⟩ : BufTy).Contents (Elt F) → (⟨S320000, .i32⟩ : BufTy).Contents (Elt F) → (⟨S320000, .i1⟩ : BufTy).Contents (Elt F)),
    StableHlo.nullary main_c_14 (constantI S_ 32 20000#32),
    StableHlo.unary main_c_14 main_v78 (broadcastInDim S320000 ![] bcast_S_S320000 : (⟨S_, .i32⟩ : BufTy).Contents (Elt F) → (⟨S320000, .i32⟩ : BufTy).Contents (Elt F)),
    StableHlo.binary main_v1 main_v78 main_v79 (addi : (⟨S320000, .i32⟩ : BufTy).Contents (Elt F) → (⟨S320000, .i32⟩ : BufTy).Contents (Elt F) → (⟨S320000, .i32⟩ : BufTy).Contents (Elt F)),
    StableHlo.ternary main_v77 main_v79 main_v1 main_v80 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v80 main_v81 (broadcastInDim S320000x1 ![0] bcast_S320000_S320000x1_0 : (⟨S320000, .i32⟩ : BufTy).Contents (Elt F) → (⟨S320000x1, .i32⟩ : BufTy).Contents (Elt F)),
    StableHlo.binary main_v75 main_v81 main_v82 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.binary main_v82 main_v4 main_v83 (mulf : (⟨S320000, .f32⟩ : BufTy).Contents (Elt F) → (⟨S320000, .f32⟩ : BufTy).Contents (Elt F) → (⟨S320000, .f32⟩ : BufTy).Contents (Elt F)),
    StableHlo.nullary main_c_15 (constantI S_ 32 0#32),
    StableHlo.unary main_c_15 main_v84 (broadcastInDim S320000 ![] bcast_S_S320000 : (⟨S_, .i32⟩ : BufTy).Contents (Elt F) → (⟨S320000, .i32⟩ : BufTy).Contents (Elt F)),
    StableHlo.binary main_v3 main_v84 main_v85 (cmpi .slt : (⟨S320000, .i32⟩ : BufTy).Contents (Elt F) → (⟨S320000, .i32⟩ : BufTy).Contents (Elt F) → (⟨S320000, .i1⟩ : BufTy).Contents (Elt F)),
    StableHlo.nullary main_c_16 (constantI S_ 32 20000#32),
    StableHlo.unary main_c_16 main_v86 (broadcastInDim S320000 ![] bcast_S_S320000 : (⟨S_, .i32⟩ : BufTy).Contents (Elt F) → (⟨S320000, .i32⟩ : BufTy).Contents (Elt F)),
    StableHlo.binary main_v3 main_v86 main_v87 (addi : (⟨S320000, .i32⟩ : BufTy).Contents (Elt F) → (⟨S320000, .i32⟩ : BufTy).Contents (Elt F) → (⟨S320000, .i32⟩ : BufTy).Contents (Elt F)),
    StableHlo.ternary main_v85 main_v87 main_v3 main_v88 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v88 main_v89 (broadcastInDim S320000x1 ![0] bcast_S320000_S320000x1_0 : (⟨S320000, .i32⟩ : BufTy).Contents (Elt F) → (⟨S320000x1, .i32⟩ : BufTy).Contents (Elt F)),
    StableHlo.binary main_v75 main_v89 main_v90 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.binary main_v83 main_v90 main_v91 (mulf : (⟨S320000, .f32⟩ : BufTy).Contents (Elt F) → (⟨S320000, .f32⟩ : BufTy).Contents (Elt F) → (⟨S320000, .f32⟩ : BufTy).Contents (Elt F)) ]

/-- Layer 2's neighbour sum. (%92 … %104: 16 operations.) -/
abbrev rL2a : List (HloOp τ sig (Elt F)) :=
  [ StableHlo.unary main_v91 main_v92 (broadcastInDim S320000x1 ![0] bcast_S320000_S320000x1_0 : (⟨S320000, .f32⟩ : BufTy).Contents (Elt F) → (⟨S320000x1, .f32⟩ : BufTy).Contents (Elt F)),
    StableHlo.nullary main_c_17 (constantI S_ 32 0#32),
    StableHlo.unary main_c_17 main_v93 (broadcastInDim S320000 ![] bcast_S_S320000 : (⟨S_, .i32⟩ : BufTy).Contents (Elt F) → (⟨S320000, .i32⟩ : BufTy).Contents (Elt F)),
    StableHlo.binary main_v1 main_v93 main_v94 (cmpi .slt : (⟨S320000, .i32⟩ : BufTy).Contents (Elt F) → (⟨S320000, .i32⟩ : BufTy).Contents (Elt F) → (⟨S320000, .i1⟩ : BufTy).Contents (Elt F)),
    StableHlo.nullary main_c_18 (constantI S_ 32 20000#32),
    StableHlo.unary main_c_18 main_v95 (broadcastInDim S320000 ![] bcast_S_S320000 : (⟨S_, .i32⟩ : BufTy).Contents (Elt F) → (⟨S320000, .i32⟩ : BufTy).Contents (Elt F)),
    StableHlo.binary main_v1 main_v95 main_v96 (addi : (⟨S320000, .i32⟩ : BufTy).Contents (Elt F) → (⟨S320000, .i32⟩ : BufTy).Contents (Elt F) → (⟨S320000, .i32⟩ : BufTy).Contents (Elt F)),
    StableHlo.ternary main_v94 main_v96 main_v1 main_v97 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v97 main_v98 (broadcastInDim S320000x1 ![0] bcast_S320000_S320000x1_0 : (⟨S320000, .i32⟩ : BufTy).Contents (Elt F) → (⟨S320000x1, .i32⟩ : BufTy).Contents (Elt F)),
    StableHlo.binary main_v69 main_v98 main_v99 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v92 main_v100 (broadcastInDim S320000x256 ![0, 1] bcast_S320000x1_S320000x256_0_1 : (⟨S320000x1, .f32⟩ : BufTy).Contents (Elt F) → (⟨S320000x256, .f32⟩ : BufTy).Contents (Elt F)),
    StableHlo.binary main_v100 main_v99 main_v101 (mulf : (⟨S320000x256, .f32⟩ : BufTy).Contents (Elt F) → (⟨S320000x256, .f32⟩ : BufTy).Contents (Elt F) → (⟨S320000x256, .f32⟩ : BufTy).Contents (Elt F)),
    StableHlo.nullary main_cst_19 (constant S_ .f32 0x00000000#32),
    StableHlo.unary main_cst_19 main_v102 (broadcastInDim S20000x256 ![] bcast_S_S20000x256 : (⟨S_, .f32⟩ : BufTy).Contents (Elt F) → (⟨S20000x256, .f32⟩ : BufTy).Contents (Elt F)),
    StableHlo.unary main_v3 main_v103 (broadcastInDim S320000x1 ![0] bcast_S320000_S320000x1_0 : (⟨S320000, .i32⟩ : BufTy).Contents (Elt F) → (⟨S320000x1, .i32⟩ : BufTy).Contents (Elt F)),
    StableHlo.ternary main_v102 main_v103 main_v101 main_v104 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

/-- Layer 2's self coefficient `d * d`. (%105: 1 operation.) -/
abbrev r105 : List (HloOp τ sig (Elt F)) :=
  [ StableHlo.binary main_v75 main_v75 main_v105 (mulf : (⟨S20000, .f32⟩ : BufTy).Contents (Elt F) → (⟨S20000, .f32⟩ : BufTy).Contents (Elt F) → (⟨S20000, .f32⟩ : BufTy).Contents (Elt F)) ]

/-- Layer 2's output and its statistics: the self term and the bias added, the rectifier, then the column means and the column variances. (%106 … %117: 38 operations.) -/
abbrev rL2b : List (HloOp τ sig (Elt F)) :=
  [ StableHlo.unary main_v105 main_v106 (broadcastInDim S20000x1 ![0] bcast_S20000_S20000x1_0 : (⟨S20000, .f32⟩ : BufTy).Contents (Elt F) → (⟨S20000x1, .f32⟩ : BufTy).Contents (Elt F)),
    StableHlo.unary main_v106 main_v107 (broadcastInDim S20000x256 ![0, 1] bcast_S20000x1_S20000x256_0_1 : (⟨S20000x1, .f32⟩ : BufTy).Contents (Elt F) → (⟨S20000x256, .f32⟩ : BufTy).Contents (Elt F)),
    StableHlo.binary main_v107 main_v69 main_v108 (mulf : (⟨S20000x256, .f32⟩ : BufTy).Contents (Elt F) → (⟨S20000x256, .f32⟩ : BufTy).Contents (Elt F) → (⟨S20000x256, .f32⟩ : BufTy).Contents (Elt F)),
    StableHlo.binary main_v104 main_v108 main_v109 (addf : (⟨S20000x256, .f32⟩ : BufTy).Contents (Elt F) → (⟨S20000x256, .f32⟩ : BufTy).Contents (Elt F) → (⟨S20000x256, .f32⟩ : BufTy).Contents (Elt F)),
    StableHlo.unary main_arg10 main_v110 (broadcastInDim S1x256 ![1] bcast_S256_S1x256_1 : (⟨S256, .f32⟩ : BufTy).Contents (Elt F) → (⟨S1x256, .f32⟩ : BufTy).Contents (Elt F)),
    StableHlo.unary main_v110 main_v111 (broadcastInDim S20000x256 ![0, 1] bcast_S1x256_S20000x256_0_1 : (⟨S1x256, .f32⟩ : BufTy).Contents (Elt F) → (⟨S20000x256, .f32⟩ : BufTy).Contents (Elt F)),
    StableHlo.binary main_v109 main_v111 main_v112 (addf : (⟨S20000x256, .f32⟩ : BufTy).Contents (Elt F) → (⟨S20000x256, .f32⟩ : BufTy).Contents (Elt F) → (⟨S20000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S20000x256, .f32⟩) (broadcastInDim S20000x256 ![] bcast_S_S20000x256),
    StableHlo.TRef.binary (.of main_v112 : StableHlo.TRef sig ⟨S20000x256, .f32⟩) (.of main_call2_v0 : StableHlo.TRef sig ⟨S20000x256, .f32⟩) (.of main_v113 : StableHlo.TRef sig ⟨S20000x256, .f32⟩) maximumf,
    StableHlo.nullary main_cst_20 (constant S_ .f32 0x00000000#32),
    StableHlo.binary main_v113 main_cst_20 main_v114 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_21 (constant S_ .f32 0x469C4000#32),
    StableHlo.unary main_cst_21 main_v115 (broadcastInDim S256 ![] bcast_S_S256 : (⟨S_, .f32⟩ : BufTy).Contents (Elt F) → (⟨S256, .f32⟩ : BufTy).Contents (Elt F)),
    StableHlo.binary main_v114 main_v115 main_v116 (Host.divf : (⟨S256, .f32⟩ : BufTy).Contents (Elt F) → (⟨S256, .f32⟩ : BufTy).Contents (Elt F) → (⟨S256, .f32⟩ : BufTy).Contents (Elt F)),
    StableHlo.nullary main_c_22 (constantI S_ 32 0#32),
    StableHlo.TRef.nullary (.of main_call3_cst : StableHlo.TRef sig ⟨S_, .f32⟩) (constant S_ .f32 0x00000000#32),
    StableHlo.TRef.binary (.of main_v113 : StableHlo.TRef sig ⟨S20000x256, .f32⟩) (.of main_call3_cst : StableHlo.TRef sig ⟨S_, .f32⟩) (.of main_call3_v0 : StableHlo.TRef sig ⟨S256, .f32⟩) (fun x v => Host.reduceAdd x v reducesTo_S20000x256_S256_d0 h_S_),
    StableHlo.TRef.unary (.of main_call3_v0 : StableHlo.TRef sig ⟨S256, .f32⟩) (.of main_call3_v1 : StableHlo.TRef sig ⟨S1x256, .f32⟩) (broadcastInDim S1x256 ![1] bcast_S256_S1x256_1),
    StableHlo.TRef.nullary (.of main_call3_cst_0 : StableHlo.TRef sig ⟨S_, .f32⟩) (constant S_ .f32 0x469C4000#32),
    StableHlo.TRef.unary (.of main_call3_cst_0 : StableHlo.TRef sig ⟨S_, .f32⟩) (.of main_call3_v2 : StableHlo.TRef sig ⟨S1x256, .f32⟩) (broadcastInDim S1x256 ![] bcast_S_S1x256),
    StableHlo.TRef.binary (.of main_call3_v1 : StableHlo.TRef sig ⟨S1x256, .f32⟩) (.of main_call3_v2 : StableHlo.TRef sig ⟨S1x256, .f32⟩) (.of main_call3_v3 : StableHlo.TRef sig ⟨S1x256, .f32⟩) Host.divf,
    StableHlo.TRef.unary (.of main_call3_v3 : StableHlo.TRef sig ⟨S1x256, .f32⟩) (.of main_call3_v4 : StableHlo.TRef sig ⟨S20000x256, .f32⟩) (broadcastInDim S20000x256 ![0, 1] bcast_S1x256_S20000x256_0_1),
    StableHlo.TRef.binary (.of main_v113 : StableHlo.TRef sig ⟨S20000x256, .f32⟩) (.of main_call3_v4 : StableHlo.TRef sig ⟨S20000x256, .f32⟩) (.of main_call3_v5 : StableHlo.TRef sig ⟨S20000x256, .f32⟩) subf,
    StableHlo.TRef.binary (.of main_call3_v5 : StableHlo.TRef sig ⟨S20000x256, .f32⟩) (.of main_call3_v5 : StableHlo.TRef sig ⟨S20000x256, .f32⟩) (.of main_call3_v6 : StableHlo.TRef sig ⟨S20000x256, .f32⟩) mulf,
    StableHlo.TRef.unary (.of main_c_22 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x469C4000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S20000x256, .f32⟩) (.of main_call3_cst_2 : StableHlo.TRef sig ⟨S_, .f32⟩) (.of main_call3_v9 : StableHlo.TRef sig ⟨S256, .f32⟩) (fun x v => Host.reduceAdd x v reducesTo_S20000x256_S256_d0 h_S_),
    StableHlo.TRef.unary (.of main_call3_v8 : StableHlo.TRef sig ⟨S_, .f32⟩) (.of main_call3_v10 : StableHlo.TRef sig ⟨S256, .f32⟩) (broadcastInDim S256 ![] bcast_S_S256),
    StableHlo.TRef.binary (.of main_call3_v9 : StableHlo.TRef sig ⟨S256, .f32⟩) (.of main_call3_v10 : StableHlo.TRef sig ⟨S256, .f32⟩) (.of main_call3_v11 : StableHlo.TRef sig ⟨S256, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S256, .f32⟩) (broadcastInDim S256 ![] bcast_S_S256),
    StableHlo.TRef.ternary (.of main_call3_v12 : StableHlo.TRef sig ⟨S_, .i1⟩) (.of main_call3_v11 : StableHlo.TRef sig ⟨S256, .f32⟩) (.of main_call3_call0_v1 : StableHlo.TRef sig ⟨S256, .f32⟩) (.of main_v117 : StableHlo.TRef sig ⟨S256, .f32⟩) (fun p a b => select (broadcastInDim S256 ![] bcast_S_S256 p) a b) ]

/-- Layer 2's normalisation. (%118 … %132: 16 operations.) -/
abbrev rBN2 : List (HloOp τ sig (Elt F)) :=
  [ StableHlo.unary main_v116 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S20000x256 ![0, 1] bcast_S1x256_S20000x256_0_1 : (⟨S1x256, .f32⟩ : BufTy).Contents (Elt F) → (⟨S20000x256, .f32⟩ : BufTy).Contents (Elt F)),
    StableHlo.binary main_v113 main_v119 main_v120 (subf : (⟨S20000x256, .f32⟩ : BufTy).Contents (Elt F) → (⟨S20000x256, .f32⟩ : BufTy).Contents (Elt F) → (⟨S20000x256, .f32⟩ : BufTy).Contents (Elt F)),
    StableHlo.nullary main_cst_23 (constant S_ .f32 0x3727C5AC#32),
    StableHlo.unary main_cst_23 main_v121 (broadcastInDim S256 ![] bcast_S_S256 : (⟨S_, .f32⟩ : BufTy).Contents (Elt F) → (⟨S256, .f32⟩ : BufTy).Contents (Elt F)),
    StableHlo.binary main_v117 main_v121 main_v122 (addf : (⟨S256, .f32⟩ : BufTy).Contents (Elt F) → (⟨S256, .f32⟩ : BufTy).Contents (Elt F) → (⟨S256, .f32⟩ : BufTy).Contents (Elt F)),
    StableHlo.unary main_v122 main_v123 (Host.rsqrt : (⟨S256, .f32⟩ : BufTy).Contents (Elt F) → (⟨S256, .f32⟩ : BufTy).Contents (Elt F)),
    StableHlo.unary main_v123 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S20000x256 ![0, 1] bcast_S1x256_S20000x256_0_1 : (⟨S1x256, .f32⟩ : BufTy).Contents (Elt F) → (⟨S20000x256, .f32⟩ : BufTy).Contents (Elt F)),
    StableHlo.binary main_v120 main_v125 main_v126 (mulf : (⟨S20000x256, .f32⟩ : BufTy).Contents (Elt F) → (⟨S20000x256, .f32⟩ : BufTy).Contents (Elt F) → (⟨S20000x256, .f32⟩ : BufTy).Contents (Elt F)),
    StableHlo.unary main_arg11 main_v127 (broadcastInDim S1x256 ![1] bcast_S256_S1x256_1 : (⟨S256, .f32⟩ : BufTy).Contents (Elt F) → (⟨S1x256, .f32⟩ : BufTy).Contents (Elt F)),
    StableHlo.unary main_v127 main_v128 (broadcastInDim S20000x256 ![0, 1] bcast_S1x256_S20000x256_0_1 : (⟨S1x256, .f32⟩ : BufTy).Contents (Elt F) → (⟨S20000x256, .f32⟩ : BufTy).Contents (Elt F)),
    StableHlo.binary main_v126 main_v128 main_v129 (mulf : (⟨S20000x256, .f32⟩ : BufTy).Contents (Elt F) → (⟨S20000x256, .f32⟩ : BufTy).Contents (Elt F) → (⟨S20000x256, .f32⟩ : BufTy).Contents (Elt F)),
    StableHlo.unary main_arg12 main_v130 (broadcastInDim S1x256 ![1] bcast_S256_S1x256_1 : (⟨S256, .f32⟩ : BufTy).Contents (Elt F) → (⟨S1x256, .f32⟩ : BufTy).Contents (Elt F)),
    StableHlo.unary main_v130 main_v131 (broadcastInDim S20000x256 ![0, 1] bcast_S1x256_S20000x256_0_1 : (⟨S1x256, .f32⟩ : BufTy).Contents (Elt F) → (⟨S20000x256, .f32⟩ : BufTy).Contents (Elt F)),
    StableHlo.binary main_v129 main_v131 main_v132 (addf : (⟨S20000x256, .f32⟩ : BufTy).Contents (Elt F) → (⟨S20000x256, .f32⟩ : BufTy).Contents (Elt F) → (⟨S20000x256, .f32⟩ : BufTy).Contents (Elt F)) ]

/-- Layer 3's product with its weight matrix. (%133: 1 operation.) -/
abbrev r133 : List (HloOp τ sig (Elt F)) :=
  [ StableHlo.binary main_v132 main_arg13 main_v133 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

/-- Layer 3's edge coefficients, computed as layer 1's. (%cst_24 … %155: 28 operations.) -/
abbrev rN3 : List (HloOp τ sig (Elt F)) :=
  [ StableHlo.nullary main_cst_24 (constant S_ .f32 0x00000000#32),
    StableHlo.unary main_cst_24 main_v134 (broadcastInDim S20000 ![] bcast_S_S20000 : (⟨S_, .f32⟩ : BufTy).Contents (Elt F) → (⟨S20000, .f32⟩ : BufTy).Contents (Elt F)),
    StableHlo.unary main_v3 main_v135 (broadcastInDim S320000x1 ![0] bcast_S320000_S320000x1_0 : (⟨S320000, .i32⟩ : BufTy).Contents (Elt F) → (⟨S320000x1, .i32⟩ : BufTy).Contents (Elt F)),
    StableHlo.ternary main_v134 main_v135 main_v4 main_v136 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_25 (constant S_ .f32 0x3F800000#32),
    StableHlo.unary main_cst_25 main_v137 (broadcastInDim S20000 ![] bcast_S_S20000 : (⟨S_, .f32⟩ : BufTy).Contents (Elt F) → (⟨S20000, .f32⟩ : BufTy).Contents (Elt F)),
    StableHlo.binary main_v136 main_v137 main_v138 (addf : (⟨S20000, .f32⟩ : BufTy).Contents (Elt F) → (⟨S20000, .f32⟩ : BufTy).Contents (Elt F) → (⟨S20000, .f32⟩ : BufTy).Contents (Elt F)),
    StableHlo.unary main_v138 main_v139 (Host.rsqrt : (⟨S20000, .f32⟩ : BufTy).Contents (Elt F) → (⟨S20000, .f32⟩ : BufTy).Contents (Elt F)),
    StableHlo.nullary main_c_26 (constantI S_ 32 0#32),
    StableHlo.unary main_c_26 main_v140 (broadcastInDim S320000 ![] bcast_S_S320000 : (⟨S_, .i32⟩ : BufTy).Contents (Elt F) → (⟨S320000, .i32⟩ : BufTy).Contents (Elt F)),
    StableHlo.binary main_v1 main_v140 main_v141 (cmpi .slt : (⟨S320000, .i32⟩ : BufTy).Contents (Elt F) → (⟨S320000, .i32⟩ : BufTy).Contents (Elt F) → (⟨S320000, .i1⟩ : BufTy).Contents (Elt F)),
    StableHlo.nullary main_c_27 (constantI S_ 32 20000#32),
    StableHlo.unary main_c_27 main_v142 (broadcastInDim S320000 ![] bcast_S_S320000 : (⟨S_, .i32⟩ : BufTy).Contents (Elt F) → (⟨S320000, .i32⟩ : BufTy).Contents (Elt F)),
    StableHlo.binary main_v1 main_v142 main_v143 (addi : (⟨S320000, .i32⟩ : BufTy).Contents (Elt F) → (⟨S320000, .i32⟩ : BufTy).Contents (Elt F) → (⟨S320000, .i32⟩ : BufTy).Contents (Elt F)),
    StableHlo.ternary main_v141 main_v143 main_v1 main_v144 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v144 main_v145 (broadcastInDim S320000x1 ![0] bcast_S320000_S320000x1_0 : (⟨S320000, .i32⟩ : BufTy).Contents (Elt F) → (⟨S320000x1, .i32⟩ : BufTy).Contents (Elt F)),
    StableHlo.binary main_v139 main_v145 main_v146 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.binary main_v146 main_v4 main_v147 (mulf : (⟨S320000, .f32⟩ : BufTy).Contents (Elt F) → (⟨S320000, .f32⟩ : BufTy).Contents (Elt F) → (⟨S320000, .f32⟩ : BufTy).Contents (Elt F)),
    StableHlo.nullary main_c_28 (constantI S_ 32 0#32),
    StableHlo.unary main_c_28 main_v148 (broadcastInDim S320000 ![] bcast_S_S320000 : (⟨S_, .i32⟩ : BufTy).Contents (Elt F) → (⟨S320000, .i32⟩ : BufTy).Contents (Elt F)),
    StableHlo.binary main_v3 main_v148 main_v149 (cmpi .slt : (⟨S320000, .i32⟩ : BufTy).Contents (Elt F) → (⟨S320000, .i32⟩ : BufTy).Contents (Elt F) → (⟨S320000, .i1⟩ : BufTy).Contents (Elt F)),
    StableHlo.nullary main_c_29 (constantI S_ 32 20000#32),
    StableHlo.unary main_c_29 main_v150 (broadcastInDim S320000 ![] bcast_S_S320000 : (⟨S_, .i32⟩ : BufTy).Contents (Elt F) → (⟨S320000, .i32⟩ : BufTy).Contents (Elt F)),
    StableHlo.binary main_v3 main_v150 main_v151 (addi : (⟨S320000, .i32⟩ : BufTy).Contents (Elt F) → (⟨S320000, .i32⟩ : BufTy).Contents (Elt F) → (⟨S320000, .i32⟩ : BufTy).Contents (Elt F)),
    StableHlo.ternary main_v149 main_v151 main_v3 main_v152 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v152 main_v153 (broadcastInDim S320000x1 ![0] bcast_S320000_S320000x1_0 : (⟨S320000, .i32⟩ : BufTy).Contents (Elt F) → (⟨S320000x1, .i32⟩ : BufTy).Contents (Elt F)),
    StableHlo.binary main_v139 main_v153 main_v154 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.binary main_v147 main_v154 main_v155 (mulf : (⟨S320000, .f32⟩ : BufTy).Contents (Elt F) → (⟨S320000, .f32⟩ : BufTy).Contents (Elt F) → (⟨S320000, .f32⟩ : BufTy).Contents (Elt F)) ]

/-- Layer 3's neighbour sum. (%156 … %168: 16 operations.) -/
abbrev rL3a : List (HloOp τ sig (Elt F)) :=
  [ StableHlo.unary main_v155 main_v156 (broadcastInDim S320000x1 ![0] bcast_S320000_S320000x1_0 : (⟨S320000, .f32⟩ : BufTy).Contents (Elt F) → (⟨S320000x1, .f32⟩ : BufTy).Contents (Elt F)),
    StableHlo.nullary main_c_30 (constantI S_ 32 0#32),
    StableHlo.unary main_c_30 main_v157 (broadcastInDim S320000 ![] bcast_S_S320000 : (⟨S_, .i32⟩ : BufTy).Contents (Elt F) → (⟨S320000, .i32⟩ : BufTy).Contents (Elt F)),
    StableHlo.binary main_v1 main_v157 main_v158 (cmpi .slt : (⟨S320000, .i32⟩ : BufTy).Contents (Elt F) → (⟨S320000, .i32⟩ : BufTy).Contents (Elt F) → (⟨S320000, .i1⟩ : BufTy).Contents (Elt F)),
    StableHlo.nullary main_c_31 (constantI S_ 32 20000#32),
    StableHlo.unary main_c_31 main_v159 (broadcastInDim S320000 ![] bcast_S_S320000 : (⟨S_, .i32⟩ : BufTy).Contents (Elt F) → (⟨S320000, .i32⟩ : BufTy).Contents (Elt F)),
    StableHlo.binary main_v1 main_v159 main_v160 (addi : (⟨S320000, .i32⟩ : BufTy).Contents (Elt F) → (⟨S320000, .i32⟩ : BufTy).Contents (Elt F) → (⟨S320000, .i32⟩ : BufTy).Contents (Elt F)),
    StableHlo.ternary main_v158 main_v160 main_v1 main_v161 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v161 main_v162 (broadcastInDim S320000x1 ![0] bcast_S320000_S320000x1_0 : (⟨S320000, .i32⟩ : BufTy).Contents (Elt F) → (⟨S320000x1, .i32⟩ : BufTy).Contents (Elt F)),
    StableHlo.binary main_v133 main_v162 main_v163 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v156 main_v164 (broadcastInDim S320000x256 ![0, 1] bcast_S320000x1_S320000x256_0_1 : (⟨S320000x1, .f32⟩ : BufTy).Contents (Elt F) → (⟨S320000x256, .f32⟩ : BufTy).Contents (Elt F)),
    StableHlo.binary main_v164 main_v163 main_v165 (mulf : (⟨S320000x256, .f32⟩ : BufTy).Contents (Elt F) → (⟨S320000x256, .f32⟩ : BufTy).Contents (Elt F) → (⟨S320000x256, .f32⟩ : BufTy).Contents (Elt F)),
    StableHlo.nullary main_cst_32 (constant S_ .f32 0x00000000#32),
    StableHlo.unary main_cst_32 main_v166 (broadcastInDim S20000x256 ![] bcast_S_S20000x256 : (⟨S_, .f32⟩ : BufTy).Contents (Elt F) → (⟨S20000x256, .f32⟩ : BufTy).Contents (Elt F)),
    StableHlo.unary main_v3 main_v167 (broadcastInDim S320000x1 ![0] bcast_S320000_S320000x1_0 : (⟨S320000, .i32⟩ : BufTy).Contents (Elt F) → (⟨S320000x1, .i32⟩ : BufTy).Contents (Elt F)),
    StableHlo.ternary main_v166 main_v167 main_v165 main_v168 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

/-- Layer 3's self coefficient `d * d`. (%169: 1 operation.) -/
abbrev r169 : List (HloOp τ sig (Elt F)) :=
  [ StableHlo.binary main_v139 main_v139 main_v169 (mulf : (⟨S20000, .f32⟩ : BufTy).Contents (Elt F) → (⟨S20000, .f32⟩ : BufTy).Contents (Elt F) → (⟨S20000, .f32⟩ : BufTy).Contents (Elt F)) ]

/-- Layer 3's output and its statistics: the self term and the bias added (no rectifier here), then the column means and the column variances. (%170 … %180: 35 operations.) -/
abbrev rL3b : List (HloOp τ sig (Elt F)) :=
  [ StableHlo.unary main_v169 main_v170 (broadcastInDim S20000x1 ![0] bcast_S20000_S20000x1_0 : (⟨S20000, .f32⟩ : BufTy).Contents (Elt F) → (⟨S20000x1, .f32⟩ : BufTy).Contents (Elt F)),
    StableHlo.unary main_v170 main_v171 (broadcastInDim S20000x256 ![0, 1] bcast_S20000x1_S20000x256_0_1 : (⟨S20000x1, .f32⟩ : BufTy).Contents (Elt F) → (⟨S20000x256, .f32⟩ : BufTy).Contents (Elt F)),
    StableHlo.binary main_v171 main_v133 main_v172 (mulf : (⟨S20000x256, .f32⟩ : BufTy).Contents (Elt F) → (⟨S20000x256, .f32⟩ : BufTy).Contents (Elt F) → (⟨S20000x256, .f32⟩ : BufTy).Contents (Elt F)),
    StableHlo.binary main_v168 main_v172 main_v173 (addf : (⟨S20000x256, .f32⟩ : BufTy).Contents (Elt F) → (⟨S20000x256, .f32⟩ : BufTy).Contents (Elt F) → (⟨S20000x256, .f32⟩ : BufTy).Contents (Elt F)),
    StableHlo.unary main_arg14 main_v174 (broadcastInDim S1x256 ![1] bcast_S256_S1x256_1 : (⟨S256, .f32⟩ : BufTy).Contents (Elt F) → (⟨S1x256, .f32⟩ : BufTy).Contents (Elt F)),
    StableHlo.unary main_v174 main_v175 (broadcastInDim S20000x256 ![0, 1] bcast_S1x256_S20000x256_0_1 : (⟨S1x256, .f32⟩ : BufTy).Contents (Elt F) → (⟨S20000x256, .f32⟩ : BufTy).Contents (Elt F)),
    StableHlo.binary main_v173 main_v175 main_v176 (addf : (⟨S20000x256, .f32⟩ : BufTy).Contents (Elt F) → (⟨S20000x256, .f32⟩ : BufTy).Contents (Elt F) → (⟨S20000x256, .f32⟩ : BufTy).Contents (Elt F)),
    StableHlo.nullary main_cst_33 (constant S_ .f32 0x00000000#32),
    StableHlo.binary main_v176 main_cst_33 main_v177 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_34 (constant S_ .f32 0x469C4000#32),
    StableHlo.unary main_cst_34 main_v178 (broadcastInDim S256 ![] bcast_S_S256 : (⟨S_, .f32⟩ : BufTy).Contents (Elt F) → (⟨S256, .f32⟩ : BufTy).Contents (Elt F)),
    StableHlo.binary main_v177 main_v178 main_v179 (Host.divf : (⟨S256, .f32⟩ : BufTy).Contents (Elt F) → (⟨S256, .f32⟩ : BufTy).Contents (Elt F) → (⟨S256, .f32⟩ : BufTy).Contents (Elt F)),
    StableHlo.nullary main_c_35 (constantI S_ 32 0#32),
    StableHlo.TRef.nullary (.of main_call4_cst : StableHlo.TRef sig ⟨S_, .f32⟩) (constant S_ .f32 0x00000000#32),
    StableHlo.TRef.binary (.of main_v176 : StableHlo.TRef sig ⟨S20000x256, .f32⟩) (.of main_call4_cst : StableHlo.TRef sig ⟨S_, .f32⟩) (.of main_call4_v0 : StableHlo.TRef sig ⟨S256, .f32⟩) (fun x v => Host.reduceAdd x v reducesTo_S20000x256_S256_d0 h_S_),
    StableHlo.TRef.unary (.of main_call4_v0 : StableHlo.TRef sig ⟨S256, .f32⟩) (.of main_call4_v1 : StableHlo.TRef sig ⟨S1x256, .f32⟩) (broadcastInDim S1x256 ![1] bcast_S256_S1x256_1),
    StableHlo.TRef.nullary (.of main_call4_cst_0 : StableHlo.TRef sig ⟨S_, .f32⟩) (constant S_ .f32 0x469C4000#32),
    StableHlo.TRef.unary (.of main_call4_cst_0 : StableHlo.TRef sig ⟨S_, .f32⟩) (.of main_call4_v2 : StableHlo.TRef sig ⟨S1x256, .f32⟩) (broadcastInDim S1x256 ![] bcast_S_S1x256),
    StableHlo.TRef.binary (.of main_call4_v1 : StableHlo.TRef sig ⟨S1x256, .f32⟩) (.of main_call4_v2 : StableHlo.TRef sig ⟨S1x256, .f32⟩) (.of main_call4_v3 : StableHlo.TRef sig ⟨S1x256, .f32⟩) Host.divf,
    StableHlo.TRef.unary (.of main_call4_v3 : StableHlo.TRef sig ⟨S1x256, .f32⟩) (.of main_call4_v4 : StableHlo.TRef sig ⟨S20000x256, .f32⟩) (broadcastInDim S20000x256 ![0, 1] bcast_S1x256_S20000x256_0_1),
    StableHlo.TRef.binary (.of main_v176 : StableHlo.TRef sig ⟨S20000x256, .f32⟩) (.of main_call4_v4 : StableHlo.TRef sig ⟨S20000x256, .f32⟩) (.of main_call4_v5 : StableHlo.TRef sig ⟨S20000x256, .f32⟩) subf,
    StableHlo.TRef.binary (.of main_call4_v5 : StableHlo.TRef sig ⟨S20000x256, .f32⟩) (.of main_call4_v5 : StableHlo.TRef sig ⟨S20000x256, .f32⟩) (.of main_call4_v6 : StableHlo.TRef sig ⟨S20000x256, .f32⟩) mulf,
    StableHlo.TRef.unary (.of main_c_35 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x469C4000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S20000x256, .f32⟩) (.of main_call4_cst_2 : StableHlo.TRef sig ⟨S_, .f32⟩) (.of main_call4_v9 : StableHlo.TRef sig ⟨S256, .f32⟩) (fun x v => Host.reduceAdd x v reducesTo_S20000x256_S256_d0 h_S_),
    StableHlo.TRef.unary (.of main_call4_v8 : StableHlo.TRef sig ⟨S_, .f32⟩) (.of main_call4_v10 : StableHlo.TRef sig ⟨S256, .f32⟩) (broadcastInDim S256 ![] bcast_S_S256),
    StableHlo.TRef.binary (.of main_call4_v9 : StableHlo.TRef sig ⟨S256, .f32⟩) (.of main_call4_v10 : StableHlo.TRef sig ⟨S256, .f32⟩) (.of main_call4_v11 : StableHlo.TRef sig ⟨S256, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S256, .f32⟩) (broadcastInDim S256 ![] bcast_S_S256),
    StableHlo.TRef.ternary (.of main_call4_v12 : StableHlo.TRef sig ⟨S_, .i1⟩) (.of main_call4_v11 : StableHlo.TRef sig ⟨S256, .f32⟩) (.of main_call4_call0_v1 : StableHlo.TRef sig ⟨S256, .f32⟩) (.of main_v180 : StableHlo.TRef sig ⟨S256, .f32⟩) (fun p a b => select (broadcastInDim S256 ![] bcast_S_S256 p) a b) ]

/-- Layer 3's normalisation. (%181 … %195: 16 operations.) -/
abbrev rBN3 : List (HloOp τ sig (Elt F)) :=
  [ StableHlo.unary main_v179 main_v181 (broadcastInDim S1x256 ![1] bcast_S256_S1x256_1 : (⟨S256, .f32⟩ : BufTy).Contents (Elt F) → (⟨S1x256, .f32⟩ : BufTy).Contents (Elt F)),
    StableHlo.unary main_v181 main_v182 (broadcastInDim S20000x256 ![0, 1] bcast_S1x256_S20000x256_0_1 : (⟨S1x256, .f32⟩ : BufTy).Contents (Elt F) → (⟨S20000x256, .f32⟩ : BufTy).Contents (Elt F)),
    StableHlo.binary main_v176 main_v182 main_v183 (subf : (⟨S20000x256, .f32⟩ : BufTy).Contents (Elt F) → (⟨S20000x256, .f32⟩ : BufTy).Contents (Elt F) → (⟨S20000x256, .f32⟩ : BufTy).Contents (Elt F)),
    StableHlo.nullary main_cst_36 (constant S_ .f32 0x3727C5AC#32),
    StableHlo.unary main_cst_36 main_v184 (broadcastInDim S256 ![] bcast_S_S256 : (⟨S_, .f32⟩ : BufTy).Contents (Elt F) → (⟨S256, .f32⟩ : BufTy).Contents (Elt F)),
    StableHlo.binary main_v180 main_v184 main_v185 (addf : (⟨S256, .f32⟩ : BufTy).Contents (Elt F) → (⟨S256, .f32⟩ : BufTy).Contents (Elt F) → (⟨S256, .f32⟩ : BufTy).Contents (Elt F)),
    StableHlo.unary main_v185 main_v186 (Host.rsqrt : (⟨S256, .f32⟩ : BufTy).Contents (Elt F) → (⟨S256, .f32⟩ : BufTy).Contents (Elt F)),
    StableHlo.unary main_v186 main_v187 (broadcastInDim S1x256 ![1] bcast_S256_S1x256_1 : (⟨S256, .f32⟩ : BufTy).Contents (Elt F) → (⟨S1x256, .f32⟩ : BufTy).Contents (Elt F)),
    StableHlo.unary main_v187 main_v188 (broadcastInDim S20000x256 ![0, 1] bcast_S1x256_S20000x256_0_1 : (⟨S1x256, .f32⟩ : BufTy).Contents (Elt F) → (⟨S20000x256, .f32⟩ : BufTy).Contents (Elt F)),
    StableHlo.binary main_v183 main_v188 main_v189 (mulf : (⟨S20000x256, .f32⟩ : BufTy).Contents (Elt F) → (⟨S20000x256, .f32⟩ : BufTy).Contents (Elt F) → (⟨S20000x256, .f32⟩ : BufTy).Contents (Elt F)),
    StableHlo.unary main_arg15 main_v190 (broadcastInDim S1x256 ![1] bcast_S256_S1x256_1 : (⟨S256, .f32⟩ : BufTy).Contents (Elt F) → (⟨S1x256, .f32⟩ : BufTy).Contents (Elt F)),
    StableHlo.unary main_v190 main_v191 (broadcastInDim S20000x256 ![0, 1] bcast_S1x256_S20000x256_0_1 : (⟨S1x256, .f32⟩ : BufTy).Contents (Elt F) → (⟨S20000x256, .f32⟩ : BufTy).Contents (Elt F)),
    StableHlo.binary main_v189 main_v191 main_v192 (mulf : (⟨S20000x256, .f32⟩ : BufTy).Contents (Elt F) → (⟨S20000x256, .f32⟩ : BufTy).Contents (Elt F) → (⟨S20000x256, .f32⟩ : BufTy).Contents (Elt F)),
    StableHlo.unary main_arg16 main_v193 (broadcastInDim S1x256 ![1] bcast_S256_S1x256_1 : (⟨S256, .f32⟩ : BufTy).Contents (Elt F) → (⟨S1x256, .f32⟩ : BufTy).Contents (Elt F)),
    StableHlo.unary main_v193 main_v194 (broadcastInDim S20000x256 ![0, 1] bcast_S1x256_S20000x256_0_1 : (⟨S1x256, .f32⟩ : BufTy).Contents (Elt F) → (⟨S20000x256, .f32⟩ : BufTy).Contents (Elt F)),
    StableHlo.binary main_v192 main_v194 main_v195 (addf : (⟨S20000x256, .f32⟩ : BufTy).Contents (Elt F) → (⟨S20000x256, .f32⟩ : BufTy).Contents (Elt F) → (⟨S20000x256, .f32⟩ : BufTy).Contents (Elt F)) ]

/-- The rest: what the program computes from the three layers' output. (%cst_37 … %222: 33 operations.) -/
abbrev rH : List (HloOp τ sig (Elt F)) :=
  [ StableHlo.nullary main_cst_37 (constant S_ .f32 0x00000000#32),
    StableHlo.unary main_cst_37 main_v196 (broadcastInDim S16x256 ![] bcast_S_S16x256 : (⟨S_, .f32⟩ : BufTy).Contents (Elt F) → (⟨S16x256, .f32⟩ : BufTy).Contents (Elt F)),
    StableHlo.unary main_arg3 main_v197 (broadcastInDim S20000x1 ![0] bcast_S20000_S20000x1_0 : (⟨S20000, .i32⟩ : BufTy).Contents (Elt F) → (⟨S20000x1, .i32⟩ : BufTy).Contents (Elt F)),
    StableHlo.ternary main_v196 main_v197 main_v195 main_v198 ((fun x i u => Host.scatterAdd scatter_S16x256_S20000x1_S20000x256_1_0_0_1 x i u) : (⟨S16x256, .f32⟩ : BufTy).Contents (Elt F) → (⟨S20000x1, .i32⟩ : BufTy).Contents (Elt F) → (⟨S20000x256, .f32⟩ : BufTy).Contents (Elt F) → (⟨S16x256, .f32⟩ : BufTy).Contents (Elt F)),
    StableHlo.nullary main_cst_38 (constant S_ .f32 0x3F800000#32),
    StableHlo.unary main_cst_38 main_v199 (broadcastInDim S20000 ![] bcast_S_S20000 : (⟨S_, .f32⟩ : BufTy).Contents (Elt F) → (⟨S20000, .f32⟩ : BufTy).Contents (Elt F)),
    StableHlo.nullary main_cst_39 (constant S_ .f32 0x00000000#32),
    StableHlo.unary main_cst_39 main_v200 (broadcastInDim S16 ![] bcast_S_S16 : (⟨S_, .f32⟩ : BufTy).Contents (Elt F) → (⟨S16, .f32⟩ : BufTy).Contents (Elt F)),
    StableHlo.unary main_arg3 main_v201 (broadcastInDim S20000x1 ![0] bcast_S20000_S20000x1_0 : (⟨S20000, .i32⟩ : BufTy).Contents (Elt F) → (⟨S20000x1, .i32⟩ : BufTy).Contents (Elt F)),
    StableHlo.ternary main_v200 main_v201 main_v199 main_v202 ((fun x i u => Host.scatterAdd scatter_S16_S20000x1_S20000_n_0_0_1 x i u) : (⟨S16, .f32⟩ : BufTy).Contents (Elt F) → (⟨S20000x1, .i32⟩ : BufTy).Contents (Elt F) → (⟨S20000, .f32⟩ : BufTy).Contents (Elt F) → (⟨S16, .f32⟩ : BufTy).Contents (Elt F)),
    StableHlo.nullary main_cst_40 (constant S_ .f32 0x3F800000#32),
    StableHlo.unary main_cst_40 main_v203 (broadcastInDim S16 ![] bcast_S_S16 : (⟨S_, .f32⟩ : BufTy).Contents (Elt F) → (⟨S16, .f32⟩ : BufTy).Contents (Elt F)),
    StableHlo.binary main_v202 main_v203 main_v204 (maximumf : (⟨S16, .f32⟩ : BufTy).Contents (Elt F) → (⟨S16, .f32⟩ : BufTy).Contents (Elt F) → (⟨S16, .f32⟩ : BufTy).Contents (Elt F)),
    StableHlo.unary main_v204 main_v205 (broadcastInDim S16x1 ![0] bcast_S16_S16x1_0 : (⟨S16, .f32⟩ : BufTy).Contents (Elt F) → (⟨S16x1, .f32⟩ : BufTy).Contents (Elt F)),
    StableHlo.unary main_v205 main_v206 (broadcastInDim S16x256 ![0, 1] bcast_S16x1_S16x256_0_1 : (⟨S16x1, .f32⟩ : BufTy).Contents (Elt F) → (⟨S16x256, .f32⟩ : BufTy).Contents (Elt F)),
    StableHlo.binary main_v198 main_v206 main_v207 (Host.divf : (⟨S16x256, .f32⟩ : BufTy).Contents (Elt F) → (⟨S16x256, .f32⟩ : BufTy).Contents (Elt F) → (⟨S16x256, .f32⟩ : BufTy).Contents (Elt F)),
    StableHlo.binary main_arg4 main_arg17 main_v208 ((fun l r => Host.dotGeneral dot_S16x1280_S1280x256_S16x256_1_0_0_1_n_n none l r) : (⟨S16x1280, .f32⟩ : BufTy).Contents (Elt F) → (⟨S1280x256, .f32⟩ : BufTy).Contents (Elt F) → (⟨S16x256, .f32⟩ : BufTy).Contents (Elt F)),
    StableHlo.unary main_arg18 main_v209 (broadcastInDim S1x256 ![1] bcast_S256_S1x256_1 : (⟨S256, .f32⟩ : BufTy).Contents (Elt F) → (⟨S1x256, .f32⟩ : BufTy).Contents (Elt F)),
    StableHlo.unary main_v209 main_v210 (broadcastInDim S16x256 ![0, 1] bcast_S1x256_S16x256_0_1 : (⟨S1x256, .f32⟩ : BufTy).Contents (Elt F) → (⟨S16x256, .f32⟩ : BufTy).Contents (Elt F)),
    StableHlo.binary main_v208 main_v210 main_v211 (addf : (⟨S16x256, .f32⟩ : BufTy).Contents (Elt F) → (⟨S16x256, .f32⟩ : BufTy).Contents (Elt F) → (⟨S16x256, .f32⟩ : BufTy).Contents (Elt F)),
    StableHlo.binary main_v207 main_v211 main_v212 (addf : (⟨S16x256, .f32⟩ : BufTy).Contents (Elt F) → (⟨S16x256, .f32⟩ : BufTy).Contents (Elt F) → (⟨S16x256, .f32⟩ : BufTy).Contents (Elt F)),
    StableHlo.binary main_v212 main_arg19 main_v213 ((fun l r => Host.dotGeneral dot_S16x256_S256x500_S16x500_1_0_0_1_n_n none l r) : (⟨S16x256, .f32⟩ : BufTy).Contents (Elt F) → (⟨S256x500, .f32⟩ : BufTy).Contents (Elt F) → (⟨S16x500, .f32⟩ : BufTy).Contents (Elt F)),
    StableHlo.unary main_arg20 main_v214 (broadcastInDim S1x500 ![1] bcast_S500_S1x500_1 : (⟨S500, .f32⟩ : BufTy).Contents (Elt F) → (⟨S1x500, .f32⟩ : BufTy).Contents (Elt F)),
    StableHlo.unary main_v214 main_v215 (broadcastInDim S16x500 ![0, 1] bcast_S1x500_S16x500_0_1 : (⟨S1x500, .f32⟩ : BufTy).Contents (Elt F) → (⟨S16x500, .f32⟩ : BufTy).Contents (Elt F)),
    StableHlo.binary main_v213 main_v215 main_v216 (addf : (⟨S16x500, .f32⟩ : BufTy).Contents (Elt F) → (⟨S16x500, .f32⟩ : BufTy).Contents (Elt F) → (⟨S16x500, .f32⟩ : BufTy).Contents (Elt F)),
    StableHlo.unary main_v216 main_v217 (Host.negf : (⟨S16x500, .f32⟩ : BufTy).Contents (Elt F) → (⟨S16x500, .f32⟩ : BufTy).Contents (Elt F)),
    StableHlo.unary main_v217 main_v218 (Host.exp : (⟨S16x500, .f32⟩ : BufTy).Contents (Elt F) → (⟨S16x500, .f32⟩ : BufTy).Contents (Elt F)),
    StableHlo.nullary main_cst_41 (constant S_ .f32 0x3F800000#32),
    StableHlo.unary main_cst_41 main_v219 (broadcastInDim S16x500 ![] bcast_S_S16x500 : (⟨S_, .f32⟩ : BufTy).Contents (Elt F) → (⟨S16x500, .f32⟩ : BufTy).Contents (Elt F)),
    StableHlo.binary main_v219 main_v218 main_v220 (addf : (⟨S16x500, .f32⟩ : BufTy).Contents (Elt F) → (⟨S16x500, .f32⟩ : BufTy).Contents (Elt F) → (⟨S16x500, .f32⟩ : BufTy).Contents (Elt F)),
    StableHlo.nullary main_cst_42 (constant S_ .f32 0x3F800000#32),
    StableHlo.unary main_cst_42 main_v221 (broadcastInDim S16x500 ![] bcast_S_S16x500 : (⟨S_, .f32⟩ : BufTy).Contents (Elt F) → (⟨S16x500, .f32⟩ : BufTy).Contents (Elt F)),
    StableHlo.binary main_v221 main_v220 main_v222 (Host.divf : (⟨S16x500, .f32⟩ : BufTy).Contents (Elt F) → (⟨S16x500, .f32⟩ : BufTy).Contents (Elt F) → (⟨S16x500, .f32⟩ : BufTy).Contents (Elt F)) ]

/-- The whole line: the 20 stretches one after the other, 335 operations. -/
abbrev ops : List (HloOp τ sig (Elt F)) :=
  rA ++ (r5 ++ (rN1 ++ (rL1a ++ (r41 ++ (rL1b ++ (rBN1 ++ (r69 ++ (rN2 ++ (rL2a ++ (r105 ++ (rL2b ++ (rBN2 ++ (r133 ++ (rN3 ++ (rL3a ++ (r169 ++ (rL3b ++ (rBN3 ++ (rH)))))))))))))))))))

end Cert.ReferenceIdeal.Run

end
-- ==== Proof.RefRun.lean ====
import proofs.«116345_j32049045962841_1_alg».proof.Proof.RefOps
import Idealize.ShloMosaic.Lib.StableHlo.Run

/-!
# The host program run as one line of operations

The host program equals the straight line `ops` of RefOps.lean: each of its windows is the line of the stretches
(or parts of stretches) that stand in it, and the windows in order are `ops`. Every operation of the line touches
TensorCore buffers only and determines its result, so every fair execution ends with each buffer at the fold of the
operations' results over the launch contents; and no operation writes an argument, so the arguments end as launched.
-/

noncomputable section

namespace Cert.ReferenceIdeal.Run

open Cert.ReferenceIdeal Idealize.ShloMosaic Idealize.ShloMosaic.TcCoe Idealize.SL.Sem
open Facts₀ Facts

variable {F : FTy → Type} [FloatOps F] [Facts]

/-! ## The program is the line -/

/-- The part of `rL1b` in window 0 of the program: 11 operations. -/
def rL1b_p0 : List (HloOp τ sig (Elt F)) :=
  [ StableHlo.unary main_v41 main_v42 (broadcastInDim S20000x1 ![0] bcast_S20000_S20000x1_0 : (⟨S20000, .f32⟩ : BufTy).Contents (Elt F) → (⟨S20000x1, .f32⟩ : BufTy).Contents (Elt F)),
    StableHlo.unary main_v42 main_v43 (broadcastInDim S20000x256 ![0, 1] bcast_S20000x1_S20000x256_0_1 : (⟨S20000x1, .f32⟩ : BufTy).Contents (Elt F) → (⟨S20000x256, .f32⟩ : BufTy).Contents (Elt F)),
    StableHlo.binary main_v43 main_v5 main_v44 (mulf : (⟨S20000x256, .f32⟩ : BufTy).Contents (Elt F) → (⟨S20000x256, .f32⟩ : BufTy).Contents (Elt F) → (⟨S20000x256, .f32⟩ : BufTy).Contents (Elt F)),
    StableHlo.binary main_v40 main_v44 main_v45 (addf : (⟨S20000x256, .f32⟩ : BufTy).Contents (Elt F) → (⟨S20000x256, .f32⟩ : BufTy).Contents (Elt F) → (⟨S20000x256, .f32⟩ : BufTy).Contents (Elt F)),
    StableHlo.unary main_arg6 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S20000x256 ![0, 1] bcast_S1x256_S20000x256_0_1 : (⟨S1x256, .f32⟩ : BufTy).Contents (Elt F) → (⟨S20000x256, .f32⟩ : BufTy).Contents (Elt F)),
    StableHlo.binary main_v45 main_v47 main_v48 (addf : (⟨S20000x256, .f32⟩ : BufTy).Contents (Elt F) → (⟨S20000x256, .f32⟩ : BufTy).Contents (Elt F) → (⟨S20000x256, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S20000x256, .f32⟩) (broadcastInDim S20000x256 ![] bcast_S_S20000x256),
    StableHlo.TRef.binary (.of main_v48 : StableHlo.TRef sig ⟨S20000x256, .f32⟩) (.of main_call0_v0 : StableHlo.TRef sig ⟨S20000x256, .f32⟩) (.of main_v49 : StableHlo.TRef sig ⟨S20000x256, .f32⟩) maximumf,
    StableHlo.nullary main_cst_7 (constant S_ .f32 0x00000000#32) ]

/-- The part of `rL1b` in window 1 of the program: 27 operations. -/
def rL1b_p1 : List (HloOp τ sig (Elt F)) :=
  [ StableHlo.binary main_v49 main_cst_7 main_v50 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_8 (constant S_ .f32 0x469C4000#32),
    StableHlo.unary main_cst_8 main_v51 (broadcastInDim S256 ![] bcast_S_S256 : (⟨S_, .f32⟩ : BufTy).Contents (Elt F) → (⟨S256, .f32⟩ : BufTy).Contents (Elt F)),
    StableHlo.binary main_v50 main_v51 main_v52 (Host.divf : (⟨S256, .f32⟩ : BufTy).Contents (Elt F) → (⟨S256, .f32⟩ : BufTy).Contents (Elt F) → (⟨S256, .f32⟩ : BufTy).Contents (Elt F)),
    StableHlo.nullary main_c_9 (constantI S_ 32 0#32),
    StableHlo.TRef.nullary (.of main_call1_cst : StableHlo.TRef sig ⟨S_, .f32⟩) (constant S_ .f32 0x00000000#32),
    StableHlo.TRef.binary (.of main_v49 : StableHlo.TRef sig ⟨S20000x256, .f32⟩) (.of main_call1_cst : StableHlo.TRef sig ⟨S_, .f32⟩) (.of main_call1_v0 : StableHlo.TRef sig ⟨S256, .f32⟩) (fun x v => Host.reduceAdd x v reducesTo_S20000x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x469C4000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S20000x256, .f32⟩) (broadcastInDim S20000x256 ![0, 1] bcast_S1x256_S20000x256_0_1),
    StableHlo.TRef.binary (.of main_v49 : StableHlo.TRef sig ⟨S20000x256, .f32⟩) (.of main_call1_v4 : StableHlo.TRef sig ⟨S20000x256, .f32⟩) (.of main_call1_v5 : StableHlo.TRef sig ⟨S20000x256, .f32⟩) subf,
    StableHlo.TRef.binary (.of main_call1_v5 : StableHlo.TRef sig ⟨S20000x256, .f32⟩) (.of main_call1_v5 : StableHlo.TRef sig ⟨S20000x256, .f32⟩) (.of main_call1_v6 : StableHlo.TRef sig ⟨S20000x256, .f32⟩) mulf,
    StableHlo.TRef.unary (.of main_c_9 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x469C4000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S20000x256, .f32⟩) (.of main_call1_cst_2 : StableHlo.TRef sig ⟨S_, .f32⟩) (.of main_call1_v9 : StableHlo.TRef sig ⟨S256, .f32⟩) (fun x v => Host.reduceAdd x v reducesTo_S20000x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v53 : StableHlo.TRef sig ⟨S256, .f32⟩) (fun p a b => select (broadcastInDim S256 ![] bcast_S_S256 p) a b) ]

/-- The part of `rL2a` in window 1 of the program: 9 operations. -/
def rL2a_p0 : List (HloOp τ sig (Elt F)) :=
  [ StableHlo.unary main_v91 main_v92 (broadcastInDim S320000x1 ![0] bcast_S320000_S320000x1_0 : (⟨S320000, .f32⟩ : BufTy).Contents (Elt F) → (⟨S320000x1, .f32⟩ : BufTy).Contents (Elt F)),
    StableHlo.nullary main_c_17 (constantI S_ 32 0#32),
    StableHlo.unary main_c_17 main_v93 (broadcastInDim S320000 ![] bcast_S_S320000 : (⟨S_, .i32⟩ : BufTy).Contents (Elt F) → (⟨S320000, .i32⟩ : BufTy).Contents (Elt F)),
    StableHlo.binary main_v1 main_v93 main_v94 (cmpi .slt : (⟨S320000, .i32⟩ : BufTy).Contents (Elt F) → (⟨S320000, .i32⟩ : BufTy).Contents (Elt F) → (⟨S320000, .i1⟩ : BufTy).Contents (Elt F)),
    StableHlo.nullary main_c_18 (constantI S_ 32 20000#32),
    StableHlo.unary main_c_18 main_v95 (broadcastInDim S320000 ![] bcast_S_S320000 : (⟨S_, .i32⟩ : BufTy).Contents (Elt F) → (⟨S320000, .i32⟩ : BufTy).Contents (Elt F)),
    StableHlo.binary main_v1 main_v95 main_v96 (addi : (⟨S320000, .i32⟩ : BufTy).Contents (Elt F) → (⟨S320000, .i32⟩ : BufTy).Contents (Elt F) → (⟨S320000, .i32⟩ : BufTy).Contents (Elt F)),
    StableHlo.ternary main_v94 main_v96 main_v1 main_v97 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v97 main_v98 (broadcastInDim S320000x1 ![0] bcast_S320000_S320000x1_0 : (⟨S320000, .i32⟩ : BufTy).Contents (Elt F) → (⟨S320000x1, .i32⟩ : BufTy).Contents (Elt F)) ]

/-- The part of `rL2a` in window 2 of the program: 7 operations. -/
def rL2a_p1 : List (HloOp τ sig (Elt F)) :=
  [ StableHlo.binary main_v69 main_v98 main_v99 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v92 main_v100 (broadcastInDim S320000x256 ![0, 1] bcast_S320000x1_S320000x256_0_1 : (⟨S320000x1, .f32⟩ : BufTy).Contents (Elt F) → (⟨S320000x256, .f32⟩ : BufTy).Contents (Elt F)),
    StableHlo.binary main_v100 main_v99 main_v101 (mulf : (⟨S320000x256, .f32⟩ : BufTy).Contents (Elt F) → (⟨S320000x256, .f32⟩ : BufTy).Contents (Elt F) → (⟨S320000x256, .f32⟩ : BufTy).Contents (Elt F)),
    StableHlo.nullary main_cst_19 (constant S_ .f32 0x00000000#32),
    StableHlo.unary main_cst_19 main_v102 (broadcastInDim S20000x256 ![] bcast_S_S20000x256 : (⟨S_, .f32⟩ : BufTy).Contents (Elt F) → (⟨S20000x256, .f32⟩ : BufTy).Contents (Elt F)),
    StableHlo.unary main_v3 main_v103 (broadcastInDim S320000x1 ![0] bcast_S320000_S320000x1_0 : (⟨S320000, .i32⟩ : BufTy).Contents (Elt F) → (⟨S320000x1, .i32⟩ : BufTy).Contents (Elt F)),
    StableHlo.ternary main_v102 main_v103 main_v101 main_v104 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

/-- The part of `rN3` in window 2 of the program: 20 operations. -/
def rN3_p0 : List (HloOp τ sig (Elt F)) :=
  [ StableHlo.nullary main_cst_24 (constant S_ .f32 0x00000000#32),
    StableHlo.unary main_cst_24 main_v134 (broadcastInDim S20000 ![] bcast_S_S20000 : (⟨S_, .f32⟩ : BufTy).Contents (Elt F) → (⟨S20000, .f32⟩ : BufTy).Contents (Elt F)),
    StableHlo.unary main_v3 main_v135 (broadcastInDim S320000x1 ![0] bcast_S320000_S320000x1_0 : (⟨S320000, .i32⟩ : BufTy).Contents (Elt F) → (⟨S320000x1, .i32⟩ : BufTy).Contents (Elt F)),
    StableHlo.ternary main_v134 main_v135 main_v4 main_v136 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_25 (constant S_ .f32 0x3F800000#32),
    StableHlo.unary main_cst_25 main_v137 (broadcastInDim S20000 ![] bcast_S_S20000 : (⟨S_, .f32⟩ : BufTy).Contents (Elt F) → (⟨S20000, .f32⟩ : BufTy).Contents (Elt F)),
    StableHlo.binary main_v136 main_v137 main_v138 (addf : (⟨S20000, .f32⟩ : BufTy).Contents (Elt F) → (⟨S20000, .f32⟩ : BufTy).Contents (Elt F) → (⟨S20000, .f32⟩ : BufTy).Contents (Elt F)),
    StableHlo.unary main_v138 main_v139 (Host.rsqrt : (⟨S20000, .f32⟩ : BufTy).Contents (Elt F) → (⟨S20000, .f32⟩ : BufTy).Contents (Elt F)),
    StableHlo.nullary main_c_26 (constantI S_ 32 0#32),
    StableHlo.unary main_c_26 main_v140 (broadcastInDim S320000 ![] bcast_S_S320000 : (⟨S_, .i32⟩ : BufTy).Contents (Elt F) → (⟨S320000, .i32⟩ : BufTy).Contents (Elt F)),
    StableHlo.binary main_v1 main_v140 main_v141 (cmpi .slt : (⟨S320000, .i32⟩ : BufTy).Contents (Elt F) → (⟨S320000, .i32⟩ : BufTy).Contents (Elt F) → (⟨S320000, .i1⟩ : BufTy).Contents (Elt F)),
    StableHlo.nullary main_c_27 (constantI S_ 32 20000#32),
    StableHlo.unary main_c_27 main_v142 (broadcastInDim S320000 ![] bcast_S_S320000 : (⟨S_, .i32⟩ : BufTy).Contents (Elt F) → (⟨S320000, .i32⟩ : BufTy).Contents (Elt F)),
    StableHlo.binary main_v1 main_v142 main_v143 (addi : (⟨S320000, .i32⟩ : BufTy).Contents (Elt F) → (⟨S320000, .i32⟩ : BufTy).Contents (Elt F) → (⟨S320000, .i32⟩ : BufTy).Contents (Elt F)),
    StableHlo.ternary main_v141 main_v143 main_v1 main_v144 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v144 main_v145 (broadcastInDim S320000x1 ![0] bcast_S320000_S320000x1_0 : (⟨S320000, .i32⟩ : BufTy).Contents (Elt F) → (⟨S320000x1, .i32⟩ : BufTy).Contents (Elt F)),
    StableHlo.binary main_v139 main_v145 main_v146 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.binary main_v146 main_v4 main_v147 (mulf : (⟨S320000, .f32⟩ : BufTy).Contents (Elt F) → (⟨S320000, .f32⟩ : BufTy).Contents (Elt F) → (⟨S320000, .f32⟩ : BufTy).Contents (Elt F)),
    StableHlo.nullary main_c_28 (constantI S_ 32 0#32),
    StableHlo.unary main_c_28 main_v148 (broadcastInDim S320000 ![] bcast_S_S320000 : (⟨S_, .i32⟩ : BufTy).Contents (Elt F) → (⟨S320000, .i32⟩ : BufTy).Contents (Elt F)) ]

/-- The part of `rN3` in window 3 of the program: 8 operations. -/
def rN3_p1 : List (HloOp τ sig (Elt F)) :=
  [ StableHlo.binary main_v3 main_v148 main_v149 (cmpi .slt : (⟨S320000, .i32⟩ : BufTy).Contents (Elt F) → (⟨S320000, .i32⟩ : BufTy).Contents (Elt F) → (⟨S320000, .i1⟩ : BufTy).Contents (Elt F)),
    StableHlo.nullary main_c_29 (constantI S_ 32 20000#32),
    StableHlo.unary main_c_29 main_v150 (broadcastInDim S320000 ![] bcast_S_S320000 : (⟨S_, .i32⟩ : BufTy).Contents (Elt F) → (⟨S320000, .i32⟩ : BufTy).Contents (Elt F)),
    StableHlo.binary main_v3 main_v150 main_v151 (addi : (⟨S320000, .i32⟩ : BufTy).Contents (Elt F) → (⟨S320000, .i32⟩ : BufTy).Contents (Elt F) → (⟨S320000, .i32⟩ : BufTy).Contents (Elt F)),
    StableHlo.ternary main_v149 main_v151 main_v3 main_v152 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v152 main_v153 (broadcastInDim S320000x1 ![0] bcast_S320000_S320000x1_0 : (⟨S320000, .i32⟩ : BufTy).Contents (Elt F) → (⟨S320000x1, .i32⟩ : BufTy).Contents (Elt F)),
    StableHlo.binary main_v139 main_v153 main_v154 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.binary main_v147 main_v154 main_v155 (mulf : (⟨S320000, .f32⟩ : BufTy).Contents (Elt F) → (⟨S320000, .f32⟩ : BufTy).Contents (Elt F) → (⟨S320000, .f32⟩ : BufTy).Contents (Elt F)) ]

/-- The part of `rH` in window 3 of the program: 5 operations. -/
def rH_p0 : List (HloOp τ sig (Elt F)) :=
  [ StableHlo.nullary main_cst_37 (constant S_ .f32 0x00000000#32),
    StableHlo.unary main_cst_37 main_v196 (broadcastInDim S16x256 ![] bcast_S_S16x256 : (⟨S_, .f32⟩ : BufTy).Contents (Elt F) → (⟨S16x256, .f32⟩ : BufTy).Contents (Elt F)),
    StableHlo.unary main_arg3 main_v197 (broadcastInDim S20000x1 ![0] bcast_S20000_S20000x1_0 : (⟨S20000, .i32⟩ : BufTy).Contents (Elt F) → (⟨S20000x1, .i32⟩ : BufTy).Contents (Elt F)),
    StableHlo.ternary main_v196 main_v197 main_v195 main_v198 ((fun x i u => Host.scatterAdd scatter_S16x256_S20000x1_S20000x256_1_0_0_1 x i u) : (⟨S16x256, .f32⟩ : BufTy).Contents (Elt F) → (⟨S20000x1, .i32⟩ : BufTy).Contents (Elt F) → (⟨S20000x256, .f32⟩ : BufTy).Contents (Elt F) → (⟨S16x256, .f32⟩ : BufTy).Contents (Elt F)),
    StableHlo.nullary main_cst_38 (constant S_ .f32 0x3F800000#32) ]

/-- The part of `rH` in window 4 of the program: 28 operations. -/
def rH_p1 : List (HloOp τ sig (Elt F)) :=
  [ StableHlo.unary main_cst_38 main_v199 (broadcastInDim S20000 ![] bcast_S_S20000 : (⟨S_, .f32⟩ : BufTy).Contents (Elt F) → (⟨S20000, .f32⟩ : BufTy).Contents (Elt F)),
    StableHlo.nullary main_cst_39 (constant S_ .f32 0x00000000#32),
    StableHlo.unary main_cst_39 main_v200 (broadcastInDim S16 ![] bcast_S_S16 : (⟨S_, .f32⟩ : BufTy).Contents (Elt F) → (⟨S16, .f32⟩ : BufTy).Contents (Elt F)),
    StableHlo.unary main_arg3 main_v201 (broadcastInDim S20000x1 ![0] bcast_S20000_S20000x1_0 : (⟨S20000, .i32⟩ : BufTy).Contents (Elt F) → (⟨S20000x1, .i32⟩ : BufTy).Contents (Elt F)),
    StableHlo.ternary main_v200 main_v201 main_v199 main_v202 ((fun x i u => Host.scatterAdd scatter_S16_S20000x1_S20000_n_0_0_1 x i u) : (⟨S16, .f32⟩ : BufTy).Contents (Elt F) → (⟨S20000x1, .i32⟩ : BufTy).Contents (Elt F) → (⟨S20000, .f32⟩ : BufTy).Contents (Elt F) → (⟨S16, .f32⟩ : BufTy).Contents (Elt F)),
    StableHlo.nullary main_cst_40 (constant S_ .f32 0x3F800000#32),
    StableHlo.unary main_cst_40 main_v203 (broadcastInDim S16 ![] bcast_S_S16 : (⟨S_, .f32⟩ : BufTy).Contents (Elt F) → (⟨S16, .f32⟩ : BufTy).Contents (Elt F)),
    StableHlo.binary main_v202 main_v203 main_v204 (maximumf : (⟨S16, .f32⟩ : BufTy).Contents (Elt F) → (⟨S16, .f32⟩ : BufTy).Contents (Elt F) → (⟨S16, .f32⟩ : BufTy).Contents (Elt F)),
    StableHlo.unary main_v204 main_v205 (broadcastInDim S16x1 ![0] bcast_S16_S16x1_0 : (⟨S16, .f32⟩ : BufTy).Contents (Elt F) → (⟨S16x1, .f32⟩ : BufTy).Contents (Elt F)),
    StableHlo.unary main_v205 main_v206 (broadcastInDim S16x256 ![0, 1] bcast_S16x1_S16x256_0_1 : (⟨S16x1, .f32⟩ : BufTy).Contents (Elt F) → (⟨S16x256, .f32⟩ : BufTy).Contents (Elt F)),
    StableHlo.binary main_v198 main_v206 main_v207 (Host.divf : (⟨S16x256, .f32⟩ : BufTy).Contents (Elt F) → (⟨S16x256, .f32⟩ : BufTy).Contents (Elt F) → (⟨S16x256, .f32⟩ : BufTy).Contents (Elt F)),
    StableHlo.binary main_arg4 main_arg17 main_v208 ((fun l r => Host.dotGeneral dot_S16x1280_S1280x256_S16x256_1_0_0_1_n_n none l r) : (⟨S16x1280, .f32⟩ : BufTy).Contents (Elt F) → (⟨S1280x256, .f32⟩ : BufTy).Contents (Elt F) → (⟨S16x256, .f32⟩ : BufTy).Contents (Elt F)),
    StableHlo.unary main_arg18 main_v209 (broadcastInDim S1x256 ![1] bcast_S256_S1x256_1 : (⟨S256, .f32⟩ : BufTy).Contents (Elt F) → (⟨S1x256, .f32⟩ : BufTy).Contents (Elt F)),
    StableHlo.unary main_v209 main_v210 (broadcastInDim S16x256 ![0, 1] bcast_S1x256_S16x256_0_1 : (⟨S1x256, .f32⟩ : BufTy).Contents (Elt F) → (⟨S16x256, .f32⟩ : BufTy).Contents (Elt F)),
    StableHlo.binary main_v208 main_v210 main_v211 (addf : (⟨S16x256, .f32⟩ : BufTy).Contents (Elt F) → (⟨S16x256, .f32⟩ : BufTy).Contents (Elt F) → (⟨S16x256, .f32⟩ : BufTy).Contents (Elt F)),
    StableHlo.binary main_v207 main_v211 main_v212 (addf : (⟨S16x256, .f32⟩ : BufTy).Contents (Elt F) → (⟨S16x256, .f32⟩ : BufTy).Contents (Elt F) → (⟨S16x256, .f32⟩ : BufTy).Contents (Elt F)),
    StableHlo.binary main_v212 main_arg19 main_v213 ((fun l r => Host.dotGeneral dot_S16x256_S256x500_S16x500_1_0_0_1_n_n none l r) : (⟨S16x256, .f32⟩ : BufTy).Contents (Elt F) → (⟨S256x500, .f32⟩ : BufTy).Contents (Elt F) → (⟨S16x500, .f32⟩ : BufTy).Contents (Elt F)),
    StableHlo.unary main_arg20 main_v214 (broadcastInDim S1x500 ![1] bcast_S500_S1x500_1 : (⟨S500, .f32⟩ : BufTy).Contents (Elt F) → (⟨S1x500, .f32⟩ : BufTy).Contents (Elt F)),
    StableHlo.unary main_v214 main_v215 (broadcastInDim S16x500 ![0, 1] bcast_S1x500_S16x500_0_1 : (⟨S1x500, .f32⟩ : BufTy).Contents (Elt F) → (⟨S16x500, .f32⟩ : BufTy).Contents (Elt F)),
    StableHlo.binary main_v213 main_v215 main_v216 (addf : (⟨S16x500, .f32⟩ : BufTy).Contents (Elt F) → (⟨S16x500, .f32⟩ : BufTy).Contents (Elt F) → (⟨S16x500, .f32⟩ : BufTy).Contents (Elt F)),
    StableHlo.unary main_v216 main_v217 (Host.negf : (⟨S16x500, .f32⟩ : BufTy).Contents (Elt F) → (⟨S16x500, .f32⟩ : BufTy).Contents (Elt F)),
    StableHlo.unary main_v217 main_v218 (Host.exp : (⟨S16x500, .f32⟩ : BufTy).Contents (Elt F) → (⟨S16x500, .f32⟩ : BufTy).Contents (Elt F)),
    StableHlo.nullary main_cst_41 (constant S_ .f32 0x3F800000#32),
    StableHlo.unary main_cst_41 main_v219 (broadcastInDim S16x500 ![] bcast_S_S16x500 : (⟨S_, .f32⟩ : BufTy).Contents (Elt F) → (⟨S16x500, .f32⟩ : BufTy).Contents (Elt F)),
    StableHlo.binary main_v219 main_v218 main_v220 (addf : (⟨S16x500, .f32⟩ : BufTy).Contents (Elt F) → (⟨S16x500, .f32⟩ : BufTy).Contents (Elt F) → (⟨S16x500, .f32⟩ : BufTy).Contents (Elt F)),
    StableHlo.nullary main_cst_42 (constant S_ .f32 0x3F800000#32),
    StableHlo.unary main_cst_42 main_v221 (broadcastInDim S16x500 ![] bcast_S_S16x500 : (⟨S_, .f32⟩ : BufTy).Contents (Elt F) → (⟨S16x500, .f32⟩ : BufTy).Contents (Elt F)),
    StableHlo.binary main_v221 main_v220 main_v222 (Host.divf : (⟨S16x500, .f32⟩ : BufTy).Contents (Elt F) → (⟨S16x500, .f32⟩ : BufTy).Contents (Elt F) → (⟨S16x500, .f32⟩ : BufTy).Contents (Elt F)) ]

theorem rL1b_split : (rL1b : List (HloOp τ sig (Elt F))) = rL1b_p0 ++ rL1b_p1 := rfl
theorem rL2a_split : (rL2a : List (HloOp τ sig (Elt F))) = rL2a_p0 ++ rL2a_p1 := rfl
theorem rN3_split : (rN3 : List (HloOp τ sig (Elt F))) = rN3_p0 ++ rN3_p1 := rfl
theorem rH_split : (rH : List (HloOp τ sig (Elt F))) = rH_p0 ++ rH_p1 := rfl

/-- Window 0 of the program, as a line. -/
def win0 : List (HloOp τ sig (Elt F)) := rA ++ (r5 ++ (rN1 ++ (rL1a ++ (r41 ++ rL1b_p0))))
/-- Window 1 of the program, as a line. -/
def win1 : List (HloOp τ sig (Elt F)) := rL1b_p1 ++ (rBN1 ++ (r69 ++ (rN2 ++ rL2a_p0)))
/-- Window 2 of the program, as a line. -/
def win2 : List (HloOp τ sig (Elt F)) := rL2a_p1 ++ (r105 ++ (rL2b ++ (rBN2 ++ (r133 ++ rN3_p0))))
/-- Window 3 of the program, as a line. -/
def win3 : List (HloOp τ sig (Elt F)) := rN3_p1 ++ (rL3a ++ (r169 ++ (rL3b ++ (rBN3 ++ rH_p0))))
/-- Window 4 of the program, as a line. -/
def win4 : List (HloOp τ sig (Elt F)) := rH_p1

set_option maxRecDepth 8192 in
/-- The windows in order are the whole line. -/
theorem ops_eq_wins : (ops : List (HloOp τ sig (Elt F))) = win0 ++ (win1 ++ (win2 ++ (win3 ++ win4))) := rfl

set_option maxRecDepth 8192 in
set_option maxHeartbeats 4000000 in
theorem main_part0_eq (c : Dev nD) : main_part0 (F := F) c = StableHlo.seq win0 := rfl
set_option maxRecDepth 8192 in
set_option maxHeartbeats 4000000 in
theorem main_part1_eq (c : Dev nD) : main_part1 (F := F) c = StableHlo.seq win1 := rfl
set_option maxRecDepth 8192 in
set_option maxHeartbeats 4000000 in
theorem main_part2_eq (c : Dev nD) : main_part2 (F := F) c = StableHlo.seq win2 := rfl
set_option maxRecDepth 8192 in
set_option maxHeartbeats 4000000 in
theorem main_part3_eq (c : Dev nD) : main_part3 (F := F) c = StableHlo.seq win3 := rfl
set_option maxRecDepth 8192 in
set_option maxHeartbeats 4000000 in
theorem main_part4_eq (c : Dev nD) : main_part4 (F := F) c = StableHlo.seq win4 := rfl

set_option maxRecDepth 8192 in
/-- The program is the line `ops`. -/
theorem main_eq (c : Dev nD) : main (F := F) c = StableHlo.seq ops := by
  have h : main (F := F) c = StableHlo.seq (win0 ++ (win1 ++ (win2 ++ (win3 ++ win4)))) := by
    simp only [StableHlo.seq_append, ← main_part0_eq c, ← main_part1_eq c, ← main_part2_eq c, ← main_part3_eq c, ← main_part4_eq c]
    rfl
  exact h.trans (congrArg StableHlo.seq ops_eq_wins.symm)

/-! ## Every operation touches TensorCore buffers only -/

theorem rA_sub : (rA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.reshape_bufs_sub ..⟩
theorem r5_sub : (r5 : List (HloOp τ sig (Elt F))).Forall fun op => op.bufs ⊆ StableHlo.tcRefs τ sig :=
  StableHlo.binary_bufs_sub ..
theorem rN1_sub : (rN1 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem rL1a_sub : (rL1a : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem r41_sub : (r41 : List (HloOp τ sig (Elt F))).Forall fun op => op.bufs ⊆ StableHlo.tcRefs τ sig :=
  StableHlo.binary_bufs_sub ..
theorem rL1b_sub : (rL1b : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem rBN1_sub : (rBN1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem r69_sub : (r69 : List (HloOp τ sig (Elt F))).Forall fun op => op.bufs ⊆ StableHlo.tcRefs τ sig :=
  StableHlo.binary_bufs_sub ..
theorem rN2_sub : (rN2 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem rL2a_sub : (rL2a : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem r105_sub : (r105 : List (HloOp τ sig (Elt F))).Forall fun op => op.bufs ⊆ StableHlo.tcRefs τ sig :=
  StableHlo.binary_bufs_sub ..
theorem rL2b_sub : (rL2b : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem rBN2_sub : (rBN2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem r133_sub : (r133 : List (HloOp τ sig (Elt F))).Forall fun op => op.bufs ⊆ StableHlo.tcRefs τ sig :=
  StableHlo.binary_bufs_sub ..
theorem rN3_sub : (rN3 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem rL3a_sub : (rL3a : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem r169_sub : (r169 : List (HloOp τ sig (Elt F))).Forall fun op => op.bufs ⊆ StableHlo.tcRefs τ sig :=
  StableHlo.binary_bufs_sub ..
theorem rL3b_sub : (rL3b : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem rBN3_sub : (rBN3 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem rH_sub : (rH : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

theorem ops_sub : (ops : List (HloOp τ sig (Elt F))).Forall fun op => op.bufs ⊆ StableHlo.tcRefs τ sig :=
  List.forall_iff_forall_mem.mpr fun op h => by
    simp only [ops, List.mem_append] at h
    rcases h with h | h | h | h | h | h | h | h | h | h | h | h | h | h | h | h | h | h | h | h
    exacts [List.forall_iff_forall_mem.mp rA_sub op h, List.forall_iff_forall_mem.mp r5_sub op h, List.forall_iff_forall_mem.mp rN1_sub op h, List.forall_iff_forall_mem.mp rL1a_sub op h, List.forall_iff_forall_mem.mp r41_sub op h, List.forall_iff_forall_mem.mp rL1b_sub op h, List.forall_iff_forall_mem.mp rBN1_sub op h, List.forall_iff_forall_mem.mp r69_sub op h, List.forall_iff_forall_mem.mp rN2_sub op h, List.forall_iff_forall_mem.mp rL2a_sub op h, List.forall_iff_forall_mem.mp r105_sub op h, List.forall_iff_forall_mem.mp rL2b_sub op h, List.forall_iff_forall_mem.mp rBN2_sub op h, List.forall_iff_forall_mem.mp r133_sub op h, List.forall_iff_forall_mem.mp rN3_sub op h, List.forall_iff_forall_mem.mp rL3a_sub op h, List.forall_iff_forall_mem.mp r169_sub op h, List.forall_iff_forall_mem.mp rL3b_sub op h, List.forall_iff_forall_mem.mp rBN3_sub op h, List.forall_iff_forall_mem.mp rH_sub op h]

/-! ## No operation allocates a buffer: each determines its result -/

theorem rA_fresh : (rA : List (HloOp τ sig (Elt F))).Forall fun op => op.fresh = ∅ := by
  simp only [List.Forall]; repeat' constructor
theorem r5_fresh : (r5 : List (HloOp τ sig (Elt F))).Forall fun op => op.fresh = ∅ := by
  simp only [List.Forall]; repeat' constructor
theorem rN1_fresh : (rN1 : List (HloOp τ sig (Elt F))).Forall fun op => op.fresh = ∅ := by
  simp only [List.Forall]; repeat' constructor
theorem rL1a_fresh : (rL1a : List (HloOp τ sig (Elt F))).Forall fun op => op.fresh = ∅ := by
  simp only [List.Forall]; repeat' constructor
theorem r41_fresh : (r41 : List (HloOp τ sig (Elt F))).Forall fun op => op.fresh = ∅ := by
  simp only [List.Forall]; repeat' constructor
theorem rL1b_fresh : (rL1b : List (HloOp τ sig (Elt F))).Forall fun op => op.fresh = ∅ := by
  simp only [List.Forall]; repeat' constructor
theorem rBN1_fresh : (rBN1 : List (HloOp τ sig (Elt F))).Forall fun op => op.fresh = ∅ := by
  simp only [List.Forall]; repeat' constructor
theorem r69_fresh : (r69 : List (HloOp τ sig (Elt F))).Forall fun op => op.fresh = ∅ := by
  simp only [List.Forall]; repeat' constructor
theorem rN2_fresh : (rN2 : List (HloOp τ sig (Elt F))).Forall fun op => op.fresh = ∅ := by
  simp only [List.Forall]; repeat' constructor
theorem rL2a_fresh : (rL2a : List (HloOp τ sig (Elt F))).Forall fun op => op.fresh = ∅ := by
  simp only [List.Forall]; repeat' constructor
theorem r105_fresh : (r105 : List (HloOp τ sig (Elt F))).Forall fun op => op.fresh = ∅ := by
  simp only [List.Forall]; repeat' constructor
theorem rL2b_fresh : (rL2b : List (HloOp τ sig (Elt F))).Forall fun op => op.fresh = ∅ := by
  simp only [List.Forall]; repeat' constructor
theorem rBN2_fresh : (rBN2 : List (HloOp τ sig (Elt F))).Forall fun op => op.fresh = ∅ := by
  simp only [List.Forall]; repeat' constructor
theorem r133_fresh : (r133 : List (HloOp τ sig (Elt F))).Forall fun op => op.fresh = ∅ := by
  simp only [List.Forall]; repeat' constructor
theorem rN3_fresh : (rN3 : List (HloOp τ sig (Elt F))).Forall fun op => op.fresh = ∅ := by
  simp only [List.Forall]; repeat' constructor
theorem rL3a_fresh : (rL3a : List (HloOp τ sig (Elt F))).Forall fun op => op.fresh = ∅ := by
  simp only [List.Forall]; repeat' constructor
theorem r169_fresh : (r169 : List (HloOp τ sig (Elt F))).Forall fun op => op.fresh = ∅ := by
  simp only [List.Forall]; repeat' constructor
theorem rL3b_fresh : (rL3b : List (HloOp τ sig (Elt F))).Forall fun op => op.fresh = ∅ := by
  simp only [List.Forall]; repeat' constructor
theorem rBN3_fresh : (rBN3 : List (HloOp τ sig (Elt F))).Forall fun op => op.fresh = ∅ := by
  simp only [List.Forall]; repeat' constructor
theorem rH_fresh : (rH : List (HloOp τ sig (Elt F))).Forall fun op => op.fresh = ∅ := by
  simp only [List.Forall]; repeat' constructor

theorem ops_fresh : ∀ op ∈ (ops : List (HloOp τ sig (Elt F))), op.fresh = ∅ := fun op h => by
  simp only [ops, List.mem_append] at h
  rcases h with h | h | h | h | h | h | h | h | h | h | h | h | h | h | h | h | h | h | h | h
  exacts [List.forall_iff_forall_mem.mp rA_fresh op h, List.forall_iff_forall_mem.mp r5_fresh op h, List.forall_iff_forall_mem.mp rN1_fresh op h, List.forall_iff_forall_mem.mp rL1a_fresh op h, List.forall_iff_forall_mem.mp r41_fresh op h, List.forall_iff_forall_mem.mp rL1b_fresh op h, List.forall_iff_forall_mem.mp rBN1_fresh op h, List.forall_iff_forall_mem.mp r69_fresh op h, List.forall_iff_forall_mem.mp rN2_fresh op h, List.forall_iff_forall_mem.mp rL2a_fresh op h, List.forall_iff_forall_mem.mp r105_fresh op h, List.forall_iff_forall_mem.mp rL2b_fresh op h, List.forall_iff_forall_mem.mp rBN2_fresh op h, List.forall_iff_forall_mem.mp r133_fresh op h, List.forall_iff_forall_mem.mp rN3_fresh op h, List.forall_iff_forall_mem.mp rL3a_fresh op h, List.forall_iff_forall_mem.mp r169_fresh op h, List.forall_iff_forall_mem.mp rL3b_fresh op h, List.forall_iff_forall_mem.mp rBN3_fresh op h, List.forall_iff_forall_mem.mp rH_fresh op h]

/-! ## The run -/

set_option maxRecDepth 8192 in
theorem scopedRefs_eq : (Finset.univ.filter fun b : Ref sig .tc => b.isScoped) = ∅ := by decide
set_option maxRecDepth 8192 in
theorem scopedSems_eq : (Finset.univ.filter fun sm : SemLoc sig => sm.isScoped .tc) = ∅ := by decide

/-- On every device, for any float values, from any memory with zero counters: every weakly fair execution of the
    program terminates, and every final state has each TensorCore buffer at the fold of the line's results over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ (fun _ => ops_fresh)

/-! ## What the line writes, and that the arguments are not among it -/

/-- The fold over two lines one after the other is the fold over the second of the fold over the first. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The buffers `rA` writes. -/
abbrev rA_W : List (Ref sig .tc) := [main_v0, main_v1, main_v2, main_v3, main_v4]
theorem rA_writes : (rA : List (HloOp τ sig (Elt F))).Forall fun op => op.writes ⊆ (rA_W.map (Proc.devRef (τ := τ) .tc)).toFinset := by
  simp only [List.Forall]; refine ⟨?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rA` does not write keeps its contents through it. -/
theorem rA_keep (V : Valuation τ sig (Elt F)) (r : Ref sig .tc) (h : r ∉ rA_W) :
    StableHlo.after rA V (Proc.devRef .tc r) = V (Proc.devRef .tc r) :=
  StableHlo.after_of_writes_sub rA _ rA_writes h
/-- The buffers `r5` writes. -/
abbrev r5_W : List (Ref sig .tc) := [main_v5]
theorem r5_writes : (r5 : List (HloOp τ sig (Elt F))).Forall fun op => op.writes ⊆ (r5_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]; exact List.mem_map_of_mem (by decide)
/-- A buffer `r5` does not write keeps its contents through it. -/
theorem r5_keep (V : Valuation τ sig (Elt F)) (r : Ref sig .tc) (h : r ∉ r5_W) :
    StableHlo.after r5 V (Proc.devRef .tc r) = V (Proc.devRef .tc r) :=
  StableHlo.after_of_writes_sub r5 _ r5_writes h
/-- The buffers `rN1` writes. -/
abbrev rN1_W : List (Ref sig .tc) := [main_cst, main_v6, main_v7, main_v8, main_cst_0, main_v9, main_v10, main_v11, main_c, main_v12, main_v13, main_c_1, main_v14, main_v15, main_v16, main_v17, main_v18, main_v19, main_c_2, main_v20, main_v21, main_c_3, main_v22, main_v23, main_v24, main_v25, main_v26, main_v27]
theorem rN1_writes : (rN1 : List (HloOp τ sig (Elt F))).Forall fun op => op.writes ⊆ (rN1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rN1` does not write keeps its contents through it. -/
theorem rN1_keep (V : Valuation τ sig (Elt F)) (r : Ref sig .tc) (h : r ∉ rN1_W) :
    StableHlo.after rN1 V (Proc.devRef .tc r) = V (Proc.devRef .tc r) :=
  StableHlo.after_of_writes_sub rN1 _ rN1_writes h
/-- The buffers `rL1a` writes. -/
abbrev rL1a_W : List (Ref sig .tc) := [main_v28, main_c_4, main_v29, main_v30, main_c_5, main_v31, main_v32, main_v33, main_v34, main_v35, main_v36, main_v37, main_cst_6, main_v38, main_v39, main_v40]
theorem rL1a_writes : (rL1a : List (HloOp τ sig (Elt F))).Forall fun op => op.writes ⊆ (rL1a_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rL1a` does not write keeps its contents through it. -/
theorem rL1a_keep (V : Valuation τ sig (Elt F)) (r : Ref sig .tc) (h : r ∉ rL1a_W) :
    StableHlo.after rL1a V (Proc.devRef .tc r) = V (Proc.devRef .tc r) :=
  StableHlo.after_of_writes_sub rL1a _ rL1a_writes h
/-- The buffers `r41` writes. -/
abbrev r41_W : List (Ref sig .tc) := [main_v41]
theorem r41_writes : (r41 : List (HloOp τ sig (Elt F))).Forall fun op => op.writes ⊆ (r41_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]; exact List.mem_map_of_mem (by decide)
/-- A buffer `r41` does not write keeps its contents through it. -/
theorem r41_keep (V : Valuation τ sig (Elt F)) (r : Ref sig .tc) (h : r ∉ r41_W) :
    StableHlo.after r41 V (Proc.devRef .tc r) = V (Proc.devRef .tc r) :=
  StableHlo.after_of_writes_sub r41 _ r41_writes h
/-- The buffers `rL1b` writes. -/
abbrev rL1b_W : List (Ref sig .tc) := [main_v42, main_v43, main_v44, main_v45, main_v46, main_v47, main_v48, main_call0_cst, main_call0_v0, main_v49, main_cst_7, main_v50, main_cst_8, main_v51, main_v52, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v53]
theorem rL1b_writes : (rL1b : List (HloOp τ sig (Elt F))).Forall fun op => op.writes ⊆ (rL1b_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rL1b` does not write keeps its contents through it. -/
theorem rL1b_keep (V : Valuation τ sig (Elt F)) (r : Ref sig .tc) (h : r ∉ rL1b_W) :
    StableHlo.after rL1b V (Proc.devRef .tc r) = V (Proc.devRef .tc r) :=
  StableHlo.after_of_writes_sub rL1b _ rL1b_writes h
/-- The buffers `rBN1` writes. -/
abbrev rBN1_W : List (Ref sig .tc) := [main_v54, main_v55, main_v56, main_cst_10, main_v57, main_v58, main_v59, main_v60, main_v61, main_v62, main_v63, main_v64, main_v65, main_v66, main_v67, main_v68]
theorem rBN1_writes : (rBN1 : List (HloOp τ sig (Elt F))).Forall fun op => op.writes ⊆ (rBN1_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rBN1` does not write keeps its contents through it. -/
theorem rBN1_keep (V : Valuation τ sig (Elt F)) (r : Ref sig .tc) (h : r ∉ rBN1_W) :
    StableHlo.after rBN1 V (Proc.devRef .tc r) = V (Proc.devRef .tc r) :=
  StableHlo.after_of_writes_sub rBN1 _ rBN1_writes h
/-- The buffers `r69` writes. -/
abbrev r69_W : List (Ref sig .tc) := [main_v69]
theorem r69_writes : (r69 : List (HloOp τ sig (Elt F))).Forall fun op => op.writes ⊆ (r69_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]; exact List.mem_map_of_mem (by decide)
/-- A buffer `r69` does not write keeps its contents through it. -/
theorem r69_keep (V : Valuation τ sig (Elt F)) (r : Ref sig .tc) (h : r ∉ r69_W) :
    StableHlo.after r69 V (Proc.devRef .tc r) = V (Proc.devRef .tc r) :=
  StableHlo.after_of_writes_sub r69 _ r69_writes h
/-- The buffers `rN2` writes. -/
abbrev rN2_W : List (Ref sig .tc) := [main_cst_11, main_v70, main_v71, main_v72, main_cst_12, main_v73, main_v74, main_v75, main_c_13, main_v76, main_v77, main_c_14, main_v78, main_v79, main_v80, main_v81, main_v82, main_v83, main_c_15, main_v84, main_v85, main_c_16, main_v86, main_v87, main_v88, main_v89, main_v90, main_v91]
theorem rN2_writes : (rN2 : List (HloOp τ sig (Elt F))).Forall fun op => op.writes ⊆ (rN2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rN2` does not write keeps its contents through it. -/
theorem rN2_keep (V : Valuation τ sig (Elt F)) (r : Ref sig .tc) (h : r ∉ rN2_W) :
    StableHlo.after rN2 V (Proc.devRef .tc r) = V (Proc.devRef .tc r) :=
  StableHlo.after_of_writes_sub rN2 _ rN2_writes h
/-- The buffers `rL2a` writes. -/
abbrev rL2a_W : List (Ref sig .tc) := [main_v92, main_c_17, main_v93, main_v94, main_c_18, main_v95, main_v96, main_v97, main_v98, main_v99, main_v100, main_v101, main_cst_19, main_v102, main_v103, main_v104]
theorem rL2a_writes : (rL2a : List (HloOp τ sig (Elt F))).Forall fun op => op.writes ⊆ (rL2a_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rL2a` does not write keeps its contents through it. -/
theorem rL2a_keep (V : Valuation τ sig (Elt F)) (r : Ref sig .tc) (h : r ∉ rL2a_W) :
    StableHlo.after rL2a V (Proc.devRef .tc r) = V (Proc.devRef .tc r) :=
  StableHlo.after_of_writes_sub rL2a _ rL2a_writes h
/-- The buffers `r105` writes. -/
abbrev r105_W : List (Ref sig .tc) := [main_v105]
theorem r105_writes : (r105 : List (HloOp τ sig (Elt F))).Forall fun op => op.writes ⊆ (r105_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]; exact List.mem_map_of_mem (by decide)
/-- A buffer `r105` does not write keeps its contents through it. -/
theorem r105_keep (V : Valuation τ sig (Elt F)) (r : Ref sig .tc) (h : r ∉ r105_W) :
    StableHlo.after r105 V (Proc.devRef .tc r) = V (Proc.devRef .tc r) :=
  StableHlo.after_of_writes_sub r105 _ r105_writes h
/-- The buffers `rL2b` writes. -/
abbrev rL2b_W : List (Ref sig .tc) := [main_v106, main_v107, main_v108, main_v109, main_v110, main_v111, main_v112, main_call2_cst, main_call2_v0, main_v113, main_cst_20, main_v114, main_cst_21, main_v115, main_v116, main_c_22, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v117]
theorem rL2b_writes : (rL2b : List (HloOp τ sig (Elt F))).Forall fun op => op.writes ⊆ (rL2b_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rL2b` does not write keeps its contents through it. -/
theorem rL2b_keep (V : Valuation τ sig (Elt F)) (r : Ref sig .tc) (h : r ∉ rL2b_W) :
    StableHlo.after rL2b V (Proc.devRef .tc r) = V (Proc.devRef .tc r) :=
  StableHlo.after_of_writes_sub rL2b _ rL2b_writes h
/-- The buffers `rBN2` writes. -/
abbrev rBN2_W : List (Ref sig .tc) := [main_v118, main_v119, main_v120, main_cst_23, main_v121, main_v122, main_v123, main_v124, main_v125, main_v126, main_v127, main_v128, main_v129, main_v130, main_v131, main_v132]
theorem rBN2_writes : (rBN2 : List (HloOp τ sig (Elt F))).Forall fun op => op.writes ⊆ (rBN2_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rBN2` does not write keeps its contents through it. -/
theorem rBN2_keep (V : Valuation τ sig (Elt F)) (r : Ref sig .tc) (h : r ∉ rBN2_W) :
    StableHlo.after rBN2 V (Proc.devRef .tc r) = V (Proc.devRef .tc r) :=
  StableHlo.after_of_writes_sub rBN2 _ rBN2_writes h
/-- The buffers `r133` writes. -/
abbrev r133_W : List (Ref sig .tc) := [main_v133]
theorem r133_writes : (r133 : List (HloOp τ sig (Elt F))).Forall fun op => op.writes ⊆ (r133_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]; exact List.mem_map_of_mem (by decide)
/-- A buffer `r133` does not write keeps its contents through it. -/
theorem r133_keep (V : Valuation τ sig (Elt F)) (r : Ref sig .tc) (h : r ∉ r133_W) :
    StableHlo.after r133 V (Proc.devRef .tc r) = V (Proc.devRef .tc r) :=
  StableHlo.after_of_writes_sub r133 _ r133_writes h
/-- The buffers `rN3` writes. -/
abbrev rN3_W : List (Ref sig .tc) := [main_cst_24, main_v134, main_v135, main_v136, main_cst_25, main_v137, main_v138, main_v139, main_c_26, main_v140, main_v141, main_c_27, main_v142, main_v143, main_v144, main_v145, main_v146, main_v147, main_c_28, main_v148, main_v149, main_c_29, main_v150, main_v151, main_v152, main_v153, main_v154, main_v155]
theorem rN3_writes : (rN3 : List (HloOp τ sig (Elt F))).Forall fun op => op.writes ⊆ (rN3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rN3` does not write keeps its contents through it. -/
theorem rN3_keep (V : Valuation τ sig (Elt F)) (r : Ref sig .tc) (h : r ∉ rN3_W) :
    StableHlo.after rN3 V (Proc.devRef .tc r) = V (Proc.devRef .tc r) :=
  StableHlo.after_of_writes_sub rN3 _ rN3_writes h
/-- The buffers `rL3a` writes. -/
abbrev rL3a_W : List (Ref sig .tc) := [main_v156, main_c_30, main_v157, main_v158, main_c_31, main_v159, main_v160, main_v161, main_v162, main_v163, main_v164, main_v165, main_cst_32, main_v166, main_v167, main_v168]
theorem rL3a_writes : (rL3a : List (HloOp τ sig (Elt F))).Forall fun op => op.writes ⊆ (rL3a_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rL3a` does not write keeps its contents through it. -/
theorem rL3a_keep (V : Valuation τ sig (Elt F)) (r : Ref sig .tc) (h : r ∉ rL3a_W) :
    StableHlo.after rL3a V (Proc.devRef .tc r) = V (Proc.devRef .tc r) :=
  StableHlo.after_of_writes_sub rL3a _ rL3a_writes h
/-- The buffers `r169` writes. -/
abbrev r169_W : List (Ref sig .tc) := [main_v169]
theorem r169_writes : (r169 : List (HloOp τ sig (Elt F))).Forall fun op => op.writes ⊆ (r169_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]; exact List.mem_map_of_mem (by decide)
/-- A buffer `r169` does not write keeps its contents through it. -/
theorem r169_keep (V : Valuation τ sig (Elt F)) (r : Ref sig .tc) (h : r ∉ r169_W) :
    StableHlo.after r169 V (Proc.devRef .tc r) = V (Proc.devRef .tc r) :=
  StableHlo.after_of_writes_sub r169 _ r169_writes h
/-- The buffers `rL3b` writes. -/
abbrev rL3b_W : List (Ref sig .tc) := [main_v170, main_v171, main_v172, main_v173, main_v174, main_v175, main_v176, main_cst_33, main_v177, main_cst_34, main_v178, main_v179, main_c_35, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v180]
theorem rL3b_writes : (rL3b : List (HloOp τ sig (Elt F))).Forall fun op => op.writes ⊆ (rL3b_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rL3b` does not write keeps its contents through it. -/
theorem rL3b_keep (V : Valuation τ sig (Elt F)) (r : Ref sig .tc) (h : r ∉ rL3b_W) :
    StableHlo.after rL3b V (Proc.devRef .tc r) = V (Proc.devRef .tc r) :=
  StableHlo.after_of_writes_sub rL3b _ rL3b_writes h
/-- The buffers `rBN3` writes. -/
abbrev rBN3_W : List (Ref sig .tc) := [main_v181, main_v182, main_v183, main_cst_36, main_v184, main_v185, main_v186, main_v187, main_v188, main_v189, main_v190, main_v191, main_v192, main_v193, main_v194, main_v195]
theorem rBN3_writes : (rBN3 : List (HloOp τ sig (Elt F))).Forall fun op => op.writes ⊆ (rBN3_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rBN3` does not write keeps its contents through it. -/
theorem rBN3_keep (V : Valuation τ sig (Elt F)) (r : Ref sig .tc) (h : r ∉ rBN3_W) :
    StableHlo.after rBN3 V (Proc.devRef .tc r) = V (Proc.devRef .tc r) :=
  StableHlo.after_of_writes_sub rBN3 _ rBN3_writes h
/-- The buffers `rH` writes. -/
abbrev rH_W : List (Ref sig .tc) := [main_cst_37, main_v196, main_v197, main_v198, main_cst_38, main_v199, main_cst_39, main_v200, main_v201, main_v202, main_cst_40, main_v203, main_v204, main_v205, main_v206, main_v207, main_v208, main_v209, main_v210, main_v211, main_v212, main_v213, main_v214, main_v215, main_v216, main_v217, main_v218, main_cst_41, main_v219, main_v220, main_cst_42, main_v221, main_v222]
theorem rH_writes : (rH : List (HloOp τ sig (Elt F))).Forall fun op => op.writes ⊆ (rH_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `rH` does not write keeps its contents through it. -/
theorem rH_keep (V : Valuation τ sig (Elt F)) (r : Ref sig .tc) (h : r ∉ rH_W) :
    StableHlo.after rH V (Proc.devRef .tc r) = V (Proc.devRef .tc r) :=
  StableHlo.after_of_writes_sub rH _ rH_writes h

/-- A buffer no stretch writes keeps its contents through the whole line. -/
theorem ops_keep (V : Valuation τ sig (Elt F)) (r : Ref sig .tc)
    (h0 : r ∉ rA_W) (h1 : r ∉ r5_W) (h2 : r ∉ rN1_W) (h3 : r ∉ rL1a_W) (h4 : r ∉ r41_W) (h5 : r ∉ rL1b_W) (h6 : r ∉ rBN1_W) (h7 : r ∉ r69_W) (h8 : r ∉ rN2_W) (h9 : r ∉ rL2a_W) (h10 : r ∉ r105_W) (h11 : r ∉ rL2b_W) (h12 : r ∉ rBN2_W) (h13 : r ∉ r133_W) (h14 : r ∉ rN3_W) (h15 : r ∉ rL3a_W) (h16 : r ∉ r169_W) (h17 : r ∉ rL3b_W) (h18 : r ∉ rBN3_W) (h19 : r ∉ rH_W) :
    StableHlo.after ops V (Proc.devRef .tc r) = V (Proc.devRef .tc r) := by
  simp only [ops, after_app]
  rw [rH_keep _ r h19, rBN3_keep _ r h18, rL3b_keep _ r h17, r169_keep _ r h16, rL3a_keep _ r h15, rN3_keep _ r h14, r133_keep _ r h13, rBN2_keep _ r h12, rL2b_keep _ r h11, r105_keep _ r h10, rL2a_keep _ r h9, rN2_keep _ r h8, r69_keep _ r h7, rBN1_keep _ r h6, rL1b_keep _ r h5, r41_keep _ r h4, rL1a_keep _ r h3, rN1_keep _ r h2, r5_keep _ r h1, rA_keep _ r h0]

/-- Argument 0 ends as launched. -/
theorem arg0_kept (V : Valuation τ sig (Elt F)) :
    StableHlo.after ops V (Proc.devRef .tc main_arg0) = V (Proc.devRef .tc main_arg0) :=
  ops_keep V main_arg0 (by decide) (by decide) (by decide) (by decide) (by decide) (by decide) (by decide) (by decide) (by decide) (by decide) (by decide) (by decide) (by decide) (by decide) (by decide) (by decide) (by decide) (by decide) (by decide) (by decide)
/-- Argument 1 ends as launched. -/
theorem arg1_kept (V : Valuation τ sig (Elt F)) :
    StableHlo.after ops V (Proc.devRef .tc main_arg1) = V (Proc.devRef .tc main_arg1) :=
  ops_keep V main_arg1 (by decide) (by decide) (by decide) (by decide) (by decide) (by decide) (by decide) (by decide) (by decide) (by decide) (by decide) (by decide) (by decide) (by decide) (by decide) (by decide) (by decide) (by decide) (by decide) (by decide)
/-- Argument 2 ends as launched. -/
theorem arg2_kept (V : Valuation τ sig (Elt F)) :
    StableHlo.after ops V (Proc.devRef .tc main_arg2) = V (Proc.devRef .tc main_arg2) :=
  ops_keep V main_arg2 (by decide) (by decide) (by decide) (by decide) (by decide) (by decide) (by decide) (by decide) (by decide) (by decide) (by decide) (by decide) (by decide) (by decide) (by decide) (by decide) (by decide) (by decide) (by decide) (by decide)
/-- Argument 3 ends as launched. -/
theorem arg3_kept (V : Valuation τ sig (Elt F)) :
    StableHlo.after ops V (Proc.devRef .tc main_arg3) = V (Proc.devRef .tc main_arg3) :=
  ops_keep V main_arg3 (by decide) (by decide) (by decide) (by decide) (by decide) (by decide) (by decide) (by decide) (by decide) (by decide) (by decide) (by decide) (by decide) (by decide) (by decide) (by decide) (by decide) (by decide) (by decide) (by decide)
/-- Argument 4 ends as launched. -/
theorem arg4_kept (V : Valuation τ sig (Elt F)) :
    StableHlo.after ops V (Proc.devRef .tc main_arg4) = V (Proc.devRef .tc main_arg4) :=
  ops_keep V main_arg4 (by decide) (by decide) (by decide) (by decide) (by decide) (by decide) (by decide) (by decide) (by decide) (by decide) (by decide) (by decide) (by decide) (by decide) (by decide) (by decide) (by decide) (by decide) (by decide) (by decide)
/-- Argument 5 ends as launched. -/
theorem arg5_kept (V : Valuation τ sig (Elt F)) :
    StableHlo.after ops V (Proc.devRef .tc main_arg5) = V (Proc.devRef .tc main_arg5) :=
  ops_keep V main_arg5 (by decide) (by decide) (by decide) (by decide) (by decide) (by decide) (by decide) (by decide) (by decide) (by decide) (by decide) (by decide) (by decide) (by decide) (by decide) (by decide) (by decide) (by decide) (by decide) (by decide)
/-- Argument 6 ends as launched. -/
theorem arg6_kept (V : Valuation τ sig (Elt F)) :
    StableHlo.after ops V (Proc.devRef .tc main_arg6) = V (Proc.devRef .tc main_arg6) :=
  ops_keep V main_arg6 (by decide) (by decide) (by decide) (by decide) (by decide) (by decide) (by decide) (by decide) (by decide) (by decide) (by decide) (by decide) (by decide) (by decide) (by decide) (by decide) (by decide) (by decide) (by decide) (by decide)
/-- Argument 7 ends as launched. -/
theorem arg7_kept (V : Valuation τ sig (Elt F)) :
    StableHlo.after ops V (Proc.devRef .tc main_arg7) = V (Proc.devRef .tc main_arg7) :=
  ops_keep V main_arg7 (by decide) (by decide) (by decide) (by decide) (by decide) (by decide) (by decide) (by decide) (by decide) (by decide) (by decide) (by decide) (by decide) (by decide) (by decide) (by decide) (by decide) (by decide) (by decide) (by decide)
/-- Argument 8 ends as launched. -/
theorem arg8_kept (V : Valuation τ sig (Elt F)) :
    StableHlo.after ops V (Proc.devRef .tc main_arg8) = V (Proc.devRef .tc main_arg8) :=
  ops_keep V main_arg8 (by decide) (by decide) (by decide) (by decide) (by decide) (by decide) (by decide) (by decide) (by decide) (by decide) (by decide) (by decide) (by decide) (by decide) (by decide) (by decide) (by decide) (by decide) (by decide) (by decide)
/-- Argument 9 ends as launched. -/
theorem arg9_kept (V : Valuation τ sig (Elt F)) :
    StableHlo.after ops V (Proc.devRef .tc main_arg9) = V (Proc.devRef .tc main_arg9) :=
  ops_keep V main_arg9 (by decide) (by decide) (by decide) (by decide) (by decide) (by decide) (by decide) (by decide) (by decide) (by decide) (by decide) (by decide) (by decide) (by decide) (by decide) (by decide) (by decide) (by decide) (by decide) (by decide)
/-- Argument 10 ends as launched. -/
theorem arg10_kept (V : Valuation τ sig (Elt F)) :
    StableHlo.after ops V (Proc.devRef .tc main_arg10) = V (Proc.devRef .tc main_arg10) :=
  ops_keep V main_arg10 (by decide) (by decide) (by decide) (by decide) (by decide) (by decide) (by decide) (by decide) (by decide) (by decide) (by decide) (by decide) (by decide) (by decide) (by decide) (by decide) (by decide) (by decide) (by decide) (by decide)
/-- Argument 11 ends as launched. -/
theorem arg11_kept (V : Valuation τ sig (Elt F)) :
    StableHlo.after ops V (Proc.devRef .tc main_arg11) = V (Proc.devRef .tc main_arg11) :=
  ops_keep V main_arg11 (by decide) (by decide) (by decide) (by decide) (by decide) (by decide) (by decide) (by decide) (by decide) (by decide) (by decide) (by decide) (by decide) (by decide) (by decide) (by decide) (by decide) (by decide) (by decide) (by decide)
/-- Argument 12 ends as launched. -/
theorem arg12_kept (V : Valuation τ sig (Elt F)) :
    StableHlo.after ops V (Proc.devRef .tc main_arg12) = V (Proc.devRef .tc main_arg12) :=
  ops_keep V main_arg12 (by decide) (by decide) (by decide) (by decide) (by decide) (by decide) (by decide) (by decide) (by decide) (by decide) (by decide) (by decide) (by decide) (by decide) (by decide) (by decide) (by decide) (by decide) (by decide) (by decide)
/-- Argument 13 ends as launched. -/
theorem arg13_kept (V : Valuation τ sig (Elt F)) :
    StableHlo.after ops V (Proc.devRef .tc main_arg13) = V (Proc.devRef .tc main_arg13) :=
  ops_keep V main_arg13 (by decide) (by decide) (by decide) (by decide) (by decide) (by decide) (by decide) (by decide) (by decide) (by decide) (by decide) (by decide) (by decide) (by decide) (by decide) (by decide) (by decide) (by decide) (by decide) (by decide)
/-- Argument 14 ends as launched. -/
theorem arg14_kept (V : Valuation τ sig (Elt F)) :
    StableHlo.after ops V (Proc.devRef .tc main_arg14) = V (Proc.devRef .tc main_arg14) :=
  ops_keep V main_arg14 (by decide) (by decide) (by decide) (by decide) (by decide) (by decide) (by decide) (by decide) (by decide) (by decide) (by decide) (by decide) (by decide) (by decide) (by decide) (by decide) (by decide) (by decide) (by decide) (by decide)
/-- Argument 15 ends as launched. -/
theorem arg15_kept (V : Valuation τ sig (Elt F)) :
    StableHlo.after ops V (Proc.devRef .tc main_arg15) = V (Proc.devRef .tc main_arg15) :=
  ops_keep V main_arg15 (by decide) (by decide) (by decide) (by decide) (by decide) (by decide) (by decide) (by decide) (by decide) (by decide) (by decide) (by decide) (by decide) (by decide) (by decide) (by decide) (by decide) (by decide) (by decide) (by decide)
/-- Argument 16 ends as launched. -/
theorem arg16_kept (V : Valuation τ sig (Elt F)) :
    StableHlo.after ops V (Proc.devRef .tc main_arg16) = V (Proc.devRef .tc main_arg16) :=
  ops_keep V main_arg16 (by decide) (by decide) (by decide) (by decide) (by decide) (by decide) (by decide) (by decide) (by decide) (by decide) (by decide) (by decide) (by decide) (by decide) (by decide) (by decide) (by decide) (by decide) (by decide) (by decide)
/-- Argument 17 ends as launched. -/
theorem arg17_kept (V : Valuation τ sig (Elt F)) :
    StableHlo.after ops V (Proc.devRef .tc main_arg17) = V (Proc.devRef .tc main_arg17) :=
  ops_keep V main_arg17 (by decide) (by decide) (by decide) (by decide) (by decide) (by decide) (by decide) (by decide) (by decide) (by decide) (by decide) (by decide) (by decide) (by decide) (by decide) (by decide) (by decide) (by decide) (by decide) (by decide)
/-- Argument 18 ends as launched. -/
theorem arg18_kept (V : Valuation τ sig (Elt F)) :
    StableHlo.after ops V (Proc.devRef .tc main_arg18) = V (Proc.devRef .tc main_arg18) :=
  ops_keep V main_arg18 (by decide) (by decide) (by decide) (by decide) (by decide) (by decide) (by decide) (by decide) (by decide) (by decide) (by decide) (by decide) (by decide) (by decide) (by decide) (by decide) (by decide) (by decide) (by decide) (by decide)
/-- Argument 19 ends as launched. -/
theorem arg19_kept (V : Valuation τ sig (Elt F)) :
    StableHlo.after ops V (Proc.devRef .tc main_arg19) = V (Proc.devRef .tc main_arg19) :=
  ops_keep V main_arg19 (by decide) (by decide) (by decide) (by decide) (by decide) (by decide) (by decide) (by decide) (by decide) (by decide) (by decide) (by decide) (by decide) (by decide) (by decide) (by decide) (by decide) (by decide) (by decide) (by decide)
/-- Argument 20 ends as launched. -/
theorem arg20_kept (V : Valuation τ sig (Elt F)) :
    StableHlo.after ops V (Proc.devRef .tc main_arg20) = V (Proc.devRef .tc main_arg20) :=
  ops_keep V main_arg20 (by decide) (by decide) (by decide) (by decide) (by decide) (by decide) (by decide) (by decide) (by decide) (by decide) (by decide) (by decide) (by decide) (by decide) (by decide) (by decide) (by decide) (by decide) (by decide) (by decide)

end Cert.ReferenceIdeal.Run

end
-- ==== Proof.LibAgree.lean ====
import Idealize.ShloMosaic.Lib.StableHlo.Run

/-!
# Two lines of host operations stepped in lockstep

Two programs over two signatures run the same operations on buffers paired by position. `Agree P V₁ V₂` says the two
valuations hold the same contents at every pair of the list `P`; the contents of a pair are compared heterogeneously,
the two signatures giving the paired buffers types that are equal only once their tables are unfolded. `Sim P ops ops' Q`
says: from valuations agreeing on `P`, after `ops` on one side and `ops'` on the other the valuations agree on `Q`.
One rule per builder steps an operation on each side and adds the pair of result buffers; every buffer being written
once, a pair already listed is never written again (the freshness hypotheses).
-/

namespace Idealize.ShloMosaic.StableHlo

variable {τ : Topo} {sig₁ sig₂ : RefSig} {Val : EltTy → Type}

/-! ## Heterogeneous congruence -/

/-- Heterogeneously equal functions at heterogeneously equal arguments, the domains and the codomains being equal types. -/
theorem heq_app {A A' B B' : Type} (hA : A = A') (hB : B = B') {f : A → B} {f' : A' → B'} (hf : HEq f f')
    {a : A} {a' : A'} (ha : HEq a a') : HEq (f a) (f' a') := by
  subst hA hB; cases hf; cases ha; rfl

/-- Dependent families that agree pointwise, over pointwise equal types. -/
theorem heq_pi {ι : Type} {A A' : ι → Type} (hA : ∀ k, A k = A' k) {g : (k : ι) → A k} {g' : (k : ι) → A' k}
    (h : ∀ k, HEq (g k) (g' k)) : HEq g g' := by
  obtain rfl : A = A' := funext hA
  exact heq_of_eq (funext fun k => eq_of_heq (h k))

/-- Functions of a dependent family, likewise. -/
theorem heq_app_pi {ι : Type} {A A' : ι → Type} {B B' : Type} (hA : ∀ k, A k = A' k) (hB : B = B')
    {f : ((k : ι) → A k) → B} {f' : ((k : ι) → A' k) → B'} (hf : HEq f f')
    {g : (k : ι) → A k} {g' : (k : ι) → A' k} (h : ∀ k, HEq (g k) (g' k)) : HEq (f g) (f' g') := by
  obtain rfl : A = A' := funext hA
  subst hB; cases hf
  exact heq_of_eq (congrArg f (funext fun k => eq_of_heq (h k)))

/-- A reshape of heterogeneously equal contents, the buffer types being equal. -/
theorem heq_reshape {T₁ T₁' T₂ T₂' : BufTy} (h₁ : T₁ = T₁') (h₂ : T₂ = T₂') (he : T₁.elt = T₂.elt) (he' : T₁'.elt = T₂'.elt)
    (hn : T₁.shape.ShapeCasts T₂.shape) (hn' : T₁'.shape.ShapeCasts T₂'.shape)
    {a : T₁.Contents Val} {a' : T₁'.Contents Val} (ha : HEq a a') :
    HEq (fun i => he ▸ shapeCast T₂.shape a hn i : T₂.Contents Val) (fun i => he' ▸ shapeCast T₂'.shape a' hn' i : T₂'.Contents Val) := by
  subst h₁ h₂; cases ha; rfl

/-! ## Agreement on a list of pairs -/

/-- The two valuations hold the same contents at every pair of `P`. -/
def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

namespace Agree

variable {P Q : List (Ref sig₁ .tc × Ref sig₂ .tc)} {V₁ : Valuation τ sig₁ Val} {V₂ : Valuation τ sig₂ Val}

theorem nil : Agree (τ := τ) (Val := Val) ([] : List (Ref sig₁ .tc × Ref sig₂ .tc)) V₁ V₂ := fun _ h => absurd h List.not_mem_nil

theorem cons {a : Ref sig₁ .tc} {a' : Ref sig₂ .tc} (h : HEq (V₁ (Proc.devRef .tc a)) (V₂ (Proc.devRef .tc a')))
    (t : Agree P V₁ V₂) : Agree ((a, a') :: P) V₁ V₂ := fun p hp => by
  rcases List.mem_cons.mp hp with rfl | hp
  · exact h
  · exact t p hp

/-- The contents at a listed pair. -/
theorem get (h : Agree P V₁ V₂) {a : Ref sig₁ .tc} {a' : Ref sig₂ .tc} (hin : (a, a') ∈ P) :
    HEq (V₁ (Proc.devRef .tc a)) (V₂ (Proc.devRef .tc a')) := h (a, a') hin

/-- Pairs may be dropped. -/
theorem mono (h : Agree P V₁ V₂) (hQ : Q ⊆ P) : Agree Q V₁ V₂ := fun p hp => h p (hQ hp)

/-- An operation on each side, each writing one buffer that no listed pair names, the two results being the same: the
    valuations after them agree on the list and on the pair of result buffers. -/
theorem write (h : Agree P V₁ V₂) {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : HEq (op.result V₁ (Proc.devRef .tc y)) (op'.result V₂ (Proc.devRef .tc y'))) :
    Agree ((y, y') :: P) (op.result V₁) (op'.result V₂) := fun p hp => by
  rcases List.mem_cons.mp hp with rfl | hp
  · exact hres
  · have h1 : Proc.devRef .tc p.1 ∉ op.writes := by
      rw [hw, Finset.mem_singleton]
      exact devRef_ne_of_ne fun e => hy (e ▸ List.mem_map_of_mem (f := Prod.fst) hp)
    have h2 : Proc.devRef .tc p.2 ∉ op'.writes := by
      rw [hw', Finset.mem_singleton]
      exact devRef_ne_of_ne fun e => hy' (e ▸ List.mem_map_of_mem (f := Prod.snd) hp)
    rw [op.result_of_not_mem V₁ h1, op'.result_of_not_mem V₂ h2]
    exact h p hp

/-- An operation on the first side only, writing one buffer that no listed pair names. -/
theorem writeL (h : Agree P V₁ V₂) {op : HloOp τ sig₁ Val} {y : Ref sig₁ .tc}
    (hw : op.writes = {Proc.devRef .tc y}) (hy : y ∉ P.map Prod.fst) : Agree P (op.result V₁) V₂ := fun p hp => by
  have h1 : Proc.devRef .tc p.1 ∉ op.writes := by
    rw [hw, Finset.mem_singleton]
    exact devRef_ne_of_ne fun e => hy (e ▸ List.mem_map_of_mem (f := Prod.fst) hp)
  rw [op.result_of_not_mem V₁ h1]
  exact h p hp

/-- An operation on the second side only. -/
theorem writeR (h : Agree P V₁ V₂) {op' : HloOp τ sig₂ Val} {y' : Ref sig₂ .tc}
    (hw' : op'.writes = {Proc.devRef .tc y'}) (hy' : y' ∉ P.map Prod.snd) : Agree P V₁ (op'.result V₂) := fun p hp => by
  have h2 : Proc.devRef .tc p.2 ∉ op'.writes := by
    rw [hw', Finset.mem_singleton]
    exact devRef_ne_of_ne fun e => hy' (e ▸ List.mem_map_of_mem (f := Prod.snd) hp)
  rw [op'.result_of_not_mem V₂ h2]
  exact h p hp

end Agree

/-! ## Two lines in lockstep -/

/-- From valuations agreeing on `P`, after `ops` on one side and `ops'` on the other the valuations agree on `Q`. -/
def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

namespace Sim

variable {P P' Q : List (Ref sig₁ .tc × Ref sig₂ .tc)} {ops l₁ l₂ : List (HloOp τ sig₁ Val)} {ops' l₁' l₂' : List (HloOp τ sig₂ Val)}

/-- Both lines done: keep the pairs wanted. -/
theorem done (hQ : Q ⊆ P) : Sim (τ := τ) (Val := Val) P [] [] Q := fun _ _ h => h.mono hQ

/-- One operation on each side, then the rest. -/
theorem step {op : HloOp τ sig₁ Val} {op' : HloOp τ sig₂ Val}
    (hstep : ∀ (V₁ : Valuation τ sig₁ Val) (V₂ : Valuation τ sig₂ Val), Agree P V₁ V₂ → Agree P' (op.result V₁) (op'.result V₂))
    (k : Sim P' ops ops' Q) : Sim P (op :: ops) (op' :: ops') Q := fun V₁ V₂ h => k _ _ (hstep V₁ V₂ h)

/-- An operation on the first side with no counterpart, writing a buffer no listed pair names. -/
theorem skipL {op : HloOp τ sig₁ Val} {y : Ref sig₁ .tc} (hw : op.writes = {Proc.devRef .tc y}) (hy : y ∉ P.map Prod.fst)
    (k : Sim P ops ops' Q) : Sim P (op :: ops) ops' Q := fun V₁ V₂ h => k _ _ (h.writeL hw hy)

/-- An operation on the second side with no counterpart. -/
theorem skipR {op' : HloOp τ sig₂ Val} {y' : Ref sig₂ .tc} (hw' : op'.writes = {Proc.devRef .tc y'}) (hy' : y' ∉ P.map Prod.snd)
    (k : Sim P ops ops' Q) : Sim P ops (op' :: ops') Q := fun V₁ V₂ h => k _ _ (h.writeR hw' hy')

private theorem after_append' {sig : RefSig} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- Two stretches in a row. -/
theorem append (h₁ : Sim P l₁ l₁' P') (h₂ : Sim P' l₂ l₂' Q) : Sim P (l₁ ++ l₂) (l₁' ++ l₂') Q := fun V₁ V₂ h => by
  rw [after_append', after_append']
  exact h₂ _ _ (h₁ _ _ h)

/-- A first stretch, then the flattening of the others. -/
theorem flatten_cons {L : List (List (HloOp τ sig₁ Val))} {L' : List (List (HloOp τ sig₂ Val))}
    (h₁ : Sim P l₁ l₁' P') (h₂ : Sim P' L.flatten L'.flatten Q) : Sim P (l₁ :: L).flatten (l₁' :: L').flatten Q := by
  rw [List.flatten_cons, List.flatten_cons]
  exact h₁.append h₂

/-- The pairs kept may be dropped afterwards. -/
theorem mono {Q' : List (Ref sig₁ .tc × Ref sig₂ .tc)} (h : Sim P ops ops' Q) (hQ : Q' ⊆ Q) : Sim P ops ops' Q' :=
  fun V₁ V₂ hP => (h V₁ V₂ hP).mono hQ

/-- What the two lines leave at a pair kept. -/
theorem get (h : Sim P ops ops' Q) {V₁ : Valuation τ sig₁ Val} {V₂ : Valuation τ sig₂ Val} (hP : Agree P V₁ V₂)
    {a : Ref sig₁ .tc} {a' : Ref sig₂ .tc} (hin : (a, a') ∈ Q) :
    HEq (after ops V₁ (Proc.devRef .tc a)) (after ops' V₂ (Proc.devRef .tc a')) := (h V₁ V₂ hP).get hin

/-! ### One rule per builder -/

section Builders

variable {x a b c y : Ref sig₁ .tc} {x' a' b' c' y' : Ref sig₂ .tc}

/-- `%y = ‹op›` on both sides. -/
theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  step (fun V₁ V₂ h => h.write rfl rfl hfy hfy' (by rw [nullary_result, nullary_result]; exact hv)) k

/-- `%y = ‹op› %x` on both sides. -/
theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  step (fun V₁ V₂ h => h.write rfl rfl hfy hfy' (by
    rw [unary_result, unary_result]
    exact heq_app (congrArg (BufTy.Contents Val) htx) (congrArg (BufTy.Contents Val) hty) hf (h.get hin))) k

/-- `%y = ‹op› %a, %b` on both sides. -/
theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  step (fun V₁ V₂ h => h.write rfl rfl hfy hfy' (by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb))) k

/-- `%y = ‹op› %c, %a, %b` on both sides. -/
theorem ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hinc : (c, c') ∈ P) (hina : (a, a') ∈ P) (hinb : (b, b') ∈ P)
    (htc : c.ty = c'.ty) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.ternary (τ := τ) c a b y f hc ha hb hy :: ops) (StableHlo.ternary (τ := τ) c' a' b' y' f' hc' ha' hb' hy' :: ops') Q :=
  step (fun V₁ V₂ h => h.write rfl rfl hfy hfy' (by
    rw [ternary_result, ternary_result]
    have hA := congrArg (BufTy.Contents Val) hta
    have hB := congrArg (BufTy.Contents Val) htb
    have hY := congrArg (BufTy.Contents Val) hty
    exact heq_app hB hY
      (heq_app hA (by rw [hB, hY])
        (heq_app (congrArg (BufTy.Contents Val) htc) (by rw [hA, hB, hY]) hf (h.get hinc)) (h.get hina)) (h.get hinb))) k

/-- `%y = ‹op› %x₀, …, %xₙ₋₁` on both sides. -/
theorem nary {n : Nat} {xs : Fin n → Ref sig₁ .tc} {xs' : Fin n → Ref sig₂ .tc}
    {f : ((k : Fin n) → (xs k).ty.Contents Val) → y.ty.Contents Val}
    {f' : ((k : Fin n) → (xs' k).ty.Contents Val) → y'.ty.Contents Val} {hxs hy hxs' hy'}
    (hin : ∀ k, (xs k, xs' k) ∈ P) (htx : ∀ k, (xs k).ty = (xs' k).ty) (hty : y.ty = y'.ty) (hf : HEq f f')
    (hfy : y ∉ P.map Prod.fst) (hfy' : y' ∉ P.map Prod.snd)
    (k : Sim ((y, y') :: P) ops ops' Q) :
    Sim P (StableHlo.nary (τ := τ) xs y f hxs hy :: ops) (StableHlo.nary (τ := τ) xs' y' f' hxs' hy' :: ops') Q :=
  step (fun V₁ V₂ h => h.write rfl rfl hfy hfy' (by
    rw [nary_result, nary_result]
    exact heq_app_pi (fun k => congrArg (BufTy.Contents Val) (htx k)) (congrArg (BufTy.Contents Val) hty) hf
      (fun k => h.get (hin k)))) k

/-- `%y = ‹op› %x₀, %x₁, %x₂, %x₃` on both sides, the four operands a literal family: the two functions are compared at
    operands given one by one. -/
theorem nary4 {x0 x1 x2 x3 : Ref sig₁ .tc} {x0' x1' x2' x3' : Ref sig₂ .tc}
    {f : ((k : Fin 4) → ((![x0, x1, x2, x3] : Fin 4 → Ref sig₁ .tc) k).ty.Contents Val) → y.ty.Contents Val}
    {f' : ((k : Fin 4) → ((![x0', x1', x2', x3'] : Fin 4 → Ref sig₂ .tc) k).ty.Contents Val) → y'.ty.Contents Val} {hxs hy hxs' hy'}
    (hin0 : (x0, x0') ∈ P) (hin1 : (x1, x1') ∈ P) (hin2 : (x2, x2') ∈ P) (hin3 : (x3, x3') ∈ P)
    (hf : ∀ (u0 : x0.ty.Contents Val) (u0' : x0'.ty.Contents Val) (u1 : x1.ty.Contents Val) (u1' : x1'.ty.Contents Val)
        (u2 : x2.ty.Contents Val) (u2' : x2'.ty.Contents Val) (u3 : x3.ty.Contents Val) (u3' : x3'.ty.Contents Val),
        HEq u0 u0' → HEq u1 u1' → HEq u2 u2' → HEq u3 u3' →
        HEq (f (Fin.cons u0 (Fin.cons u1 (Fin.cons u2 (Fin.cons u3 (fun i => i.elim0))))))
          (f' (Fin.cons u0' (Fin.cons u1' (Fin.cons u2' (Fin.cons u3' (fun i => i.elim0)))))))
    (hfy : y ∉ P.map Prod.fst) (hfy' : y' ∉ P.map Prod.snd)
    (k : Sim ((y, y') :: P) ops ops' Q) :
    Sim P (StableHlo.nary (τ := τ) ![x0, x1, x2, x3] y f hxs hy :: ops) (StableHlo.nary (τ := τ) ![x0', x1', x2', x3'] y' f' hxs' hy' :: ops') Q :=
  step (fun V₁ V₂ h => h.write rfl rfl hfy hfy' (by
    rw [nary4_result, nary4_result]
    exact hf _ _ _ _ _ _ _ _ (h.get hin0) (h.get hin1) (h.get hin2) (h.get hin3))) k

/-- `%y = stablehlo.reshape %x` on both sides. -/
theorem reshape {he hn hx hy he' hn' hx' hy'}
    (hin : (x, x') ∈ P) (htx : x.ty = x'.ty) (hty : y.ty = y'.ty)
    (hfy : y ∉ P.map Prod.fst) (hfy' : y' ∉ P.map Prod.snd)
    (k : Sim ((y, y') :: P) ops ops' Q) :
    Sim P (StableHlo.reshape (τ := τ) (Val := Val) x y he hn hx hy :: ops) (StableHlo.reshape (τ := τ) (Val := Val) x' y' he' hn' hx' hy' :: ops') Q :=
  step (fun V₁ V₂ h => h.write rfl rfl hfy hfy' (by
    rw [reshape_result, reshape_result]
    exact heq_reshape htx hty he he' hn hn' (h.get hin))) k

end Builders

end Sim

end Idealize.ShloMosaic.StableHlo
-- ==== Proof.LibAgreeMore.lean ====
import proofs.«116345_j32049045962841_1_alg».proof.Proof.LibAgree
import Idealize.ShloMosaic.Lib.Pipeline.FrameSuffix
import Lean.Elab.Tactic

/-!
# Lockstep of two host lines: the steps as tactics, a region on one side, and buffers a line leaves alone

`LibAgree` steps two lines of host operations over two signatures one operation at a time. Here: the side conditions of
a step discharged by computation (membership of a pair in the literal list, a result buffer not yet listed), a
pipeline region on the first side (it rewrites its own arrays and nothing else), and the contents of a buffer that no
operation of a literal line writes.
-/

namespace Idealize.ShloMosaic.StableHlo

open Idealize.ShloMosaic.Pipeline (withArrays withArrays_of_ne arrRef WinSpec)

variable {τ : Topo} {sig₁ sig₂ : RefSig} {Val : EltTy → Type}

/-- A pair is in a literal list: found by walking the list. -/
macro "pair_mem" : tactic => `(tactic| (repeat (first | exact List.mem_cons_self | apply List.mem_cons_of_mem)))

/-- One operation on each side by the rule of its builder: the pairs of operands looked up, the types and the two
    functions equal by unfolding, the result buffers fresh by computation. One tactic per builder. -/
macro "sim_n" : tactic => `(tactic| refine Sim.nullary HEq.rfl (by decide) (by decide) ?_)
@[inherit_doc Idealize.ShloMosaic.StableHlo.tacticSim_n]
macro "sim_u" : tactic => `(tactic| refine Sim.unary (by pair_mem) rfl rfl HEq.rfl (by decide) (by decide) ?_)
@[inherit_doc Idealize.ShloMosaic.StableHlo.tacticSim_n]
macro "sim_b" : tactic => `(tactic| refine Sim.binary (by pair_mem) (by pair_mem) rfl rfl rfl HEq.rfl (by decide) (by decide) ?_)
@[inherit_doc Idealize.ShloMosaic.StableHlo.tacticSim_n]
macro "sim_t" : tactic => `(tactic| refine Sim.ternary (by pair_mem) (by pair_mem) (by pair_mem) rfl rfl rfl rfl HEq.rfl (by decide) (by decide) ?_)
@[inherit_doc Idealize.ShloMosaic.StableHlo.tacticSim_n]
macro "sim_r" : tactic => `(tactic| refine Sim.reshape (by pair_mem) rfl rfl (by decide) (by decide) ?_)

open Lean Elab Tactic Meta in
/-- One operation on each side: the first line's first operation is read, and the rule of its builder applied. -/
elab "sim_step" : tactic => withMainContext do
  let t ← instantiateMVars (← (← getMainGoal).getType)
  let args := t.getAppArgs
  unless t.getAppFn.isConstOf ``Sim && args.size == 8 do throwError "sim_step: the goal is not a lockstep of two lines"
  let ops ← whnf args[5]!
  let some (_, hd, _) := ops.app3? ``List.cons | throwError "sim_step: the first line is empty"
  let some n := hd.getAppFn.constName? | throwError "sim_step: the operation is not a builder's"
  if n == ``StableHlo.nullary || n == ``StableHlo.TRef.nullary then evalTactic (← `(tactic| sim_n))
  else if n == ``StableHlo.unary || n == ``StableHlo.TRef.unary then evalTactic (← `(tactic| sim_u))
  else if n == ``StableHlo.binary || n == ``StableHlo.TRef.binary then evalTactic (← `(tactic| sim_b))
  else if n == ``StableHlo.ternary || n == ``StableHlo.TRef.ternary then evalTactic (← `(tactic| sim_t))
  else if n == ``StableHlo.reshape || n == ``StableHlo.TRef.reshape then evalTactic (← `(tactic| sim_r))
  else throwError "sim_step: no rule for {n}"

/-- An operation of the first side that the second has no counterpart for. -/
macro "sim_skipL" : tactic => `(tactic| refine Sim.skipL rfl (by decide) ?_)
/-- An operation of the second side that the first has no counterpart for. -/
macro "sim_skipR" : tactic => `(tactic| refine Sim.skipR rfl (by decide) ?_)

/-- A literal list of pairs is among another: each of its pairs looked up. -/
macro "pairs_sub" : tactic => `(tactic| (repeat (first | exact List.nil_subset _ | refine List.cons_subset.mpr ⟨by pair_mem, ?_⟩)))

/-- A line in two stretches: the second runs from what the first leaves. -/
theorem after_app {sig : RefSig} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

namespace Agree

variable {nD : Nat} {P : List (Ref sig₁ .tc × Ref sig₂ .tc)} {V₁ : Valuation τ sig₁ Val} {V₂ : Valuation τ sig₂ Val}

/-- A pipeline region on the first side rewrites its own arrays and nothing else: pairs that name none of its arrays
    still agree afterwards. -/
theorem region {gr W : Nat} (win : Fin W → WinSpec sig₁ gr) (c : Dev nD)
    (A : (w : Fin W) → Buf Val ((win w).arr.view.loc (c.tc : Thread nD τ)))
    (h : Agree P V₁ V₂) (hne : ∀ p ∈ P, ∀ w, arrRef win w ≠ p.1) : Agree P (withArrays win c V₁ A) V₂ := fun p hp => by
  rw [withArrays_of_ne win c V₁ A p.1 (hne p hp)]
  exact h p hp

/-- One more pair, its two contents being the same. -/
theorem add {a : Ref sig₁ .tc} {a' : Ref sig₂ .tc} (h : Agree P V₁ V₂)
    (ha : HEq (V₁ (Proc.devRef .tc a)) (V₂ (Proc.devRef .tc a'))) : Agree ((a, a') :: P) V₁ V₂ := Agree.cons ha h

end Agree

end Idealize.ShloMosaic.StableHlo
-- ==== Proof.Pairs.lean ====
import proofs.«116345_j32049045962841_1_alg».proof.KernelIdeal
import proofs.«116345_j32049045962841_1_alg».proof.ReferenceIdeal

/-!
# Pairs of buffers of the two programs

A pair names a buffer of the kernel's program and a buffer of the reference that are to hold the same contents.
-/

namespace Cert.Proof.Lockstep
open Idealize.ShloMosaic

/-- The argument arrays, paired by position. -/
abbrev Pargs : List (Ref Cert.KernelIdeal.sig .tc × Ref Cert.ReferenceIdeal.sig .tc) := [(Cert.KernelIdeal.main_arg0, Cert.ReferenceIdeal.main_arg0), (Cert.KernelIdeal.main_arg1, Cert.ReferenceIdeal.main_arg1), (Cert.KernelIdeal.main_arg2, Cert.ReferenceIdeal.main_arg2), (Cert.KernelIdeal.main_arg3, Cert.ReferenceIdeal.main_arg3), (Cert.KernelIdeal.main_arg4, Cert.ReferenceIdeal.main_arg4), (Cert.KernelIdeal.main_arg5, Cert.ReferenceIdeal.main_arg5), (Cert.KernelIdeal.main_arg6, Cert.ReferenceIdeal.main_arg6), (Cert.KernelIdeal.main_arg7, Cert.ReferenceIdeal.main_arg7), (Cert.KernelIdeal.main_arg8, Cert.ReferenceIdeal.main_arg8), (Cert.KernelIdeal.main_arg9, Cert.ReferenceIdeal.main_arg9), (Cert.KernelIdeal.main_arg10, Cert.ReferenceIdeal.main_arg10), (Cert.KernelIdeal.main_arg11, Cert.ReferenceIdeal.main_arg11), (Cert.KernelIdeal.main_arg12, Cert.ReferenceIdeal.main_arg12), (Cert.KernelIdeal.main_arg13, Cert.ReferenceIdeal.main_arg13), (Cert.KernelIdeal.main_arg14, Cert.ReferenceIdeal.main_arg14), (Cert.KernelIdeal.main_arg15, Cert.ReferenceIdeal.main_arg15), (Cert.KernelIdeal.main_arg16, Cert.ReferenceIdeal.main_arg16), (Cert.KernelIdeal.main_arg17, Cert.ReferenceIdeal.main_arg17), (Cert.KernelIdeal.main_arg18, Cert.ReferenceIdeal.main_arg18), (Cert.KernelIdeal.main_arg19, Cert.ReferenceIdeal.main_arg19), (Cert.KernelIdeal.main_arg20, Cert.ReferenceIdeal.main_arg20)]

/-- What every layer takes from the start of the program: the normalised edge weights, the inverse root degrees, the two
    rows of the edge index, and the arguments. -/
abbrev Pbase : List (Ref Cert.KernelIdeal.sig .tc × Ref Cert.ReferenceIdeal.sig .tc) := (Cert.KernelIdeal.main_v26, Cert.ReferenceIdeal.main_v27) :: (Cert.KernelIdeal.main_v10, Cert.ReferenceIdeal.main_v11) :: (Cert.KernelIdeal.main_v3, Cert.ReferenceIdeal.main_v3) :: (Cert.KernelIdeal.main_v1, Cert.ReferenceIdeal.main_v1) :: Pargs

end Cert.Proof.Lockstep
-- ==== Proof.KOps.lean ====
import proofs.«116345_j32049045962841_1_alg».proof.Proof.Gen.KernelIdeal.Launch
import Idealize.ShloMosaic.Lib.StableHlo.Run

/-!
# The kernel program's host stretches: three of them cut in two, and what each stretch writes

Each layer's stretch before its normalisation first adds up the neighbours' rows and then adds the node's own row,
scaled, and the bias. The stretch is cut between the two. For every stretch the buffers it writes are listed, and a
buffer not among them keeps its contents through the stretch.
-/

noncomputable section

namespace Cert.KernelIdeal.Ops

open Cert.KernelIdeal Cert.KernelIdeal.Gen
open Idealize.ShloMosaic Idealize.ShloMosaic.TcCoe Idealize.SL.Sem

variable {F : FTy → Type} [FloatOps F]

/-! ## The cuts -/

/-- The first 16 operations of `hostOps1`: the neighbours' rows added up at each node. -/
abbrev k1a : List (HloOp τ sig (Elt F)) :=
  [ StableHlo.unary main_v26 main_v31 (broadcastInDim S320000x1 ![0] bcast_S320000_S320000x1_0 : (⟨S320000, .f32⟩ : BufTy).Contents (Elt F) → (⟨S320000x1, .f32⟩ : BufTy).Contents (Elt F)),
    StableHlo.nullary main_c_4 (constantI S_ 32 0#32),
    StableHlo.unary main_c_4 main_v32 (broadcastInDim S320000 ![] bcast_S_S320000 : (⟨S_, .i32⟩ : BufTy).Contents (Elt F) → (⟨S320000, .i32⟩ : BufTy).Contents (Elt F)),
    StableHlo.binary main_v1 main_v32 main_v33 (cmpi .slt : (⟨S320000, .i32⟩ : BufTy).Contents (Elt F) → (⟨S320000, .i32⟩ : BufTy).Contents (Elt F) → (⟨S320000, .i1⟩ : BufTy).Contents (Elt F)),
    StableHlo.nullary main_c_5 (constantI S_ 32 20000#32),
    StableHlo.unary main_c_5 main_v34 (broadcastInDim S320000 ![] bcast_S_S320000 : (⟨S_, .i32⟩ : BufTy).Contents (Elt F) → (⟨S320000, .i32⟩ : BufTy).Contents (Elt F)),
    StableHlo.binary main_v1 main_v34 main_v35 (addi : (⟨S320000, .i32⟩ : BufTy).Contents (Elt F) → (⟨S320000, .i32⟩ : BufTy).Contents (Elt F) → (⟨S320000, .i32⟩ : BufTy).Contents (Elt F)),
    StableHlo.ternary main_v33 main_v35 main_v1 main_v36 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v36 main_v37 (broadcastInDim S320000x1 ![0] bcast_S320000_S320000x1_0 : (⟨S320000, .i32⟩ : BufTy).Contents (Elt F) → (⟨S320000x1, .i32⟩ : BufTy).Contents (Elt F)),
    StableHlo.binary main_v30 main_v37 main_v38 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v31 main_v39 (broadcastInDim S320000x256 ![0, 1] bcast_S320000x1_S320000x256_0_1 : (⟨S320000x1, .f32⟩ : BufTy).Contents (Elt F) → (⟨S320000x256, .f32⟩ : BufTy).Contents (Elt F)),
    StableHlo.binary main_v39 main_v38 main_v40 (mulf : (⟨S320000x256, .f32⟩ : BufTy).Contents (Elt F) → (⟨S320000x256, .f32⟩ : BufTy).Contents (Elt F) → (⟨S320000x256, .f32⟩ : BufTy).Contents (Elt F)),
    StableHlo.nullary main_cst_6 (constant S_ .f32 0x00000000#32),
    StableHlo.unary main_cst_6 main_v41 (broadcastInDim S20000x256 ![] bcast_S_S20000x256 : (⟨S_, .f32⟩ : BufTy).Contents (Elt F) → (⟨S20000x256, .f32⟩ : BufTy).Contents (Elt F)),
    StableHlo.unary main_v3 main_v42 (broadcastInDim S320000x1 ![0] bcast_S320000_S320000x1_0 : (⟨S320000, .i32⟩ : BufTy).Contents (Elt F) → (⟨S320000x1, .i32⟩ : BufTy).Contents (Elt F)),
    StableHlo.ternary main_v41 main_v42 main_v40 main_v43 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]
/-- The other 16 operations of `hostOps1`: the node's own row, scaled, and the bias added; what follows them up to the next kernel call. -/
abbrev k1b : List (HloOp τ sig (Elt F)) :=
  [ StableHlo.unary main_v27 main_v44 (broadcastInDim S20000x1 ![0] bcast_S20000_S20000x1_0 : (⟨S20000, .f32⟩ : BufTy).Contents (Elt F) → (⟨S20000x1, .f32⟩ : BufTy).Contents (Elt F)),
    StableHlo.unary main_v44 main_v45 (broadcastInDim S20000x256 ![0, 1] bcast_S20000x1_S20000x256_0_1 : (⟨S20000x1, .f32⟩ : BufTy).Contents (Elt F) → (⟨S20000x256, .f32⟩ : BufTy).Contents (Elt F)),
    StableHlo.binary main_v45 main_v30 main_v46 (mulf : (⟨S20000x256, .f32⟩ : BufTy).Contents (Elt F) → (⟨S20000x256, .f32⟩ : BufTy).Contents (Elt F) → (⟨S20000x256, .f32⟩ : BufTy).Contents (Elt F)),
    StableHlo.binary main_v43 main_v46 main_v47 (addf : (⟨S20000x256, .f32⟩ : BufTy).Contents (Elt F) → (⟨S20000x256, .f32⟩ : BufTy).Contents (Elt F) → (⟨S20000x256, .f32⟩ : BufTy).Contents (Elt F)),
    StableHlo.unary main_arg6 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S20000x256 ![0, 1] bcast_S1x256_S20000x256_0_1 : (⟨S1x256, .f32⟩ : BufTy).Contents (Elt F) → (⟨S20000x256, .f32⟩ : BufTy).Contents (Elt F)),
    StableHlo.binary main_v47 main_v49 main_v50 (addf : (⟨S20000x256, .f32⟩ : BufTy).Contents (Elt F) → (⟨S20000x256, .f32⟩ : BufTy).Contents (Elt F) → (⟨S20000x256, .f32⟩ : BufTy).Contents (Elt F)),
    StableHlo.nullary main_cst_7 (constant S_ .f32 0x00000000#32),
    StableHlo.unary main_cst_7 main_v51 (broadcastInDim S20000x256 ![] bcast_S_S20000x256 : (⟨S_, .f32⟩ : BufTy).Contents (Elt F) → (⟨S20000x256, .f32⟩ : BufTy).Contents (Elt F)),
    StableHlo.binary main_v50 main_v51 main_v52 (maximumf : (⟨S20000x256, .f32⟩ : BufTy).Contents (Elt F) → (⟨S20000x256, .f32⟩ : BufTy).Contents (Elt F) → (⟨S20000x256, .f32⟩ : BufTy).Contents (Elt F)),
    StableHlo.nullary main_cst_8 (constant S_ .f32 0x00000000#32),
    StableHlo.binary main_v52 main_cst_8 main_v53 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_9 (constant S_ .f32 0x469C4000#32),
    StableHlo.unary main_cst_9 main_v54 (broadcastInDim S256 ![] bcast_S_S256 : (⟨S_, .f32⟩ : BufTy).Contents (Elt F) → (⟨S256, .f32⟩ : BufTy).Contents (Elt F)),
    StableHlo.binary main_v53 main_v54 main_v55 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32) ]
set_option maxRecDepth 4096 in
theorem hostOps1_split : (hostOps1 : List (HloOp τ sig (Elt F))) = k1a ++ k1b := rfl

/-- The first 16 operations of `hostOps3`: the neighbours' rows added up at each node. -/
abbrev k3a : List (HloOp τ sig (Elt F)) :=
  [ StableHlo.unary main_v26 main_v65 (broadcastInDim S320000x1 ![0] bcast_S320000_S320000x1_0 : (⟨S320000, .f32⟩ : BufTy).Contents (Elt F) → (⟨S320000x1, .f32⟩ : BufTy).Contents (Elt F)),
    StableHlo.nullary main_c_11 (constantI S_ 32 0#32),
    StableHlo.unary main_c_11 main_v66 (broadcastInDim S320000 ![] bcast_S_S320000 : (⟨S_, .i32⟩ : BufTy).Contents (Elt F) → (⟨S320000, .i32⟩ : BufTy).Contents (Elt F)),
    StableHlo.binary main_v1 main_v66 main_v67 (cmpi .slt : (⟨S320000, .i32⟩ : BufTy).Contents (Elt F) → (⟨S320000, .i32⟩ : BufTy).Contents (Elt F) → (⟨S320000, .i1⟩ : BufTy).Contents (Elt F)),
    StableHlo.nullary main_c_12 (constantI S_ 32 20000#32),
    StableHlo.unary main_c_12 main_v68 (broadcastInDim S320000 ![] bcast_S_S320000 : (⟨S_, .i32⟩ : BufTy).Contents (Elt F) → (⟨S320000, .i32⟩ : BufTy).Contents (Elt F)),
    StableHlo.binary main_v1 main_v68 main_v69 (addi : (⟨S320000, .i32⟩ : BufTy).Contents (Elt F) → (⟨S320000, .i32⟩ : BufTy).Contents (Elt F) → (⟨S320000, .i32⟩ : BufTy).Contents (Elt F)),
    StableHlo.ternary main_v67 main_v69 main_v1 main_v70 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v70 main_v71 (broadcastInDim S320000x1 ![0] bcast_S320000_S320000x1_0 : (⟨S320000, .i32⟩ : BufTy).Contents (Elt F) → (⟨S320000x1, .i32⟩ : BufTy).Contents (Elt F)),
    StableHlo.binary main_v64 main_v71 main_v72 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v65 main_v73 (broadcastInDim S320000x256 ![0, 1] bcast_S320000x1_S320000x256_0_1 : (⟨S320000x1, .f32⟩ : BufTy).Contents (Elt F) → (⟨S320000x256, .f32⟩ : BufTy).Contents (Elt F)),
    StableHlo.binary main_v73 main_v72 main_v74 (mulf : (⟨S320000x256, .f32⟩ : BufTy).Contents (Elt F) → (⟨S320000x256, .f32⟩ : BufTy).Contents (Elt F) → (⟨S320000x256, .f32⟩ : BufTy).Contents (Elt F)),
    StableHlo.nullary main_cst_13 (constant S_ .f32 0x00000000#32),
    StableHlo.unary main_cst_13 main_v75 (broadcastInDim S20000x256 ![] bcast_S_S20000x256 : (⟨S_, .f32⟩ : BufTy).Contents (Elt F) → (⟨S20000x256, .f32⟩ : BufTy).Contents (Elt F)),
    StableHlo.unary main_v3 main_v76 (broadcastInDim S320000x1 ![0] bcast_S320000_S320000x1_0 : (⟨S320000, .i32⟩ : BufTy).Contents (Elt F) → (⟨S320000x1, .i32⟩ : BufTy).Contents (Elt F)),
    StableHlo.ternary main_v75 main_v76 main_v74 main_v77 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]
/-- The other 16 operations of `hostOps3`: the node's own row, scaled, and the bias added; what follows them up to the next kernel call. -/
abbrev k3b : List (HloOp τ sig (Elt F)) :=
  [ StableHlo.unary main_v27 main_v78 (broadcastInDim S20000x1 ![0] bcast_S20000_S20000x1_0 : (⟨S20000, .f32⟩ : BufTy).Contents (Elt F) → (⟨S20000x1, .f32⟩ : BufTy).Contents (Elt F)),
    StableHlo.unary main_v78 main_v79 (broadcastInDim S20000x256 ![0, 1] bcast_S20000x1_S20000x256_0_1 : (⟨S20000x1, .f32⟩ : BufTy).Contents (Elt F) → (⟨S20000x256, .f32⟩ : BufTy).Contents (Elt F)),
    StableHlo.binary main_v79 main_v64 main_v80 (mulf : (⟨S20000x256, .f32⟩ : BufTy).Contents (Elt F) → (⟨S20000x256, .f32⟩ : BufTy).Contents (Elt F) → (⟨S20000x256, .f32⟩ : BufTy).Contents (Elt F)),
    StableHlo.binary main_v77 main_v80 main_v81 (addf : (⟨S20000x256, .f32⟩ : BufTy).Contents (Elt F) → (⟨S20000x256, .f32⟩ : BufTy).Contents (Elt F) → (⟨S20000x256, .f32⟩ : BufTy).Contents (Elt F)),
    StableHlo.unary main_arg10 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S20000x256 ![0, 1] bcast_S1x256_S20000x256_0_1 : (⟨S1x256, .f32⟩ : BufTy).Contents (Elt F) → (⟨S20000x256, .f32⟩ : BufTy).Contents (Elt F)),
    StableHlo.binary main_v81 main_v83 main_v84 (addf : (⟨S20000x256, .f32⟩ : BufTy).Contents (Elt F) → (⟨S20000x256, .f32⟩ : BufTy).Contents (Elt F) → (⟨S20000x256, .f32⟩ : BufTy).Contents (Elt F)),
    StableHlo.nullary main_cst_14 (constant S_ .f32 0x00000000#32),
    StableHlo.unary main_cst_14 main_v85 (broadcastInDim S20000x256 ![] bcast_S_S20000x256 : (⟨S_, .f32⟩ : BufTy).Contents (Elt F) → (⟨S20000x256, .f32⟩ : BufTy).Contents (Elt F)),
    StableHlo.binary main_v84 main_v85 main_v86 (maximumf : (⟨S20000x256, .f32⟩ : BufTy).Contents (Elt F) → (⟨S20000x256, .f32⟩ : BufTy).Contents (Elt F) → (⟨S20000x256, .f32⟩ : BufTy).Contents (Elt F)),
    StableHlo.nullary main_cst_15 (constant S_ .f32 0x00000000#32),
    StableHlo.binary main_v86 main_cst_15 main_v87 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_16 (constant S_ .f32 0x469C4000#32),
    StableHlo.unary main_cst_16 main_v88 (broadcastInDim S256 ![] bcast_S_S256 : (⟨S_, .f32⟩ : BufTy).Contents (Elt F) → (⟨S256, .f32⟩ : BufTy).Contents (Elt F)),
    StableHlo.binary main_v87 main_v88 main_v89 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32) ]
set_option maxRecDepth 4096 in
theorem hostOps3_split : (hostOps3 : List (HloOp τ sig (Elt F))) = k3a ++ k3b := rfl

/-- The first 16 operations of `hostOps5`: the neighbours' rows added up at each node. -/
abbrev k5a : List (HloOp τ sig (Elt F)) :=
  [ StableHlo.unary main_v26 main_v99 (broadcastInDim S320000x1 ![0] bcast_S320000_S320000x1_0 : (⟨S320000, .f32⟩ : BufTy).Contents (Elt F) → (⟨S320000x1, .f32⟩ : BufTy).Contents (Elt F)),
    StableHlo.nullary main_c_18 (constantI S_ 32 0#32),
    StableHlo.unary main_c_18 main_v100 (broadcastInDim S320000 ![] bcast_S_S320000 : (⟨S_, .i32⟩ : BufTy).Contents (Elt F) → (⟨S320000, .i32⟩ : BufTy).Contents (Elt F)),
    StableHlo.binary main_v1 main_v100 main_v101 (cmpi .slt : (⟨S320000, .i32⟩ : BufTy).Contents (Elt F) → (⟨S320000, .i32⟩ : BufTy).Contents (Elt F) → (⟨S320000, .i1⟩ : BufTy).Contents (Elt F)),
    StableHlo.nullary main_c_19 (constantI S_ 32 20000#32),
    StableHlo.unary main_c_19 main_v102 (broadcastInDim S320000 ![] bcast_S_S320000 : (⟨S_, .i32⟩ : BufTy).Contents (Elt F) → (⟨S320000, .i32⟩ : BufTy).Contents (Elt F)),
    StableHlo.binary main_v1 main_v102 main_v103 (addi : (⟨S320000, .i32⟩ : BufTy).Contents (Elt F) → (⟨S320000, .i32⟩ : BufTy).Contents (Elt F) → (⟨S320000, .i32⟩ : BufTy).Contents (Elt F)),
    StableHlo.ternary main_v101 main_v103 main_v1 main_v104 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v104 main_v105 (broadcastInDim S320000x1 ![0] bcast_S320000_S320000x1_0 : (⟨S320000, .i32⟩ : BufTy).Contents (Elt F) → (⟨S320000x1, .i32⟩ : BufTy).Contents (Elt F)),
    StableHlo.binary main_v98 main_v105 main_v106 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v99 main_v107 (broadcastInDim S320000x256 ![0, 1] bcast_S320000x1_S320000x256_0_1 : (⟨S320000x1, .f32⟩ : BufTy).Contents (Elt F) → (⟨S320000x256, .f32⟩ : BufTy).Contents (Elt F)),
    StableHlo.binary main_v107 main_v106 main_v108 (mulf : (⟨S320000x256, .f32⟩ : BufTy).Contents (Elt F) → (⟨S320000x256, .f32⟩ : BufTy).Contents (Elt F) → (⟨S320000x256, .f32⟩ : BufTy).Contents (Elt F)),
    StableHlo.nullary main_cst_20 (constant S_ .f32 0x00000000#32),
    StableHlo.unary main_cst_20 main_v109 (broadcastInDim S20000x256 ![] bcast_S_S20000x256 : (⟨S_, .f32⟩ : BufTy).Contents (Elt F) → (⟨S20000x256, .f32⟩ : BufTy).Contents (Elt F)),
    StableHlo.unary main_v3 main_v110 (broadcastInDim S320000x1 ![0] bcast_S320000_S320000x1_0 : (⟨S320000, .i32⟩ : BufTy).Contents (Elt F) → (⟨S320000x1, .i32⟩ : BufTy).Contents (Elt F)),
    StableHlo.ternary main_v109 main_v110 main_v108 main_v111 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]
/-- The other 13 operations of `hostOps5`: the node's own row, scaled, and the bias added; what follows them up to the next kernel call. -/
abbrev k5b : List (HloOp τ sig (Elt F)) :=
  [ StableHlo.unary main_v27 main_v112 (broadcastInDim S20000x1 ![0] bcast_S20000_S20000x1_0 : (⟨S20000, .f32⟩ : BufTy).Contents (Elt F) → (⟨S20000x1, .f32⟩ : BufTy).Contents (Elt F)),
    StableHlo.unary main_v112 main_v113 (broadcastInDim S20000x256 ![0, 1] bcast_S20000x1_S20000x256_0_1 : (⟨S20000x1, .f32⟩ : BufTy).Contents (Elt F) → (⟨S20000x256, .f32⟩ : BufTy).Contents (Elt F)),
    StableHlo.binary main_v113 main_v98 main_v114 (mulf : (⟨S20000x256, .f32⟩ : BufTy).Contents (Elt F) → (⟨S20000x256, .f32⟩ : BufTy).Contents (Elt F) → (⟨S20000x256, .f32⟩ : BufTy).Contents (Elt F)),
    StableHlo.binary main_v111 main_v114 main_v115 (addf : (⟨S20000x256, .f32⟩ : BufTy).Contents (Elt F) → (⟨S20000x256, .f32⟩ : BufTy).Contents (Elt F) → (⟨S20000x256, .f32⟩ : BufTy).Contents (Elt F)),
    StableHlo.unary main_arg14 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S20000x256 ![0, 1] bcast_S1x256_S20000x256_0_1 : (⟨S1x256, .f32⟩ : BufTy).Contents (Elt F) → (⟨S20000x256, .f32⟩ : BufTy).Contents (Elt F)),
    StableHlo.binary main_v115 main_v117 main_v118 (addf : (⟨S20000x256, .f32⟩ : BufTy).Contents (Elt F) → (⟨S20000x256, .f32⟩ : BufTy).Contents (Elt F) → (⟨S20000x256, .f32⟩ : BufTy).Contents (Elt F)),
    StableHlo.nullary main_cst_21 (constant S_ .f32 0x00000000#32),
    StableHlo.binary main_v118 main_cst_21 main_v119 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_22 (constant S_ .f32 0x469C4000#32),
    StableHlo.unary main_cst_22 main_v120 (broadcastInDim S256 ![] bcast_S_S256 : (⟨S_, .f32⟩ : BufTy).Contents (Elt F) → (⟨S256, .f32⟩ : BufTy).Contents (Elt F)),
    StableHlo.binary main_v119 main_v120 main_v121 (Host.divf : (⟨S256, .f32⟩ : BufTy).Contents (Elt F) → (⟨S256, .f32⟩ : BufTy).Contents (Elt F) → (⟨S256, .f32⟩ : BufTy).Contents (Elt F)),
    StableHlo.nullary main_c_23 (constantI S_ 32 0#32) ]
set_option maxRecDepth 4096 in
theorem hostOps5_split : (hostOps5 : List (HloOp τ sig (Elt F))) = k5a ++ k5b := rfl

/-! ## What each stretch writes -/

/-- The buffers `hostOps0` writes, in order. -/
abbrev hostOps0_W : List (Ref sig .tc) := [main_v0, main_v1, main_v2, main_v3, main_v4, main_cst, main_v5, main_v6, main_v7, main_cst_0, main_v8, main_v9, main_v10, main_c, main_v11, main_v12, main_c_1, main_v13, main_v14, main_v15, main_v16, main_v17, main_v18, main_c_2, main_v19, main_v20, main_c_3, main_v21, main_v22, main_v23, main_v24, main_v25, main_v26, main_v27, main_v28, main_v29]
theorem hostOps0_writes : (hostOps0 : List (HloOp τ sig (Elt F))).Forall fun op => op.writes ⊆ (hostOps0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps0` does not write keeps its contents through it. -/
theorem hostOps0_keep (V : Valuation τ sig (Elt F)) (r : Ref sig .tc) (h : r ∉ hostOps0_W) :
    StableHlo.after hostOps0 V (Proc.devRef .tc r) = V (Proc.devRef .tc r) :=
  StableHlo.after_of_writes_sub hostOps0 _ hostOps0_writes h
/-- The buffers `k1a` writes, in order. -/
abbrev k1a_W : List (Ref sig .tc) := [main_v31, main_c_4, main_v32, main_v33, main_c_5, main_v34, main_v35, main_v36, main_v37, main_v38, main_v39, main_v40, main_cst_6, main_v41, main_v42, main_v43]
theorem k1a_writes : (k1a : List (HloOp τ sig (Elt F))).Forall fun op => op.writes ⊆ (k1a_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `k1a` does not write keeps its contents through it. -/
theorem k1a_keep (V : Valuation τ sig (Elt F)) (r : Ref sig .tc) (h : r ∉ k1a_W) :
    StableHlo.after k1a V (Proc.devRef .tc r) = V (Proc.devRef .tc r) :=
  StableHlo.after_of_writes_sub k1a _ k1a_writes h
/-- The buffers `k1b` writes, in order. -/
abbrev k1b_W : List (Ref sig .tc) := [main_v44, main_v45, main_v46, main_v47, main_v48, main_v49, main_v50, main_cst_7, main_v51, main_v52, main_cst_8, main_v53, main_cst_9, main_v54, main_v55, main_c_10]
theorem k1b_writes : (k1b : List (HloOp τ sig (Elt F))).Forall fun op => op.writes ⊆ (k1b_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `k1b` does not write keeps its contents through it. -/
theorem k1b_keep (V : Valuation τ sig (Elt F)) (r : Ref sig .tc) (h : r ∉ k1b_W) :
    StableHlo.after k1b V (Proc.devRef .tc r) = V (Proc.devRef .tc r) :=
  StableHlo.after_of_writes_sub k1b _ k1b_writes h
/-- The buffers `hostOps1_1` writes, in order. -/
abbrev hostOps1_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v56]
theorem hostOps1_1_writes : (hostOps1_1 : List (HloOp τ sig (Elt F))).Forall fun op => op.writes ⊆ (hostOps1_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps1_1` does not write keeps its contents through it. -/
theorem hostOps1_1_keep (V : Valuation τ sig (Elt F)) (r : Ref sig .tc) (h : r ∉ hostOps1_1_W) :
    StableHlo.after hostOps1_1 V (Proc.devRef .tc r) = V (Proc.devRef .tc r) :=
  StableHlo.after_of_writes_sub hostOps1_1 _ hostOps1_1_writes h
/-- The buffers `hostOps1_2` writes, in order. -/
abbrev hostOps1_2_W : List (Ref sig .tc) := [main_v57, main_v58, main_v59, main_v60]
theorem hostOps1_2_writes : (hostOps1_2 : List (HloOp τ sig (Elt F))).Forall fun op => op.writes ⊆ (hostOps1_2_W.map (Proc.devRef (τ := τ) .tc)).toFinset := by
  simp only [List.Forall]; refine ⟨?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps1_2` does not write keeps its contents through it. -/
theorem hostOps1_2_keep (V : Valuation τ sig (Elt F)) (r : Ref sig .tc) (h : r ∉ hostOps1_2_W) :
    StableHlo.after hostOps1_2 V (Proc.devRef .tc r) = V (Proc.devRef .tc r) :=
  StableHlo.after_of_writes_sub hostOps1_2 _ hostOps1_2_writes h
/-- The buffers `hostOps2` writes, in order. -/
abbrev hostOps2_W : List (Ref sig .tc) := [main_v62, main_v63]
theorem hostOps2_writes : (hostOps2 : List (HloOp τ sig (Elt F))).Forall fun op => op.writes ⊆ (hostOps2_W.map (Proc.devRef (τ := τ) .tc)).toFinset := by
  simp only [List.Forall]; refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps2` does not write keeps its contents through it. -/
theorem hostOps2_keep (V : Valuation τ sig (Elt F)) (r : Ref sig .tc) (h : r ∉ hostOps2_W) :
    StableHlo.after hostOps2 V (Proc.devRef .tc r) = V (Proc.devRef .tc r) :=
  StableHlo.after_of_writes_sub hostOps2 _ hostOps2_writes h
/-- The buffers `k3a` writes, in order. -/
abbrev k3a_W : List (Ref sig .tc) := [main_v65, main_c_11, main_v66, main_v67, main_c_12, main_v68, main_v69, main_v70, main_v71, main_v72, main_v73, main_v74, main_cst_13, main_v75, main_v76, main_v77]
theorem k3a_writes : (k3a : List (HloOp τ sig (Elt F))).Forall fun op => op.writes ⊆ (k3a_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `k3a` does not write keeps its contents through it. -/
theorem k3a_keep (V : Valuation τ sig (Elt F)) (r : Ref sig .tc) (h : r ∉ k3a_W) :
    StableHlo.after k3a V (Proc.devRef .tc r) = V (Proc.devRef .tc r) :=
  StableHlo.after_of_writes_sub k3a _ k3a_writes h
/-- The buffers `k3b` writes, in order. -/
abbrev k3b_W : List (Ref sig .tc) := [main_v78, main_v79, main_v80, main_v81, main_v82, main_v83, main_v84, main_cst_14, main_v85, main_v86, main_cst_15, main_v87, main_cst_16, main_v88, main_v89, main_c_17]
theorem k3b_writes : (k3b : List (HloOp τ sig (Elt F))).Forall fun op => op.writes ⊆ (k3b_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `k3b` does not write keeps its contents through it. -/
theorem k3b_keep (V : Valuation τ sig (Elt F)) (r : Ref sig .tc) (h : r ∉ k3b_W) :
    StableHlo.after k3b V (Proc.devRef .tc r) = V (Proc.devRef .tc r) :=
  StableHlo.after_of_writes_sub k3b _ k3b_writes h
/-- The buffers `hostOps3_1` writes, in order. -/
abbrev hostOps3_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v90]
theorem hostOps3_1_writes : (hostOps3_1 : List (HloOp τ sig (Elt F))).Forall fun op => op.writes ⊆ (hostOps3_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps3_1` does not write keeps its contents through it. -/
theorem hostOps3_1_keep (V : Valuation τ sig (Elt F)) (r : Ref sig .tc) (h : r ∉ hostOps3_1_W) :
    StableHlo.after hostOps3_1 V (Proc.devRef .tc r) = V (Proc.devRef .tc r) :=
  StableHlo.after_of_writes_sub hostOps3_1 _ hostOps3_1_writes h
/-- The buffers `hostOps3_2` writes, in order. -/
abbrev hostOps3_2_W : List (Ref sig .tc) := [main_v91, main_v92, main_v93, main_v94]
theorem hostOps3_2_writes : (hostOps3_2 : List (HloOp τ sig (Elt F))).Forall fun op => op.writes ⊆ (hostOps3_2_W.map (Proc.devRef (τ := τ) .tc)).toFinset := by
  simp only [List.Forall]; refine ⟨?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps3_2` does not write keeps its contents through it. -/
theorem hostOps3_2_keep (V : Valuation τ sig (Elt F)) (r : Ref sig .tc) (h : r ∉ hostOps3_2_W) :
    StableHlo.after hostOps3_2 V (Proc.devRef .tc r) = V (Proc.devRef .tc r) :=
  StableHlo.after_of_writes_sub hostOps3_2 _ hostOps3_2_writes h
/-- The buffers `hostOps4` writes, in order. -/
abbrev hostOps4_W : List (Ref sig .tc) := [main_v96, main_v97]
theorem hostOps4_writes : (hostOps4 : List (HloOp τ sig (Elt F))).Forall fun op => op.writes ⊆ (hostOps4_W.map (Proc.devRef (τ := τ) .tc)).toFinset := by
  simp only [List.Forall]; refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps4` does not write keeps its contents through it. -/
theorem hostOps4_keep (V : Valuation τ sig (Elt F)) (r : Ref sig .tc) (h : r ∉ hostOps4_W) :
    StableHlo.after hostOps4 V (Proc.devRef .tc r) = V (Proc.devRef .tc r) :=
  StableHlo.after_of_writes_sub hostOps4 _ hostOps4_writes h
/-- The buffers `k5a` writes, in order. -/
abbrev k5a_W : List (Ref sig .tc) := [main_v99, main_c_18, main_v100, main_v101, main_c_19, main_v102, main_v103, main_v104, main_v105, main_v106, main_v107, main_v108, main_cst_20, main_v109, main_v110, main_v111]
theorem k5a_writes : (k5a : List (HloOp τ sig (Elt F))).Forall fun op => op.writes ⊆ (k5a_W.map (Proc.devRef (τ := τ) .tc)).toFinset := by
  simp only [List.Forall]; refine ⟨?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `k5a` does not write keeps its contents through it. -/
theorem k5a_keep (V : Valuation τ sig (Elt F)) (r : Ref sig .tc) (h : r ∉ k5a_W) :
    StableHlo.after k5a V (Proc.devRef .tc r) = V (Proc.devRef .tc r) :=
  StableHlo.after_of_writes_sub k5a _ k5a_writes h
/-- The buffers `k5b` writes, in order. -/
abbrev k5b_W : List (Ref sig .tc) := [main_v112, main_v113, main_v114, main_v115, main_v116, main_v117, main_v118, main_cst_21, main_v119, main_cst_22, main_v120, main_v121, main_c_23]
theorem k5b_writes : (k5b : List (HloOp τ sig (Elt F))).Forall fun op => op.writes ⊆ (k5b_W.map (Proc.devRef (τ := τ) .tc)).toFinset := by
  simp only [List.Forall]; refine ⟨?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `k5b` does not write keeps its contents through it. -/
theorem k5b_keep (V : Valuation τ sig (Elt F)) (r : Ref sig .tc) (h : r ∉ k5b_W) :
    StableHlo.after k5b V (Proc.devRef .tc r) = V (Proc.devRef .tc r) :=
  StableHlo.after_of_writes_sub k5b _ k5b_writes h
/-- The buffers `hostOps5_1` writes, in order. -/
abbrev hostOps5_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v122]
theorem hostOps5_1_writes : (hostOps5_1 : List (HloOp τ sig (Elt F))).Forall fun op => op.writes ⊆ (hostOps5_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps5_1` does not write keeps its contents through it. -/
theorem hostOps5_1_keep (V : Valuation τ sig (Elt F)) (r : Ref sig .tc) (h : r ∉ hostOps5_1_W) :
    StableHlo.after hostOps5_1 V (Proc.devRef .tc r) = V (Proc.devRef .tc r) :=
  StableHlo.after_of_writes_sub hostOps5_1 _ hostOps5_1_writes h
/-- The buffers `hostOps5_2` writes, in order. -/
abbrev hostOps5_2_W : List (Ref sig .tc) := [main_v123, main_v124, main_v125, main_v126]
theorem hostOps5_2_writes : (hostOps5_2 : List (HloOp τ sig (Elt F))).Forall fun op => op.writes ⊆ (hostOps5_2_W.map (Proc.devRef (τ := τ) .tc)).toFinset := by
  simp only [List.Forall]; refine ⟨?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps5_2` does not write keeps its contents through it. -/
theorem hostOps5_2_keep (V : Valuation τ sig (Elt F)) (r : Ref sig .tc) (h : r ∉ hostOps5_2_W) :
    StableHlo.after hostOps5_2 V (Proc.devRef .tc r) = V (Proc.devRef .tc r) :=
  StableHlo.after_of_writes_sub hostOps5_2 _ hostOps5_2_writes h
/-- The buffers `hostOps6` writes, in order. -/
abbrev hostOps6_W : List (Ref sig .tc) := [main_cst_24, main_v128, main_v129, main_v130, main_cst_25, main_v131, main_cst_26, main_v132, main_v133, main_v134, main_cst_27, main_v135, main_v136, main_v137, main_v138, main_v139, main_v140, main_v141, main_v142, main_v143, main_v144, main_v145, main_v146, main_v147, main_v148, main_v149, main_v150, main_cst_28, main_v151, main_v152, main_cst_29, main_v153, main_v154]
theorem hostOps6_writes : (hostOps6 : List (HloOp τ sig (Elt F))).Forall fun op => op.writes ⊆ (hostOps6_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer `hostOps6` does not write keeps its contents through it. -/
theorem hostOps6_keep (V : Valuation τ sig (Elt F)) (r : Ref sig .tc) (h : r ∉ hostOps6_W) :
    StableHlo.after hostOps6 V (Proc.devRef .tc r) = V (Proc.devRef .tc r) :=
  StableHlo.after_of_writes_sub hostOps6 _ hostOps6_writes h

end Cert.KernelIdeal.Ops

end
-- ==== Proof.Lockstep.lean ====
import proofs.«116345_j32049045962841_1_alg».proof.Proof.LibAgreeMore
import proofs.«116345_j32049045962841_1_alg».proof.Proof.Pairs
import proofs.«116345_j32049045962841_1_alg».proof.Proof.KOps
import proofs.«116345_j32049045962841_1_alg».proof.Proof.RefOps
import proofs.«116345_j32049045962841_1_alg».proof.Proof.Gen.ReferenceIdeal

/-!
# The two programs' host operations in lockstep

Outside the six pipeline regions the kernel's program and the reference apply the same host operations to the same
values, in the same order but for three things: the reference multiplies before it normalises the edge weights; it
computes the degree normalisation (and the edge weights) anew in every layer, where the kernel's program computes them
once; and it squares the inverse root degrees late in each layer, where the kernel's program does so once at the start.
Each stretch below is stepped operation by operation (`LibAgree`), from the pairs of buffers known to hold the same
contents to the pairs the next stretch needs. The reference's recomputed normalisation is compared with its own first
computation, as two runs of the same operations from the same edge arrays.
-/

noncomputable section
namespace Cert.Proof.Lockstep
open Idealize.ShloMosaic Idealize.ShloMosaic.StableHlo
open Cert.KernelIdeal.Gen Cert.KernelIdeal.Ops Cert.ReferenceIdeal.Run

variable {F : FTy → Type} [FloatOps F]

set_option maxHeartbeats 16000000 in
/-- The edge index split into its rows, the degrees, their inverse roots and the normalised edge weights. The reference's
    first product has no counterpart yet (the kernel's program computes it in a region), nor have the kernel program's
    square of the inverse root degrees and its two format changes. -/
theorem start : Sim (τ := Cert.KernelIdeal.τ) (Val := Elt F) Pargs (hostOps0 (F := F)) (rA (F := F) ++ (r5 ++ rN1)) Pbase := by
  iterate 5 sim_step
  sim_skipR
  iterate 28 sim_step
  iterate 3 sim_skipL
  exact Sim.done (by pairs_sub)

set_option maxHeartbeats 16000000 in
/-- Layer 1, up to the scatter of the weighted neighbour rows. -/
theorem layer1a : Sim (τ := Cert.KernelIdeal.τ) (Val := Elt F) ((Cert.KernelIdeal.main_v30, Cert.ReferenceIdeal.main_v5) :: Pbase) (k1a (F := F)) (rL1a (F := F))
    ((Cert.KernelIdeal.main_v43, Cert.ReferenceIdeal.main_v40) :: (Cert.KernelIdeal.main_v30, Cert.ReferenceIdeal.main_v5) :: Pbase) := by
  iterate 16 sim_step
  exact Sim.done (by pairs_sub)

set_option maxHeartbeats 16000000 in
/-- Layer 1, from the self-loop term to the channel means and variances. -/
theorem layer1b : Sim (τ := Cert.KernelIdeal.τ) (Val := Elt F)
    ((Cert.KernelIdeal.main_v27, Cert.ReferenceIdeal.main_v41) :: (Cert.KernelIdeal.main_v43, Cert.ReferenceIdeal.main_v40) :: (Cert.KernelIdeal.main_v30, Cert.ReferenceIdeal.main_v5) :: Pbase) (k1b (F := F) ++ hostOps1_1) (rL1b (F := F))
    ((Cert.KernelIdeal.main_v56, Cert.ReferenceIdeal.main_v53) :: (Cert.KernelIdeal.main_v55, Cert.ReferenceIdeal.main_v52) :: (Cert.KernelIdeal.main_v50, Cert.ReferenceIdeal.main_v48) :: Pbase) := by
  iterate 38 sim_step
  exact Sim.done (by pairs_sub)

set_option maxHeartbeats 16000000 in
/-- Layer 2, up to the scatter. -/
theorem layer2a : Sim (τ := Cert.KernelIdeal.τ) (Val := Elt F) ((Cert.KernelIdeal.main_v26, Cert.ReferenceIdeal.main_v91) :: (Cert.KernelIdeal.main_v10, Cert.ReferenceIdeal.main_v75) :: (Cert.KernelIdeal.main_v64, Cert.ReferenceIdeal.main_v69) :: Pbase) (k3a (F := F)) (rL2a (F := F))
    ((Cert.KernelIdeal.main_v77, Cert.ReferenceIdeal.main_v104) :: (Cert.KernelIdeal.main_v10, Cert.ReferenceIdeal.main_v75) :: (Cert.KernelIdeal.main_v64, Cert.ReferenceIdeal.main_v69) :: Pbase) := by
  iterate 16 sim_step
  exact Sim.done (by pairs_sub)

set_option maxHeartbeats 16000000 in
/-- Layer 2, from the self-loop term to the channel means and variances. -/
theorem layer2b : Sim (τ := Cert.KernelIdeal.τ) (Val := Elt F)
    ((Cert.KernelIdeal.main_v27, Cert.ReferenceIdeal.main_v105) :: (Cert.KernelIdeal.main_v77, Cert.ReferenceIdeal.main_v104) :: (Cert.KernelIdeal.main_v64, Cert.ReferenceIdeal.main_v69) :: Pbase) (k3b (F := F) ++ hostOps3_1) (rL2b (F := F))
    ((Cert.KernelIdeal.main_v90, Cert.ReferenceIdeal.main_v117) :: (Cert.KernelIdeal.main_v89, Cert.ReferenceIdeal.main_v116) :: (Cert.KernelIdeal.main_v84, Cert.ReferenceIdeal.main_v112) :: Pbase) := by
  iterate 38 sim_step
  exact Sim.done (by pairs_sub)

set_option maxHeartbeats 16000000 in
/-- Layer 3, up to the scatter. -/
theorem layer3a : Sim (τ := Cert.KernelIdeal.τ) (Val := Elt F) ((Cert.KernelIdeal.main_v26, Cert.ReferenceIdeal.main_v155) :: (Cert.KernelIdeal.main_v10, Cert.ReferenceIdeal.main_v139) :: (Cert.KernelIdeal.main_v98, Cert.ReferenceIdeal.main_v133) :: Pbase) (k5a (F := F)) (rL3a (F := F))
    ((Cert.KernelIdeal.main_v111, Cert.ReferenceIdeal.main_v168) :: (Cert.KernelIdeal.main_v10, Cert.ReferenceIdeal.main_v139) :: (Cert.KernelIdeal.main_v98, Cert.ReferenceIdeal.main_v133) :: Pbase) := by
  iterate 16 sim_step
  exact Sim.done (by pairs_sub)

set_option maxHeartbeats 16000000 in
/-- Layer 3 (no rectifier), from the self-loop term to the channel means and variances. -/
theorem layer3b : Sim (τ := Cert.KernelIdeal.τ) (Val := Elt F)
    ((Cert.KernelIdeal.main_v27, Cert.ReferenceIdeal.main_v169) :: (Cert.KernelIdeal.main_v111, Cert.ReferenceIdeal.main_v168) :: (Cert.KernelIdeal.main_v98, Cert.ReferenceIdeal.main_v133) :: Pbase) (k5b (F := F) ++ hostOps5_1) (rL3b (F := F))
    ((Cert.KernelIdeal.main_v122, Cert.ReferenceIdeal.main_v180) :: (Cert.KernelIdeal.main_v121, Cert.ReferenceIdeal.main_v179) :: (Cert.KernelIdeal.main_v118, Cert.ReferenceIdeal.main_v176) :: Pbase) := by
  iterate 35 sim_step
  exact Sim.done (by pairs_sub)

set_option maxHeartbeats 16000000 in
/-- Pooling over the graphs and the head: the same thirty-three operations on the last layer's output. -/
theorem head : Sim (τ := Cert.KernelIdeal.τ) (Val := Elt F) ((Cert.KernelIdeal.main_v127, Cert.ReferenceIdeal.main_v195) :: Pbase) (hostOps6 (F := F)) (rH (F := F)) [(Cert.KernelIdeal.main_v154, Cert.ReferenceIdeal.main_v222)] := by
  iterate 33 sim_step
  exact Sim.done (by pairs_sub)

/-- The edge arrays as the reference's normalisation reads them, each paired with itself. -/
abbrev Pedges : List (Ref Cert.ReferenceIdeal.sig .tc × Ref Cert.ReferenceIdeal.sig .tc) := [(Cert.ReferenceIdeal.main_v4, Cert.ReferenceIdeal.main_v4), (Cert.ReferenceIdeal.main_v3, Cert.ReferenceIdeal.main_v3), (Cert.ReferenceIdeal.main_v1, Cert.ReferenceIdeal.main_v1)]

set_option maxHeartbeats 16000000 in
/-- The reference's second computation of the normalisation, against its first. -/
theorem norm2 : Sim (τ := Cert.ReferenceIdeal.τ) (Val := Elt F) Pedges (rN1 (F := F)) (rN2 (F := F)) [(Cert.ReferenceIdeal.main_v27, Cert.ReferenceIdeal.main_v91), (Cert.ReferenceIdeal.main_v11, Cert.ReferenceIdeal.main_v75)] := by
  iterate 28 sim_step
  exact Sim.done (by pairs_sub)

set_option maxHeartbeats 16000000 in
/-- The reference's third computation of the normalisation, against its first. -/
theorem norm3 : Sim (τ := Cert.ReferenceIdeal.τ) (Val := Elt F) Pedges (rN1 (F := F)) (rN3 (F := F)) [(Cert.ReferenceIdeal.main_v27, Cert.ReferenceIdeal.main_v155), (Cert.ReferenceIdeal.main_v11, Cert.ReferenceIdeal.main_v139)] := by
  iterate 28 sim_step
  exact Sim.done (by pairs_sub)

end Cert.Proof.Lockstep
end
-- ==== Proof.Spec.lean ====
import proofs.«116345_j32049045962841_1_alg».proof.ReferenceIdeal

/-!
# The reference's batch-normalisation stage as one pure term

The host program normalises a node-by-channel array `x` with a per-channel mean and variance, scales by `g` and shifts by
`be`: `(x - mean) * rsqrt (var + ε) * g + be`, every per-channel vector first laid out as a row and then repeated down
the rows. `bnR` is that term, operation by operation as the host program applies them.
-/

noncomputable section

namespace Cert.ReferenceIdeal.Spec

open Cert.ReferenceIdeal Idealize.ShloMosaic
open Facts₀ Facts

variable {F : FTy → Type} [FloatOps F] [Facts]

/-- A per-channel vector as a one-row array. -/
abbrev asRow (v : (⟨S256, .f32⟩ : BufTy).Contents (Elt F)) : (⟨S1x256, .f32⟩ : BufTy).Contents (Elt F) :=
  broadcastInDim S1x256 ![1] bcast_S256_S1x256_1 v

/-- A one-row array repeated down the node axis. -/
abbrev downRows (v : (⟨S1x256, .f32⟩ : BufTy).Contents (Elt F)) : (⟨S20000x256, .f32⟩ : BufTy).Contents (Elt F) :=
  broadcastInDim S20000x256 ![0, 1] bcast_S1x256_S20000x256_0_1 v

/-- `(x - mean) * rsqrt (var + ε) * g + be`, channel-wise, as the host program composes it. -/
def bnR (x : (⟨S20000x256, .f32⟩ : BufTy).Contents (Elt F)) (mean var g be : (⟨S256, .f32⟩ : BufTy).Contents (Elt F)) :
    (⟨S20000x256, .f32⟩ : BufTy).Contents (Elt F) :=
  addf
    (mulf
      (mulf (subf x (downRows (asRow mean)))
        (downRows (asRow (Host.rsqrt (addf var (broadcastInDim S256 ![] bcast_S_S256 (constant S_ .f32 0x3727C5AC#32)))))))
      (downRows (asRow g)))
    (downRows (asRow be))

/-- The rectifier as the host program applies it: the larger of `x` and zero, entry by entry. -/
def reluR (x : (⟨S20000x256, .f32⟩ : BufTy).Contents (Elt F)) : (⟨S20000x256, .f32⟩ : BufTy).Contents (Elt F) :=
  maximumf x (broadcastInDim S20000x256 ![] bcast_S_S20000x256 (constant S_ .f32 0x00000000#32))

end Cert.ReferenceIdeal.Spec

end
-- ==== Proof.RFacts.lean ====
import proofs.«116345_j32049045962841_1_alg».proof.Proof.RefRun
import proofs.«116345_j32049045962841_1_alg».proof.Proof.Spec

/-!
# Values the host program's stretches leave, as pure terms

For a stretch run from contents `V`: what a normalisation stretch leaves is `Spec.bnR` of its five operands; what the
rectifier inside a layer's stretch leaves is `Spec.reluR` of the layer's sum; a product stretch leaves the matrix
product of its two operands, and a self-coefficient stretch the product of the inverse-square-root degree with itself.
-/

noncomputable section

namespace Cert.ReferenceIdeal.Run

open Cert.ReferenceIdeal Idealize.ShloMosaic Idealize.ShloMosaic.TcCoe Idealize.SL.Sem Idealize.ShloMosaic.StableHlo
open Facts₀ Facts

variable {F : FTy → Type} [FloatOps F] [Facts]

/-! ## The normalisations -/

set_option maxHeartbeats 1000000 in
/-- Layer 1's normalisation leaves `(x - mean) * rsqrt (var + ε) * g + be` of the five buffers it reads. -/
theorem rBN1_value (V : Valuation τ sig (Elt F)) :
    StableHlo.after rBN1 V (Proc.devRef .tc main_v68)
      = Spec.bnR (V (Proc.devRef .tc main_v49)) (V (Proc.devRef .tc main_v52)) (V (Proc.devRef .tc main_v53))
          (V (Proc.devRef .tc main_arg7)) (V (Proc.devRef .tc main_arg8)) := by
  after_results_simp
  rfl

set_option maxHeartbeats 1000000 in
/-- Layer 2's normalisation leaves `(x - mean) * rsqrt (var + ε) * g + be` of the five buffers it reads. -/
theorem rBN2_value (V : Valuation τ sig (Elt F)) :
    StableHlo.after rBN2 V (Proc.devRef .tc main_v132)
      = Spec.bnR (V (Proc.devRef .tc main_v113)) (V (Proc.devRef .tc main_v116)) (V (Proc.devRef .tc main_v117))
          (V (Proc.devRef .tc main_arg11)) (V (Proc.devRef .tc main_arg12)) := by
  after_results_simp
  rfl

set_option maxHeartbeats 1000000 in
/-- Layer 3's normalisation leaves `(x - mean) * rsqrt (var + ε) * g + be` of the five buffers it reads. -/
theorem rBN3_value (V : Valuation τ sig (Elt F)) :
    StableHlo.after rBN3 V (Proc.devRef .tc main_v195)
      = Spec.bnR (V (Proc.devRef .tc main_v176)) (V (Proc.devRef .tc main_v179)) (V (Proc.devRef .tc main_v180))
          (V (Proc.devRef .tc main_arg15)) (V (Proc.devRef .tc main_arg16)) := by
  after_results_simp
  rfl

/-! ## The rectifiers -/

set_option maxHeartbeats 1000000 in
/-- After layer 1's stretch the rectified buffer is the larger of the layer's sum, as the stretch leaves it, and zero. -/
theorem rL1b_relu (V : Valuation τ sig (Elt F)) :
    StableHlo.after rL1b V (Proc.devRef .tc main_v49)
      = Spec.reluR (StableHlo.after rL1b V (Proc.devRef .tc main_v48)) := by
  after_results_simp <;> (try simp only [TRef.ofBuf, TRef.toBuf, cast_eq]) <;> rfl

set_option maxHeartbeats 1000000 in
/-- After layer 2's stretch the rectified buffer is the larger of the layer's sum, as the stretch leaves it, and zero. -/
theorem rL2b_relu (V : Valuation τ sig (Elt F)) :
    StableHlo.after rL2b V (Proc.devRef .tc main_v113)
      = Spec.reluR (StableHlo.after rL2b V (Proc.devRef .tc main_v112)) := by
  after_results_simp <;> (try simp only [TRef.ofBuf, TRef.toBuf, cast_eq]) <;> rfl

/-! ## The products and the self coefficients -/

/-- Layer 1's product stretch leaves the matrix product of its two operands. -/
theorem r5_value (V : Valuation τ sig (Elt F)) :
    StableHlo.after r5 V (Proc.devRef .tc main_v5)
      = (Host.dotGeneral dot_S20000x1280_S1280x256_S20000x256_1_0_0_1_n_n none
          (V (Proc.devRef .tc main_arg0) : (⟨S20000x1280, .f32⟩ : BufTy).Contents (Elt F)) (V (Proc.devRef .tc main_arg5) : (⟨S1280x256, .f32⟩ : BufTy).Contents (Elt F))
          : (⟨S20000x256, .f32⟩ : BufTy).Contents (Elt F)) := by
  after_results_simp

/-- Layer 2's product stretch leaves the matrix product of its two operands. -/
theorem r69_value (V : Valuation τ sig (Elt F)) :
    StableHlo.after r69 V (Proc.devRef .tc main_v69)
      = (Host.dotGeneral dot_S20000x256_S256x256_S20000x256_1_0_0_1_n_n none
          (V (Proc.devRef .tc main_v68) : (⟨S20000x256, .f32⟩ : BufTy).Contents (Elt F)) (V (Proc.devRef .tc main_arg9) : (⟨S256x256, .f32⟩ : BufTy).Contents (Elt F))
          : (⟨S20000x256, .f32⟩ : BufTy).Contents (Elt F)) := by
  after_results_simp

/-- Layer 3's product stretch leaves the matrix product of its two operands. -/
theorem r133_value (V : Valuation τ sig (Elt F)) :
    StableHlo.after r133 V (Proc.devRef .tc main_v133)
      = (Host.dotGeneral dot_S20000x256_S256x256_S20000x256_1_0_0_1_n_n none
          (V (Proc.devRef .tc main_v132) : (⟨S20000x256, .f32⟩ : BufTy).Contents (Elt F)) (V (Proc.devRef .tc main_arg13) : (⟨S256x256, .f32⟩ : BufTy).Contents (Elt F))
          : (⟨S20000x256, .f32⟩ : BufTy).Contents (Elt F)) := by
  after_results_simp

/-- Layer 1's self coefficient is the inverse square root of the degree, times itself. -/
theorem r41_value (V : Valuation τ sig (Elt F)) :
    StableHlo.after r41 V (Proc.devRef .tc main_v41)
      = (mulf (V (Proc.devRef .tc main_v11)) (V (Proc.devRef .tc main_v11)) : (⟨S20000, .f32⟩ : BufTy).Contents (Elt F)) := by
  after_results_simp

/-- Layer 2's self coefficient is the inverse square root of the degree, times itself. -/
theorem r105_value (V : Valuation τ sig (Elt F)) :
    StableHlo.after r105 V (Proc.devRef .tc main_v105)
      = (mulf (V (Proc.devRef .tc main_v75)) (V (Proc.devRef .tc main_v75)) : (⟨S20000, .f32⟩ : BufTy).Contents (Elt F)) := by
  after_results_simp

/-- Layer 3's self coefficient is the inverse square root of the degree, times itself. -/
theorem r169_value (V : Valuation τ sig (Elt F)) :
    StableHlo.after r169 V (Proc.devRef .tc main_v169)
      = (mulf (V (Proc.devRef .tc main_v139)) (V (Proc.devRef .tc main_v139)) : (⟨S20000, .f32⟩ : BufTy).Contents (Elt F)) := by
  after_results_simp

end Cert.ReferenceIdeal.Run

end
-- ==== Proof.GlueSelf.lean ====
import proofs.«116345_j32049045962841_1_alg».proof.Proof.Lockstep
import proofs.«116345_j32049045962841_1_alg».proof.Proof.RFacts

/-!
# Where the reference repeats itself

The reference squares the inverse root degrees inside every layer and, from the second layer on, computes the whole
degree normalisation anew; the kernel's program does each once, at the start. Here the repeated values are paired with
the single ones: the square, because it is the same function of operands already paired; the recomputed
normalisation, because two runs of the same operations from the same edge arrays leave the same contents.
-/

noncomputable section
namespace Cert.Proof.Glue
open Idealize.ShloMosaic Idealize.ShloMosaic.StableHlo Cert.Proof.Lockstep

variable {F : FTy → Type} [FloatOps F]

/-- Layer 1's self-loop weights: the kernel's program squared the inverse root degrees once, at the start; the reference
    squares them here. The two squares are the same function of paired operands. -/
theorem selfLoop1 (VK : Valuation Cert.KernelIdeal.τ Cert.KernelIdeal.sig (Elt F)) (VR : Valuation Cert.ReferenceIdeal.τ Cert.ReferenceIdeal.sig (Elt F))
    (hk : VK (Proc.devRef .tc Cert.KernelIdeal.main_v27)
      = (mulf (VK (Proc.devRef .tc Cert.KernelIdeal.main_v10)) (VK (Proc.devRef .tc Cert.KernelIdeal.main_v10)) : (⟨Cert.KernelIdeal.S20000, .f32⟩ : BufTy).Contents (Elt F)))
    (hA : Agree (τ := Cert.KernelIdeal.τ) ((Cert.KernelIdeal.main_v43, Cert.ReferenceIdeal.main_v40) :: (Cert.KernelIdeal.main_v30, Cert.ReferenceIdeal.main_v5) :: Pbase) VK VR) :
    Agree (τ := Cert.KernelIdeal.τ) ((Cert.KernelIdeal.main_v27, Cert.ReferenceIdeal.main_v41) :: (Cert.KernelIdeal.main_v43, Cert.ReferenceIdeal.main_v40) :: (Cert.KernelIdeal.main_v30, Cert.ReferenceIdeal.main_v5) :: Pbase) VK (after Cert.ReferenceIdeal.Run.r41 VR) := by
  have hS : Sim (τ := Cert.KernelIdeal.τ) (Val := Elt F) ((Cert.KernelIdeal.main_v43, Cert.ReferenceIdeal.main_v40) :: (Cert.KernelIdeal.main_v30, Cert.ReferenceIdeal.main_v5) :: Pbase)
      ([] : List (HloOp Cert.KernelIdeal.τ Cert.KernelIdeal.sig (Elt F))) (Cert.ReferenceIdeal.Run.r41 (F := F))
      ((Cert.KernelIdeal.main_v43, Cert.ReferenceIdeal.main_v40) :: (Cert.KernelIdeal.main_v30, Cert.ReferenceIdeal.main_v5) :: Pbase) := by
    sim_skipR
    exact Sim.done (List.Subset.refl _)
  refine Agree.add (hS _ _ hA) ?_
  rw [Cert.ReferenceIdeal.Run.r41_value VR, hk]
  have h := hA.get (show (Cert.KernelIdeal.main_v10, Cert.ReferenceIdeal.main_v11) ∈ _ by pair_mem)
  have hf : HEq (mulf : (⟨Cert.KernelIdeal.S20000, .f32⟩ : BufTy).Contents (Elt F) → (⟨Cert.KernelIdeal.S20000, .f32⟩ : BufTy).Contents (Elt F) → (⟨Cert.KernelIdeal.S20000, .f32⟩ : BufTy).Contents (Elt F))
      (mulf : (⟨Cert.ReferenceIdeal.S20000, .f32⟩ : BufTy).Contents (Elt F) → (⟨Cert.ReferenceIdeal.S20000, .f32⟩ : BufTy).Contents (Elt F) → (⟨Cert.ReferenceIdeal.S20000, .f32⟩ : BufTy).Contents (Elt F)) := HEq.rfl
  exact heq_app rfl rfl (heq_app rfl rfl hf h) h

/-- Layer 2's self-loop weights: the kernel's program squared the inverse root degrees once, at the start; the reference
    squares its own copy here. The two squares are the same function of paired operands. -/
theorem selfLoop2 (VK : Valuation Cert.KernelIdeal.τ Cert.KernelIdeal.sig (Elt F)) (VR : Valuation Cert.ReferenceIdeal.τ Cert.ReferenceIdeal.sig (Elt F))
    (hk : VK (Proc.devRef .tc Cert.KernelIdeal.main_v27)
      = (mulf (VK (Proc.devRef .tc Cert.KernelIdeal.main_v10)) (VK (Proc.devRef .tc Cert.KernelIdeal.main_v10)) : (⟨Cert.KernelIdeal.S20000, .f32⟩ : BufTy).Contents (Elt F)))
    (hA : Agree (τ := Cert.KernelIdeal.τ) ((Cert.KernelIdeal.main_v77, Cert.ReferenceIdeal.main_v104) :: (Cert.KernelIdeal.main_v10, Cert.ReferenceIdeal.main_v75) :: (Cert.KernelIdeal.main_v64, Cert.ReferenceIdeal.main_v69) :: Pbase) VK VR) :
    Agree (τ := Cert.KernelIdeal.τ) ((Cert.KernelIdeal.main_v27, Cert.ReferenceIdeal.main_v105) :: (Cert.KernelIdeal.main_v77, Cert.ReferenceIdeal.main_v104) :: (Cert.KernelIdeal.main_v10, Cert.ReferenceIdeal.main_v75) :: (Cert.KernelIdeal.main_v64, Cert.ReferenceIdeal.main_v69) :: Pbase) VK (after Cert.ReferenceIdeal.Run.r105 VR) := by
  have hS : Sim (τ := Cert.KernelIdeal.τ) (Val := Elt F) ((Cert.KernelIdeal.main_v77, Cert.ReferenceIdeal.main_v104) :: (Cert.KernelIdeal.main_v10, Cert.ReferenceIdeal.main_v75) :: (Cert.KernelIdeal.main_v64, Cert.ReferenceIdeal.main_v69) :: Pbase)
      ([] : List (HloOp Cert.KernelIdeal.τ Cert.KernelIdeal.sig (Elt F))) (Cert.ReferenceIdeal.Run.r105 (F := F))
      ((Cert.KernelIdeal.main_v77, Cert.ReferenceIdeal.main_v104) :: (Cert.KernelIdeal.main_v10, Cert.ReferenceIdeal.main_v75) :: (Cert.KernelIdeal.main_v64, Cert.ReferenceIdeal.main_v69) :: Pbase) := by
    sim_skipR
    exact Sim.done (List.Subset.refl _)
  refine Agree.add (hS _ _ hA) ?_
  rw [Cert.ReferenceIdeal.Run.r105_value VR, hk]
  have h := hA.get (show (Cert.KernelIdeal.main_v10, Cert.ReferenceIdeal.main_v75) ∈ _ by pair_mem)
  have hf : HEq (mulf : (⟨Cert.KernelIdeal.S20000, .f32⟩ : BufTy).Contents (Elt F) → (⟨Cert.KernelIdeal.S20000, .f32⟩ : BufTy).Contents (Elt F) → (⟨Cert.KernelIdeal.S20000, .f32⟩ : BufTy).Contents (Elt F))
      (mulf : (⟨Cert.ReferenceIdeal.S20000, .f32⟩ : BufTy).Contents (Elt F) → (⟨Cert.ReferenceIdeal.S20000, .f32⟩ : BufTy).Contents (Elt F) → (⟨Cert.ReferenceIdeal.S20000, .f32⟩ : BufTy).Contents (Elt F)) := HEq.rfl
  exact heq_app rfl rfl (heq_app rfl rfl hf h) h

/-- Layer 3's self-loop weights: the kernel's program squared the inverse root degrees once, at the start; the reference
    squares its own copy here. The two squares are the same function of paired operands. -/
theorem selfLoop3 (VK : Valuation Cert.KernelIdeal.τ Cert.KernelIdeal.sig (Elt F)) (VR : Valuation Cert.ReferenceIdeal.τ Cert.ReferenceIdeal.sig (Elt F))
    (hk : VK (Proc.devRef .tc Cert.KernelIdeal.main_v27)
      = (mulf (VK (Proc.devRef .tc Cert.KernelIdeal.main_v10)) (VK (Proc.devRef .tc Cert.KernelIdeal.main_v10)) : (⟨Cert.KernelIdeal.S20000, .f32⟩ : BufTy).Contents (Elt F)))
    (hA : Agree (τ := Cert.KernelIdeal.τ) ((Cert.KernelIdeal.main_v111, Cert.ReferenceIdeal.main_v168) :: (Cert.KernelIdeal.main_v10, Cert.ReferenceIdeal.main_v139) :: (Cert.KernelIdeal.main_v98, Cert.ReferenceIdeal.main_v133) :: Pbase) VK VR) :
    Agree (τ := Cert.KernelIdeal.τ) ((Cert.KernelIdeal.main_v27, Cert.ReferenceIdeal.main_v169) :: (Cert.KernelIdeal.main_v111, Cert.ReferenceIdeal.main_v168) :: (Cert.KernelIdeal.main_v10, Cert.ReferenceIdeal.main_v139) :: (Cert.KernelIdeal.main_v98, Cert.ReferenceIdeal.main_v133) :: Pbase) VK (after Cert.ReferenceIdeal.Run.r169 VR) := by
  have hS : Sim (τ := Cert.KernelIdeal.τ) (Val := Elt F) ((Cert.KernelIdeal.main_v111, Cert.ReferenceIdeal.main_v168) :: (Cert.KernelIdeal.main_v10, Cert.ReferenceIdeal.main_v139) :: (Cert.KernelIdeal.main_v98, Cert.ReferenceIdeal.main_v133) :: Pbase)
      ([] : List (HloOp Cert.KernelIdeal.τ Cert.KernelIdeal.sig (Elt F))) (Cert.ReferenceIdeal.Run.r169 (F := F))
      ((Cert.KernelIdeal.main_v111, Cert.ReferenceIdeal.main_v168) :: (Cert.KernelIdeal.main_v10, Cert.ReferenceIdeal.main_v139) :: (Cert.KernelIdeal.main_v98, Cert.ReferenceIdeal.main_v133) :: Pbase) := by
    sim_skipR
    exact Sim.done (List.Subset.refl _)
  refine Agree.add (hS _ _ hA) ?_
  rw [Cert.ReferenceIdeal.Run.r169_value VR, hk]
  have h := hA.get (show (Cert.KernelIdeal.main_v10, Cert.ReferenceIdeal.main_v139) ∈ _ by pair_mem)
  have hf : HEq (mulf : (⟨Cert.KernelIdeal.S20000, .f32⟩ : BufTy).Contents (Elt F) → (⟨Cert.KernelIdeal.S20000, .f32⟩ : BufTy).Contents (Elt F) → (⟨Cert.KernelIdeal.S20000, .f32⟩ : BufTy).Contents (Elt F))
      (mulf : (⟨Cert.ReferenceIdeal.S20000, .f32⟩ : BufTy).Contents (Elt F) → (⟨Cert.ReferenceIdeal.S20000, .f32⟩ : BufTy).Contents (Elt F) → (⟨Cert.ReferenceIdeal.S20000, .f32⟩ : BufTy).Contents (Elt F)) := HEq.rfl
  exact heq_app rfl rfl (heq_app rfl rfl hf h) h

/-- Layer 2: the reference computes the degree normalisation anew. Run from the same edge arrays, the recomputation leaves
    what the first computation left, which the kernel program's single computation was paired with. -/
theorem renorm2 (VK : Valuation Cert.KernelIdeal.τ Cert.KernelIdeal.sig (Elt F)) (VR0 VR : Valuation Cert.ReferenceIdeal.τ Cert.ReferenceIdeal.sig (Elt F))
    (h4 : VR (Proc.devRef .tc Cert.ReferenceIdeal.main_v4) = VR0 (Proc.devRef .tc Cert.ReferenceIdeal.main_v4))
    (h3 : VR (Proc.devRef .tc Cert.ReferenceIdeal.main_v3) = VR0 (Proc.devRef .tc Cert.ReferenceIdeal.main_v3))
    (h1 : VR (Proc.devRef .tc Cert.ReferenceIdeal.main_v1) = VR0 (Proc.devRef .tc Cert.ReferenceIdeal.main_v1))
    (h27 : VR (Proc.devRef .tc Cert.ReferenceIdeal.main_v27) = after Cert.ReferenceIdeal.Run.rN1 VR0 (Proc.devRef .tc Cert.ReferenceIdeal.main_v27))
    (h11 : VR (Proc.devRef .tc Cert.ReferenceIdeal.main_v11) = after Cert.ReferenceIdeal.Run.rN1 VR0 (Proc.devRef .tc Cert.ReferenceIdeal.main_v11))
    (hA : Agree (τ := Cert.KernelIdeal.τ) ((Cert.KernelIdeal.main_v64, Cert.ReferenceIdeal.main_v69) :: Pbase) VK VR) :
    Agree (τ := Cert.KernelIdeal.τ) ((Cert.KernelIdeal.main_v26, Cert.ReferenceIdeal.main_v91) :: (Cert.KernelIdeal.main_v10, Cert.ReferenceIdeal.main_v75) :: (Cert.KernelIdeal.main_v64, Cert.ReferenceIdeal.main_v69) :: Pbase) VK (after Cert.ReferenceIdeal.Run.rN2 VR) := by
  have hS : Sim (τ := Cert.KernelIdeal.τ) (Val := Elt F) ((Cert.KernelIdeal.main_v64, Cert.ReferenceIdeal.main_v69) :: Pbase)
      ([] : List (HloOp Cert.KernelIdeal.τ Cert.KernelIdeal.sig (Elt F))) (Cert.ReferenceIdeal.Run.rN2 (F := F)) ((Cert.KernelIdeal.main_v64, Cert.ReferenceIdeal.main_v69) :: Pbase) := by
    iterate 28 sim_skipR
    exact Sim.done (List.Subset.refl _)
  have hA' := hS _ _ hA
  have hE : Agree (τ := Cert.ReferenceIdeal.τ) Lockstep.Pedges VR0 VR :=
    Agree.cons (heq_of_eq h4.symm) (Agree.cons (heq_of_eq h3.symm) (Agree.cons (heq_of_eq h1.symm) Agree.nil))
  have hN := Lockstep.norm2 _ _ hE
  refine Agree.add (Agree.add hA' ?_) ?_
  · have h := hA'.get (show (Cert.KernelIdeal.main_v10, Cert.ReferenceIdeal.main_v11) ∈ _ by pair_mem)
    rw [show after ([] : List (HloOp Cert.KernelIdeal.τ Cert.KernelIdeal.sig (Elt F))) VK = VK from rfl,
      Cert.ReferenceIdeal.Run.rN2_keep VR Cert.ReferenceIdeal.main_v11 (by decide), h11] at h
    exact h.trans (hN.get (show (Cert.ReferenceIdeal.main_v11, Cert.ReferenceIdeal.main_v75) ∈ _ by pair_mem))
  · have h := hA'.get (show (Cert.KernelIdeal.main_v26, Cert.ReferenceIdeal.main_v27) ∈ _ by pair_mem)
    rw [show after ([] : List (HloOp Cert.KernelIdeal.τ Cert.KernelIdeal.sig (Elt F))) VK = VK from rfl,
      Cert.ReferenceIdeal.Run.rN2_keep VR Cert.ReferenceIdeal.main_v27 (by decide), h27] at h
    exact h.trans (hN.get (show (Cert.ReferenceIdeal.main_v27, Cert.ReferenceIdeal.main_v91) ∈ _ by pair_mem))

/-- Layer 3: the reference computes the degree normalisation anew. Run from the same edge arrays, the recomputation leaves
    what the first computation left, which the kernel program's single computation was paired with. -/
theorem renorm3 (VK : Valuation Cert.KernelIdeal.τ Cert.KernelIdeal.sig (Elt F)) (VR0 VR : Valuation Cert.ReferenceIdeal.τ Cert.ReferenceIdeal.sig (Elt F))
    (h4 : VR (Proc.devRef .tc Cert.ReferenceIdeal.main_v4) = VR0 (Proc.devRef .tc Cert.ReferenceIdeal.main_v4))
    (h3 : VR (Proc.devRef .tc Cert.ReferenceIdeal.main_v3) = VR0 (Proc.devRef .tc Cert.ReferenceIdeal.main_v3))
    (h1 : VR (Proc.devRef .tc Cert.ReferenceIdeal.main_v1) = VR0 (Proc.devRef .tc Cert.ReferenceIdeal.main_v1))
    (h27 : VR (Proc.devRef .tc Cert.ReferenceIdeal.main_v27) = after Cert.ReferenceIdeal.Run.rN1 VR0 (Proc.devRef .tc Cert.ReferenceIdeal.main_v27))
    (h11 : VR (Proc.devRef .tc Cert.ReferenceIdeal.main_v11) = after Cert.ReferenceIdeal.Run.rN1 VR0 (Proc.devRef .tc Cert.ReferenceIdeal.main_v11))
    (hA : Agree (τ := Cert.KernelIdeal.τ) ((Cert.KernelIdeal.main_v98, Cert.ReferenceIdeal.main_v133) :: Pbase) VK VR) :
    Agree (τ := Cert.KernelIdeal.τ) ((Cert.KernelIdeal.main_v26, Cert.ReferenceIdeal.main_v155) :: (Cert.KernelIdeal.main_v10, Cert.ReferenceIdeal.main_v139) :: (Cert.KernelIdeal.main_v98, Cert.ReferenceIdeal.main_v133) :: Pbase) VK (after Cert.ReferenceIdeal.Run.rN3 VR) := by
  have hS : Sim (τ := Cert.KernelIdeal.τ) (Val := Elt F) ((Cert.KernelIdeal.main_v98, Cert.ReferenceIdeal.main_v133) :: Pbase)
      ([] : List (HloOp Cert.KernelIdeal.τ Cert.KernelIdeal.sig (Elt F))) (Cert.ReferenceIdeal.Run.rN3 (F := F)) ((Cert.KernelIdeal.main_v98, Cert.ReferenceIdeal.main_v133) :: Pbase) := by
    iterate 28 sim_skipR
    exact Sim.done (List.Subset.refl _)
  have hA' := hS _ _ hA
  have hE : Agree (τ := Cert.ReferenceIdeal.τ) Lockstep.Pedges VR0 VR :=
    Agree.cons (heq_of_eq h4.symm) (Agree.cons (heq_of_eq h3.symm) (Agree.cons (heq_of_eq h1.symm) Agree.nil))
  have hN := Lockstep.norm3 _ _ hE
  refine Agree.add (Agree.add hA' ?_) ?_
  · have h := hA'.get (show (Cert.KernelIdeal.main_v10, Cert.ReferenceIdeal.main_v11) ∈ _ by pair_mem)
    rw [show after ([] : List (HloOp Cert.KernelIdeal.τ Cert.KernelIdeal.sig (Elt F))) VK = VK from rfl,
      Cert.ReferenceIdeal.Run.rN3_keep VR Cert.ReferenceIdeal.main_v11 (by decide), h11] at h
    exact h.trans (hN.get (show (Cert.ReferenceIdeal.main_v11, Cert.ReferenceIdeal.main_v139) ∈ _ by pair_mem))
  · have h := hA'.get (show (Cert.KernelIdeal.main_v26, Cert.ReferenceIdeal.main_v27) ∈ _ by pair_mem)
    rw [show after ([] : List (HloOp Cert.KernelIdeal.τ Cert.KernelIdeal.sig (Elt F))) VK = VK from rfl,
      Cert.ReferenceIdeal.Run.rN3_keep VR Cert.ReferenceIdeal.main_v27 (by decide), h27] at h
    exact h.trans (hN.get (show (Cert.ReferenceIdeal.main_v27, Cert.ReferenceIdeal.main_v155) ∈ _ by pair_mem))

end Cert.Proof.Glue
end
-- ==== Proof.KFacts.lean ====
import proofs.«116345_j32049045962841_1_alg».proof.Proof.KOps

/-!
# Values the kernel program's host stretches leave, read off the stretch's own final contents

For a stretch `s` run from contents `V`, write `A` for the contents after it. Each fact below says what one result
buffer holds in `A` in terms of what its operand buffers hold in `A`: a product of a vector with itself, a change of
float format, or a per-channel vector laid out as one row.
-/

noncomputable section

namespace Cert.KernelIdeal.Ops

open Cert.KernelIdeal Cert.KernelIdeal.Gen
open Idealize.ShloMosaic Idealize.ShloMosaic.TcCoe Idealize.SL.Sem Idealize.ShloMosaic.StableHlo

variable {F : FTy → Type} [FloatOps F]

/-! ## The stretch before the first kernel call -/

set_option maxHeartbeats 400000 in
/-- The self coefficient is the inverse square root of the degree, times itself. -/
theorem hostOps0_v27 (V : Valuation τ sig (Elt F)) :
    StableHlo.after hostOps0 V (Proc.devRef .tc main_v27)
      = (mulf (StableHlo.after hostOps0 V (Proc.devRef .tc main_v10)) (StableHlo.after hostOps0 V (Proc.devRef .tc main_v10))
          : (⟨S20000, .f32⟩ : BufTy).Contents (Elt F)) := by
  after_results_simp

set_option maxHeartbeats 400000 in
/-- The first product's left operand is the node features in the short float format. -/
theorem hostOps0_v28 (V : Valuation τ sig (Elt F)) :
    StableHlo.after hostOps0 V (Proc.devRef .tc main_v28)
      = (truncf .bf16 (StableHlo.after hostOps0 V (Proc.devRef .tc main_arg0) : (⟨S20000x1280, .f32⟩ : BufTy).Contents (Elt F)) bitsLt_bf16_f32
          : (⟨S20000x1280, .bf16⟩ : BufTy).Contents (Elt F)) := by
  after_results_simp

set_option maxHeartbeats 400000 in
/-- The first product's right operand is layer 1's weight matrix in the short float format. -/
theorem hostOps0_v29 (V : Valuation τ sig (Elt F)) :
    StableHlo.after hostOps0 V (Proc.devRef .tc main_v29)
      = (truncf .bf16 (StableHlo.after hostOps0 V (Proc.devRef .tc main_arg5) : (⟨S1280x256, .f32⟩ : BufTy).Contents (Elt F)) bitsLt_bf16_f32
          : (⟨S1280x256, .bf16⟩ : BufTy).Contents (Elt F)) := by
  after_results_simp

/-! ## The operands of the second and the third product -/

set_option maxHeartbeats 400000 in
/-- The second product's left operand is layer 1's normalised output in the short float format. -/
theorem hostOps2_v62 (V : Valuation τ sig (Elt F)) :
    StableHlo.after hostOps2 V (Proc.devRef .tc main_v62)
      = (truncf .bf16 (StableHlo.after hostOps2 V (Proc.devRef .tc main_v61) : (⟨S20000x256, .f32⟩ : BufTy).Contents (Elt F)) bitsLt_bf16_f32
          : (⟨S20000x256, .bf16⟩ : BufTy).Contents (Elt F)) := by
  after_results_simp

set_option maxHeartbeats 400000 in
/-- The second product's right operand is layer 2's weight matrix in the short float format. -/
theorem hostOps2_v63 (V : Valuation τ sig (Elt F)) :
    StableHlo.after hostOps2 V (Proc.devRef .tc main_v63)
      = (truncf .bf16 (StableHlo.after hostOps2 V (Proc.devRef .tc main_arg9) : (⟨S256x256, .f32⟩ : BufTy).Contents (Elt F)) bitsLt_bf16_f32
          : (⟨S256x256, .bf16⟩ : BufTy).Contents (Elt F)) := by
  after_results_simp

set_option maxHeartbeats 400000 in
/-- The third product's left operand is layer 2's normalised output in the short float format. -/
theorem hostOps4_v96 (V : Valuation τ sig (Elt F)) :
    StableHlo.after hostOps4 V (Proc.devRef .tc main_v96)
      = (truncf .bf16 (StableHlo.after hostOps4 V (Proc.devRef .tc main_v95) : (⟨S20000x256, .f32⟩ : BufTy).Contents (Elt F)) bitsLt_bf16_f32
          : (⟨S20000x256, .bf16⟩ : BufTy).Contents (Elt F)) := by
  after_results_simp

set_option maxHeartbeats 400000 in
/-- The third product's right operand is layer 3's weight matrix in the short float format. -/
theorem hostOps4_v97 (V : Valuation τ sig (Elt F)) :
    StableHlo.after hostOps4 V (Proc.devRef .tc main_v97)
      = (truncf .bf16 (StableHlo.after hostOps4 V (Proc.devRef .tc main_arg13) : (⟨S256x256, .f32⟩ : BufTy).Contents (Elt F)) bitsLt_bf16_f32
          : (⟨S256x256, .bf16⟩ : BufTy).Contents (Elt F)) := by
  after_results_simp

/-! ## The per-channel vectors each normalisation reads, as one-row arrays -/

/-- Layer 1's column means as one row. -/
theorem hostOps1_2_v57 (V : Valuation τ sig (Elt F)) :
    StableHlo.after hostOps1_2 V (Proc.devRef .tc main_v57)
      = (shapeCast S1x256 (StableHlo.after hostOps1_2 V (Proc.devRef .tc main_v55) : (⟨S256, .f32⟩ : BufTy).Contents (Elt F)) shapeCasts_S256_S1x256
          : (⟨S1x256, .f32⟩ : BufTy).Contents (Elt F)) := by
  after_results_simp; rfl

/-- Layer 1's column variances as one row. -/
theorem hostOps1_2_v58 (V : Valuation τ sig (Elt F)) :
    StableHlo.after hostOps1_2 V (Proc.devRef .tc main_v58)
      = (shapeCast S1x256 (StableHlo.after hostOps1_2 V (Proc.devRef .tc main_v56) : (⟨S256, .f32⟩ : BufTy).Contents (Elt F)) shapeCasts_S256_S1x256
          : (⟨S1x256, .f32⟩ : BufTy).Contents (Elt F)) := by
  after_results_simp; rfl

/-- Layer 1's scale as one row. -/
theorem hostOps1_2_v59 (V : Valuation τ sig (Elt F)) :
    StableHlo.after hostOps1_2 V (Proc.devRef .tc main_v59)
      = (shapeCast S1x256 (StableHlo.after hostOps1_2 V (Proc.devRef .tc main_arg7) : (⟨S256, .f32⟩ : BufTy).Contents (Elt F)) shapeCasts_S256_S1x256
          : (⟨S1x256, .f32⟩ : BufTy).Contents (Elt F)) := by
  after_results_simp; rfl

/-- Layer 1's shift as one row. -/
theorem hostOps1_2_v60 (V : Valuation τ sig (Elt F)) :
    StableHlo.after hostOps1_2 V (Proc.devRef .tc main_v60)
      = (shapeCast S1x256 (StableHlo.after hostOps1_2 V (Proc.devRef .tc main_arg8) : (⟨S256, .f32⟩ : BufTy).Contents (Elt F)) shapeCasts_S256_S1x256
          : (⟨S1x256, .f32⟩ : BufTy).Contents (Elt F)) := by
  after_results_simp; rfl

/-- Layer 2's column means as one row. -/
theorem hostOps3_2_v91 (V : Valuation τ sig (Elt F)) :
    StableHlo.after hostOps3_2 V (Proc.devRef .tc main_v91)
      = (shapeCast S1x256 (StableHlo.after hostOps3_2 V (Proc.devRef .tc main_v89) : (⟨S256, .f32⟩ : BufTy).Contents (Elt F)) shapeCasts_S256_S1x256
          : (⟨S1x256, .f32⟩ : BufTy).Contents (Elt F)) := by
  after_results_simp; rfl

/-- Layer 2's column variances as one row. -/
theorem hostOps3_2_v92 (V : Valuation τ sig (Elt F)) :
    StableHlo.after hostOps3_2 V (Proc.devRef .tc main_v92)
      = (shapeCast S1x256 (StableHlo.after hostOps3_2 V (Proc.devRef .tc main_v90) : (⟨S256, .f32⟩ : BufTy).Contents (Elt F)) shapeCasts_S256_S1x256
          : (⟨S1x256, .f32⟩ : BufTy).Contents (Elt F)) := by
  after_results_simp; rfl

/-- Layer 2's scale as one row. -/
theorem hostOps3_2_v93 (V : Valuation τ sig (Elt F)) :
    StableHlo.after hostOps3_2 V (Proc.devRef .tc main_v93)
      = (shapeCast S1x256 (StableHlo.after hostOps3_2 V (Proc.devRef .tc main_arg11) : (⟨S256, .f32⟩ : BufTy).Contents (Elt F)) shapeCasts_S256_S1x256
          : (⟨S1x256, .f32⟩ : BufTy).Contents (Elt F)) := by
  after_results_simp; rfl

/-- Layer 2's shift as one row. -/
theorem hostOps3_2_v94 (V : Valuation τ sig (Elt F)) :
    StableHlo.after hostOps3_2 V (Proc.devRef .tc main_v94)
      = (shapeCast S1x256 (StableHlo.after hostOps3_2 V (Proc.devRef .tc main_arg12) : (⟨S256, .f32⟩ : BufTy).Contents (Elt F)) shapeCasts_S256_S1x256
          : (⟨S1x256, .f32⟩ : BufTy).Contents (Elt F)) := by
  after_results_simp; rfl

/-- Layer 3's column means as one row. -/
theorem hostOps5_2_v123 (V : Valuation τ sig (Elt F)) :
    StableHlo.after hostOps5_2 V (Proc.devRef .tc main_v123)
      = (shapeCast S1x256 (StableHlo.after hostOps5_2 V (Proc.devRef .tc main_v121) : (⟨S256, .f32⟩ : BufTy).Contents (Elt F)) shapeCasts_S256_S1x256
          : (⟨S1x256, .f32⟩ : BufTy).Contents (Elt F)) := by
  after_results_simp; rfl

/-- Layer 3's column variances as one row. -/
theorem hostOps5_2_v124 (V : Valuation τ sig (Elt F)) :
    StableHlo.after hostOps5_2 V (Proc.devRef .tc main_v124)
      = (shapeCast S1x256 (StableHlo.after hostOps5_2 V (Proc.devRef .tc main_v122) : (⟨S256, .f32⟩ : BufTy).Contents (Elt F)) shapeCasts_S256_S1x256
          : (⟨S1x256, .f32⟩ : BufTy).Contents (Elt F)) := by
  after_results_simp; rfl

/-- Layer 3's scale as one row. -/
theorem hostOps5_2_v125 (V : Valuation τ sig (Elt F)) :
    StableHlo.after hostOps5_2 V (Proc.devRef .tc main_v125)
      = (shapeCast S1x256 (StableHlo.after hostOps5_2 V (Proc.devRef .tc main_arg15) : (⟨S256, .f32⟩ : BufTy).Contents (Elt F)) shapeCasts_S256_S1x256
          : (⟨S1x256, .f32⟩ : BufTy).Contents (Elt F)) := by
  after_results_simp; rfl

/-- Layer 3's shift as one row. -/
theorem hostOps5_2_v126 (V : Valuation τ sig (Elt F)) :
    StableHlo.after hostOps5_2 V (Proc.devRef .tc main_v126)
      = (shapeCast S1x256 (StableHlo.after hostOps5_2 V (Proc.devRef .tc main_arg16) : (⟨S256, .f32⟩ : BufTy).Contents (Elt F)) shapeCasts_S256_S1x256
          : (⟨S1x256, .f32⟩ : BufTy).Contents (Elt F)) := by
  after_results_simp; rfl

end Cert.KernelIdeal.Ops

end
-- ==== Proof.MatmulSpec.lean ====
import Idealize.ShloMosaic.Lib.ValueIdx
import Idealize.ShloMosaic.Lib.KernelVsHost
import Idealize.ShloMosaic.PureOps.Ideal.Laws

/-!
# A matrix product at the ideal values, and its row blocks

The product of an n×k by a k×p matrix of extended reals is written once, entry by entry, as a sum over the
contracted coordinate. The host's `dot_general` (contracting axis 1 of the left operand with axis 0 of the
right one, no batch axes) and the matrix unit accumulating into a zero block are both that sum, and a block of
rows of the left matrix times the whole right matrix is the same block of rows of the product.
-/

noncomputable section

open Idealize.ShloMosaic
open Idealize.ShloMosaic.ValueIdx

namespace Cert.Proof.Matmul

/-- The product of an n×k by a k×p matrix of extended reals, entry by entry:
    entry (a, b) is the sum over c of x(a, c) · w(c, b). -/
def mm {n k p : Nat} {φ₁ φ₂ : FTy} (x : FVec Ideal ⟨2, ![n, k]⟩ φ₁) (w : FVec Ideal ⟨2, ![k, p]⟩ φ₂) :
    FVec Ideal ⟨2, ![n, p]⟩ .f32 :=
  fun i => ∑ c : Fin k, x (ix2 (i 0 : Fin n) c) * w (ix2 c (i 1 : Fin p))

theorem mm_apply {n k p : Nat} {φ₁ φ₂ : FTy} (x : FVec Ideal ⟨2, ![n, k]⟩ φ₁) (w : FVec Ideal ⟨2, ![k, p]⟩ φ₂)
    (a : Fin n) (b : Fin p) : mm x w (ix2 a b) = ∑ c : Fin k, x (ix2 a c) * w (ix2 c b) := rfl

/-- A `dot_general` that contracts axis 1 of the left operand with axis 0 of the right one, with no batch
    axes, is that product: at output index (a, b) and contraction position c its operand indices are (a, c)
    and (c, b). -/
theorem dotGeneral_eq_mm {n k p : Nat} {φ₁ φ₂ : FTy}
    (wf : DotDims.WF ⟨2, ![n, k]⟩ ⟨2, ![k, p]⟩ ⟨2, ![n, p]⟩ [1] [0] [0] [1] [] [])
    (prec : Option ContractPrecision) (A : FVec Ideal ⟨2, ![n, k]⟩ φ₁) (B : FVec Ideal ⟨2, ![k, p]⟩ φ₂) :
    Host.dotGeneral (F := Ideal) (⟨[1], [0], [0], [1], [], [], wf⟩ : DotDims _ _ _) prec A B = mm A B := by
  funext i
  obtain ⟨a, b, rfl⟩ : ∃ (a : Fin n) (b : Fin p), i = ix2 a b := ⟨i 0, i 1, eq_ix2 i⟩
  rw [mm_apply]
  show FloatOps.dotGeneral _ prec _ A B (ix2 a b) = _
  rw [Ideal.dotGeneral_apply,
    ← Equiv.sum_comp (contrEquiv1 (⟨[1], [0], [0], [1], [], [], wf⟩ : DotDims _ _ _) k rfl rfl).symm]
  refine Finset.sum_congr rfl fun c _ => ?_
  have c2 := contrEquiv1_symm_val
    (⟨[1], [0], [0], [1], [], [], wf⟩ : DotDims ⟨2, ![n, k]⟩ ⟨2, ![k, p]⟩ ⟨2, ![n, p]⟩) k rfl rfl c
  have l2 : (⟨[1], [0], [0], [1], [], [], wf⟩ : DotDims ⟨2, ![n, k]⟩ ⟨2, ![k, p]⟩ ⟨2, ![n, p]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], wf⟩ : DotDims ⟨2, ![n, k]⟩ ⟨2, ![k, p]⟩ ⟨2, ![n, p]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The matrix unit accumulating into a zero block gives the same product: 0 + s = s on the extended reals. -/
theorem matmul_zero_eq_mm {n k p : Nat} {φ₁ φ₂ : FTy}
    (wf : DotDims.WF ⟨2, ![n, k]⟩ ⟨2, ![k, p]⟩ ⟨2, ![n, p]⟩ [1] [0] [0] [1] [] [])
    (prec : Option ContractPrecision) (A : FVec Ideal ⟨2, ![n, k]⟩ φ₁) (B : FVec Ideal ⟨2, ![k, p]⟩ φ₂) :
    matmul (F := Ideal) (⟨[1], [0], [0], [1], [], [], wf⟩ : DotDims _ _ _) prec A B
        (constant (F := Ideal) ⟨2, ![n, p]⟩ .f32 0x00000000#32) = mm A B :=
  (matmul_zero_eq_dotGeneral _ prec A B).trans (dotGeneral_eq_mm wf prec A B)

/-- A change of float format does nothing to an extended real, so it does nothing to the product. -/
theorem mm_truncf {n k p : Nat} {φ₁ φ₂ ψ₁ ψ₂ : FTy} (x : FVec Ideal ⟨2, ![n, k]⟩ φ₁) (w : FVec Ideal ⟨2, ![k, p]⟩ φ₂)
    (h₁ : ψ₁.bits < φ₁.bits) (h₂ : ψ₂.bits < φ₂.bits) :
    mm (truncf (F := Ideal) ψ₁ x h₁) (truncf (F := Ideal) ψ₂ w h₂) = mm x w := rfl

/-- ROWS OF A PRODUCT. A block of `nb` rows of the left matrix, starting at row `q · nb`, times the whole
    right matrix, is the same block of rows of the product: entry (a, b) of the block product is entry
    (q · nb + a, b) of the whole one, because both sum x(q · nb + a, c) · w(c, b) over c. -/
theorem mm_rows {n nb k p : Nat} {φ₁ φ₂ : FTy} (X : FVec Ideal ⟨2, ![n, k]⟩ φ₁) (W : FVec Ideal ⟨2, ![k, p]⟩ φ₂)
    (xb : FVec Ideal ⟨2, ![nb, k]⟩ φ₁) (wb : FVec Ideal ⟨2, ![k, p]⟩ φ₂) (q : Nat)
    (hx : ∀ (a : Fin nb) (c : Fin k) (i : Fin n), i.val = q * nb + a.val → xb (ix2 a c) = X (ix2 i c))
    (hw : wb = W)
    (j : (⟨2, ![nb, p]⟩ : Shape).Idx) (i : (⟨2, ![n, p]⟩ : Shape).Idx)
    (h0 : (i 0).val = q * nb + (j 0).val) (h1 : (i 1).val = (j 1).val) :
    mm xb wb j = mm X W i := by
  obtain ⟨a, b, rfl⟩ : ∃ (a : Fin nb) (b : Fin p), j = ix2 a b := ⟨j 0, j 1, eq_ix2 j⟩
  obtain ⟨a', b', rfl⟩ : ∃ (a' : Fin n) (b' : Fin p), i = ix2 a' b' := ⟨i 0, i 1, eq_ix2 i⟩
  have hb : b' = b := Fin.ext h1
  subst hb hw
  rw [mm_apply, mm_apply]
  exact Finset.sum_congr rfl fun c _ => by rw [hx a c a' h0]

end Cert.Proof.Matmul

end
-- ==== Proof.MatmulValue0.lean ====
import proofs.«116345_j32049045962841_1_alg».proof.Proof.Gen.KernelIdeal.Frame
import proofs.«116345_j32049045962841_1_alg».proof.Proof.Gen.ReferenceIdeal
import proofs.«116345_j32049045962841_1_alg».proof.Proof.MatmulSpec
import Idealize.ShloMosaic.Lib.Pipeline.Value
import Idealize.ShloMosaic.Lib.ValueIdx

/-!
# The first matrix product: x [20000, 1280] times w [1280, 256]

The grid has ten points. Point t multiplies rows 2000 t … 2000 t + 1999 of x by the whole of w and writes the
result to the same rows of the output, so after the ten points the output is the product of the two arrays. The
two operand arrays are the f32 arguments with their float format changed to bf16, which changes no value at the
ideal values; the reference multiplies the f32 arguments directly, and the two products are one sum.
-/

noncomputable section

open Idealize.ShloMosaic Idealize.ShloMosaic.TcCoe Idealize.SL.Sem
open Idealize.ShloMosaic.Pipeline (Dat)
open Idealize.ShloMosaic.ValueIdx

namespace Cert.Proof.Matmul

namespace Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The two operand arrays as the region finds them, and their blocks at a point, at their literal types. -/
abbrev xarr (c : Dev nD) : FVec Ideal S20000x1280 .bf16 := V c main_v28
abbrev warr (c : Dev nD) : FVec Ideal S1280x256 .bf16 := V c main_v29
abbrev xblk (c : Dev nD) (t : Fin cfg0.N) : FVec Ideal S2000x1280 .bf16 := iblk0 V c 0 t
abbrev wblk (c : Dev nD) (t : Fin cfg0.N) : FVec Ideal S1280x256 .bf16 := iblk0 V c 1 t

/-- What a point stores is the product of its two blocks. -/
theorem pay_eq (xb : FVec Ideal S2000x1280 .bf16) (wb : FVec Ideal S1280x256 .bf16) :
    k0_pay1 (F := Ideal) xb wb = mm xb wb := by
  unfold k0_pay1
  simp only [shapeCast_self]
  exact matmul_zero_eq_mm dot_S2000x1280_S1280x256_S2000x256_1_0_0_1_n_n_wf none xb wb

/-- The index maps over the grid: point t takes row block t of x and of the output, and the whole w. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of x is rows 2000 t … 2000 t + 1999 of x. -/
theorem xblk_apply (c : Dev nD) (t : Fin cfg0.N) (a : Fin 2000) (k : Fin 1280) (i : Fin 20000)
    (hi : i.val = t.val * 2000 + a.val) : xblk V c t (ix2 a k) = xarr V c (ix2 i k) := by
  obtain ⟨e0, e1, -⟩ := idx_facts t
  unfold xblk xarr iblk0
  rw [View.read_apply]
  show V c main_v28 _ = V c main_v28 _
  refine congrArg _ (funext fun ax => Fin.ext ?_)
  match ax with
  | ⟨0, _⟩ => show win0_0.index t 0 * 2000 + 1 * a.val = i.val; rw [e0, hi]; omega
  | ⟨1, _⟩ => show win0_0.index t 1 * 1280 + 1 * k.val = k.val; rw [e1]; omega

/-- Point t's block of w is the whole of w. -/
theorem wblk_eq (c : Dev nD) (t : Fin cfg0.N) : wblk V c t = warr V c := by
  obtain ⟨-, -, e2, e3, -⟩ := idx_facts t
  funext j
  unfold wblk warr iblk0
  rw [View.read_apply]
  show V c main_v29 _ = V c main_v29 _
  refine congrArg _ (funext fun ax => Fin.ext ?_)
  match ax with
  | ⟨0, _⟩ => show win0_1.index t 0 * 1280 + 1 * (j 0).val = (j 0).val; rw [e2]; omega
  | ⟨1, _⟩ => show win0_1.index t 1 * 256 + 1 * (j 1).val = (j 1).val; rw [e3]; omega

/-- WHAT POINT t WRITES BACK is row block t of the product of the two arrays. -/
theorem flushed_eq (c : Dev nD) (t : Fin cfg0.N) :
    (dat0 V c).flushed 2 t = ((cfg0.win 2).blk t).view.read (Elt Ideal) (mm (xarr V c) (warr V c)) := by
  show (cfg0.win 2).cut (grid0.coords t) ((dat0 V c).after 2 t) = _
  rw [after0_2]
  unfold out0_2
  rw [View.canon_unit_zero hz]
  simp only [View.ld_unit_zero (S := S2000x1280) hz, View.ld_unit_zero (S := S1280x256) hz]
  rw [pay_eq]
  obtain ⟨-, -, -, -, e4, e5⟩ := idx_facts t
  funext j
  show mm (xblk V c t) (wblk V c t) j = mm (xarr V c) (warr V c) (((cfg0.win 2).blk t).view.emb j)
  refine mm_rows (n := 20000) (nb := 2000) (k := 1280) (p := 256) (xarr V c) (warr V c) (xblk V c t) (wblk V c t) t.val
    (fun a k i hi => xblk_apply V c t a k i hi) (wblk_eq V c t) j _ ?_ ?_
  · show win0_2.index t 0 * 2000 + 1 * (j 0).val = t.val * 2000 + (j 0).val; rw [e4]; omega
  · show win0_2.index t 1 * 256 + 1 * (j 1).val = (j 1).val; rw [e5]; omega

/-- An index of the output array is in point t's block iff its row is among rows 2000 t … 2000 t + 1999. -/
theorem mem_blk (t : Fin cfg0.N) (i : S20000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v30).slice (win0_2.rect t)).set ↔ _
  rw [View.set_slice_whole, Rect.mem_set_unit]
  exact Iff.rfl

/-- The ten row blocks cover the output: row r is in block r / 2000. -/
theorem cover (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  have hN : cfg0.N = 10 := N_0
  have ht : (i 0).val / 2000 < cfg0.N := by rw [hN]; omega
  obtain ⟨-, -, -, -, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ 0 * 2000 ≤ (i 0).val
      ∧ (i 0).val < win0_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ 1 * 256 ≤ (i 1).val
      ∧ (i 1).val < win0_2.index ⟨(i 0).val / 2000, ht⟩ 1 * 256 + 256
    rw [e5]; omega

/-- THE ARRAY after the region: the product of the two operand arrays. -/
theorem final (c : Dev nD) : (dat0 V c).arrAt 2 cfg0.N = mm (xarr V c) (warr V c) :=
  (dat0 V c).arrAt_eq_of_cover 2 (mm (xarr V c) (warr V c)) (fun t _ => flushed_eq V c t) cover

end Region0

open Cert.KernelIdeal in
/-- Region 0 leaves in its output array the reference's `dot_general` of the two f32 arguments: the operands are
    the arguments with their float format changed, which is no change of value. -/
theorem region0 (V : (c : Dev nD) → (b : Ref sig .tc) → Buf (Elt Ideal) ((c : Thread nD τ).loc b)) (c : Dev nD)
    (x0 : Vec Ideal S20000x1280 .f32) (w0 : Vec Ideal S1280x256 .f32)
    (xr : (⟨Cert.ReferenceIdeal.S20000x1280, .f32⟩ : BufTy).Contents (Elt Ideal))
    (wr : (⟨Cert.ReferenceIdeal.S1280x256, .f32⟩ : BufTy).Contents (Elt Ideal))
    (hx : V c main_v28 = (truncf .bf16 x0 Gen.bitsLt_bf16_f32 : FVec Ideal S20000x1280 .bf16))
    (hw : V c main_v29 = (truncf .bf16 w0 Gen.bitsLt_bf16_f32 : FVec Ideal S1280x256 .bf16))
    (hxr : HEq x0 xr) (hwr : HEq w0 wr) :
    HEq ((Gen.dat0 (F := Ideal) V c).arrAt 2 cfg0.N)
      (Host.dotGeneral (F := Ideal) (φ₁ := .f32) (φ₂ := .f32)
        Cert.ReferenceIdeal.dot_S20000x1280_S1280x256_S20000x256_1_0_0_1_n_n none xr wr) := by
  have ex : x0 = xr := eq_of_heq hxr
  have ew : w0 = wr := eq_of_heq hwr
  subst ex ew
  rw [Region0.final V c]
  refine heq_of_eq ?_
  unfold Region0.xarr Region0.warr
  rw [hx, hw]
  exact ((dotGeneral_eq_mm Cert.ReferenceIdeal.Facts₀.dot_S20000x1280_S1280x256_S20000x256_1_0_0_1_n_n_wf none x0 w0).trans
    (mm_truncf x0 w0 _ _).symm).symm

end Cert.Proof.Matmul

end
-- ==== Proof.MatmulValue2.lean ====
import proofs.«116345_j32049045962841_1_alg».proof.Proof.Gen.KernelIdeal.Frame
import proofs.«116345_j32049045962841_1_alg».proof.Proof.Gen.ReferenceIdeal
import proofs.«116345_j32049045962841_1_alg».proof.Proof.MatmulSpec
import Idealize.ShloMosaic.Lib.Pipeline.Value
import Idealize.ShloMosaic.Lib.ValueIdx

/-!
# The second matrix product: x [20000, 256] times w [256, 256]

The grid has ten points. Point t multiplies rows 2000 t … 2000 t + 1999 of x by the whole of w and writes the
result to the same rows of the output, so after the ten points the output is the product of the two arrays. The
two operand arrays are f32 arrays with their float format changed to bf16, which changes no value at the ideal
values; the reference multiplies the f32 arrays directly, and the two products are one sum.
-/

noncomputable section

open Idealize.ShloMosaic Idealize.ShloMosaic.TcCoe Idealize.SL.Sem
open Idealize.ShloMosaic.Pipeline (Dat)
open Idealize.ShloMosaic.ValueIdx

namespace Cert.Proof.Matmul

namespace Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The two operand arrays as the region finds them, and their blocks at a point, at their literal types. -/
abbrev xarr (c : Dev nD) : FVec Ideal S20000x256 .bf16 := V c main_v62
abbrev warr (c : Dev nD) : FVec Ideal S256x256 .bf16 := V c main_v63
abbrev xblk (c : Dev nD) (t : Fin cfg2.N) : FVec Ideal S2000x256 .bf16 := iblk2 V c 0 t
abbrev wblk (c : Dev nD) (t : Fin cfg2.N) : FVec Ideal S256x256 .bf16 := iblk2 V c 1 t

/-- What a point stores is the product of its two blocks. -/
theorem pay_eq (xb : FVec Ideal S2000x256 .bf16) (wb : FVec Ideal S256x256 .bf16) :
    k2_pay1 (F := Ideal) xb wb = mm xb wb := by
  unfold k2_pay1
  simp only [shapeCast_self]
  exact matmul_zero_eq_mm dot_S2000x256_S256x256_S2000x256_1_0_0_1_n_n_wf none xb wb

/-- The index maps over the grid: point t takes row block t of x and of the output, and the whole w. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point t's block of x is rows 2000 t … 2000 t + 1999 of x. -/
theorem xblk_apply (c : Dev nD) (t : Fin cfg2.N) (a : Fin 2000) (k : Fin 256) (i : Fin 20000)
    (hi : i.val = t.val * 2000 + a.val) : xblk V c t (ix2 a k) = xarr V c (ix2 i k) := by
  obtain ⟨e0, e1, -⟩ := idx_facts t
  unfold xblk xarr iblk2
  rw [View.read_apply]
  show V c main_v62 _ = V c main_v62 _
  refine congrArg _ (funext fun ax => Fin.ext ?_)
  match ax with
  | ⟨0, _⟩ => show win2_0.index t 0 * 2000 + 1 * a.val = i.val; rw [e0, hi]; omega
  | ⟨1, _⟩ => show win2_0.index t 1 * 256 + 1 * k.val = k.val; rw [e1]; omega

/-- Point t's block of w is the whole of w. -/
theorem wblk_eq (c : Dev nD) (t : Fin cfg2.N) : wblk V c t = warr V c := by
  obtain ⟨-, -, e2, e3, -⟩ := idx_facts t
  funext j
  unfold wblk warr iblk2
  rw [View.read_apply]
  show V c main_v63 _ = V c main_v63 _
  refine congrArg _ (funext fun ax => Fin.ext ?_)
  match ax with
  | ⟨0, _⟩ => show win2_1.index t 0 * 256 + 1 * (j 0).val = (j 0).val; rw [e2]; omega
  | ⟨1, _⟩ => show win2_1.index t 1 * 256 + 1 * (j 1).val = (j 1).val; rw [e3]; omega

/-- WHAT POINT t WRITES BACK is row block t of the product of the two arrays. -/
theorem flushed_eq (c : Dev nD) (t : Fin cfg2.N) :
    (dat2 V c).flushed 2 t = ((cfg2.win 2).blk t).view.read (Elt Ideal) (mm (xarr V c) (warr V c)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x256) hz]
  rw [pay_eq]
  obtain ⟨-, -, -, -, e4, e5⟩ := idx_facts t
  funext j
  show mm (xblk V c t) (wblk V c t) j = mm (xarr V c) (warr V c) (((cfg2.win 2).blk t).view.emb j)
  refine mm_rows (n := 20000) (nb := 2000) (k := 256) (p := 256) (xarr V c) (warr V c) (xblk V c t) (wblk V c t) t.val
    (fun a k i hi => xblk_apply V c t a k i hi) (wblk_eq V c t) j _ ?_ ?_
  · show win2_2.index t 0 * 2000 + 1 * (j 0).val = t.val * 2000 + (j 0).val; rw [e4]; omega
  · show win2_2.index t 1 * 256 + 1 * (j 1).val = (j 1).val; rw [e5]; omega

/-- An index of the output array is in point t's block iff its row is among rows 2000 t … 2000 t + 1999. -/
theorem mem_blk (t : Fin cfg2.N) (i : S20000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v64).slice (win2_2.rect t)).set ↔ _
  rw [View.set_slice_whole, Rect.mem_set_unit]
  exact Iff.rfl

/-- The ten row blocks cover the output: row r is in block r / 2000. -/
theorem cover (i : S20000x256.Idx) :
    ∃ t : Fin cfg2.N, (cfg2.win 2).flush t = true ∧ i ∈ ((cfg2.win 2).blk t).view.set := by
  have hi0 : (i 0).val < 20000 := (i 0).isLt
  have hi1 : (i 1).val < 256 := (i 1).isLt
  have hN : cfg2.N = 10 := N_2
  have ht : (i 0).val / 2000 < cfg2.N := by rw [hN]; omega
  obtain ⟨-, -, -, -, e4, e5⟩ := idx_facts ⟨(i 0).val / 2000, ht⟩
  refine ⟨⟨(i 0).val / 2000, ht⟩, flush2_2 _, ?_⟩
  rw [mem_blk]
  intro a
  match a with
  | ⟨0, _⟩ =>
    show win2_2.index ⟨(i 0).val / 2000, ht⟩ 0 * 2000 ≤ (i 0).val
      ∧ (i 0).val < win2_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ 1 * 256 ≤ (i 1).val
      ∧ (i 1).val < win2_2.index ⟨(i 0).val / 2000, ht⟩ 1 * 256 + 256
    rw [e5]; omega

/-- THE ARRAY after the region: the product of the two operand arrays. -/
theorem final (c : Dev nD) : (dat2 V c).arrAt 2 cfg2.N = mm (xarr V c) (warr V c) :=
  (dat2 V c).arrAt_eq_of_cover 2 (mm (xarr V c) (warr V c)) (fun t _ => flushed_eq V c t) cover

end Region2

open Cert.KernelIdeal in
/-- Region 2 leaves in its output array the reference's `dot_general` of the two f32 arrays: the operands are
    those arrays with their float format changed, which is no change of value. -/
theorem region2 (V : (c : Dev nD) → (b : Ref sig .tc) → Buf (Elt Ideal) ((c : Thread nD τ).loc b)) (c : Dev nD)
    (x0 : Vec Ideal S20000x256 .f32) (w0 : Vec Ideal S256x256 .f32)
    (xr : (⟨Cert.ReferenceIdeal.S20000x256, .f32⟩ : BufTy).Contents (Elt Ideal))
    (wr : (⟨Cert.ReferenceIdeal.S256x256, .f32⟩ : BufTy).Contents (Elt Ideal))
    (hx : V c main_v62 = (truncf .bf16 x0 Gen.bitsLt_bf16_f32 : FVec Ideal S20000x256 .bf16))
    (hw : V c main_v63 = (truncf .bf16 w0 Gen.bitsLt_bf16_f32 : FVec Ideal S256x256 .bf16))
    (hxr : HEq x0 xr) (hwr : HEq w0 wr) :
    HEq ((Gen.dat2 (F := Ideal) V c).arrAt 2 cfg2.N)
      (Host.dotGeneral (F := Ideal) (φ₁ := .f32) (φ₂ := .f32)
        Cert.ReferenceIdeal.dot_S20000x256_S256x256_S20000x256_1_0_0_1_n_n none xr wr) := by
  have ex : x0 = xr := eq_of_heq hxr
  have ew : w0 = wr := eq_of_heq hwr
  subst ex ew
  rw [Region2.final V c]
  refine heq_of_eq ?_
  unfold Region2.xarr Region2.warr
  rw [hx, hw]
  exact ((dotGeneral_eq_mm Cert.ReferenceIdeal.Facts₀.dot_S20000x256_S256x256_S20000x256_1_0_0_1_n_n_wf none x0 w0).trans
    (mm_truncf x0 w0 _ _).symm).symm

end Cert.Proof.Matmul

end
-- ==== Proof.MatmulValue4.lean ====
import proofs.«116345_j32049045962841_1_alg».proof.Proof.Gen.KernelIdeal.Frame
import proofs.«116345_j32049045962841_1_alg».proof.Proof.Gen.ReferenceIdeal
import proofs.«116345_j32049045962841_1_alg».proof.Proof.MatmulSpec
import Idealize.ShloMosaic.Lib.Pipeline.Value
import Idealize.ShloMosaic.Lib.ValueIdx

/-!
# The third matrix product: x [20000, 256] times w [256, 256]

The grid has ten points. Point t multiplies rows 2000 t … 2000 t + 1999 of x by the whole of w and writes the
result to the same rows of the output, so after the ten points the output is the product of the two arrays. The
two operand arrays are f32 arrays with their float format changed to bf16, which changes no value at the ideal
values; the reference multiplies the f32 arrays directly, and the two products are one sum.
-/

noncomputable section

open Idealize.ShloMosaic Idealize.ShloMosaic.TcCoe Idealize.SL.Sem
open Idealize.ShloMosaic.Pipeline (Dat)
open Idealize.ShloMosaic.ValueIdx

namespace Cert.Proof.Matmul

namespace Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The two operand arrays as the region finds them, and their blocks at a point, at their literal types. -/
abbrev xarr (c : Dev nD) : FVec Ideal S20000x256 .bf16 := V c main_v96
abbrev warr (c : Dev nD) : FVec Ideal S256x256 .bf16 := V c main_v97
abbrev xblk (c : Dev nD) (t : Fin cfg4.N) : FVec Ideal S2000x256 .bf16 := iblk4 V c 0 t
abbrev wblk (c : Dev nD) (t : Fin cfg4.N) : FVec Ideal S256x256 .bf16 := iblk4 V c 1 t

/-- What a point stores is the product of its two blocks. -/
theorem pay_eq (xb : FVec Ideal S2000x256 .bf16) (wb : FVec Ideal S256x256 .bf16) :
    k4_pay1 (F := Ideal) xb wb = mm xb wb := by
  unfold k4_pay1
  simp only [shapeCast_self]
  exact matmul_zero_eq_mm dot_S2000x256_S256x256_S2000x256_1_0_0_1_n_n_wf none xb wb

/-- The index maps over the grid: point t takes row block t of x and of the output, and the whole w. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Point t's block of x is rows 2000 t … 2000 t + 1999 of x. -/
theorem xblk_apply (c : Dev nD) (t : Fin cfg4.N) (a : Fin 2000) (k : Fin 256) (i : Fin 20000)
    (hi : i.val = t.val * 2000 + a.val) : xblk V c t (ix2 a k) = xarr V c (ix2 i k) := by
  obtain ⟨e0, e1, -⟩ := idx_facts t
  unfold xblk xarr iblk4
  rw [View.read_apply]
  show V c main_v96 _ = V c main_v96 _
  refine congrArg _ (funext fun ax => Fin.ext ?_)
  match ax with
  | ⟨0, _⟩ => show win4_0.index t 0 * 2000 + 1 * a.val = i.val; rw [e0, hi]; omega
  | ⟨1, _⟩ => show win4_0.index t 1 * 256 + 1 * k.val = k.val; rw [e1]; omega

/-- Point t's block of w is the whole of w. -/
theorem wblk_eq (c : Dev nD) (t : Fin cfg4.N) : wblk V c t = warr V c := by
  obtain ⟨-, -, e2, e3, -⟩ := idx_facts t
  funext j
  unfold wblk warr iblk4
  rw [View.read_apply]
  show V c main_v97 _ = V c main_v97 _
  refine congrArg _ (funext fun ax => Fin.ext ?_)
  match ax with
  | ⟨0, _⟩ => show win4_1.index t 0 * 256 + 1 * (j 0).val = (j 0).val; rw [e2]; omega
  | ⟨1, _⟩ => show win4_1.index t 1 * 256 + 1 * (j 1).val = (j 1).val; rw [e3]; omega

/-- WHAT POINT t WRITES BACK is row block t of the product of the two arrays. -/
theorem flushed_eq (c : Dev nD) (t : Fin cfg4.N) :
    (dat4 V c).flushed 2 t = ((cfg4.win 2).blk t).view.read (Elt Ideal) (mm (xarr V c) (warr V c)) := by
  show (cfg4.win 2).cut (grid4.coords t) ((dat4 V c).after 2 t) = _
  rw [after4_2]
  unfold out4_2
  rw [View.canon_unit_zero hz]
  simp only [View.ld_unit_zero (S := S2000x256) hz, View.ld_unit_zero (S := S256x256) hz]
  rw [pay_eq]
  obtain ⟨-, -, -, -, e4, e5⟩ := idx_facts t
  funext j
  show mm (xblk V c t) (wblk V c t) j = mm (xarr V c) (warr V c) (((cfg4.win 2).blk t).view.emb j)
  refine mm_rows (n := 20000) (nb := 2000) (k := 256) (p := 256) (xarr V c) (warr V c) (xblk V c t) (wblk V c t) t.val
    (fun a k i hi => xblk_apply V c t a k i hi) (wblk_eq V c t) j _ ?_ ?_
  · show win4_2.index t 0 * 2000 + 1 * (j 0).val = t.val * 2000 + (j 0).val; rw [e4]; omega
  · show win4_2.index t 1 * 256 + 1 * (j 1).val = (j 1).val; rw [e5]; omega

/-- An index of the output array is in point t's block iff its row is among rows 2000 t … 2000 t + 1999. -/
theorem mem_blk (t : Fin cfg4.N) (i : S20000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v98).slice (win4_2.rect t)).set ↔ _
  rw [View.set_slice_whole, Rect.mem_set_unit]
  exact Iff.rfl

/-- The ten row blocks cover the output: row r is in block r / 2000. -/
theorem cover (i : S20000x256.Idx) :
    ∃ t : Fin cfg4.N, (cfg4.win 2).flush t = true ∧ i ∈ ((cfg4.win 2).blk t).view.set := by
  have hi0 : (i 0).val < 20000 := (i 0).isLt
  have hi1 : (i 1).val < 256 := (i 1).isLt
  have hN : cfg4.N = 10 := N_4
  have ht : (i 0).val / 2000 < cfg4.N := by rw [hN]; omega
  obtain ⟨-, -, -, -, e4, e5⟩ := idx_facts ⟨(i 0).val / 2000, ht⟩
  refine ⟨⟨(i 0).val / 2000, ht⟩, flush4_2 _, ?_⟩
  rw [mem_blk]
  intro a
  match a with
  | ⟨0, _⟩ =>
    show win4_2.index ⟨(i 0).val / 2000, ht⟩ 0 * 2000 ≤ (i 0).val
      ∧ (i 0).val < win4_2.index ⟨(i 0).val / 2000, ht⟩ 0 * 2000 + 2000
    rw [e4]; show (i 0).val / 2000 * 2000 ≤ (i 0).val ∧ (i 0).val < (i 0).val / 2000 * 2000 + 2000; omega
  | ⟨1, _⟩ =>
    show win4_2.index ⟨(i 0).val / 2000, ht⟩ 1 * 256 ≤ (i 1).val
      ∧ (i 1).val < win4_2.index ⟨(i 0).val / 2000, ht⟩ 1 * 256 + 256
    rw [e5]; omega

/-- THE ARRAY after the region: the product of the two operand arrays. -/
theorem final (c : Dev nD) : (dat4 V c).arrAt 2 cfg4.N = mm (xarr V c) (warr V c) :=
  (dat4 V c).arrAt_eq_of_cover 2 (mm (xarr V c) (warr V c)) (fun t _ => flushed_eq V c t) cover

end Region4

open Cert.KernelIdeal in
/-- Region 4 leaves in its output array the reference's `dot_general` of the two f32 arrays: the operands are
    those arrays with their float format changed, which is no change of value. -/
theorem region4 (V : (c : Dev nD) → (b : Ref sig .tc) → Buf (Elt Ideal) ((c : Thread nD τ).loc b)) (c : Dev nD)
    (x0 : Vec Ideal S20000x256 .f32) (w0 : Vec Ideal S256x256 .f32)
    (xr : (⟨Cert.ReferenceIdeal.S20000x256, .f32⟩ : BufTy).Contents (Elt Ideal))
    (wr : (⟨Cert.ReferenceIdeal.S256x256, .f32⟩ : BufTy).Contents (Elt Ideal))
    (hx : V c main_v96 = (truncf .bf16 x0 Gen.bitsLt_bf16_f32 : FVec Ideal S20000x256 .bf16))
    (hw : V c main_v97 = (truncf .bf16 w0 Gen.bitsLt_bf16_f32 : FVec Ideal S256x256 .bf16))
    (hxr : HEq x0 xr) (hwr : HEq w0 wr) :
    HEq ((Gen.dat4 (F := Ideal) V c).arrAt 2 cfg4.N)
      (Host.dotGeneral (F := Ideal) (φ₁ := .f32) (φ₂ := .f32)
        Cert.ReferenceIdeal.dot_S20000x256_S256x256_S20000x256_1_0_0_1_n_n none xr wr) := by
  have ex : x0 = xr := eq_of_heq hxr
  have ew : w0 = wr := eq_of_heq hwr
  subst ex ew
  rw [Region4.final V c]
  refine heq_of_eq ?_
  unfold Region4.xarr Region4.warr
  rw [hx, hw]
  exact ((dotGeneral_eq_mm Cert.ReferenceIdeal.Facts₀.dot_S20000x256_S256x256_S20000x256_1_0_0_1_n_n_wf none x0 w0).trans
    (mm_truncf x0 w0 _ _).symm).symm

end Cert.Proof.Matmul

end
-- ==== Proof.GlueMatmul.lean ====
import proofs.«116345_j32049045962841_1_alg».proof.Proof.Gen.KernelIdeal.Frame
import proofs.«116345_j32049045962841_1_alg».proof.Proof.Gen.ReferenceIdeal
import proofs.«116345_j32049045962841_1_alg».proof.Proof.LibAgreeMore
import proofs.«116345_j32049045962841_1_alg».proof.Proof.Pairs
import proofs.«116345_j32049045962841_1_alg».proof.Proof.KFacts
import proofs.«116345_j32049045962841_1_alg».proof.Proof.RFacts
import proofs.«116345_j32049045962841_1_alg».proof.Proof.MatmulValue0
import proofs.«116345_j32049045962841_1_alg».proof.Proof.MatmulValue2
import proofs.«116345_j32049045962841_1_alg».proof.Proof.MatmulValue4

/-!
# The three matrix products carried across: the two programs still agree after each

The kernel's program computes each layer's product x · w in a pipeline region, on operands whose float format it
changed first; the reference computes it with one `dot_general` on the operands themselves. Where the two programs
hold the same x and the same w before the product, they hold the same product after it, and every other pair of
buffers that agreed before still agrees: the region writes only its own three arrays, the format changes and the
`dot_general` only their result buffers, and none of these is a buffer of a pair carried along.
-/

noncomputable section

namespace Cert.Proof.Glue

open Idealize.ShloMosaic Idealize.ShloMosaic.TcCoe Idealize.SL.Sem Idealize.ShloMosaic.StableHlo
open Cert.Proof.Lockstep (Pbase Pargs)

variable (m : (ℓ : Loc KernelIdeal.nD KernelIdeal.τ KernelIdeal.sig) → Buf (Elt Ideal) ℓ)
  (ρ : Dev KernelIdeal.nD → PrngReg) (c : Dev KernelIdeal.nD)

/-! ## The first product: x and w are arguments of both programs -/

/-- No pair carried along names one of the first product's three arrays. -/
theorem hne0 : ∀ p ∈ Pbase, ∀ w, Pipeline.arrRef KernelIdeal.spec0 w ≠ p.1 := by
  iterate 25 (refine List.forall_mem_cons.mpr ⟨by decide, ?_⟩)
  exact fun _ h => absurd h List.not_mem_nil

/-- The region's output array holds the reference's product. -/
theorem new0 (VR : Valuation ReferenceIdeal.τ ReferenceIdeal.sig (Elt Ideal))
    (h5 : VR (Proc.devRef .tc ReferenceIdeal.main_v5)
      = (Host.dotGeneral (F := Ideal) (φ₁ := .f32) (φ₂ := .f32) ReferenceIdeal.dot_S20000x1280_S1280x256_S20000x256_1_0_0_1_n_n none
          (VR (Proc.devRef .tc ReferenceIdeal.main_arg0)) (VR (Proc.devRef .tc ReferenceIdeal.main_arg5))
          : (⟨ReferenceIdeal.S20000x256, .f32⟩ : BufTy).Contents (Elt Ideal)))
    (hA : Agree Pbase (KernelIdeal.Gen.W1 m ρ c) VR) :
    HEq (KernelIdeal.Gen.W2 m ρ c (Proc.devRef .tc KernelIdeal.main_v30)) (VR (Proc.devRef .tc ReferenceIdeal.main_v5)) := by
  have e : KernelIdeal.Gen.W2 m ρ c (Proc.devRef .tc KernelIdeal.main_v30)
      = (KernelIdeal.Gen.dat0 (KernelIdeal.Gen.V1 m ρ) c).arrAt 2 KernelIdeal.cfg0.N := KernelIdeal.Gen.W2_arr m ρ c 2
  rw [e, h5]
  have hx := KernelIdeal.Ops.hostOps0_v28 (F := Ideal) (KernelIdeal.Gen.W0 m ρ c)
  have hw := KernelIdeal.Ops.hostOps0_v29 (F := Ideal) (KernelIdeal.Gen.W0 m ρ c)
  have hxr : HEq (KernelIdeal.Gen.W1 m ρ c (Proc.devRef .tc KernelIdeal.main_arg0)) (VR (Proc.devRef .tc ReferenceIdeal.main_arg0)) :=
    hA.get (by pair_mem)
  have hwr : HEq (KernelIdeal.Gen.W1 m ρ c (Proc.devRef .tc KernelIdeal.main_arg5)) (VR (Proc.devRef .tc ReferenceIdeal.main_arg5)) :=
    hA.get (by pair_mem)
  exact Matmul.region0 (KernelIdeal.Gen.V1 m ρ) c
    (KernelIdeal.Gen.W1 m ρ c (Proc.devRef .tc KernelIdeal.main_arg0)) (KernelIdeal.Gen.W1 m ρ c (Proc.devRef .tc KernelIdeal.main_arg5))
    (VR (Proc.devRef .tc ReferenceIdeal.main_arg0)) (VR (Proc.devRef .tc ReferenceIdeal.main_arg5)) hx hw hxr hwr

/-- After the first product the two programs agree on the product and on everything they agreed on before. -/
theorem mm0 (VR : Valuation ReferenceIdeal.τ ReferenceIdeal.sig (Elt Ideal))
    (h5 : VR (Proc.devRef .tc ReferenceIdeal.main_v5)
      = (Host.dotGeneral (F := Ideal) (φ₁ := .f32) (φ₂ := .f32) ReferenceIdeal.dot_S20000x1280_S1280x256_S20000x256_1_0_0_1_n_n none
          (VR (Proc.devRef .tc ReferenceIdeal.main_arg0)) (VR (Proc.devRef .tc ReferenceIdeal.main_arg5))
          : (⟨ReferenceIdeal.S20000x256, .f32⟩ : BufTy).Contents (Elt Ideal)))
    (hA : Agree Pbase (KernelIdeal.Gen.W1 m ρ c) VR) :
    Agree ((KernelIdeal.main_v30, ReferenceIdeal.main_v5) :: Pbase) (KernelIdeal.Gen.W2 m ρ c) VR := by
  refine Agree.add ?_ (new0 m ρ c VR h5 hA)
  unfold KernelIdeal.Gen.W2
  exact Agree.region KernelIdeal.spec0 c _ hA hne0

/-! ## The second product: x is layer 1's normalised output, w an argument -/

/-- The pairs carried across the second product. -/
abbrev P2 : List (Ref KernelIdeal.sig .tc × Ref ReferenceIdeal.sig .tc) := (KernelIdeal.main_v61, ReferenceIdeal.main_v68) :: Pbase

/-- None of them names one of the second product's three arrays. -/
theorem hne2 : ∀ p ∈ P2, ∀ w, Pipeline.arrRef KernelIdeal.spec2 w ≠ p.1 := by
  iterate 26 (refine List.forall_mem_cons.mpr ⟨by decide, ?_⟩)
  exact fun _ h => absurd h List.not_mem_nil

set_option maxHeartbeats 4000000 in
/-- The kernel's program changes the float format of x and of w; the reference has no such step. -/
theorem fmt2 : Sim (τ := KernelIdeal.τ) (Val := Elt Ideal) P2 (KernelIdeal.Gen.hostOps2 (F := Ideal))
    ([] : List (HloOp ReferenceIdeal.τ ReferenceIdeal.sig (Elt Ideal))) P2 := by
  sim_skipL
  sim_skipL
  exact Sim.done (List.Subset.refl _)

set_option maxHeartbeats 4000000 in
/-- The reference's one `dot_general`; the kernel's program has no such step. -/
theorem dot2 : Sim (τ := KernelIdeal.τ) (Val := Elt Ideal) P2 ([] : List (HloOp KernelIdeal.τ KernelIdeal.sig (Elt Ideal)))
    (ReferenceIdeal.Run.r69 (F := Ideal)) P2 := by
  sim_skipR
  exact Sim.done (List.Subset.refl _)

/-- The region's output array holds the reference's product. -/
theorem new2 (VR : Valuation ReferenceIdeal.τ ReferenceIdeal.sig (Elt Ideal))
    (h7 : Agree P2 (KernelIdeal.Gen.W7 m ρ c) VR) :
    HEq (KernelIdeal.Gen.W8 m ρ c (Proc.devRef .tc KernelIdeal.main_v64))
      (StableHlo.after (ReferenceIdeal.Run.r69 (F := Ideal)) VR (Proc.devRef .tc ReferenceIdeal.main_v69)) := by
  have e : KernelIdeal.Gen.W8 m ρ c (Proc.devRef .tc KernelIdeal.main_v64)
      = (KernelIdeal.Gen.dat2 (KernelIdeal.Gen.V7 m ρ) c).arrAt 2 KernelIdeal.cfg2.N := KernelIdeal.Gen.W8_arr m ρ c 2
  rw [e, ReferenceIdeal.Run.r69_value (F := Ideal) VR]
  have hx := KernelIdeal.Ops.hostOps2_v62 (F := Ideal) (KernelIdeal.Gen.W6 m ρ c)
  have hw := KernelIdeal.Ops.hostOps2_v63 (F := Ideal) (KernelIdeal.Gen.W6 m ρ c)
  have hxr : HEq (KernelIdeal.Gen.W7 m ρ c (Proc.devRef .tc KernelIdeal.main_v61)) (VR (Proc.devRef .tc ReferenceIdeal.main_v68)) :=
    h7.get (by pair_mem)
  have hwr : HEq (KernelIdeal.Gen.W7 m ρ c (Proc.devRef .tc KernelIdeal.main_arg9)) (VR (Proc.devRef .tc ReferenceIdeal.main_arg9)) :=
    h7.get (by pair_mem)
  exact Matmul.region2 (KernelIdeal.Gen.V7 m ρ) c
    (KernelIdeal.Gen.W7 m ρ c (Proc.devRef .tc KernelIdeal.main_v61)) (KernelIdeal.Gen.W7 m ρ c (Proc.devRef .tc KernelIdeal.main_arg9))
    (VR (Proc.devRef .tc ReferenceIdeal.main_v68)) (VR (Proc.devRef .tc ReferenceIdeal.main_arg9)) hx hw hxr hwr

/-- After the second product the two programs agree on the product and on what every layer takes from the start. -/
theorem mm2 (VR : Valuation ReferenceIdeal.τ ReferenceIdeal.sig (Elt Ideal))
    (hA : Agree ((KernelIdeal.main_v61, ReferenceIdeal.main_v68) :: Pbase) (KernelIdeal.Gen.W6 m ρ c) VR) :
    Agree ((KernelIdeal.main_v64, ReferenceIdeal.main_v69) :: Pbase) (KernelIdeal.Gen.W8 m ρ c)
      (StableHlo.after (ReferenceIdeal.Run.r69 (F := Ideal)) VR) := by
  have h7 : Agree P2 (KernelIdeal.Gen.W7 m ρ c) VR := fmt2 _ _ hA
  have h8 : Agree P2 (KernelIdeal.Gen.W8 m ρ c) VR := by
    unfold KernelIdeal.Gen.W8
    exact Agree.region KernelIdeal.spec2 c _ h7 hne2
  have h9 : Agree P2 (KernelIdeal.Gen.W8 m ρ c) (StableHlo.after (ReferenceIdeal.Run.r69 (F := Ideal)) VR) := dot2 _ _ h8
  exact (Agree.add h9 (new2 m ρ c VR h7)).mono (by pairs_sub)

/-! ## The third product: x is layer 2's normalised output, w an argument -/

/-- The pairs carried across the third product. -/
abbrev P4 : List (Ref KernelIdeal.sig .tc × Ref ReferenceIdeal.sig .tc) := (KernelIdeal.main_v95, ReferenceIdeal.main_v132) :: Pbase

/-- None of them names one of the third product's three arrays. -/
theorem hne4 : ∀ p ∈ P4, ∀ w, Pipeline.arrRef KernelIdeal.spec4 w ≠ p.1 := by
  iterate 26 (refine List.forall_mem_cons.mpr ⟨by decide, ?_⟩)
  exact fun _ h => absurd h List.not_mem_nil

set_option maxHeartbeats 4000000 in
/-- The kernel's program changes the float format of x and of w; the reference has no such step. -/
theorem fmt4 : Sim (τ := KernelIdeal.τ) (Val := Elt Ideal) P4 (KernelIdeal.Gen.hostOps4 (F := Ideal))
    ([] : List (HloOp ReferenceIdeal.τ ReferenceIdeal.sig (Elt Ideal))) P4 := by
  sim_skipL
  sim_skipL
  exact Sim.done (List.Subset.refl _)

set_option maxHeartbeats 4000000 in
/-- The reference's one `dot_general`; the kernel's program has no such step. -/
theorem dot4 : Sim (τ := KernelIdeal.τ) (Val := Elt Ideal) P4 ([] : List (HloOp KernelIdeal.τ KernelIdeal.sig (Elt Ideal)))
    (ReferenceIdeal.Run.r133 (F := Ideal)) P4 := by
  sim_skipR
  exact Sim.done (List.Subset.refl _)

/-- The region's output array holds the reference's product. -/
theorem new4 (VR : Valuation ReferenceIdeal.τ ReferenceIdeal.sig (Elt Ideal))
    (h13 : Agree P4 (KernelIdeal.Gen.W13 m ρ c) VR) :
    HEq (KernelIdeal.Gen.W14 m ρ c (Proc.devRef .tc KernelIdeal.main_v98))
      (StableHlo.after (ReferenceIdeal.Run.r133 (F := Ideal)) VR (Proc.devRef .tc ReferenceIdeal.main_v133)) := by
  have e : KernelIdeal.Gen.W14 m ρ c (Proc.devRef .tc KernelIdeal.main_v98)
      = (KernelIdeal.Gen.dat4 (KernelIdeal.Gen.V13 m ρ) c).arrAt 2 KernelIdeal.cfg4.N := KernelIdeal.Gen.W14_arr m ρ c 2
  rw [e, ReferenceIdeal.Run.r133_value (F := Ideal) VR]
  have hx := KernelIdeal.Ops.hostOps4_v96 (F := Ideal) (KernelIdeal.Gen.W12 m ρ c)
  have hw := KernelIdeal.Ops.hostOps4_v97 (F := Ideal) (KernelIdeal.Gen.W12 m ρ c)
  have hxr : HEq (KernelIdeal.Gen.W13 m ρ c (Proc.devRef .tc KernelIdeal.main_v95)) (VR (Proc.devRef .tc ReferenceIdeal.main_v132)) :=
    h13.get (by pair_mem)
  have hwr : HEq (KernelIdeal.Gen.W13 m ρ c (Proc.devRef .tc KernelIdeal.main_arg13)) (VR (Proc.devRef .tc ReferenceIdeal.main_arg13)) :=
    h13.get (by pair_mem)
  exact Matmul.region4 (KernelIdeal.Gen.V13 m ρ) c
    (KernelIdeal.Gen.W13 m ρ c (Proc.devRef .tc KernelIdeal.main_v95)) (KernelIdeal.Gen.W13 m ρ c (Proc.devRef .tc KernelIdeal.main_arg13))
    (VR (Proc.devRef .tc ReferenceIdeal.main_v132)) (VR (Proc.devRef .tc ReferenceIdeal.main_arg13)) hx hw hxr hwr

/-- After the third product the two programs agree on the product and on what every layer takes from the start. -/
theorem mm4 (VR : Valuation ReferenceIdeal.τ ReferenceIdeal.sig (Elt Ideal))
    (hA : Agree ((KernelIdeal.main_v95, ReferenceIdeal.main_v132) :: Pbase) (KernelIdeal.Gen.W12 m ρ c) VR) :
    Agree ((KernelIdeal.main_v98, ReferenceIdeal.main_v133) :: Pbase) (KernelIdeal.Gen.W14 m ρ c)
      (StableHlo.after (ReferenceIdeal.Run.r133 (F := Ideal)) VR) := by
  have h13 : Agree P4 (KernelIdeal.Gen.W13 m ρ c) VR := fmt4 _ _ hA
  have h14 : Agree P4 (KernelIdeal.Gen.W14 m ρ c) VR := by
    unfold KernelIdeal.Gen.W14
    exact Agree.region KernelIdeal.spec4 c _ h13 hne4
  have h15 : Agree P4 (KernelIdeal.Gen.W14 m ρ c) (StableHlo.after (ReferenceIdeal.Run.r133 (F := Ideal)) VR) := dot4 _ _ h14
  exact (Agree.add h15 (new4 m ρ c VR h13)).mono (by pairs_sub)

end Cert.Proof.Glue

end
-- ==== Proof.BnSpec.lean ====
import proofs.«116345_j32049045962841_1_alg».proof.Proof.Gen.KernelIdeal.Skeleton
import proofs.«116345_j32049045962841_1_alg».proof.Proof.Gen.ReferenceIdeal
import proofs.«116345_j32049045962841_1_alg».proof.Proof.Spec
import Idealize.ShloMosaic.Lib.Pipeline.Value
import Idealize.ShloMosaic.Lib.ValueIdx
import Idealize.ShloMosaic.Lib.ValueLayout

/-!
# Batch normalisation, entry by entry

Each of the three normalisation stages maps a node-by-channel array `x` to
`(x - mean) * rsqrt (var + ε) * g + be`, the four per-channel operands being one row each, read at the entry's channel; the
first two stages rectify `x` (the larger of `x` and zero) beforehand. Exact arithmetic on the extended reals: nothing is
rearranged between the two programs, so no law beyond reading both terms at an entry is needed.

Here: the value of one entry (`bnAt`); the kernel bodies' stored block at an entry of the block (`pay1_apply`,
`pay3_apply`, `pay5_apply`); the host term at an entry of the array (`bnR_apply`, `reluR_apply`); and the whole array as
one function of its five operands (`bnArr`, `relu`).
-/

noncomputable section

open Idealize.ShloMosaic Idealize.ShloMosaic.ValueIdx

namespace Cert.Proof.Bn

open Cert.KernelIdeal Cert.KernelIdeal.Gen

/-! ## One entry -/

/-- One entry of the normalised array: centre, scale by the reciprocal root of the shifted variance, then the affine map.
    The shift `ε` is kept as its 32-bit word; both programs carry the same word. -/
def bnAt (x mean var g be : Ideal .f32) : Ideal .f32 :=
  (x - mean) * Ideal.rsqrt (var + Ideal.ofBits .f32 0x3727C5AC#32) * g + be

/-! ## The body's arithmetic at an entry of a block -/

/-- The rectified body: entry `(p, q)` of the block it stores is `bnAt` of the rectified input entry and of the four
    one-row operands at channel `q`. The body reads the variance before the mean. -/
theorem pay1_apply (x0 : Vec Ideal S2000x256 .f32) (vv mm gg bb : Vec Ideal S1x256 .f32) (p : Fin 2000) (q : Fin 256) :
    k1_pay1 (F := Ideal) x0 vv mm gg bb (ix2 p q)
      = bnAt (max (x0 (ix2 p q)) (Ideal.ofBits .f32 0x00000000#32)) (mm (ix2 (0 : Fin 1) q)) (vv (ix2 (0 : Fin 1) q)) (gg (ix2 (0 : Fin 1) q)) (bb (ix2 (0 : Fin 1) q)) := by
  unfold k1_pay1 bnAt
  simp only [shapeCast_self]
  rw [addf_apply, mulf_apply, mulf_apply, subf_apply, maximumf_apply, broadcast_apply,
    broadcastTo_1b_ab_apply, broadcastTo_1b_ab_apply, broadcastTo_1b_ab_apply, broadcastTo_1b_ab_apply]
  rfl

/-- The second rectified body is the same term. -/
theorem pay3_apply (x0 : Vec Ideal S2000x256 .f32) (vv mm gg bb : Vec Ideal S1x256 .f32) (p : Fin 2000) (q : Fin 256) :
    k3_pay1 (F := Ideal) x0 vv mm gg bb (ix2 p q)
      = bnAt (max (x0 (ix2 p q)) (Ideal.ofBits .f32 0x00000000#32)) (mm (ix2 (0 : Fin 1) q)) (vv (ix2 (0 : Fin 1) q)) (gg (ix2 (0 : Fin 1) q)) (bb (ix2 (0 : Fin 1) q)) := by
  unfold k3_pay1 bnAt
  simp only [shapeCast_self]
  rw [addf_apply, mulf_apply, mulf_apply, subf_apply, maximumf_apply, broadcast_apply,
    broadcastTo_1b_ab_apply, broadcastTo_1b_ab_apply, broadcastTo_1b_ab_apply, broadcastTo_1b_ab_apply]
  rfl

/-- The last body is the same without the rectifier. -/
theorem pay5_apply (x0 : Vec Ideal S2000x256 .f32) (vv mm gg bb : Vec Ideal S1x256 .f32) (p : Fin 2000) (q : Fin 256) :
    k5_pay1 (F := Ideal) x0 vv mm gg bb (ix2 p q)
      = bnAt (x0 (ix2 p q)) (mm (ix2 (0 : Fin 1) q)) (vv (ix2 (0 : Fin 1) q)) (gg (ix2 (0 : Fin 1) q)) (bb (ix2 (0 : Fin 1) q)) := by
  unfold k5_pay1 bnAt
  simp only [shapeCast_self]
  rw [addf_apply, mulf_apply, mulf_apply, subf_apply,
    broadcastTo_1b_ab_apply, broadcastTo_1b_ab_apply, broadcastTo_1b_ab_apply, broadcastTo_1b_ab_apply]
  rfl

/-! ## The reference's term at an entry -/

/-- A per-channel vector laid out as a row and repeated down the rows reads, at row `p` and channel `q`, its entry `q`. -/
theorem rows_apply (v : Vec Ideal Cert.ReferenceIdeal.S256 .f32) (p : Fin 20000) (q : Fin 256) :
    Cert.ReferenceIdeal.Spec.downRows (F := Ideal) (Cert.ReferenceIdeal.Spec.asRow (F := Ideal) v) (ix2 p q) = v (ix1 q) := by
  unfold Cert.ReferenceIdeal.Spec.downRows Cert.ReferenceIdeal.Spec.asRow
  refine (broadcastInDim_apply _ _ _ (ix2 p q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- A scalar constant repeated along the channels reads its word's value everywhere. -/
theorem epsVec_apply (w : BitVec 32) (q : Fin 256) :
    broadcastInDim Cert.ReferenceIdeal.S256 ![] Cert.ReferenceIdeal.Facts₀.bcast_S_S256 (constant (F := Ideal) Cert.ReferenceIdeal.S_ .f32 w) (ix1 q) = Ideal.ofBits .f32 w :=
  broadcastInDim_apply _ _ _ (ix1 q) ix0 fun a => a.elim0

/-- A scalar constant repeated over the whole array, likewise. -/
theorem zeroArr_apply (w : BitVec 32) (p : Fin 20000) (q : Fin 256) :
    broadcastInDim Cert.ReferenceIdeal.S20000x256 ![] Cert.ReferenceIdeal.Facts₀.bcast_S_S20000x256 (constant (F := Ideal) Cert.ReferenceIdeal.S_ .f32 w) (ix2 p q) = Ideal.ofBits .f32 w :=
  broadcastInDim_apply _ _ _ (ix2 p q) ix0 fun a => a.elim0

/-- The host's normalisation term at entry `(p, q)`: `bnAt` of the array's entry and the four vectors' entries `q`. -/
theorem bnR_apply (x : Vec Ideal Cert.ReferenceIdeal.S20000x256 .f32) (mr vr gr br : Vec Ideal Cert.ReferenceIdeal.S256 .f32) (p : Fin 20000) (q : Fin 256) :
    Cert.ReferenceIdeal.Spec.bnR (F := Ideal) x mr vr gr br (ix2 p q) = bnAt (x (ix2 p q)) (mr (ix1 q)) (vr (ix1 q)) (gr (ix1 q)) (br (ix1 q)) := by
  unfold Cert.ReferenceIdeal.Spec.bnR bnAt
  rw [addf_apply, mulf_apply, mulf_apply, subf_apply, rows_apply, rows_apply, rows_apply, rows_apply]
  show _ * Ideal.rsqrt (vr (ix1 q) + broadcastInDim Cert.ReferenceIdeal.S256 ![] Cert.ReferenceIdeal.Facts₀.bcast_S_S256 (constant (F := Ideal) Cert.ReferenceIdeal.S_ .f32 0x3727C5AC#32) (ix1 q)) * _ + _ = _
  rw [epsVec_apply]

/-- The host's rectifier at an entry. -/
theorem reluR_apply (x : Vec Ideal Cert.ReferenceIdeal.S20000x256 .f32) (p : Fin 20000) (q : Fin 256) :
    Cert.ReferenceIdeal.Spec.reluR (F := Ideal) x (ix2 p q) = max (x (ix2 p q)) (Ideal.ofBits .f32 0x00000000#32) := by
  unfold Cert.ReferenceIdeal.Spec.reluR
  rw [maximumf_apply, zeroArr_apply]

/-! ## The whole array -/

/-- The rectifier, entry by entry. -/
def relu (x : Vec Ideal S20000x256 .f32) : Vec Ideal S20000x256 .f32 := fun i => max (x i) (Ideal.ofBits .f32 0x00000000#32)

/-- The normalised array as one function of the node-by-channel array and the four one-row operands: entry `(r, q)` is
    `bnAt` of the input's entry `(r, q)` and of the operands' entries at channel `q`. -/
def bnArr (x : Vec Ideal S20000x256 .f32) (mm vv gg bb : Vec Ideal S1x256 .f32) : Vec Ideal S20000x256 .f32 :=
  fun i => bnAt (x i) (mm (ix2 (0 : Fin 1) (i 1 : Fin 256))) (vv (ix2 (0 : Fin 1) (i 1 : Fin 256))) (gg (ix2 (0 : Fin 1) (i 1 : Fin 256))) (bb (ix2 (0 : Fin 1) (i 1 : Fin 256)))

/-- The zero offsets of a whole-block access, as the constant function. -/
theorem hz : (![0, 0] : Fin 2 → Nat) = fun _ => 0 := funext fun a => by fin_cases a <;> rfl

end Cert.Proof.Bn

end
-- ==== Proof.BnValue1.lean ====
import proofs.«116345_j32049045962841_1_alg».proof.Proof.Gen.KernelIdeal.Frame
import proofs.«116345_j32049045962841_1_alg».proof.Proof.BnSpec

/-!
# The first normalisation stage: its array after the ten row blocks

The stage runs over ten points; point `t` is given rows `2000 t … 2000 t + 1999` of the node-by-channel array and the
whole of each one-row operand, and writes back the same rows of the result. An entry `(r, q)` of the result therefore
depends on the input's entry `(r, q)` and on the operands' entries at channel `q` only, and is written by point
`r / 2000` alone. So the array the stage leaves is `bnArr` of the rectified input, which is the host's term read entry by
entry.
-/

noncomputable section

open Idealize.ShloMosaic Idealize.ShloMosaic.TcCoe Idealize.SL.Sem Idealize.ShloMosaic.ValueIdx
open Idealize.ShloMosaic.Pipeline (Dat)

namespace Cert.Proof.Bn

open Cert.KernelIdeal Cert.KernelIdeal.Gen

/-! ## From the ten row blocks to the array -/

section Region1
variable (V : (c : Dev nD) → (b : Ref sig .tc) → Buf (Elt Ideal) ((c : Thread nD τ).loc b)) (c : Dev nD)

/-- What the body leaves in the output's staging buffer, at an entry, from the five blocks it was given. -/
theorem out1_apply (x0 : Vec Ideal S2000x256 .f32) (x1 x2 x3 x4 : Vec Ideal S1x256 .f32) (p : Fin 2000) (q : Fin 256) :
    out1_5 (F := Ideal) x0 x1 x2 x3 x4 (ix2 p q)
      = bnAt (max (x0 (ix2 p q)) (Ideal.ofBits .f32 0x00000000#32)) (x1 (ix2 (0 : Fin 1) q)) (x2 (ix2 (0 : Fin 1) q)) (x3 (ix2 (0 : Fin 1) q)) (x4 (ix2 (0 : Fin 1) q)) := by
  unfold out1_5
  rw [View.canon_unit_zero hz]
  simp only [View.ld_unit_zero (S := S2000x256) hz, View.ld_unit_zero (S := S1x256) hz]
  exact pay1_apply x0 x2 x1 x3 x4 p q

/-- The printed index maps over the grid: the row-block windows sit at block `(t, 0)`, the one-row windows at `(0, 0)`. -/
theorem idx1 : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- An entry of the input's block at point `t` is the array's entry `2000 t` rows further down. -/
theorem xblk1_apply (t : Fin cfg1.N) (y : S2000x256.Idx) (k : S20000x256.Idx)
    (hk0 : (k 0).val = 2000 * t.val + (y 0).val) (hk1 : (k 1).val = (y 1).val) :
    (iblk1 V c 0 t : Vec Ideal S2000x256 .f32) y = (V c main_v50 : Vec Ideal S20000x256 .f32) k := by
  obtain ⟨⟨e0, e1⟩, -⟩ := idx1 t
  unfold iblk1
  rw [View.read_apply]
  show V c main_v50 _ = V c main_v50 _
  congr 1
  funext a
  apply Fin.ext
  match a with
  | ⟨0, _⟩ => show win1_0.index t 0 * 2000 + 1 * (y 0).val = (k 0).val; rw [e0, hk0]; omega
  | ⟨1, _⟩ => show win1_0.index t 1 * 256 + 1 * (y 1).val = (k 1).val; rw [e1, hk1]; omega

/-- A one-row operand's block is its whole array at every point: the mean, -/
theorem mblk1_apply (t : Fin cfg1.N) (y : S1x256.Idx) :
    (iblk1 V c 1 t : Vec Ideal S1x256 .f32) y = (V c main_v57 : Vec Ideal S1x256 .f32) y := by
  obtain ⟨-, ⟨e0, e1⟩, -⟩ := idx1 t
  unfold iblk1
  rw [View.read_apply]
  show V c main_v57 _ = V c main_v57 _
  congr 1
  funext a
  apply Fin.ext
  match a with
  | ⟨0, _⟩ => show win1_1.index t 0 * 1 + 1 * (y 0).val = (y 0).val; rw [e0]; omega
  | ⟨1, _⟩ => show win1_1.index t 1 * 256 + 1 * (y 1).val = (y 1).val; rw [e1]; omega

/-- the variance, -/
theorem vblk1_apply (t : Fin cfg1.N) (y : S1x256.Idx) :
    (iblk1 V c 2 t : Vec Ideal S1x256 .f32) y = (V c main_v58 : Vec Ideal S1x256 .f32) y := by
  obtain ⟨-, -, ⟨e0, e1⟩, -⟩ := idx1 t
  unfold iblk1
  rw [View.read_apply]
  show V c main_v58 _ = V c main_v58 _
  congr 1
  funext a
  apply Fin.ext
  match a with
  | ⟨0, _⟩ => show win1_2.index t 0 * 1 + 1 * (y 0).val = (y 0).val; rw [e0]; omega
  | ⟨1, _⟩ => show win1_2.index t 1 * 256 + 1 * (y 1).val = (y 1).val; rw [e1]; omega

/-- the scale, -/
theorem gblk1_apply (t : Fin cfg1.N) (y : S1x256.Idx) :
    (iblk1 V c 3 t : Vec Ideal S1x256 .f32) y = (V c main_v59 : Vec Ideal S1x256 .f32) y := by
  obtain ⟨-, -, -, ⟨e0, e1⟩, -⟩ := idx1 t
  unfold iblk1
  rw [View.read_apply]
  show V c main_v59 _ = V c main_v59 _
  congr 1
  funext a
  apply Fin.ext
  match a with
  | ⟨0, _⟩ => show win1_3.index t 0 * 1 + 1 * (y 0).val = (y 0).val; rw [e0]; omega
  | ⟨1, _⟩ => show win1_3.index t 1 * 256 + 1 * (y 1).val = (y 1).val; rw [e1]; omega

/-- and the shift. -/
theorem bblk1_apply (t : Fin cfg1.N) (y : S1x256.Idx) :
    (iblk1 V c 4 t : Vec Ideal S1x256 .f32) y = (V c main_v60 : Vec Ideal S1x256 .f32) y := by
  obtain ⟨-, -, -, -, ⟨e0, e1⟩, -⟩ := idx1 t
  unfold iblk1
  rw [View.read_apply]
  show V c main_v60 _ = V c main_v60 _
  congr 1
  funext a
  apply Fin.ext
  match a with
  | ⟨0, _⟩ => show win1_4.index t 0 * 1 + 1 * (y 0).val = (y 0).val; rw [e0]; omega
  | ⟨1, _⟩ => show win1_4.index t 1 * 256 + 1 * (y 1).val = (y 1).val; rw [e1]; omega

/-- What point `t` writes back is block `t` of the normalised array of the rectified input. -/
theorem flushed1_eq (t : Fin cfg1.N) :
    (dat1 (F := Ideal) V c).flushed 5 t = ((cfg1.win 5).blk t).view.read (Elt Ideal)
      (bnArr (relu (V c main_v50)) (V c main_v57) (V c main_v58) (V c main_v59) (V c main_v60)) := by
  show (cfg1.win 5).cut (grid1.coords t) ((dat1 V c).after 5 t) = _
  rw [after1_5]
  obtain ⟨-, -, -, -, -, ⟨e0, e1⟩⟩ := idx1 t
  funext j
  obtain ⟨p, q, rfl⟩ : ∃ (p : Fin 2000) (q : Fin 256), j = ix2 p q := ⟨j 0, j 1, eq_ix2 j⟩
  refine (out1_apply (iblk1 V c 0 t) (iblk1 V c 1 t) (iblk1 V c 2 t) (iblk1 V c 3 t) (iblk1 V c 4 t) p q).trans ?_
  rw [mblk1_apply V c t, vblk1_apply V c t, gblk1_apply V c t, bblk1_apply V c t]
  rw [View.read_apply]
  have ht : t.val < 10 := lt_of_lt_of_eq t.isLt (show cfg1.N = 10 from N_1)
  have hr : 2000 * t.val + p.val < 20000 := by omega
  have hk : ((cfg1.win 5).blk t).view.emb (ix2 p q) = (ix2 (⟨2000 * t.val + p.val, hr⟩ : Fin 20000) q : S20000x256.Idx) := by
    funext a
    apply Fin.ext
    match a with
    | ⟨0, _⟩ => show win1_5.index t 0 * 2000 + 1 * p.val = 2000 * t.val + p.val; rw [e0]; omega
    | ⟨1, _⟩ => show win1_5.index t 1 * 256 + 1 * q.val = q.val; rw [e1]; omega
  rw [hk]
  exact congrArg (fun z => bnAt (max z (Ideal.ofBits .f32 0x00000000#32)) (V c main_v57 (ix2 (0 : Fin 1) q)) (V c main_v58 (ix2 (0 : Fin 1) q)) (V c main_v59 (ix2 (0 : Fin 1) q)) (V c main_v60 (ix2 (0 : Fin 1) q)))
    (xblk1_apply V c t (ix2 p q) (ix2 (⟨2000 * t.val + p.val, hr⟩ : Fin 20000) q) rfl rfl)

/-- An index of the array is in point `t`'s block iff each coordinate is in the block's range on its axis. -/
theorem mem_blk1 (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v61).slice (win1_5.rect t)).set ↔ _
  rw [View.set_slice_whole, Rect.mem_set_unit]
  exact Iff.rfl

/-- Row `r` lies in the block of point `r / 2000`: the ten blocks fill the array. -/
theorem cover1 (i : S20000x256.Idx) : ∃ t : Fin cfg1.N, (cfg1.win 5).flush t = true ∧ i ∈ ((cfg1.win 5).blk t).view.set := by
  have hi0 : (i 0).val < 20000 := (i 0).isLt
  have hi1 : (i 1).val < 256 := (i 1).isLt
  have ht : (i 0).val / 2000 < cfg1.N := by rw [show cfg1.N = 10 from N_1]; omega
  obtain ⟨-, -, -, -, -, ⟨e0, e1⟩⟩ := idx1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ 0 * 2000 ≤ (i 0).val ∧ (i 0).val < win1_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ 1 * 256 ≤ (i 1).val ∧ (i 1).val < win1_5.index ⟨(i 0).val / 2000, ht⟩ 1 * 256 + 256
    rw [e1]; omega

/-- The array the stage leaves. -/
theorem final1 : (dat1 (F := Ideal) V c).arrAt 5 cfg1.N
    = bnArr (relu (V c main_v50)) (V c main_v57) (V c main_v58) (V c main_v59) (V c main_v60) :=
  (dat1 V c).arrAt_eq_of_cover 5 _ (fun t _ => flushed1_eq V c t) cover1

end Region1

/-! ## The claim -/

/-- The array the stage leaves is the host's normalisation of the rectified input, the kernel's one-row operands being the
    host's vectors laid out as rows. -/
theorem region1 (V : (c : Dev nD) → (b : Ref sig .tc) → Buf (Elt Ideal) ((c : Thread nD τ).loc b)) (c : Dev nD)
      (m0 v0 g0 b0 : Vec Ideal S256 .f32)
      (xr : (⟨Cert.ReferenceIdeal.S20000x256, .f32⟩ : BufTy).Contents (Elt Ideal)) (mr vr gr br : (⟨Cert.ReferenceIdeal.S256, .f32⟩ : BufTy).Contents (Elt Ideal))
      (hm : V c main_v57 = shapeCast S1x256 m0 Facts₀.shapeCasts_S256_S1x256) (hv : V c main_v58 = shapeCast S1x256 v0 Facts₀.shapeCasts_S256_S1x256)
      (hg : V c main_v59 = shapeCast S1x256 g0 Facts₀.shapeCasts_S256_S1x256) (hb : V c main_v60 = shapeCast S1x256 b0 Facts₀.shapeCasts_S256_S1x256)
      (hx : HEq (V c main_v50) xr) (hmr : HEq m0 mr) (hvr : HEq v0 vr) (hgr : HEq g0 gr) (hbr : HEq b0 br) :
      HEq ((dat1 (F := Ideal) V c).arrAt 5 cfg1.N) (Cert.ReferenceIdeal.Spec.bnR (F := Ideal) (Cert.ReferenceIdeal.Spec.reluR xr) mr vr gr br) := by
  rw [final1 V c]
  obtain rfl : (V c main_v50 : Vec Ideal S20000x256 .f32) = xr := eq_of_heq hx
  obtain rfl : m0 = mr := eq_of_heq hmr
  obtain rfl : v0 = vr := eq_of_heq hvr
  obtain rfl : g0 = gr := eq_of_heq hgr
  obtain rfl : b0 = br := eq_of_heq hbr
  apply heq_of_eq
  funext i
  obtain ⟨p, q, rfl⟩ : ∃ (p : Fin 20000) (q : Fin 256), i = ix2 p q := ⟨i 0, i 1, eq_ix2 i⟩
  refine Eq.trans ?_ (bnR_apply _ m0 v0 g0 b0 p q).symm
  rw [reluR_apply]
  show bnAt (max (V c main_v50 (ix2 p q)) _) (V c main_v57 (ix2 (0 : Fin 1) q)) (V c main_v58 (ix2 (0 : Fin 1) q)) (V c main_v59 (ix2 (0 : Fin 1) q)) (V c main_v60 (ix2 (0 : Fin 1) q)) = _
  rw [hm, hv, hg, hb, shapeCast_a_1a_apply, shapeCast_a_1a_apply, shapeCast_a_1a_apply, shapeCast_a_1a_apply]

end Cert.Proof.Bn

end
-- ==== Proof.GlueBn1.lean ====
import proofs.«116345_j32049045962841_1_alg».proof.Proof.LibAgreeMore
import proofs.«116345_j32049045962841_1_alg».proof.Proof.Pairs
import proofs.«116345_j32049045962841_1_alg».proof.Proof.KFacts
import proofs.«116345_j32049045962841_1_alg».proof.Proof.RFacts
import proofs.«116345_j32049045962841_1_alg».proof.Proof.BnValue1

/-!
# The two programs in step across the first normalisation stage

Before the stage the two programs hold the same layer sum, channel means and channel variances, and the same scale and
shift arguments. The kernel's program then lays the four per-channel vectors out as one-row arrays (no counterpart in the
reference) and runs the stage over ten row blocks; the reference applies sixteen host operations. Neither side writes a
buffer carried from the start of the program, so those stay paired; and the stage's result array holds the reference's
result, by the stage's value read entry by entry (`Cert.Proof.Bn.region1`).
-/

noncomputable section

namespace Cert.Proof.Glue

open Idealize.ShloMosaic Idealize.ShloMosaic.TcCoe Idealize.SL.Sem Idealize.ShloMosaic.StableHlo
open Cert.KernelIdeal Cert.KernelIdeal.Gen Cert.KernelIdeal.Ops
open Cert.Proof.Lockstep

variable (m : (ℓ : Loc nD τ sig) → Buf (Elt Ideal) ℓ) (ρ : Dev nD → PrngReg) (c : Dev nD)

/-- What the first stage is entered with: the layer's sum, its channel means and variances, and the buffers carried from the
    start of the program, each paired with the reference's. -/
abbrev Pin1 : List (Ref sig .tc × Ref Cert.ReferenceIdeal.sig .tc) :=
  (main_v56, Cert.ReferenceIdeal.main_v53) :: (main_v55, Cert.ReferenceIdeal.main_v52) :: (main_v50, Cert.ReferenceIdeal.main_v48) :: Pbase

/-- None of the stage's six arrays is among the buffers carried from the start of the program. -/
theorem fresh1 : ∀ w : Fin 6, Pipeline.arrRef spec1 w ∉ Pbase.map Prod.fst
  | ⟨0, _⟩ => (by decide : main_v50 ∉ Pbase.map Prod.fst)
  | ⟨1, _⟩ => (by decide : main_v57 ∉ Pbase.map Prod.fst)
  | ⟨2, _⟩ => (by decide : main_v58 ∉ Pbase.map Prod.fst)
  | ⟨3, _⟩ => (by decide : main_v59 ∉ Pbase.map Prod.fst)
  | ⟨4, _⟩ => (by decide : main_v60 ∉ Pbase.map Prod.fst)
  | ⟨5, _⟩ => (by decide : main_v61 ∉ Pbase.map Prod.fst)

set_option maxHeartbeats 4000000 in
/-- Across the first stage the two programs stay in step: the kernel's program lays its four per-channel vectors out as rows
    and runs the stage over its ten row blocks, the reference applies its sixteen host operations, and the stage's result
    array holds the reference's result. -/
theorem bn1 (VR : Valuation Cert.ReferenceIdeal.τ Cert.ReferenceIdeal.sig (Elt Ideal))
    (hrelu : VR (Proc.devRef .tc Cert.ReferenceIdeal.main_v49) = Cert.ReferenceIdeal.Spec.reluR (VR (Proc.devRef .tc Cert.ReferenceIdeal.main_v48)))
    (hA : Agree Pin1 (W4 m ρ c) VR) :
    Agree ((main_v61, Cert.ReferenceIdeal.main_v68) :: Pbase) (W6 m ρ c) (StableHlo.after Cert.ReferenceIdeal.Run.rBN1 VR) := by
  -- the four reshapes on the kernel's side write none of the listed buffers
  have hK : Agree Pin1 (W5 m ρ c) VR := by
    have s : Sim (τ := τ) (Val := Elt Ideal) Pin1 (hostOps1_2 (F := Ideal)) ([] : List (HloOp τ Cert.ReferenceIdeal.sig (Elt Ideal))) Pin1 := by
      iterate 4 sim_skipL
      exact Sim.done (List.Subset.refl _)
    exact s _ _ hA
  -- nor do the reference's sixteen operations
  have hR : Agree Pin1 (W5 m ρ c) (StableHlo.after Cert.ReferenceIdeal.Run.rBN1 VR) := by
    have s : Sim (τ := τ) (Val := Elt Ideal) Pin1 ([] : List (HloOp τ sig (Elt Ideal))) (Cert.ReferenceIdeal.Run.rBN1 (F := Ideal)) Pin1 := by
      iterate 16 sim_skipR
      exact Sim.done (List.Subset.refl _)
    exact s _ _ hK
  -- the stage rewrites its own six arrays and nothing else
  have hreg : Agree Pbase (W6 m ρ c) (StableHlo.after Cert.ReferenceIdeal.Run.rBN1 VR) := by
    unfold W6
    exact Agree.region spec1 c _ (hR.mono (by pairs_sub)) fun p hp w e => fresh1 w (e ▸ List.mem_map_of_mem (f := Prod.fst) hp)
  -- its result array against the reference's term
  have hnew : HEq (W6 m ρ c (Proc.devRef .tc main_v61)) (StableHlo.after Cert.ReferenceIdeal.Run.rBN1 VR (Proc.devRef .tc Cert.ReferenceIdeal.main_v68)) := by
    refine (heq_of_eq (W6_arr m ρ c 5)).trans ?_
    refine HEq.trans ?_ (heq_of_eq (Cert.ReferenceIdeal.Run.rBN1_value VR).symm)
    rw [hrelu]
    exact Cert.Proof.Bn.region1 (V5 m ρ) c
      (W5 m ρ c (Proc.devRef .tc main_v55)) (W5 m ρ c (Proc.devRef .tc main_v56)) (W5 m ρ c (Proc.devRef .tc main_arg7)) (W5 m ρ c (Proc.devRef .tc main_arg8))
      (VR (Proc.devRef .tc Cert.ReferenceIdeal.main_v48)) (VR (Proc.devRef .tc Cert.ReferenceIdeal.main_v52)) (VR (Proc.devRef .tc Cert.ReferenceIdeal.main_v53))
      (VR (Proc.devRef .tc Cert.ReferenceIdeal.main_arg7)) (VR (Proc.devRef .tc Cert.ReferenceIdeal.main_arg8))
      (hostOps1_2_v57 (W4 m ρ c)) (hostOps1_2_v58 (W4 m ρ c)) (hostOps1_2_v59 (W4 m ρ c)) (hostOps1_2_v60 (W4 m ρ c))
      (hK.get (by pair_mem)) (hK.get (by pair_mem)) (hK.get (by pair_mem)) (hK.get (by pair_mem)) (hK.get (by pair_mem))
  exact hreg.add hnew

end Cert.Proof.Glue

end
-- ==== Proof.BnValue3.lean ====
import proofs.«116345_j32049045962841_1_alg».proof.Proof.Gen.KernelIdeal.Frame
import proofs.«116345_j32049045962841_1_alg».proof.Proof.BnSpec

/-!
# The second normalisation stage: its array after the ten row blocks

The stage runs over ten points; point `t` is given rows `2000 t … 2000 t + 1999` of the node-by-channel array and the
whole of each one-row operand, and writes back the same rows of the result. An entry `(r, q)` of the result therefore
depends on the input's entry `(r, q)` and on the operands' entries at channel `q` only, and is written by point
`r / 2000` alone. So the array the stage leaves is `bnArr` of the rectified input, which is the host's term read entry by
entry.
-/

noncomputable section

open Idealize.ShloMosaic Idealize.ShloMosaic.TcCoe Idealize.SL.Sem Idealize.ShloMosaic.ValueIdx
open Idealize.ShloMosaic.Pipeline (Dat)

namespace Cert.Proof.Bn

open Cert.KernelIdeal Cert.KernelIdeal.Gen

/-! ## From the ten row blocks to the array -/

section Region3
variable (V : (c : Dev nD) → (b : Ref sig .tc) → Buf (Elt Ideal) ((c : Thread nD τ).loc b)) (c : Dev nD)

/-- What the body leaves in the output's staging buffer, at an entry, from the five blocks it was given. -/
theorem out3_apply (x0 : Vec Ideal S2000x256 .f32) (x1 x2 x3 x4 : Vec Ideal S1x256 .f32) (p : Fin 2000) (q : Fin 256) :
    out3_5 (F := Ideal) x0 x1 x2 x3 x4 (ix2 p q)
      = bnAt (max (x0 (ix2 p q)) (Ideal.ofBits .f32 0x00000000#32)) (x1 (ix2 (0 : Fin 1) q)) (x2 (ix2 (0 : Fin 1) q)) (x3 (ix2 (0 : Fin 1) q)) (x4 (ix2 (0 : Fin 1) q)) := by
  unfold out3_5
  rw [View.canon_unit_zero hz]
  simp only [View.ld_unit_zero (S := S2000x256) hz, View.ld_unit_zero (S := S1x256) hz]
  exact pay3_apply x0 x2 x1 x3 x4 p q

/-- The printed index maps over the grid: the row-block windows sit at block `(t, 0)`, the one-row windows at `(0, 0)`. -/
theorem idx3 : ∀ t : Fin cfg3.N, (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

/-- An entry of the input's block at point `t` is the array's entry `2000 t` rows further down. -/
theorem xblk3_apply (t : Fin cfg3.N) (y : S2000x256.Idx) (k : S20000x256.Idx)
    (hk0 : (k 0).val = 2000 * t.val + (y 0).val) (hk1 : (k 1).val = (y 1).val) :
    (iblk3 V c 0 t : Vec Ideal S2000x256 .f32) y = (V c main_v84 : Vec Ideal S20000x256 .f32) k := by
  obtain ⟨⟨e0, e1⟩, -⟩ := idx3 t
  unfold iblk3
  rw [View.read_apply]
  show V c main_v84 _ = V c main_v84 _
  congr 1
  funext a
  apply Fin.ext
  match a with
  | ⟨0, _⟩ => show win3_0.index t 0 * 2000 + 1 * (y 0).val = (k 0).val; rw [e0, hk0]; omega
  | ⟨1, _⟩ => show win3_0.index t 1 * 256 + 1 * (y 1).val = (k 1).val; rw [e1, hk1]; omega

/-- A one-row operand's block is its whole array at every point: the mean, -/
theorem mblk3_apply (t : Fin cfg3.N) (y : S1x256.Idx) :
    (iblk3 V c 1 t : Vec Ideal S1x256 .f32) y = (V c main_v91 : Vec Ideal S1x256 .f32) y := by
  obtain ⟨-, ⟨e0, e1⟩, -⟩ := idx3 t
  unfold iblk3
  rw [View.read_apply]
  show V c main_v91 _ = V c main_v91 _
  congr 1
  funext a
  apply Fin.ext
  match a with
  | ⟨0, _⟩ => show win3_1.index t 0 * 1 + 1 * (y 0).val = (y 0).val; rw [e0]; omega
  | ⟨1, _⟩ => show win3_1.index t 1 * 256 + 1 * (y 1).val = (y 1).val; rw [e1]; omega

/-- the variance, -/
theorem vblk3_apply (t : Fin cfg3.N) (y : S1x256.Idx) :
    (iblk3 V c 2 t : Vec Ideal S1x256 .f32) y = (V c main_v92 : Vec Ideal S1x256 .f32) y := by
  obtain ⟨-, -, ⟨e0, e1⟩, -⟩ := idx3 t
  unfold iblk3
  rw [View.read_apply]
  show V c main_v92 _ = V c main_v92 _
  congr 1
  funext a
  apply Fin.ext
  match a with
  | ⟨0, _⟩ => show win3_2.index t 0 * 1 + 1 * (y 0).val = (y 0).val; rw [e0]; omega
  | ⟨1, _⟩ => show win3_2.index t 1 * 256 + 1 * (y 1).val = (y 1).val; rw [e1]; omega

/-- the scale, -/
theorem gblk3_apply (t : Fin cfg3.N) (y : S1x256.Idx) :
    (iblk3 V c 3 t : Vec Ideal S1x256 .f32) y = (V c main_v93 : Vec Ideal S1x256 .f32) y := by
  obtain ⟨-, -, -, ⟨e0, e1⟩, -⟩ := idx3 t
  unfold iblk3
  rw [View.read_apply]
  show V c main_v93 _ = V c main_v93 _
  congr 1
  funext a
  apply Fin.ext
  match a with
  | ⟨0, _⟩ => show win3_3.index t 0 * 1 + 1 * (y 0).val = (y 0).val; rw [e0]; omega
  | ⟨1, _⟩ => show win3_3.index t 1 * 256 + 1 * (y 1).val = (y 1).val; rw [e1]; omega

/-- and the shift. -/
theorem bblk3_apply (t : Fin cfg3.N) (y : S1x256.Idx) :
    (iblk3 V c 4 t : Vec Ideal S1x256 .f32) y = (V c main_v94 : Vec Ideal S1x256 .f32) y := by
  obtain ⟨-, -, -, -, ⟨e0, e1⟩, -⟩ := idx3 t
  unfold iblk3
  rw [View.read_apply]
  show V c main_v94 _ = V c main_v94 _
  congr 1
  funext a
  apply Fin.ext
  match a with
  | ⟨0, _⟩ => show win3_4.index t 0 * 1 + 1 * (y 0).val = (y 0).val; rw [e0]; omega
  | ⟨1, _⟩ => show win3_4.index t 1 * 256 + 1 * (y 1).val = (y 1).val; rw [e1]; omega

/-- What point `t` writes back is block `t` of the normalised array of the rectified input. -/
theorem flushed3_eq (t : Fin cfg3.N) :
    (dat3 (F := Ideal) V c).flushed 5 t = ((cfg3.win 5).blk t).view.read (Elt Ideal)
      (bnArr (relu (V c main_v84)) (V c main_v91) (V c main_v92) (V c main_v93) (V c main_v94)) := by
  show (cfg3.win 5).cut (grid3.coords t) ((dat3 V c).after 5 t) = _
  rw [after3_5]
  obtain ⟨-, -, -, -, -, ⟨e0, e1⟩⟩ := idx3 t
  funext j
  obtain ⟨p, q, rfl⟩ : ∃ (p : Fin 2000) (q : Fin 256), j = ix2 p q := ⟨j 0, j 1, eq_ix2 j⟩
  refine (out3_apply (iblk3 V c 0 t) (iblk3 V c 1 t) (iblk3 V c 2 t) (iblk3 V c 3 t) (iblk3 V c 4 t) p q).trans ?_
  rw [mblk3_apply V c t, vblk3_apply V c t, gblk3_apply V c t, bblk3_apply V c t]
  rw [View.read_apply]
  have ht : t.val < 10 := lt_of_lt_of_eq t.isLt (show cfg3.N = 10 from N_3)
  have hr : 2000 * t.val + p.val < 20000 := by omega
  have hk : ((cfg3.win 5).blk t).view.emb (ix2 p q) = (ix2 (⟨2000 * t.val + p.val, hr⟩ : Fin 20000) q : S20000x256.Idx) := by
    funext a
    apply Fin.ext
    match a with
    | ⟨0, _⟩ => show win3_5.index t 0 * 2000 + 1 * p.val = 2000 * t.val + p.val; rw [e0]; omega
    | ⟨1, _⟩ => show win3_5.index t 1 * 256 + 1 * q.val = q.val; rw [e1]; omega
  rw [hk]
  exact congrArg (fun z => bnAt (max z (Ideal.ofBits .f32 0x00000000#32)) (V c main_v91 (ix2 (0 : Fin 1) q)) (V c main_v92 (ix2 (0 : Fin 1) q)) (V c main_v93 (ix2 (0 : Fin 1) q)) (V c main_v94 (ix2 (0 : Fin 1) q)))
    (xblk3_apply V c t (ix2 p q) (ix2 (⟨2000 * t.val + p.val, hr⟩ : Fin 20000) q) rfl rfl)

/-- An index of the array is in point `t`'s block iff each coordinate is in the block's range on its axis. -/
theorem mem_blk3 (t : Fin cfg3.N) (i : S20000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v95).slice (win3_5.rect t)).set ↔ _
  rw [View.set_slice_whole, Rect.mem_set_unit]
  exact Iff.rfl

/-- Row `r` lies in the block of point `r / 2000`: the ten blocks fill the array. -/
theorem cover3 (i : S20000x256.Idx) : ∃ t : Fin cfg3.N, (cfg3.win 5).flush t = true ∧ i ∈ ((cfg3.win 5).blk t).view.set := by
  have hi0 : (i 0).val < 20000 := (i 0).isLt
  have hi1 : (i 1).val < 256 := (i 1).isLt
  have ht : (i 0).val / 2000 < cfg3.N := by rw [show cfg3.N = 10 from N_3]; omega
  obtain ⟨-, -, -, -, -, ⟨e0, e1⟩⟩ := idx3 ⟨(i 0).val / 2000, ht⟩
  refine ⟨⟨(i 0).val / 2000, ht⟩, flush3_5 _, ?_⟩
  rw [mem_blk3]
  intro a
  match a with
  | ⟨0, _⟩ =>
    show win3_5.index ⟨(i 0).val / 2000, ht⟩ 0 * 2000 ≤ (i 0).val ∧ (i 0).val < win3_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win3_5.index ⟨(i 0).val / 2000, ht⟩ 1 * 256 ≤ (i 1).val ∧ (i 1).val < win3_5.index ⟨(i 0).val / 2000, ht⟩ 1 * 256 + 256
    rw [e1]; omega

/-- The array the stage leaves. -/
theorem final3 : (dat3 (F := Ideal) V c).arrAt 5 cfg3.N
    = bnArr (relu (V c main_v84)) (V c main_v91) (V c main_v92) (V c main_v93) (V c main_v94) :=
  (dat3 V c).arrAt_eq_of_cover 5 _ (fun t _ => flushed3_eq V c t) cover3

end Region3

/-! ## The claim -/

/-- The array the stage leaves is the host's normalisation of the rectified input, the kernel's one-row operands being the
    host's vectors laid out as rows. -/
theorem region3 (V : (c : Dev nD) → (b : Ref sig .tc) → Buf (Elt Ideal) ((c : Thread nD τ).loc b)) (c : Dev nD)
      (m0 v0 g0 b0 : Vec Ideal S256 .f32)
      (xr : (⟨Cert.ReferenceIdeal.S20000x256, .f32⟩ : BufTy).Contents (Elt Ideal)) (mr vr gr br : (⟨Cert.ReferenceIdeal.S256, .f32⟩ : BufTy).Contents (Elt Ideal))
      (hm : V c main_v91 = shapeCast S1x256 m0 Facts₀.shapeCasts_S256_S1x256) (hv : V c main_v92 = shapeCast S1x256 v0 Facts₀.shapeCasts_S256_S1x256)
      (hg : V c main_v93 = shapeCast S1x256 g0 Facts₀.shapeCasts_S256_S1x256) (hb : V c main_v94 = shapeCast S1x256 b0 Facts₀.shapeCasts_S256_S1x256)
      (hx : HEq (V c main_v84) xr) (hmr : HEq m0 mr) (hvr : HEq v0 vr) (hgr : HEq g0 gr) (hbr : HEq b0 br) :
      HEq ((dat3 (F := Ideal) V c).arrAt 5 cfg3.N) (Cert.ReferenceIdeal.Spec.bnR (F := Ideal) (Cert.ReferenceIdeal.Spec.reluR xr) mr vr gr br) := by
  rw [final3 V c]
  obtain rfl : (V c main_v84 : Vec Ideal S20000x256 .f32) = xr := eq_of_heq hx
  obtain rfl : m0 = mr := eq_of_heq hmr
  obtain rfl : v0 = vr := eq_of_heq hvr
  obtain rfl : g0 = gr := eq_of_heq hgr
  obtain rfl : b0 = br := eq_of_heq hbr
  apply heq_of_eq
  funext i
  obtain ⟨p, q, rfl⟩ : ∃ (p : Fin 20000) (q : Fin 256), i = ix2 p q := ⟨i 0, i 1, eq_ix2 i⟩
  refine Eq.trans ?_ (bnR_apply _ m0 v0 g0 b0 p q).symm
  rw [reluR_apply]
  show bnAt (max (V c main_v84 (ix2 p q)) _) (V c main_v91 (ix2 (0 : Fin 1) q)) (V c main_v92 (ix2 (0 : Fin 1) q)) (V c main_v93 (ix2 (0 : Fin 1) q)) (V c main_v94 (ix2 (0 : Fin 1) q)) = _
  rw [hm, hv, hg, hb, shapeCast_a_1a_apply, shapeCast_a_1a_apply, shapeCast_a_1a_apply, shapeCast_a_1a_apply]

end Cert.Proof.Bn

end
-- ==== Proof.GlueBn3.lean ====
import proofs.«116345_j32049045962841_1_alg».proof.Proof.LibAgreeMore
import proofs.«116345_j32049045962841_1_alg».proof.Proof.Pairs
import proofs.«116345_j32049045962841_1_alg».proof.Proof.KFacts
import proofs.«116345_j32049045962841_1_alg».proof.Proof.RFacts
import proofs.«116345_j32049045962841_1_alg».proof.Proof.BnValue3

/-!
# The two programs in step across the second normalisation stage

Before the stage the two programs hold the same layer sum, channel means and channel variances, and the same scale and
shift arguments. The kernel's program then lays the four per-channel vectors out as one-row arrays (no counterpart in the
reference) and runs the stage over ten row blocks; the reference applies sixteen host operations. Neither side writes a
buffer carried from the start of the program, so those stay paired; and the stage's result array holds the reference's
result, by the stage's value read entry by entry (`Cert.Proof.Bn.region3`).
-/

noncomputable section

namespace Cert.Proof.Glue

open Idealize.ShloMosaic Idealize.ShloMosaic.TcCoe Idealize.SL.Sem Idealize.ShloMosaic.StableHlo
open Cert.KernelIdeal Cert.KernelIdeal.Gen Cert.KernelIdeal.Ops
open Cert.Proof.Lockstep

variable (m : (ℓ : Loc nD τ sig) → Buf (Elt Ideal) ℓ) (ρ : Dev nD → PrngReg) (c : Dev nD)

/-- What the second stage is entered with: the layer's sum, its channel means and variances, and the buffers carried from the
    start of the program, each paired with the reference's. -/
abbrev Pin3 : List (Ref sig .tc × Ref Cert.ReferenceIdeal.sig .tc) :=
  (main_v90, Cert.ReferenceIdeal.main_v117) :: (main_v89, Cert.ReferenceIdeal.main_v116) :: (main_v84, Cert.ReferenceIdeal.main_v112) :: Pbase

/-- None of the stage's six arrays is among the buffers carried from the start of the program. -/
theorem fresh3 : ∀ w : Fin 6, Pipeline.arrRef spec3 w ∉ Pbase.map Prod.fst
  | ⟨0, _⟩ => (by decide : main_v84 ∉ Pbase.map Prod.fst)
  | ⟨1, _⟩ => (by decide : main_v91 ∉ Pbase.map Prod.fst)
  | ⟨2, _⟩ => (by decide : main_v92 ∉ Pbase.map Prod.fst)
  | ⟨3, _⟩ => (by decide : main_v93 ∉ Pbase.map Prod.fst)
  | ⟨4, _⟩ => (by decide : main_v94 ∉ Pbase.map Prod.fst)
  | ⟨5, _⟩ => (by decide : main_v95 ∉ Pbase.map Prod.fst)

set_option maxHeartbeats 4000000 in
/-- Across the second stage the two programs stay in step: the kernel's program lays its four per-channel vectors out as rows
    and runs the stage over its ten row blocks, the reference applies its sixteen host operations, and the stage's result
    array holds the reference's result. -/
theorem bn3 (VR : Valuation Cert.ReferenceIdeal.τ Cert.ReferenceIdeal.sig (Elt Ideal))
    (hrelu : VR (Proc.devRef .tc Cert.ReferenceIdeal.main_v113) = Cert.ReferenceIdeal.Spec.reluR (VR (Proc.devRef .tc Cert.ReferenceIdeal.main_v112)))
    (hA : Agree Pin3 (W10 m ρ c) VR) :
    Agree ((main_v95, Cert.ReferenceIdeal.main_v132) :: Pbase) (W12 m ρ c) (StableHlo.after Cert.ReferenceIdeal.Run.rBN2 VR) := by
  -- the four reshapes on the kernel's side write none of the listed buffers
  have hK : Agree Pin3 (W11 m ρ c) VR := by
    have s : Sim (τ := τ) (Val := Elt Ideal) Pin3 (hostOps3_2 (F := Ideal)) ([] : List (HloOp τ Cert.ReferenceIdeal.sig (Elt Ideal))) Pin3 := by
      iterate 4 sim_skipL
      exact Sim.done (List.Subset.refl _)
    exact s _ _ hA
  -- nor do the reference's sixteen operations
  have hR : Agree Pin3 (W11 m ρ c) (StableHlo.after Cert.ReferenceIdeal.Run.rBN2 VR) := by
    have s : Sim (τ := τ) (Val := Elt Ideal) Pin3 ([] : List (HloOp τ sig (Elt Ideal))) (Cert.ReferenceIdeal.Run.rBN2 (F := Ideal)) Pin3 := by
      iterate 16 sim_skipR
      exact Sim.done (List.Subset.refl _)
    exact s _ _ hK
  -- the stage rewrites its own six arrays and nothing else
  have hreg : Agree Pbase (W12 m ρ c) (StableHlo.after Cert.ReferenceIdeal.Run.rBN2 VR) := by
    unfold W12
    exact Agree.region spec3 c _ (hR.mono (by pairs_sub)) fun p hp w e => fresh3 w (e ▸ List.mem_map_of_mem (f := Prod.fst) hp)
  -- its result array against the reference's term
  have hnew : HEq (W12 m ρ c (Proc.devRef .tc main_v95)) (StableHlo.after Cert.ReferenceIdeal.Run.rBN2 VR (Proc.devRef .tc Cert.ReferenceIdeal.main_v132)) := by
    refine (heq_of_eq (W12_arr m ρ c 5)).trans ?_
    refine HEq.trans ?_ (heq_of_eq (Cert.ReferenceIdeal.Run.rBN2_value VR).symm)
    rw [hrelu]
    exact Cert.Proof.Bn.region3 (V11 m ρ) c
      (W11 m ρ c (Proc.devRef .tc main_v89)) (W11 m ρ c (Proc.devRef .tc main_v90)) (W11 m ρ c (Proc.devRef .tc main_arg11)) (W11 m ρ c (Proc.devRef .tc main_arg12))
      (VR (Proc.devRef .tc Cert.ReferenceIdeal.main_v112)) (VR (Proc.devRef .tc Cert.ReferenceIdeal.main_v116)) (VR (Proc.devRef .tc Cert.ReferenceIdeal.main_v117))
      (VR (Proc.devRef .tc Cert.ReferenceIdeal.main_arg11)) (VR (Proc.devRef .tc Cert.ReferenceIdeal.main_arg12))
      (hostOps3_2_v91 (W10 m ρ c)) (hostOps3_2_v92 (W10 m ρ c)) (hostOps3_2_v93 (W10 m ρ c)) (hostOps3_2_v94 (W10 m ρ c))
      (hK.get (by pair_mem)) (hK.get (by pair_mem)) (hK.get (by pair_mem)) (hK.get (by pair_mem)) (hK.get (by pair_mem))
  exact hreg.add hnew

end Cert.Proof.Glue

end
-- ==== Proof.BnValue5.lean ====
import proofs.«116345_j32049045962841_1_alg».proof.Proof.Gen.KernelIdeal.Frame
import proofs.«116345_j32049045962841_1_alg».proof.Proof.BnSpec

/-!
# The third normalisation stage: its array after the ten row blocks

The stage runs over ten points; point `t` is given rows `2000 t … 2000 t + 1999` of the node-by-channel array and the
whole of each one-row operand, and writes back the same rows of the result. An entry `(r, q)` of the result therefore
depends on the input's entry `(r, q)` and on the operands' entries at channel `q` only, and is written by point
`r / 2000` alone. So the array the stage leaves is `bnArr` of the input, which is the host's term read entry by
entry.
-/

noncomputable section

open Idealize.ShloMosaic Idealize.ShloMosaic.TcCoe Idealize.SL.Sem Idealize.ShloMosaic.ValueIdx
open Idealize.ShloMosaic.Pipeline (Dat)

namespace Cert.Proof.Bn

open Cert.KernelIdeal Cert.KernelIdeal.Gen

/-! ## From the ten row blocks to the array -/

section Region5
variable (V : (c : Dev nD) → (b : Ref sig .tc) → Buf (Elt Ideal) ((c : Thread nD τ).loc b)) (c : Dev nD)

/-- What the body leaves in the output's staging buffer, at an entry, from the five blocks it was given. -/
theorem out5_apply (x0 : Vec Ideal S2000x256 .f32) (x1 x2 x3 x4 : Vec Ideal S1x256 .f32) (p : Fin 2000) (q : Fin 256) :
    out5_5 (F := Ideal) x0 x1 x2 x3 x4 (ix2 p q)
      = bnAt (x0 (ix2 p q)) (x1 (ix2 (0 : Fin 1) q)) (x2 (ix2 (0 : Fin 1) q)) (x3 (ix2 (0 : Fin 1) q)) (x4 (ix2 (0 : Fin 1) q)) := by
  unfold out5_5
  rw [View.canon_unit_zero hz]
  simp only [View.ld_unit_zero (S := S2000x256) hz, View.ld_unit_zero (S := S1x256) hz]
  exact pay5_apply x0 x2 x1 x3 x4 p q

/-- The printed index maps over the grid: the row-block windows sit at block `(t, 0)`, the one-row windows at `(0, 0)`. -/
theorem idx5 : ∀ t : Fin cfg5.N, (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = t.val ∧ win5_5.index t (1 : Fin 2) = 0) :=
  (by decide +kernel : ∀ t : Fin grid5.N, _)

/-- An entry of the input's block at point `t` is the array's entry `2000 t` rows further down. -/
theorem xblk5_apply (t : Fin cfg5.N) (y : S2000x256.Idx) (k : S20000x256.Idx)
    (hk0 : (k 0).val = 2000 * t.val + (y 0).val) (hk1 : (k 1).val = (y 1).val) :
    (iblk5 V c 0 t : Vec Ideal S2000x256 .f32) y = (V c main_v118 : Vec Ideal S20000x256 .f32) k := by
  obtain ⟨⟨e0, e1⟩, -⟩ := idx5 t
  unfold iblk5
  rw [View.read_apply]
  show V c main_v118 _ = V c main_v118 _
  congr 1
  funext a
  apply Fin.ext
  match a with
  | ⟨0, _⟩ => show win5_0.index t 0 * 2000 + 1 * (y 0).val = (k 0).val; rw [e0, hk0]; omega
  | ⟨1, _⟩ => show win5_0.index t 1 * 256 + 1 * (y 1).val = (k 1).val; rw [e1, hk1]; omega

/-- A one-row operand's block is its whole array at every point: the mean, -/
theorem mblk5_apply (t : Fin cfg5.N) (y : S1x256.Idx) :
    (iblk5 V c 1 t : Vec Ideal S1x256 .f32) y = (V c main_v123 : Vec Ideal S1x256 .f32) y := by
  obtain ⟨-, ⟨e0, e1⟩, -⟩ := idx5 t
  unfold iblk5
  rw [View.read_apply]
  show V c main_v123 _ = V c main_v123 _
  congr 1
  funext a
  apply Fin.ext
  match a with
  | ⟨0, _⟩ => show win5_1.index t 0 * 1 + 1 * (y 0).val = (y 0).val; rw [e0]; omega
  | ⟨1, _⟩ => show win5_1.index t 1 * 256 + 1 * (y 1).val = (y 1).val; rw [e1]; omega

/-- the variance, -/
theorem vblk5_apply (t : Fin cfg5.N) (y : S1x256.Idx) :
    (iblk5 V c 2 t : Vec Ideal S1x256 .f32) y = (V c main_v124 : Vec Ideal S1x256 .f32) y := by
  obtain ⟨-, -, ⟨e0, e1⟩, -⟩ := idx5 t
  unfold iblk5
  rw [View.read_apply]
  show V c main_v124 _ = V c main_v124 _
  congr 1
  funext a
  apply Fin.ext
  match a with
  | ⟨0, _⟩ => show win5_2.index t 0 * 1 + 1 * (y 0).val = (y 0).val; rw [e0]; omega
  | ⟨1, _⟩ => show win5_2.index t 1 * 256 + 1 * (y 1).val = (y 1).val; rw [e1]; omega

/-- the scale, -/
theorem gblk5_apply (t : Fin cfg5.N) (y : S1x256.Idx) :
    (iblk5 V c 3 t : Vec Ideal S1x256 .f32) y = (V c main_v125 : Vec Ideal S1x256 .f32) y := by
  obtain ⟨-, -, -, ⟨e0, e1⟩, -⟩ := idx5 t
  unfold iblk5
  rw [View.read_apply]
  show V c main_v125 _ = V c main_v125 _
  congr 1
  funext a
  apply Fin.ext
  match a with
  | ⟨0, _⟩ => show win5_3.index t 0 * 1 + 1 * (y 0).val = (y 0).val; rw [e0]; omega
  | ⟨1, _⟩ => show win5_3.index t 1 * 256 + 1 * (y 1).val = (y 1).val; rw [e1]; omega

/-- and the shift. -/
theorem bblk5_apply (t : Fin cfg5.N) (y : S1x256.Idx) :
    (iblk5 V c 4 t : Vec Ideal S1x256 .f32) y = (V c main_v126 : Vec Ideal S1x256 .f32) y := by
  obtain ⟨-, -, -, -, ⟨e0, e1⟩, -⟩ := idx5 t
  unfold iblk5
  rw [View.read_apply]
  show V c main_v126 _ = V c main_v126 _
  congr 1
  funext a
  apply Fin.ext
  match a with
  | ⟨0, _⟩ => show win5_4.index t 0 * 1 + 1 * (y 0).val = (y 0).val; rw [e0]; omega
  | ⟨1, _⟩ => show win5_4.index t 1 * 256 + 1 * (y 1).val = (y 1).val; rw [e1]; omega

/-- What point `t` writes back is block `t` of the normalised array of the input. -/
theorem flushed5_eq (t : Fin cfg5.N) :
    (dat5 (F := Ideal) V c).flushed 5 t = ((cfg5.win 5).blk t).view.read (Elt Ideal)
      (bnArr (V c main_v118) (V c main_v123) (V c main_v124) (V c main_v125) (V c main_v126)) := by
  show (cfg5.win 5).cut (grid5.coords t) ((dat5 V c).after 5 t) = _
  rw [after5_5]
  obtain ⟨-, -, -, -, -, ⟨e0, e1⟩⟩ := idx5 t
  funext j
  obtain ⟨p, q, rfl⟩ : ∃ (p : Fin 2000) (q : Fin 256), j = ix2 p q := ⟨j 0, j 1, eq_ix2 j⟩
  refine (out5_apply (iblk5 V c 0 t) (iblk5 V c 1 t) (iblk5 V c 2 t) (iblk5 V c 3 t) (iblk5 V c 4 t) p q).trans ?_
  rw [mblk5_apply V c t, vblk5_apply V c t, gblk5_apply V c t, bblk5_apply V c t]
  rw [View.read_apply]
  have ht : t.val < 10 := lt_of_lt_of_eq t.isLt (show cfg5.N = 10 from N_5)
  have hr : 2000 * t.val + p.val < 20000 := by omega
  have hk : ((cfg5.win 5).blk t).view.emb (ix2 p q) = (ix2 (⟨2000 * t.val + p.val, hr⟩ : Fin 20000) q : S20000x256.Idx) := by
    funext a
    apply Fin.ext
    match a with
    | ⟨0, _⟩ => show win5_5.index t 0 * 2000 + 1 * p.val = 2000 * t.val + p.val; rw [e0]; omega
    | ⟨1, _⟩ => show win5_5.index t 1 * 256 + 1 * q.val = q.val; rw [e1]; omega
  rw [hk]
  exact congrArg (fun z => bnAt z (V c main_v123 (ix2 (0 : Fin 1) q)) (V c main_v124 (ix2 (0 : Fin 1) q)) (V c main_v125 (ix2 (0 : Fin 1) q)) (V c main_v126 (ix2 (0 : Fin 1) q)))
    (xblk5_apply V c t (ix2 p q) (ix2 (⟨2000 * t.val + p.val, hr⟩ : Fin 20000) q) rfl rfl)

/-- An index of the array is in point `t`'s block iff each coordinate is in the block's range on its axis. -/
theorem mem_blk5 (t : Fin cfg5.N) (i : S20000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v127).slice (win5_5.rect t)).set ↔ _
  rw [View.set_slice_whole, Rect.mem_set_unit]
  exact Iff.rfl

/-- Row `r` lies in the block of point `r / 2000`: the ten blocks fill the array. -/
theorem cover5 (i : S20000x256.Idx) : ∃ t : Fin cfg5.N, (cfg5.win 5).flush t = true ∧ i ∈ ((cfg5.win 5).blk t).view.set := by
  have hi0 : (i 0).val < 20000 := (i 0).isLt
  have hi1 : (i 1).val < 256 := (i 1).isLt
  have ht : (i 0).val / 2000 < cfg5.N := by rw [show cfg5.N = 10 from N_5]; omega
  obtain ⟨-, -, -, -, -, ⟨e0, e1⟩⟩ := idx5 ⟨(i 0).val / 2000, ht⟩
  refine ⟨⟨(i 0).val / 2000, ht⟩, flush5_5 _, ?_⟩
  rw [mem_blk5]
  intro a
  match a with
  | ⟨0, _⟩ =>
    show win5_5.index ⟨(i 0).val / 2000, ht⟩ 0 * 2000 ≤ (i 0).val ∧ (i 0).val < win5_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win5_5.index ⟨(i 0).val / 2000, ht⟩ 1 * 256 ≤ (i 1).val ∧ (i 1).val < win5_5.index ⟨(i 0).val / 2000, ht⟩ 1 * 256 + 256
    rw [e1]; omega

/-- The array the stage leaves. -/
theorem final5 : (dat5 (F := Ideal) V c).arrAt 5 cfg5.N
    = bnArr (V c main_v118) (V c main_v123) (V c main_v124) (V c main_v125) (V c main_v126) :=
  (dat5 V c).arrAt_eq_of_cover 5 _ (fun t _ => flushed5_eq V c t) cover5

end Region5

/-! ## The claim -/

/-- The array the stage leaves is the host's normalisation of the input, the kernel's one-row operands being the
    host's vectors laid out as rows. -/
theorem region5 (V : (c : Dev nD) → (b : Ref sig .tc) → Buf (Elt Ideal) ((c : Thread nD τ).loc b)) (c : Dev nD)
      (m0 v0 g0 b0 : Vec Ideal S256 .f32)
      (xr : (⟨Cert.ReferenceIdeal.S20000x256, .f32⟩ : BufTy).Contents (Elt Ideal)) (mr vr gr br : (⟨Cert.ReferenceIdeal.S256, .f32⟩ : BufTy).Contents (Elt Ideal))
      (hm : V c main_v123 = shapeCast S1x256 m0 Facts₀.shapeCasts_S256_S1x256) (hv : V c main_v124 = shapeCast S1x256 v0 Facts₀.shapeCasts_S256_S1x256)
      (hg : V c main_v125 = shapeCast S1x256 g0 Facts₀.shapeCasts_S256_S1x256) (hb : V c main_v126 = shapeCast S1x256 b0 Facts₀.shapeCasts_S256_S1x256)
      (hx : HEq (V c main_v118) xr) (hmr : HEq m0 mr) (hvr : HEq v0 vr) (hgr : HEq g0 gr) (hbr : HEq b0 br) :
      HEq ((dat5 (F := Ideal) V c).arrAt 5 cfg5.N) (Cert.ReferenceIdeal.Spec.bnR (F := Ideal) xr mr vr gr br) := by
  rw [final5 V c]
  obtain rfl : (V c main_v118 : Vec Ideal S20000x256 .f32) = xr := eq_of_heq hx
  obtain rfl : m0 = mr := eq_of_heq hmr
  obtain rfl : v0 = vr := eq_of_heq hvr
  obtain rfl : g0 = gr := eq_of_heq hgr
  obtain rfl : b0 = br := eq_of_heq hbr
  apply heq_of_eq
  funext i
  obtain ⟨p, q, rfl⟩ : ∃ (p : Fin 20000) (q : Fin 256), i = ix2 p q := ⟨i 0, i 1, eq_ix2 i⟩
  refine Eq.trans ?_ (bnR_apply _ m0 v0 g0 b0 p q).symm
  show bnAt (V c main_v118 (ix2 p q)) (V c main_v123 (ix2 (0 : Fin 1) q)) (V c main_v124 (ix2 (0 : Fin 1) q)) (V c main_v125 (ix2 (0 : Fin 1) q)) (V c main_v126 (ix2 (0 : Fin 1) q)) = _
  rw [hm, hv, hg, hb, shapeCast_a_1a_apply, shapeCast_a_1a_apply, shapeCast_a_1a_apply, shapeCast_a_1a_apply]

end Cert.Proof.Bn

end
-- ==== Proof.GlueBn5.lean ====
import proofs.«116345_j32049045962841_1_alg».proof.Proof.LibAgreeMore
import proofs.«116345_j32049045962841_1_alg».proof.Proof.Pairs
import proofs.«116345_j32049045962841_1_alg».proof.Proof.KFacts
import proofs.«116345_j32049045962841_1_alg».proof.Proof.RFacts
import proofs.«116345_j32049045962841_1_alg».proof.Proof.BnValue5

/-!
# The two programs in step across the third normalisation stage

Before the stage the two programs hold the same layer sum, channel means and channel variances, and the same scale and
shift arguments. The kernel's program then lays the four per-channel vectors out as one-row arrays (no counterpart in the
reference) and runs the stage over ten row blocks; the reference applies sixteen host operations. Neither side writes a
buffer carried from the start of the program, so those stay paired; and the stage's result array holds the reference's
result, by the stage's value read entry by entry (`Cert.Proof.Bn.region5`).
-/

noncomputable section

namespace Cert.Proof.Glue

open Idealize.ShloMosaic Idealize.ShloMosaic.TcCoe Idealize.SL.Sem Idealize.ShloMosaic.StableHlo
open Cert.KernelIdeal Cert.KernelIdeal.Gen Cert.KernelIdeal.Ops
open Cert.Proof.Lockstep

variable (m : (ℓ : Loc nD τ sig) → Buf (Elt Ideal) ℓ) (ρ : Dev nD → PrngReg) (c : Dev nD)

/-- What the third stage is entered with: the layer's sum, its channel means and variances, and the buffers carried from the
    start of the program, each paired with the reference's. -/
abbrev Pin5 : List (Ref sig .tc × Ref Cert.ReferenceIdeal.sig .tc) :=
  (main_v122, Cert.ReferenceIdeal.main_v180) :: (main_v121, Cert.ReferenceIdeal.main_v179) :: (main_v118, Cert.ReferenceIdeal.main_v176) :: Pbase

/-- None of the stage's six arrays is among the buffers carried from the start of the program. -/
theorem fresh5 : ∀ w : Fin 6, Pipeline.arrRef spec5 w ∉ Pbase.map Prod.fst
  | ⟨0, _⟩ => (by decide : main_v118 ∉ Pbase.map Prod.fst)
  | ⟨1, _⟩ => (by decide : main_v123 ∉ Pbase.map Prod.fst)
  | ⟨2, _⟩ => (by decide : main_v124 ∉ Pbase.map Prod.fst)
  | ⟨3, _⟩ => (by decide : main_v125 ∉ Pbase.map Prod.fst)
  | ⟨4, _⟩ => (by decide : main_v126 ∉ Pbase.map Prod.fst)
  | ⟨5, _⟩ => (by decide : main_v127 ∉ Pbase.map Prod.fst)

set_option maxHeartbeats 4000000 in
/-- Across the third stage the two programs stay in step: the kernel's program lays its four per-channel vectors out as rows
    and runs the stage over its ten row blocks, the reference applies its sixteen host operations, and the stage's result
    array holds the reference's result (this stage has no rectifier). -/
theorem bn5 (VR : Valuation Cert.ReferenceIdeal.τ Cert.ReferenceIdeal.sig (Elt Ideal))
    (hA : Agree Pin5 (W16 m ρ c) VR) :
    Agree ((main_v127, Cert.ReferenceIdeal.main_v195) :: Pbase) (W18 m ρ c) (StableHlo.after Cert.ReferenceIdeal.Run.rBN3 VR) := by
  -- the four reshapes on the kernel's side write none of the listed buffers
  have hK : Agree Pin5 (W17 m ρ c) VR := by
    have s : Sim (τ := τ) (Val := Elt Ideal) Pin5 (hostOps5_2 (F := Ideal)) ([] : List (HloOp τ Cert.ReferenceIdeal.sig (Elt Ideal))) Pin5 := by
      iterate 4 sim_skipL
      exact Sim.done (List.Subset.refl _)
    exact s _ _ hA
  -- nor do the reference's sixteen operations
  have hR : Agree Pin5 (W17 m ρ c) (StableHlo.after Cert.ReferenceIdeal.Run.rBN3 VR) := by
    have s : Sim (τ := τ) (Val := Elt Ideal) Pin5 ([] : List (HloOp τ sig (Elt Ideal))) (Cert.ReferenceIdeal.Run.rBN3 (F := Ideal)) Pin5 := by
      iterate 16 sim_skipR
      exact Sim.done (List.Subset.refl _)
    exact s _ _ hK
  -- the stage rewrites its own six arrays and nothing else
  have hreg : Agree Pbase (W18 m ρ c) (StableHlo.after Cert.ReferenceIdeal.Run.rBN3 VR) := by
    unfold W18
    exact Agree.region spec5 c _ (hR.mono (by pairs_sub)) fun p hp w e => fresh5 w (e ▸ List.mem_map_of_mem (f := Prod.fst) hp)
  -- its result array against the reference's term
  have hnew : HEq (W18 m ρ c (Proc.devRef .tc main_v127)) (StableHlo.after Cert.ReferenceIdeal.Run.rBN3 VR (Proc.devRef .tc Cert.ReferenceIdeal.main_v195)) := by
    refine (heq_of_eq (W18_arr m ρ c 5)).trans ?_
    refine HEq.trans ?_ (heq_of_eq (Cert.ReferenceIdeal.Run.rBN3_value VR).symm)
    exact Cert.Proof.Bn.region5 (V17 m ρ) c
      (W17 m ρ c (Proc.devRef .tc main_v121)) (W17 m ρ c (Proc.devRef .tc main_v122)) (W17 m ρ c (Proc.devRef .tc main_arg15)) (W17 m ρ c (Proc.devRef .tc main_arg16))
      (VR (Proc.devRef .tc Cert.ReferenceIdeal.main_v176)) (VR (Proc.devRef .tc Cert.ReferenceIdeal.main_v179)) (VR (Proc.devRef .tc Cert.ReferenceIdeal.main_v180))
      (VR (Proc.devRef .tc Cert.ReferenceIdeal.main_arg15)) (VR (Proc.devRef .tc Cert.ReferenceIdeal.main_arg16))
      (hostOps5_2_v123 (W16 m ρ c)) (hostOps5_2_v124 (W16 m ρ c)) (hostOps5_2_v125 (W16 m ρ c)) (hostOps5_2_v126 (W16 m ρ c))
      (hK.get (by pair_mem)) (hK.get (by pair_mem)) (hK.get (by pair_mem)) (hK.get (by pair_mem)) (hK.get (by pair_mem))
  exact hreg.add hnew

end Cert.Proof.Glue

end
-- ==== Proof.Chain.lean ====
import proofs.«116345_j32049045962841_1_alg».proof.Proof.GlueSelf
import proofs.«116345_j32049045962841_1_alg».proof.Proof.GlueMatmul
import proofs.«116345_j32049045962841_1_alg».proof.Proof.GlueBn1
import proofs.«116345_j32049045962841_1_alg».proof.Proof.GlueBn3
import proofs.«116345_j32049045962841_1_alg».proof.Proof.GlueBn5

/-!
# The two programs return the same array

From memories that agree on the arguments, the kernel program's result buffer after its last host stretch and the
reference's result buffer after its whole line hold the same contents: the stretches of host operations in lockstep, the
six regions by their values, and the reference's repeated computations paired with the kernel program's single ones,
chained from the launch to the return, one layer at a time.
-/

noncomputable section
namespace Cert.Proof.Chain
open Idealize.ShloMosaic Idealize.ShloMosaic.StableHlo Cert.Proof.Lockstep Cert.Proof.Glue

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The buffer `main_v27` of the kernel's program is written once, in the first host stretch: no later stretch and no region
    touches it. Its contents at the later boundaries are those after that stretch. -/
theorem keep2_main_v27 : (Cert.KernelIdeal.Gen.W2 m ρ c) (Proc.devRef .tc Cert.KernelIdeal.main_v27) = (Cert.KernelIdeal.Gen.W1 m ρ c) (Proc.devRef .tc Cert.KernelIdeal.main_v27) := Cert.KernelIdeal.Gen.W2_of_ne m ρ c Cert.KernelIdeal.main_v27 (by decide)
theorem keep8_main_v27 : (Cert.KernelIdeal.Gen.W8 m ρ c) (Proc.devRef .tc Cert.KernelIdeal.main_v27) = (Cert.KernelIdeal.Gen.W1 m ρ c) (Proc.devRef .tc Cert.KernelIdeal.main_v27) :=
  (Cert.KernelIdeal.Gen.W8_of_ne m ρ c Cert.KernelIdeal.main_v27 (by decide)).trans <| (Cert.KernelIdeal.Ops.hostOps2_keep (Cert.KernelIdeal.Gen.W6 m ρ c) Cert.KernelIdeal.main_v27 (by decide)).trans <|
  (Cert.KernelIdeal.Gen.W6_of_ne m ρ c Cert.KernelIdeal.main_v27 (by decide)).trans <| (Cert.KernelIdeal.Ops.hostOps1_2_keep (Cert.KernelIdeal.Gen.W4 m ρ c) Cert.KernelIdeal.main_v27 (by decide)).trans <|
  (Cert.KernelIdeal.Ops.hostOps1_1_keep (Cert.KernelIdeal.Gen.W3 m ρ c) Cert.KernelIdeal.main_v27 (by decide)).trans <|
  (show after Cert.KernelIdeal.Gen.hostOps1 (Cert.KernelIdeal.Gen.W2 m ρ c) (Proc.devRef .tc Cert.KernelIdeal.main_v27) = (Cert.KernelIdeal.Gen.W2 m ρ c) (Proc.devRef .tc Cert.KernelIdeal.main_v27) by
    rw [Cert.KernelIdeal.Ops.hostOps1_split, after_app]; exact (Cert.KernelIdeal.Ops.k1b_keep _ Cert.KernelIdeal.main_v27 (by decide)).trans (Cert.KernelIdeal.Ops.k1a_keep _ Cert.KernelIdeal.main_v27 (by decide))).trans <|
  keep2_main_v27 m ρ c
theorem keep14_main_v27 : (Cert.KernelIdeal.Gen.W14 m ρ c) (Proc.devRef .tc Cert.KernelIdeal.main_v27) = (Cert.KernelIdeal.Gen.W1 m ρ c) (Proc.devRef .tc Cert.KernelIdeal.main_v27) :=
  (Cert.KernelIdeal.Gen.W14_of_ne m ρ c Cert.KernelIdeal.main_v27 (by decide)).trans <| (Cert.KernelIdeal.Ops.hostOps4_keep (Cert.KernelIdeal.Gen.W12 m ρ c) Cert.KernelIdeal.main_v27 (by decide)).trans <|
  (Cert.KernelIdeal.Gen.W12_of_ne m ρ c Cert.KernelIdeal.main_v27 (by decide)).trans <| (Cert.KernelIdeal.Ops.hostOps3_2_keep (Cert.KernelIdeal.Gen.W10 m ρ c) Cert.KernelIdeal.main_v27 (by decide)).trans <|
  (Cert.KernelIdeal.Ops.hostOps3_1_keep (Cert.KernelIdeal.Gen.W9 m ρ c) Cert.KernelIdeal.main_v27 (by decide)).trans <|
  (show after Cert.KernelIdeal.Gen.hostOps3 (Cert.KernelIdeal.Gen.W8 m ρ c) (Proc.devRef .tc Cert.KernelIdeal.main_v27) = (Cert.KernelIdeal.Gen.W8 m ρ c) (Proc.devRef .tc Cert.KernelIdeal.main_v27) by
    rw [Cert.KernelIdeal.Ops.hostOps3_split, after_app]; exact (Cert.KernelIdeal.Ops.k3b_keep _ Cert.KernelIdeal.main_v27 (by decide)).trans (Cert.KernelIdeal.Ops.k3a_keep _ Cert.KernelIdeal.main_v27 (by decide))).trans <|
  keep8_main_v27 m ρ c

/-- The buffer `main_v10` of the kernel's program is written once, in the first host stretch: no later stretch and no region
    touches it. Its contents at the later boundaries are those after that stretch. -/
theorem keep2_main_v10 : (Cert.KernelIdeal.Gen.W2 m ρ c) (Proc.devRef .tc Cert.KernelIdeal.main_v10) = (Cert.KernelIdeal.Gen.W1 m ρ c) (Proc.devRef .tc Cert.KernelIdeal.main_v10) := Cert.KernelIdeal.Gen.W2_of_ne m ρ c Cert.KernelIdeal.main_v10 (by decide)
theorem keep8_main_v10 : (Cert.KernelIdeal.Gen.W8 m ρ c) (Proc.devRef .tc Cert.KernelIdeal.main_v10) = (Cert.KernelIdeal.Gen.W1 m ρ c) (Proc.devRef .tc Cert.KernelIdeal.main_v10) :=
  (Cert.KernelIdeal.Gen.W8_of_ne m ρ c Cert.KernelIdeal.main_v10 (by decide)).trans <| (Cert.KernelIdeal.Ops.hostOps2_keep (Cert.KernelIdeal.Gen.W6 m ρ c) Cert.KernelIdeal.main_v10 (by decide)).trans <|
  (Cert.KernelIdeal.Gen.W6_of_ne m ρ c Cert.KernelIdeal.main_v10 (by decide)).trans <| (Cert.KernelIdeal.Ops.hostOps1_2_keep (Cert.KernelIdeal.Gen.W4 m ρ c) Cert.KernelIdeal.main_v10 (by decide)).trans <|
  (Cert.KernelIdeal.Ops.hostOps1_1_keep (Cert.KernelIdeal.Gen.W3 m ρ c) Cert.KernelIdeal.main_v10 (by decide)).trans <|
  (show after Cert.KernelIdeal.Gen.hostOps1 (Cert.KernelIdeal.Gen.W2 m ρ c) (Proc.devRef .tc Cert.KernelIdeal.main_v10) = (Cert.KernelIdeal.Gen.W2 m ρ c) (Proc.devRef .tc Cert.KernelIdeal.main_v10) by
    rw [Cert.KernelIdeal.Ops.hostOps1_split, after_app]; exact (Cert.KernelIdeal.Ops.k1b_keep _ Cert.KernelIdeal.main_v10 (by decide)).trans (Cert.KernelIdeal.Ops.k1a_keep _ Cert.KernelIdeal.main_v10 (by decide))).trans <|
  keep2_main_v10 m ρ c
theorem keep14_main_v10 : (Cert.KernelIdeal.Gen.W14 m ρ c) (Proc.devRef .tc Cert.KernelIdeal.main_v10) = (Cert.KernelIdeal.Gen.W1 m ρ c) (Proc.devRef .tc Cert.KernelIdeal.main_v10) :=
  (Cert.KernelIdeal.Gen.W14_of_ne m ρ c Cert.KernelIdeal.main_v10 (by decide)).trans <| (Cert.KernelIdeal.Ops.hostOps4_keep (Cert.KernelIdeal.Gen.W12 m ρ c) Cert.KernelIdeal.main_v10 (by decide)).trans <|
  (Cert.KernelIdeal.Gen.W12_of_ne m ρ c Cert.KernelIdeal.main_v10 (by decide)).trans <| (Cert.KernelIdeal.Ops.hostOps3_2_keep (Cert.KernelIdeal.Gen.W10 m ρ c) Cert.KernelIdeal.main_v10 (by decide)).trans <|
  (Cert.KernelIdeal.Ops.hostOps3_1_keep (Cert.KernelIdeal.Gen.W9 m ρ c) Cert.KernelIdeal.main_v10 (by decide)).trans <|
  (show after Cert.KernelIdeal.Gen.hostOps3 (Cert.KernelIdeal.Gen.W8 m ρ c) (Proc.devRef .tc Cert.KernelIdeal.main_v10) = (Cert.KernelIdeal.Gen.W8 m ρ c) (Proc.devRef .tc Cert.KernelIdeal.main_v10) by
    rw [Cert.KernelIdeal.Ops.hostOps3_split, after_app]; exact (Cert.KernelIdeal.Ops.k3b_keep _ Cert.KernelIdeal.main_v10 (by decide)).trans (Cert.KernelIdeal.Ops.k3a_keep _ Cert.KernelIdeal.main_v10 (by decide))).trans <|
  keep8_main_v10 m ρ c

set_option maxHeartbeats 4000000 in
/-- After layer 1's normalisation pass. -/
theorem upto1 (VR0 : Valuation Cert.ReferenceIdeal.τ Cert.ReferenceIdeal.sig (Elt Ideal)) (hag : Agree (τ := Cert.KernelIdeal.τ) Pargs (Cert.KernelIdeal.Gen.W0 m ρ c) VR0) :
    Agree (τ := Cert.KernelIdeal.τ) ((Cert.KernelIdeal.main_v61, Cert.ReferenceIdeal.main_v68) :: Pbase) (Cert.KernelIdeal.Gen.W6 m ρ c) (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0))))))) := by
  have a1 : Agree (τ := Cert.KernelIdeal.τ) Pbase (Cert.KernelIdeal.Gen.W1 m ρ c) (after Cert.ReferenceIdeal.Run.rN1 (after Cert.ReferenceIdeal.Run.r5 (after Cert.ReferenceIdeal.Run.rA VR0))) := by
    have h := Lockstep.start (F := Ideal) _ _ hag
    rwa [after_app, after_app] at h
  have e0 : (after Cert.ReferenceIdeal.Run.rN1 (after Cert.ReferenceIdeal.Run.r5 (after Cert.ReferenceIdeal.Run.rA VR0))) (Proc.devRef .tc Cert.ReferenceIdeal.main_arg0) = (after Cert.ReferenceIdeal.Run.rA VR0) (Proc.devRef .tc Cert.ReferenceIdeal.main_arg0) := by
    rw [Cert.ReferenceIdeal.Run.rN1_keep _ Cert.ReferenceIdeal.main_arg0 (by decide), Cert.ReferenceIdeal.Run.r5_keep _ Cert.ReferenceIdeal.main_arg0 (by decide)]
  have e5 : (after Cert.ReferenceIdeal.Run.rN1 (after Cert.ReferenceIdeal.Run.r5 (after Cert.ReferenceIdeal.Run.rA VR0))) (Proc.devRef .tc Cert.ReferenceIdeal.main_arg5) = (after Cert.ReferenceIdeal.Run.rA VR0) (Proc.devRef .tc Cert.ReferenceIdeal.main_arg5) := by
    rw [Cert.ReferenceIdeal.Run.rN1_keep _ Cert.ReferenceIdeal.main_arg5 (by decide), Cert.ReferenceIdeal.Run.r5_keep _ Cert.ReferenceIdeal.main_arg5 (by decide)]
  have a2 := Glue.mm0 m ρ c (after Cert.ReferenceIdeal.Run.rN1 (after Cert.ReferenceIdeal.Run.r5 (after Cert.ReferenceIdeal.Run.rA VR0))) (by rw [e0, e5, Cert.ReferenceIdeal.Run.rN1_keep _ Cert.ReferenceIdeal.main_v5 (by decide)]; exact Cert.ReferenceIdeal.Run.r5_value (after Cert.ReferenceIdeal.Run.rA VR0)) a1
  have a3 := Lockstep.layer1a (F := Ideal) _ _ a2
  have hk : (after Cert.KernelIdeal.Ops.k1a (Cert.KernelIdeal.Gen.W2 m ρ c)) (Proc.devRef .tc Cert.KernelIdeal.main_v27)
      = (mulf (F := Ideal) (φ := .f32) ((after Cert.KernelIdeal.Ops.k1a (Cert.KernelIdeal.Gen.W2 m ρ c)) (Proc.devRef .tc Cert.KernelIdeal.main_v10)) ((after Cert.KernelIdeal.Ops.k1a (Cert.KernelIdeal.Gen.W2 m ρ c)) (Proc.devRef .tc Cert.KernelIdeal.main_v10)) : (⟨Cert.KernelIdeal.S20000, .f32⟩ : BufTy).Contents (Elt Ideal)) := by
    rw [Cert.KernelIdeal.Ops.k1a_keep _ Cert.KernelIdeal.main_v27 (by decide), Cert.KernelIdeal.Ops.k1a_keep _ Cert.KernelIdeal.main_v10 (by decide), keep2_main_v27 m ρ c, keep2_main_v10 m ρ c]
    exact Cert.KernelIdeal.Ops.hostOps0_v27 (Cert.KernelIdeal.Gen.W0 m ρ c)
  have a4 := Glue.selfLoop1 _ _ hk a3
  have a5 := Lockstep.layer1b (F := Ideal) _ _ a4
  have hW : Cert.KernelIdeal.Gen.W4 m ρ c = after (Cert.KernelIdeal.Ops.k1b ++ Cert.KernelIdeal.Gen.hostOps1_1) (after Cert.KernelIdeal.Ops.k1a (Cert.KernelIdeal.Gen.W2 m ρ c)) := by
    show after Cert.KernelIdeal.Gen.hostOps1_1 (after Cert.KernelIdeal.Gen.hostOps1 (Cert.KernelIdeal.Gen.W2 m ρ c)) = _
    rw [Cert.KernelIdeal.Ops.hostOps1_split, after_app, after_app]
  rw [← hW] at a5
  exact Glue.bn1 m ρ c _ (Cert.ReferenceIdeal.Run.rL1b_relu _) a5

set_option maxHeartbeats 4000000 in
/-- After layer 2's normalisation pass. -/
theorem upto2 (VR0 : Valuation Cert.ReferenceIdeal.τ Cert.ReferenceIdeal.sig (Elt Ideal)) (hag : Agree (τ := Cert.KernelIdeal.τ) Pargs (Cert.KernelIdeal.Gen.W0 m ρ c) VR0) :
    Agree (τ := Cert.KernelIdeal.τ) ((Cert.KernelIdeal.main_v95, Cert.ReferenceIdeal.main_v132) :: Pbase) (Cert.KernelIdeal.Gen.W12 m ρ c) (after Cert.ReferenceIdeal.Run.rBN2 (after Cert.ReferenceIdeal.Run.rL2b (after Cert.ReferenceIdeal.Run.r105 (after Cert.ReferenceIdeal.Run.rL2a (after Cert.ReferenceIdeal.Run.rN2 (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0))))))))))))) := by
  have a7 := Glue.mm2 m ρ c _ (upto1 m ρ c VR0 hag)
  have h4 : (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))) (Proc.devRef .tc Cert.ReferenceIdeal.main_v4) = (after Cert.ReferenceIdeal.Run.r5 (after Cert.ReferenceIdeal.Run.rA VR0)) (Proc.devRef .tc Cert.ReferenceIdeal.main_v4) := by rw [Cert.ReferenceIdeal.Run.r69_keep _ Cert.ReferenceIdeal.main_v4 (by decide), Cert.ReferenceIdeal.Run.rBN1_keep _ Cert.ReferenceIdeal.main_v4 (by decide), Cert.ReferenceIdeal.Run.rL1b_keep _ Cert.ReferenceIdeal.main_v4 (by decide), Cert.ReferenceIdeal.Run.r41_keep _ Cert.ReferenceIdeal.main_v4 (by decide), Cert.ReferenceIdeal.Run.rL1a_keep _ Cert.ReferenceIdeal.main_v4 (by decide), Cert.ReferenceIdeal.Run.rN1_keep _ Cert.ReferenceIdeal.main_v4 (by decide)]
  have h3 : (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))) (Proc.devRef .tc Cert.ReferenceIdeal.main_v3) = (after Cert.ReferenceIdeal.Run.r5 (after Cert.ReferenceIdeal.Run.rA VR0)) (Proc.devRef .tc Cert.ReferenceIdeal.main_v3) := by rw [Cert.ReferenceIdeal.Run.r69_keep _ Cert.ReferenceIdeal.main_v3 (by decide), Cert.ReferenceIdeal.Run.rBN1_keep _ Cert.ReferenceIdeal.main_v3 (by decide), Cert.ReferenceIdeal.Run.rL1b_keep _ Cert.ReferenceIdeal.main_v3 (by decide), Cert.ReferenceIdeal.Run.r41_keep _ Cert.ReferenceIdeal.main_v3 (by decide), Cert.ReferenceIdeal.Run.rL1a_keep _ Cert.ReferenceIdeal.main_v3 (by decide), Cert.ReferenceIdeal.Run.rN1_keep _ Cert.ReferenceIdeal.main_v3 (by decide)]
  have h1 : (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))) (Proc.devRef .tc Cert.ReferenceIdeal.main_v1) = (after Cert.ReferenceIdeal.Run.r5 (after Cert.ReferenceIdeal.Run.rA VR0)) (Proc.devRef .tc Cert.ReferenceIdeal.main_v1) := by rw [Cert.ReferenceIdeal.Run.r69_keep _ Cert.ReferenceIdeal.main_v1 (by decide), Cert.ReferenceIdeal.Run.rBN1_keep _ Cert.ReferenceIdeal.main_v1 (by decide), Cert.ReferenceIdeal.Run.rL1b_keep _ Cert.ReferenceIdeal.main_v1 (by decide), Cert.ReferenceIdeal.Run.r41_keep _ Cert.ReferenceIdeal.main_v1 (by decide), Cert.ReferenceIdeal.Run.rL1a_keep _ Cert.ReferenceIdeal.main_v1 (by decide), Cert.ReferenceIdeal.Run.rN1_keep _ Cert.ReferenceIdeal.main_v1 (by decide)]
  have h27 : (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))) (Proc.devRef .tc Cert.ReferenceIdeal.main_v27) = (after Cert.ReferenceIdeal.Run.rN1 (after Cert.ReferenceIdeal.Run.r5 (after Cert.ReferenceIdeal.Run.rA VR0))) (Proc.devRef .tc Cert.ReferenceIdeal.main_v27) := by rw [Cert.ReferenceIdeal.Run.r69_keep _ Cert.ReferenceIdeal.main_v27 (by decide), Cert.ReferenceIdeal.Run.rBN1_keep _ Cert.ReferenceIdeal.main_v27 (by decide), Cert.ReferenceIdeal.Run.rL1b_keep _ Cert.ReferenceIdeal.main_v27 (by decide), Cert.ReferenceIdeal.Run.r41_keep _ Cert.ReferenceIdeal.main_v27 (by decide), Cert.ReferenceIdeal.Run.rL1a_keep _ Cert.ReferenceIdeal.main_v27 (by decide)]
  have h11 : (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))) (Proc.devRef .tc Cert.ReferenceIdeal.main_v11) = (after Cert.ReferenceIdeal.Run.rN1 (after Cert.ReferenceIdeal.Run.r5 (after Cert.ReferenceIdeal.Run.rA VR0))) (Proc.devRef .tc Cert.ReferenceIdeal.main_v11) := by rw [Cert.ReferenceIdeal.Run.r69_keep _ Cert.ReferenceIdeal.main_v11 (by decide), Cert.ReferenceIdeal.Run.rBN1_keep _ Cert.ReferenceIdeal.main_v11 (by decide), Cert.ReferenceIdeal.Run.rL1b_keep _ Cert.ReferenceIdeal.main_v11 (by decide), Cert.ReferenceIdeal.Run.r41_keep _ Cert.ReferenceIdeal.main_v11 (by decide), Cert.ReferenceIdeal.Run.rL1a_keep _ Cert.ReferenceIdeal.main_v11 (by decide)]
  have a8 := Glue.renorm2 _ _ _ h4 h3 h1 h27 h11 a7
  have a9 := Lockstep.layer2a (F := Ideal) _ _ a8
  have hk : (after Cert.KernelIdeal.Ops.k3a (Cert.KernelIdeal.Gen.W8 m ρ c)) (Proc.devRef .tc Cert.KernelIdeal.main_v27)
      = (mulf (F := Ideal) (φ := .f32) ((after Cert.KernelIdeal.Ops.k3a (Cert.KernelIdeal.Gen.W8 m ρ c)) (Proc.devRef .tc Cert.KernelIdeal.main_v10)) ((after Cert.KernelIdeal.Ops.k3a (Cert.KernelIdeal.Gen.W8 m ρ c)) (Proc.devRef .tc Cert.KernelIdeal.main_v10)) : (⟨Cert.KernelIdeal.S20000, .f32⟩ : BufTy).Contents (Elt Ideal)) := by
    rw [Cert.KernelIdeal.Ops.k3a_keep _ Cert.KernelIdeal.main_v27 (by decide), Cert.KernelIdeal.Ops.k3a_keep _ Cert.KernelIdeal.main_v10 (by decide), keep8_main_v27 m ρ c, keep8_main_v10 m ρ c]
    exact Cert.KernelIdeal.Ops.hostOps0_v27 (Cert.KernelIdeal.Gen.W0 m ρ c)
  have a10 := (Glue.selfLoop2 _ _ hk a9).mono (Q := (Cert.KernelIdeal.main_v27, Cert.ReferenceIdeal.main_v105) :: (Cert.KernelIdeal.main_v77, Cert.ReferenceIdeal.main_v104) :: (Cert.KernelIdeal.main_v64, Cert.ReferenceIdeal.main_v69) :: Pbase) (by pairs_sub)
  have a11 := Lockstep.layer2b (F := Ideal) _ _ a10
  have hW : Cert.KernelIdeal.Gen.W10 m ρ c = after (Cert.KernelIdeal.Ops.k3b ++ Cert.KernelIdeal.Gen.hostOps3_1) (after Cert.KernelIdeal.Ops.k3a (Cert.KernelIdeal.Gen.W8 m ρ c)) := by
    show after Cert.KernelIdeal.Gen.hostOps3_1 (after Cert.KernelIdeal.Gen.hostOps3 (Cert.KernelIdeal.Gen.W8 m ρ c)) = _
    rw [Cert.KernelIdeal.Ops.hostOps3_split, after_app, after_app]
  rw [← hW] at a11
  exact Glue.bn3 m ρ c _ (Cert.ReferenceIdeal.Run.rL2b_relu _) a11

set_option maxHeartbeats 4000000 in
/-- After layer 3's normalisation pass. -/
theorem upto3 (VR0 : Valuation Cert.ReferenceIdeal.τ Cert.ReferenceIdeal.sig (Elt Ideal)) (hag : Agree (τ := Cert.KernelIdeal.τ) Pargs (Cert.KernelIdeal.Gen.W0 m ρ c) VR0) :
    Agree (τ := Cert.KernelIdeal.τ) ((Cert.KernelIdeal.main_v127, Cert.ReferenceIdeal.main_v195) :: Pbase) (Cert.KernelIdeal.Gen.W18 m ρ c) (after Cert.ReferenceIdeal.Run.rBN3 (after Cert.ReferenceIdeal.Run.rL3b (after Cert.ReferenceIdeal.Run.r169 (after Cert.ReferenceIdeal.Run.rL3a (after Cert.ReferenceIdeal.Run.rN3 (after Cert.ReferenceIdeal.Run.r133 (after Cert.ReferenceIdeal.Run.rBN2 (after Cert.ReferenceIdeal.Run.rL2b (after Cert.ReferenceIdeal.Run.r105 (after Cert.ReferenceIdeal.Run.rL2a (after Cert.ReferenceIdeal.Run.rN2 (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0))))))))))))))))))) := by
  have a13 := Glue.mm4 m ρ c _ (upto2 m ρ c VR0 hag)
  have h4 : (after Cert.ReferenceIdeal.Run.r133 (after Cert.ReferenceIdeal.Run.rBN2 (after Cert.ReferenceIdeal.Run.rL2b (after Cert.ReferenceIdeal.Run.r105 (after Cert.ReferenceIdeal.Run.rL2a (after Cert.ReferenceIdeal.Run.rN2 (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))))))))) (Proc.devRef .tc Cert.ReferenceIdeal.main_v4) = (after Cert.ReferenceIdeal.Run.r5 (after Cert.ReferenceIdeal.Run.rA VR0)) (Proc.devRef .tc Cert.ReferenceIdeal.main_v4) := by rw [Cert.ReferenceIdeal.Run.r133_keep _ Cert.ReferenceIdeal.main_v4 (by decide), Cert.ReferenceIdeal.Run.rBN2_keep _ Cert.ReferenceIdeal.main_v4 (by decide), Cert.ReferenceIdeal.Run.rL2b_keep _ Cert.ReferenceIdeal.main_v4 (by decide), Cert.ReferenceIdeal.Run.r105_keep _ Cert.ReferenceIdeal.main_v4 (by decide), Cert.ReferenceIdeal.Run.rL2a_keep _ Cert.ReferenceIdeal.main_v4 (by decide), Cert.ReferenceIdeal.Run.rN2_keep _ Cert.ReferenceIdeal.main_v4 (by decide), Cert.ReferenceIdeal.Run.r69_keep _ Cert.ReferenceIdeal.main_v4 (by decide), Cert.ReferenceIdeal.Run.rBN1_keep _ Cert.ReferenceIdeal.main_v4 (by decide), Cert.ReferenceIdeal.Run.rL1b_keep _ Cert.ReferenceIdeal.main_v4 (by decide), Cert.ReferenceIdeal.Run.r41_keep _ Cert.ReferenceIdeal.main_v4 (by decide), Cert.ReferenceIdeal.Run.rL1a_keep _ Cert.ReferenceIdeal.main_v4 (by decide), Cert.ReferenceIdeal.Run.rN1_keep _ Cert.ReferenceIdeal.main_v4 (by decide)]
  have h3 : (after Cert.ReferenceIdeal.Run.r133 (after Cert.ReferenceIdeal.Run.rBN2 (after Cert.ReferenceIdeal.Run.rL2b (after Cert.ReferenceIdeal.Run.r105 (after Cert.ReferenceIdeal.Run.rL2a (after Cert.ReferenceIdeal.Run.rN2 (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))))))))) (Proc.devRef .tc Cert.ReferenceIdeal.main_v3) = (after Cert.ReferenceIdeal.Run.r5 (after Cert.ReferenceIdeal.Run.rA VR0)) (Proc.devRef .tc Cert.ReferenceIdeal.main_v3) := by rw [Cert.ReferenceIdeal.Run.r133_keep _ Cert.ReferenceIdeal.main_v3 (by decide), Cert.ReferenceIdeal.Run.rBN2_keep _ Cert.ReferenceIdeal.main_v3 (by decide), Cert.ReferenceIdeal.Run.rL2b_keep _ Cert.ReferenceIdeal.main_v3 (by decide), Cert.ReferenceIdeal.Run.r105_keep _ Cert.ReferenceIdeal.main_v3 (by decide), Cert.ReferenceIdeal.Run.rL2a_keep _ Cert.ReferenceIdeal.main_v3 (by decide), Cert.ReferenceIdeal.Run.rN2_keep _ Cert.ReferenceIdeal.main_v3 (by decide), Cert.ReferenceIdeal.Run.r69_keep _ Cert.ReferenceIdeal.main_v3 (by decide), Cert.ReferenceIdeal.Run.rBN1_keep _ Cert.ReferenceIdeal.main_v3 (by decide), Cert.ReferenceIdeal.Run.rL1b_keep _ Cert.ReferenceIdeal.main_v3 (by decide), Cert.ReferenceIdeal.Run.r41_keep _ Cert.ReferenceIdeal.main_v3 (by decide), Cert.ReferenceIdeal.Run.rL1a_keep _ Cert.ReferenceIdeal.main_v3 (by decide), Cert.ReferenceIdeal.Run.rN1_keep _ Cert.ReferenceIdeal.main_v3 (by decide)]
  have h1 : (after Cert.ReferenceIdeal.Run.r133 (after Cert.ReferenceIdeal.Run.rBN2 (after Cert.ReferenceIdeal.Run.rL2b (after Cert.ReferenceIdeal.Run.r105 (after Cert.ReferenceIdeal.Run.rL2a (after Cert.ReferenceIdeal.Run.rN2 (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))))))))) (Proc.devRef .tc Cert.ReferenceIdeal.main_v1) = (after Cert.ReferenceIdeal.Run.r5 (after Cert.ReferenceIdeal.Run.rA VR0)) (Proc.devRef .tc Cert.ReferenceIdeal.main_v1) := by rw [Cert.ReferenceIdeal.Run.r133_keep _ Cert.ReferenceIdeal.main_v1 (by decide), Cert.ReferenceIdeal.Run.rBN2_keep _ Cert.ReferenceIdeal.main_v1 (by decide), Cert.ReferenceIdeal.Run.rL2b_keep _ Cert.ReferenceIdeal.main_v1 (by decide), Cert.ReferenceIdeal.Run.r105_keep _ Cert.ReferenceIdeal.main_v1 (by decide), Cert.ReferenceIdeal.Run.rL2a_keep _ Cert.ReferenceIdeal.main_v1 (by decide), Cert.ReferenceIdeal.Run.rN2_keep _ Cert.ReferenceIdeal.main_v1 (by decide), Cert.ReferenceIdeal.Run.r69_keep _ Cert.ReferenceIdeal.main_v1 (by decide), Cert.ReferenceIdeal.Run.rBN1_keep _ Cert.ReferenceIdeal.main_v1 (by decide), Cert.ReferenceIdeal.Run.rL1b_keep _ Cert.ReferenceIdeal.main_v1 (by decide), Cert.ReferenceIdeal.Run.r41_keep _ Cert.ReferenceIdeal.main_v1 (by decide), Cert.ReferenceIdeal.Run.rL1a_keep _ Cert.ReferenceIdeal.main_v1 (by decide), Cert.ReferenceIdeal.Run.rN1_keep _ Cert.ReferenceIdeal.main_v1 (by decide)]
  have h27 : (after Cert.ReferenceIdeal.Run.r133 (after Cert.ReferenceIdeal.Run.rBN2 (after Cert.ReferenceIdeal.Run.rL2b (after Cert.ReferenceIdeal.Run.r105 (after Cert.ReferenceIdeal.Run.rL2a (after Cert.ReferenceIdeal.Run.rN2 (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))))))))) (Proc.devRef .tc Cert.ReferenceIdeal.main_v27) = (after Cert.ReferenceIdeal.Run.rN1 (after Cert.ReferenceIdeal.Run.r5 (after Cert.ReferenceIdeal.Run.rA VR0))) (Proc.devRef .tc Cert.ReferenceIdeal.main_v27) := by rw [Cert.ReferenceIdeal.Run.r133_keep _ Cert.ReferenceIdeal.main_v27 (by decide), Cert.ReferenceIdeal.Run.rBN2_keep _ Cert.ReferenceIdeal.main_v27 (by decide), Cert.ReferenceIdeal.Run.rL2b_keep _ Cert.ReferenceIdeal.main_v27 (by decide), Cert.ReferenceIdeal.Run.r105_keep _ Cert.ReferenceIdeal.main_v27 (by decide), Cert.ReferenceIdeal.Run.rL2a_keep _ Cert.ReferenceIdeal.main_v27 (by decide), Cert.ReferenceIdeal.Run.rN2_keep _ Cert.ReferenceIdeal.main_v27 (by decide), Cert.ReferenceIdeal.Run.r69_keep _ Cert.ReferenceIdeal.main_v27 (by decide), Cert.ReferenceIdeal.Run.rBN1_keep _ Cert.ReferenceIdeal.main_v27 (by decide), Cert.ReferenceIdeal.Run.rL1b_keep _ Cert.ReferenceIdeal.main_v27 (by decide), Cert.ReferenceIdeal.Run.r41_keep _ Cert.ReferenceIdeal.main_v27 (by decide), Cert.ReferenceIdeal.Run.rL1a_keep _ Cert.ReferenceIdeal.main_v27 (by decide)]
  have h11 : (after Cert.ReferenceIdeal.Run.r133 (after Cert.ReferenceIdeal.Run.rBN2 (after Cert.ReferenceIdeal.Run.rL2b (after Cert.ReferenceIdeal.Run.r105 (after Cert.ReferenceIdeal.Run.rL2a (after Cert.ReferenceIdeal.Run.rN2 (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))))))))) (Proc.devRef .tc Cert.ReferenceIdeal.main_v11) = (after Cert.ReferenceIdeal.Run.rN1 (after Cert.ReferenceIdeal.Run.r5 (after Cert.ReferenceIdeal.Run.rA VR0))) (Proc.devRef .tc Cert.ReferenceIdeal.main_v11) := by rw [Cert.ReferenceIdeal.Run.r133_keep _ Cert.ReferenceIdeal.main_v11 (by decide), Cert.ReferenceIdeal.Run.rBN2_keep _ Cert.ReferenceIdeal.main_v11 (by decide), Cert.ReferenceIdeal.Run.rL2b_keep _ Cert.ReferenceIdeal.main_v11 (by decide), Cert.ReferenceIdeal.Run.r105_keep _ Cert.ReferenceIdeal.main_v11 (by decide), Cert.ReferenceIdeal.Run.rL2a_keep _ Cert.ReferenceIdeal.main_v11 (by decide), Cert.ReferenceIdeal.Run.rN2_keep _ Cert.ReferenceIdeal.main_v11 (by decide), Cert.ReferenceIdeal.Run.r69_keep _ Cert.ReferenceIdeal.main_v11 (by decide), Cert.ReferenceIdeal.Run.rBN1_keep _ Cert.ReferenceIdeal.main_v11 (by decide), Cert.ReferenceIdeal.Run.rL1b_keep _ Cert.ReferenceIdeal.main_v11 (by decide), Cert.ReferenceIdeal.Run.r41_keep _ Cert.ReferenceIdeal.main_v11 (by decide), Cert.ReferenceIdeal.Run.rL1a_keep _ Cert.ReferenceIdeal.main_v11 (by decide)]
  have a14 := Glue.renorm3 _ _ _ h4 h3 h1 h27 h11 a13
  have a15 := Lockstep.layer3a (F := Ideal) _ _ a14
  have hk : (after Cert.KernelIdeal.Ops.k5a (Cert.KernelIdeal.Gen.W14 m ρ c)) (Proc.devRef .tc Cert.KernelIdeal.main_v27)
      = (mulf (F := Ideal) (φ := .f32) ((after Cert.KernelIdeal.Ops.k5a (Cert.KernelIdeal.Gen.W14 m ρ c)) (Proc.devRef .tc Cert.KernelIdeal.main_v10)) ((after Cert.KernelIdeal.Ops.k5a (Cert.KernelIdeal.Gen.W14 m ρ c)) (Proc.devRef .tc Cert.KernelIdeal.main_v10)) : (⟨Cert.KernelIdeal.S20000, .f32⟩ : BufTy).Contents (Elt Ideal)) := by
    rw [Cert.KernelIdeal.Ops.k5a_keep _ Cert.KernelIdeal.main_v27 (by decide), Cert.KernelIdeal.Ops.k5a_keep _ Cert.KernelIdeal.main_v10 (by decide), keep14_main_v27 m ρ c, keep14_main_v10 m ρ c]
    exact Cert.KernelIdeal.Ops.hostOps0_v27 (Cert.KernelIdeal.Gen.W0 m ρ c)
  have a16 := (Glue.selfLoop3 _ _ hk a15).mono (Q := (Cert.KernelIdeal.main_v27, Cert.ReferenceIdeal.main_v169) :: (Cert.KernelIdeal.main_v111, Cert.ReferenceIdeal.main_v168) :: (Cert.KernelIdeal.main_v98, Cert.ReferenceIdeal.main_v133) :: Pbase) (by pairs_sub)
  have a17 := Lockstep.layer3b (F := Ideal) _ _ a16
  have hW : Cert.KernelIdeal.Gen.W16 m ρ c = after (Cert.KernelIdeal.Ops.k5b ++ Cert.KernelIdeal.Gen.hostOps5_1) (after Cert.KernelIdeal.Ops.k5a (Cert.KernelIdeal.Gen.W14 m ρ c)) := by
    show after Cert.KernelIdeal.Gen.hostOps5_1 (after Cert.KernelIdeal.Gen.hostOps5 (Cert.KernelIdeal.Gen.W14 m ρ c)) = _
    rw [Cert.KernelIdeal.Ops.hostOps5_split, after_app, after_app]
  rw [← hW] at a17
  exact Glue.bn5 m ρ c _ a17

set_option maxHeartbeats 4000000 in
/-- What the kernel's program returns is what the reference returns. -/
theorem result_eq (VR0 : Valuation Cert.ReferenceIdeal.τ Cert.ReferenceIdeal.sig (Elt Ideal)) (hag : Agree (τ := Cert.KernelIdeal.τ) Pargs (Cert.KernelIdeal.Gen.W0 m ρ c) VR0) :
    HEq (Cert.KernelIdeal.Gen.W19 m ρ c (Proc.devRef .tc Cert.KernelIdeal.main_v154)) (after Cert.ReferenceIdeal.Run.ops VR0 (Proc.devRef .tc Cert.ReferenceIdeal.main_v222)) := by
  have a := Lockstep.head (F := Ideal) _ _ (upto3 m ρ c VR0 hag)
  have h := a.get (show (Cert.KernelIdeal.main_v154, Cert.ReferenceIdeal.main_v222) ∈ _ by pair_mem)
  have e : after (Cert.ReferenceIdeal.Run.ops (F := Ideal)) VR0 = (after Cert.ReferenceIdeal.Run.rH (after Cert.ReferenceIdeal.Run.rBN3 (after Cert.ReferenceIdeal.Run.rL3b (after Cert.ReferenceIdeal.Run.r169 (after Cert.ReferenceIdeal.Run.rL3a (after Cert.ReferenceIdeal.Run.rN3 (after Cert.ReferenceIdeal.Run.r133 (after Cert.ReferenceIdeal.Run.rBN2 (after Cert.ReferenceIdeal.Run.rL2b (after Cert.ReferenceIdeal.Run.r105 (after Cert.ReferenceIdeal.Run.rL2a (after Cert.ReferenceIdeal.Run.rN2 (after Cert.ReferenceIdeal.Run.r69 (after Cert.ReferenceIdeal.Run.rBN1 (after Cert.ReferenceIdeal.Run.rL1b (after Cert.ReferenceIdeal.Run.r41 (after Cert.ReferenceIdeal.Run.rL1a (after Cert.ReferenceIdeal.Run.rN1 (after Cert.ReferenceIdeal.Run.r5 (after Cert.ReferenceIdeal.Run.rA VR0)))))))))))))))))))) := by
    simp only [Cert.ReferenceIdeal.Run.ops, after_app]
  rw [e]
  exact h

end Cert.Proof.Chain
end
-- ==== Proof.lean ====
/- The certificate of a three-layer graph convolution with batch normalisation, pooling and a dense head, written with six
   pipeline regions (three blocked matmuls on bf16 operands, three normalisation passes) against the same network written
   with host operations only.
   Over the extended reals a change of float format is the identity, a matmul accumulated into zero is the product, and
   the normalisation pass is the same expression on both sides; everything else the two programs do is the same host
   operation on the same values. So the two result arrays are equal: the host stretches are stepped in lockstep, the
   regions are read as whole-array values, and the reference's repeated degree normalisation is paired with its first
   computation. The three frames are the generated frames of the two kernel programs and the reference's straight-line
   run; the idealization rewrote nothing. -/
import proofs.«116345_j32049045962841_1_alg».proof.Defs
import proofs.«116345_j32049045962841_1_alg».proof.Proof.Gen.Kernel
import proofs.«116345_j32049045962841_1_alg».proof.Proof.Gen.Kernel.Frame
import proofs.«116345_j32049045962841_1_alg».proof.Proof.Gen.KernelIdeal
import proofs.«116345_j32049045962841_1_alg».proof.Proof.Gen.KernelIdeal.Frame
import proofs.«116345_j32049045962841_1_alg».proof.Proof.Gen.ReferenceIdeal
import proofs.«116345_j32049045962841_1_alg».proof.Proof.Gen.Pre_finite_inputs
import proofs.«116345_j32049045962841_1_alg».proof.Proof.KFrameValue
import proofs.«116345_j32049045962841_1_alg».proof.Proof.RefRun
import proofs.«116345_j32049045962841_1_alg».proof.Proof.Chain

noncomputable section

namespace Cert.Proof

open Idealize.ShloMosaic Idealize.ShloMosaic.StableHlo Idealize.SL.Sem Cert.Proof.Lockstep

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations, none of which writes an argument array. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Run.arg0_kept _),
      (h c Cert.ReferenceIdeal.main_arg1).trans (Cert.ReferenceIdeal.Run.arg1_kept _),
      (h c Cert.ReferenceIdeal.main_arg2).trans (Cert.ReferenceIdeal.Run.arg2_kept _),
      (h c Cert.ReferenceIdeal.main_arg3).trans (Cert.ReferenceIdeal.Run.arg3_kept _),
      (h c Cert.ReferenceIdeal.main_arg4).trans (Cert.ReferenceIdeal.Run.arg4_kept _),
      (h c Cert.ReferenceIdeal.main_arg5).trans (Cert.ReferenceIdeal.Run.arg5_kept _),
      (h c Cert.ReferenceIdeal.main_arg6).trans (Cert.ReferenceIdeal.Run.arg6_kept _),
      (h c Cert.ReferenceIdeal.main_arg7).trans (Cert.ReferenceIdeal.Run.arg7_kept _),
      (h c Cert.ReferenceIdeal.main_arg8).trans (Cert.ReferenceIdeal.Run.arg8_kept _),
      (h c Cert.ReferenceIdeal.main_arg9).trans (Cert.ReferenceIdeal.Run.arg9_kept _),
      (h c Cert.ReferenceIdeal.main_arg10).trans (Cert.ReferenceIdeal.Run.arg10_kept _),
      (h c Cert.ReferenceIdeal.main_arg11).trans (Cert.ReferenceIdeal.Run.arg11_kept _),
      (h c Cert.ReferenceIdeal.main_arg12).trans (Cert.ReferenceIdeal.Run.arg12_kept _),
      (h c Cert.ReferenceIdeal.main_arg13).trans (Cert.ReferenceIdeal.Run.arg13_kept _),
      (h c Cert.ReferenceIdeal.main_arg14).trans (Cert.ReferenceIdeal.Run.arg14_kept _),
      (h c Cert.ReferenceIdeal.main_arg15).trans (Cert.ReferenceIdeal.Run.arg15_kept _),
      (h c Cert.ReferenceIdeal.main_arg16).trans (Cert.ReferenceIdeal.Run.arg16_kept _),
      (h c Cert.ReferenceIdeal.main_arg17).trans (Cert.ReferenceIdeal.Run.arg17_kept _),
      (h c Cert.ReferenceIdeal.main_arg18).trans (Cert.ReferenceIdeal.Run.arg18_kept _),
      (h c Cert.ReferenceIdeal.main_arg19).trans (Cert.ReferenceIdeal.Run.arg19_kept _),
      (h c Cert.ReferenceIdeal.main_arg20).trans (Cert.ReferenceIdeal.Run.arg20_kept _)⟩)
    (Cert.ReferenceIdeal.Run.run (F := Ideal) m ρ)

/-- Memories that agree on the arguments agree on the pairs of argument buffers. -/
theorem agree_args (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Agree (τ := Cert.KernelIdeal.τ) Pargs (Cert.KernelIdeal.Gen.W0 m ρ c) (launchContents m' c) := by
  obtain ⟨h0, h1, h2, h3, h4, h5, h6, h7, h8, h9, h10, h11, h12, h13, h14, h15, h16, h17, h18, h19, h20⟩ := hagree
  exact (Agree.cons (heq_of_eq h0.symm) (Agree.cons (heq_of_eq h1.symm) (Agree.cons (heq_of_eq h2.symm) (Agree.cons (heq_of_eq h3.symm) (Agree.cons (heq_of_eq h4.symm) (Agree.cons (heq_of_eq h5.symm) (Agree.cons (heq_of_eq h6.symm) (Agree.cons (heq_of_eq h7.symm) (Agree.cons (heq_of_eq h8.symm) (Agree.cons (heq_of_eq h9.symm) (Agree.cons (heq_of_eq h10.symm) (Agree.cons (heq_of_eq h11.symm) (Agree.cons (heq_of_eq h12.symm) (Agree.cons (heq_of_eq h13.symm) (Agree.cons (heq_of_eq h14.symm) (Agree.cons (heq_of_eq h15.symm) (Agree.cons (heq_of_eq h16.symm) (Agree.cons (heq_of_eq h17.symm) (Agree.cons (heq_of_eq h18.symm) (Agree.cons (heq_of_eq h19.symm) (Agree.cons (heq_of_eq h20.symm) Agree.nil)))))))))))))))))))))

/-- Both programs run; the kernel program's result is the last boundary's contents of its result buffer, and the
    reference's result buffer ends at the same contents. -/
theorem algebraic : Cert.algebraic_KernelIdeal_ReferenceIdeal := by
  intro m ρ m' ρ' _ hagree
  refine ⟨fun c => Cert.KernelIdeal.Gen.W19 m ρ c (Proc.devRef .tc Cert.KernelIdeal.main_v154), Cert.KernelIdeal.GenV.frame_value (F := Ideal) m ρ, ?_⟩
  refine (θ_run Cert.ReferenceIdeal.defs _ _).mono (fun r h c =>
    ⟨(h c Cert.ReferenceIdeal.main_v222).trans (eq_of_heq (Cert.Proof.Chain.result_eq m ρ c _ (agree_args m ρ m' c (hagree c)))).symm,
      (h c Cert.ReferenceIdeal.main_arg0).trans (Cert.ReferenceIdeal.Run.arg0_kept _),
      (h c Cert.ReferenceIdeal.main_arg1).trans (Cert.ReferenceIdeal.Run.arg1_kept _),
      (h c Cert.ReferenceIdeal.main_arg2).trans (Cert.ReferenceIdeal.Run.arg2_kept _),
      (h c Cert.ReferenceIdeal.main_arg3).trans (Cert.ReferenceIdeal.Run.arg3_kept _),
      (h c Cert.ReferenceIdeal.main_arg4).trans (Cert.ReferenceIdeal.Run.arg4_kept _),
      (h c Cert.ReferenceIdeal.main_arg5).trans (Cert.ReferenceIdeal.Run.arg5_kept _),
      (h c Cert.ReferenceIdeal.main_arg6).trans (Cert.ReferenceIdeal.Run.arg6_kept _),
      (h c Cert.ReferenceIdeal.main_arg7).trans (Cert.ReferenceIdeal.Run.arg7_kept _),
      (h c Cert.ReferenceIdeal.main_arg8).trans (Cert.ReferenceIdeal.Run.arg8_kept _),
      (h c Cert.ReferenceIdeal.main_arg9).trans (Cert.ReferenceIdeal.Run.arg9_kept _),
      (h c Cert.ReferenceIdeal.main_arg10).trans (Cert.ReferenceIdeal.Run.arg10_kept _),
      (h c Cert.ReferenceIdeal.main_arg11).trans (Cert.ReferenceIdeal.Run.arg11_kept _),
      (h c Cert.ReferenceIdeal.main_arg12).trans (Cert.ReferenceIdeal.Run.arg12_kept _),
      (h c Cert.ReferenceIdeal.main_arg13).trans (Cert.ReferenceIdeal.Run.arg13_kept _),
      (h c Cert.ReferenceIdeal.main_arg14).trans (Cert.ReferenceIdeal.Run.arg14_kept _),
      (h c Cert.ReferenceIdeal.main_arg15).trans (Cert.ReferenceIdeal.Run.arg15_kept _),
      (h c Cert.ReferenceIdeal.main_arg16).trans (Cert.ReferenceIdeal.Run.arg16_kept _),
      (h c Cert.ReferenceIdeal.main_arg17).trans (Cert.ReferenceIdeal.Run.arg17_kept _),
      (h c Cert.ReferenceIdeal.main_arg18).trans (Cert.ReferenceIdeal.Run.arg18_kept _),
      (h c Cert.ReferenceIdeal.main_arg19).trans (Cert.ReferenceIdeal.Run.arg19_kept _),
      (h c Cert.ReferenceIdeal.main_arg20).trans (Cert.ReferenceIdeal.Run.arg20_kept _)⟩)
    (Cert.ReferenceIdeal.Run.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
